-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S2x640000 : Shape := ⟨2, ![2, 640000]⟩
abbrev S640000 : Shape := ⟨1, ![640000]⟩
abbrev S100000x128 : Shape := ⟨2, ![100000, 128]⟩
abbrev S2x128x128 : Shape := ⟨3, ![2, 128, 128]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S160x1 : Shape := ⟨2, ![160, 1]⟩
abbrev S1 : Shape := ⟨1, ![1]⟩
abbrev S_ : Shape := ⟨0, ![]⟩
abbrev S1x640000 : Shape := ⟨2, ![1, 640000]⟩

class Facts : Prop where
  bcast_S_S640000 : S_.BroadcastsInDim S640000 (![] : Fin 0 → Fin S640000.rank)
  reducesTo_S640000_S_d0 : S640000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S160x1 : S_.BroadcastsInDim S160x1 (![] : Fin 0 → Fin S160x1.rank)
  reducesTo_S160x1_S_d0_1 : S160x1.ReducesTo [0, 1] S_
  bcast_S_S1 : S_.BroadcastsInDim S1 (![] : Fin 0 → Fin S1.rank)
  reducesTo_S1_S_d0 : S1.ReducesTo [0] S_
  slices_S2x640000_S1x640000_0_0 : S2x640000.Slices ![0, 0] S1x640000
  shapeCasts_S1x640000_S640000 : S1x640000.ShapeCasts S640000
  bcast_S_S16384 : S_.BroadcastsInDim S16384 (![] : Fin 0 → Fin S16384.rank)
  reducesTo_S16384_S_d0 : S16384.ReducesTo [0] S_

variable [Facts]

def fn_part7 {F : FTy → Type} [FloatOps F] (main_v113 : IVec S_ 1) (main_v119 : IVec S_ 1) : IVec S_ 1 :=
  let main_v120 : IVec S_ 1 := andi main_v113 main_v119
  main_v120

def fn_part6 {F : FTy → Type} [FloatOps F] (main_arg0 : IVec S16384 32) (main_arg1 : IVec S16384 32) (main_arg3 : IVec S640000 32) (main_v99 : IVec S_ 1) (main_v101 : IVec S640000 1) (main_v102 : IVec S640000 32) : IVec S_ 1 :=
  let main_v103 : IVec S640000 1 := cmpi .slt main_arg3 main_v102
  let main_v104 : IVec S640000 1 := andi main_v101 main_v103
  let main_c_39 : IVec S_ 1 := constantI S_ 1 1#1
  let main_v105 : IVec S_ 1 := (fun x v => Host.reduce IntOp.andi x v reducesTo_S640000_S_d0 h_S_) main_v104 main_c_39
  let main_v106 : IVec S_ 1 := andi main_v99 main_v105
  let main_c_40 : IVec S_ 32 := constantI S_ 32 0#32
  let main_v107 : IVec S16384 32 := broadcastInDim S16384 ![] bcast_S_S16384 main_c_40
  let main_v108 : IVec S16384 1 := cmpi .sge main_arg0 main_v107
  let main_c_41 : IVec S_ 32 := constantI S_ 32 100000#32
  let main_v109 : IVec S16384 32 := broadcastInDim S16384 ![] bcast_S_S16384 main_c_41
  let main_v110 : IVec S16384 1 := cmpi .slt main_arg0 main_v109
  let main_v111 : IVec S16384 1 := andi main_v108 main_v110
  let main_c_42 : IVec S_ 1 := constantI S_ 1 1#1
  let main_v112 : IVec S_ 1 := (fun x v => Host.reduce IntOp.andi x v reducesTo_S16384_S_d0 h_S_) main_v111 main_c_42
  let main_v113 : IVec S_ 1 := andi main_v106 main_v112
  let main_c_43 : IVec S_ 32 := constantI S_ 32 0#32
  let main_v114 : IVec S16384 32 := broadcastInDim S16384 ![] bcast_S_S16384 main_c_43
  let main_v115 : IVec S16384 1 := cmpi .sge main_arg1 main_v114
  let main_c_44 : IVec S_ 32 := constantI S_ 32 100000#32
  let main_v116 : IVec S16384 32 := broadcastInDim S16384 ![] bcast_S_S16384 main_c_44
  let main_v117 : IVec S16384 1 := cmpi .slt main_arg1 main_v116
  let main_v118 : IVec S16384 1 := andi main_v115 main_v117
  let main_c_45 : IVec S_ 1 := constantI S_ 1 1#1
  let main_v119 : IVec S_ 1 := (fun x v => Host.reduce IntOp.andi x v reducesTo_S16384_S_d0 h_S_) main_v118 main_c_45
  fn_part7 (F := F) main_v113 main_v119

def fn_part5 {F : FTy → Type} [FloatOps F] (main_arg0 : IVec S16384 32) (main_arg1 : IVec S16384 32) (main_arg2 : IVec S2x640000 32) (main_arg3 : IVec S640000 32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : IVec S1x640000 32 := (extractStridedSlice S1x640000 ![0, 0] · slices_S2x640000_S1x640000_0_0) main_arg2
  let main_v90 : IVec S640000 32 := shapeCast S640000 main_v89 shapeCasts_S1x640000_S640000
  let main_c_34 : IVec S_ 32 := constantI S_ 32 0#32
  let main_v91 : IVec S640000 32 := broadcastInDim S640000 ![] bcast_S_S640000 main_c_34
  let main_v92 : IVec S640000 1 := cmpi .sge main_v90 main_v91
  let main_v93 : IVec S1x640000 32 := (extractStridedSlice S1x640000 ![0, 0] · slices_S2x640000_S1x640000_0_0) main_arg2
  let main_v94 : IVec S640000 32 := shapeCast S640000 main_v93 shapeCasts_S1x640000_S640000
  let main_c_35 : IVec S_ 32 := constantI S_ 32 100000#32
  let main_v95 : IVec S640000 32 := broadcastInDim S640000 ![] bcast_S_S640000 main_c_35
  let main_v96 : IVec S640000 1 := cmpi .slt main_v94 main_v95
  let main_v97 : IVec S640000 1 := andi main_v92 main_v96
  let main_c_36 : IVec S_ 1 := constantI S_ 1 1#1
  let main_v98 : IVec S_ 1 := (fun x v => Host.reduce IntOp.andi x v reducesTo_S640000_S_d0 h_S_) main_v97 main_c_36
  let main_v99 : IVec S_ 1 := andi main_v88 main_v98
  let main_c_37 : IVec S_ 32 := constantI S_ 32 0#32
  let main_v100 : IVec S640000 32 := broadcastInDim S640000 ![] bcast_S_S640000 main_c_37
  let main_v101 : IVec S640000 1 := cmpi .sge main_arg3 main_v100
  let main_c_38 : IVec S_ 32 := constantI S_ 32 2#32
  let main_v102 : IVec S640000 32 := broadcastInDim S640000 ![] bcast_S_S640000 main_c_38
  fn_part6 (F := F) main_arg0 main_arg1 main_arg3 main_v99 main_v101 main_v102

def fn_part4 {F : FTy → Type} [FloatOps F] (main_arg0 : IVec S16384 32) (main_arg1 : IVec S16384 32) (main_arg2 : IVec S2x640000 32) (main_arg3 : IVec S640000 32) (main_arg18 : FVec F S64x32 .f32) (main_arg19 : FVec F S32 .f32) (main_arg20 : FVec F S160x1 .f32) (main_arg21 : FVec F S1 .f32) (main_v63 : IVec S_ 1) (main_v67 : IVec S_ 1) : IVec S_ 1 :=
  let main_v68 : IVec S_ 1 := andi main_v63 main_v67
  let main_v69 : FVec F S64x32 .f32 := Host.absf main_arg18
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg19
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S160x1 .f32 := Host.absf main_arg20
  let main_cst_30 : FVec F S_ .f32 := constant S_ .f32 0x7F800000#32
  let main_v80 : FVec F S160x1 .f32 := broadcastInDim S160x1 ![] bcast_S_S160x1 main_cst_30
  let main_v81 : IVec S160x1 1 := cmpf .olt main_v79 main_v80
  let main_c_31 : IVec S_ 1 := constantI S_ 1 1#1
  let main_v82 : IVec S_ 1 := (fun x v => Host.reduce IntOp.andi x v reducesTo_S160x1_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_arg0 main_arg1 main_arg2 main_arg3 main_v83 main_v84 main_cst_32

def fn_part3 {F : FTy → Type} [FloatOps F] (main_arg0 : IVec S16384 32) (main_arg1 : IVec S16384 32) (main_arg2 : IVec S2x640000 32) (main_arg3 : IVec S640000 32) (main_arg15 : FVec F S128 .f32) (main_arg16 : FVec F S128x64 .f32) (main_arg17 : FVec F S64 .f32) (main_arg18 : FVec F S64x32 .f32) (main_arg19 : FVec F S32 .f32) (main_arg20 : FVec F S160x1 .f32) (main_arg21 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg16
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg1 main_arg2 main_arg3 main_arg18 main_arg19 main_arg20 main_arg21 main_v63 main_v67

def fn_part2 {F : FTy → Type} [FloatOps F] (main_arg0 : IVec S16384 32) (main_arg1 : IVec S16384 32) (main_arg2 : IVec S2x640000 32) (main_arg3 : IVec S640000 32) (main_arg11 : FVec F S2x128x128 .f32) (main_arg12 : FVec F S128x128 .f32) (main_arg13 : FVec F S128 .f32) (main_arg14 : FVec F S256x128 .f32) (main_arg15 : FVec F S128 .f32) (main_arg16 : FVec F S128x64 .f32) (main_arg17 : FVec F S64 .f32) (main_arg18 : FVec F S64x32 .f32) (main_arg19 : FVec F S32 .f32) (main_arg20 : FVec F S160x1 .f32) (main_arg21 : FVec F S1 .f32) (main_v33 : IVec S_ 1) : IVec S_ 1 :=
  let main_v34 : FVec F S2x128x128 .f32 := Host.absf main_arg11
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg14
  let main_cst_18 : FVec F S_ .f32 := constant S_ .f32 0x7F800000#32
  let main_v50 : FVec F S256x128 .f32 := broadcastInDim S256x128 ![] bcast_S_S256x128 main_cst_18
  fn_part3 (F := F) main_arg0 main_arg1 main_arg2 main_arg3 main_arg15 main_arg16 main_arg17 main_arg18 main_arg19 main_arg20 main_arg21 main_v48 main_v49 main_v50

def fn_part1 {F : FTy → Type} [FloatOps F] (main_arg0 : IVec S16384 32) (main_arg1 : IVec S16384 32) (main_arg2 : IVec S2x640000 32) (main_arg3 : IVec S640000 32) (main_arg8 : FVec F S128 .f32) (main_arg9 : FVec F S128 .f32) (main_arg10 : FVec F S128 .f32) (main_arg11 : FVec F S2x128x128 .f32) (main_arg12 : FVec F S128x128 .f32) (main_arg13 : FVec F S128 .f32) (main_arg14 : FVec F S256x128 .f32) (main_arg15 : FVec F S128 .f32) (main_arg16 : FVec F S128x64 .f32) (main_arg17 : FVec F S64 .f32) (main_arg18 : FVec F S64x32 .f32) (main_arg19 : FVec F S32 .f32) (main_arg20 : FVec F S160x1 .f32) (main_arg21 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg2 main_arg3 main_arg11 main_arg12 main_arg13 main_arg14 main_arg15 main_arg16 main_arg17 main_arg18 main_arg19 main_arg20 main_arg21 main_v33

def fn {F : FTy → Type} [FloatOps F] (main_arg0 : IVec S16384 32) (main_arg1 : IVec S16384 32) (main_arg2 : IVec S2x640000 32) (main_arg3 : IVec S640000 32) (main_arg4 : FVec F S640000 .f32) (main_arg5 : FVec F S100000x128 .f32) (main_arg6 : FVec F S2x128x128 .f32) (main_arg7 : FVec F S128x128 .f32) (main_arg8 : FVec F S128 .f32) (main_arg9 : FVec F S128 .f32) (main_arg10 : FVec F S128 .f32) (main_arg11 : FVec F S2x128x128 .f32) (main_arg12 : FVec F S128x128 .f32) (main_arg13 : FVec F S128 .f32) (main_arg14 : FVec F S256x128 .f32) (main_arg15 : FVec F S128 .f32) (main_arg16 : FVec F S128x64 .f32) (main_arg17 : FVec F S64 .f32) (main_arg18 : FVec F S64x32 .f32) (main_arg19 : FVec F S32 .f32) (main_arg20 : FVec F S160x1 .f32) (main_arg21 : FVec F S1 .f32) : IVec S_ 1 :=
  let main_v0 : FVec F S640000 .f32 := Host.absf main_arg4
  let main_cst : FVec F S_ .f32 := constant S_ .f32 0x7F800000#32
  let main_v1 : FVec F S640000 .f32 := broadcastInDim S640000 ![] bcast_S_S640000 main_cst
  let main_v2 : IVec S640000 1 := cmpf .olt main_v0 main_v1
  let main_c : IVec S_ 1 := constantI S_ 1 1#1
  let main_v3 : IVec S_ 1 := (fun x v => Host.reduce IntOp.andi x v reducesTo_S640000_S_d0 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S2x128x128 .f32 := Host.absf main_arg6
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S128x128 .f32 := Host.absf main_arg7
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg2 main_arg3 main_arg8 main_arg9 main_arg10 main_arg11 main_arg12 main_arg13 main_arg14 main_arg15 main_arg16 main_arg17 main_arg18 main_arg19 main_arg20 main_arg21 main_v13 main_v16
-- ==== Kernel.lean ====
abbrev S16384 : Shape := ⟨1, ![16384]⟩
abbrev S2x640000 : Shape := ⟨2, ![2, 640000]⟩
abbrev S640000 : Shape := ⟨1, ![640000]⟩
abbrev S100000x128 : Shape := ⟨2, ![100000, 128]⟩
abbrev S2x128x128 : Shape := ⟨3, ![2, 128, 128]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S160x1 : Shape := ⟨2, ![160, 1]⟩
abbrev S1 : Shape := ⟨1, ![1]⟩
abbrev S1x640000 : Shape := ⟨2, ![1, 640000]⟩
abbrev S1x128x128 : Shape := ⟨3, ![1, 128, 128]⟩
abbrev S2x100000x128 : Shape := ⟨3, ![2, 100000, 128]⟩
abbrev S5000x128 : Shape := ⟨2, ![5000, 128]⟩
abbrev S2x5000x128 : Shape := ⟨3, ![2, 5000, 128]⟩
abbrev S1x5000x128 : Shape := ⟨3, ![1, 5000, 128]⟩
abbrev S200000x128 : Shape := ⟨2, ![200000, 128]⟩
abbrev S_ : Shape := ⟨0, ![]⟩
abbrev S640000x1 : Shape := ⟨2, ![640000, 1]⟩
abbrev S1x1 : Shape := ⟨2, ![1, 1]⟩
abbrev S640000x128 : Shape := ⟨2, ![640000, 128]⟩
abbrev S1x128 : Shape := ⟨2, ![1, 128]⟩
abbrev S5000 : Shape := ⟨1, ![5000]⟩
abbrev S5000x1 : Shape := ⟨2, ![5000, 1]⟩
abbrev S16384x1 : Shape := ⟨2, ![16384, 1]⟩
abbrev S16384x128 : Shape := ⟨2, ![16384, 128]⟩
abbrev S1x64 : Shape := ⟨2, ![1, 64]⟩
abbrev S1x32 : Shape := ⟨2, ![1, 32]⟩
abbrev S2048x128 : Shape := ⟨2, ![2048, 128]⟩
abbrev S2048x1 : Shape := ⟨2, ![2048, 1]⟩
abbrev S2048 : Shape := ⟨1, ![2048]⟩
abbrev S2048x256 : Shape := ⟨2, ![2048, 256]⟩
abbrev S2048x64 : Shape := ⟨2, ![2048, 64]⟩
abbrev S2048x32 : Shape := ⟨2, ![2048, 32]⟩
abbrev S2048x160 : Shape := ⟨2, ![2048, 160]⟩

abbrev nBuf : Space → Nat
  | .hbm => 166
  | .vmem => 48
  | .smem => 0
  | _ => 0

abbrev hbmTy0_0 (i : Nat) : BufTy := match i % 128 with
  | 0 => ⟨S16384, .i32⟩
  | 1 => ⟨S16384, .i32⟩
  | 2 => ⟨S2x640000, .i32⟩
  | 3 => ⟨S640000, .i32⟩
  | 4 => ⟨S640000, .f32⟩
  | 5 => ⟨S100000x128, .f32⟩
  | 6 => ⟨S2x128x128, .f32⟩
  | 7 => ⟨S128x128, .f32⟩
  | 8 => ⟨S128, .f32⟩
  | 9 => ⟨S128, .f32⟩
  | 10 => ⟨S128, .f32⟩
  | 11 => ⟨S2x128x128, .f32⟩
  | 12 => ⟨S128x128, .f32⟩
  | 13 => ⟨S128, .f32⟩
  | 14 => ⟨S256x128, .f32⟩
  | 15 => ⟨S128, .f32⟩
  | 16 => ⟨S128x64, .f32⟩
  | 17 => ⟨S64, .f32⟩
  | 18 => ⟨S64x32, .f32⟩
  | 19 => ⟨S32, .f32⟩
  | 20 => ⟨S160x1, .f32⟩
  | 21 => ⟨S1, .f32⟩
  | 22 => ⟨S1x640000, .i32⟩
  | 23 => ⟨S640000, .i32⟩
  | 24 => ⟨S1x640000, .i32⟩
  | 25 => ⟨S640000, .i32⟩
  | 26 => ⟨S1x128x128, .f32⟩
  | 27 => ⟨S128x128, .f32⟩
  | 28 => ⟨S1x128x128, .f32⟩
  | 29 => ⟨S128x128, .f32⟩
  | 30 => ⟨S2x100000x128, .f32⟩
  | 31 => ⟨S100000x128, .f32⟩
  | 32 => ⟨S200000x128, .f32⟩
  | 33 => ⟨S_, .i32⟩
  | 34 => ⟨S640000, .i32⟩
  | 35 => ⟨S640000, .i32⟩
  | 36 => ⟨S640000, .i32⟩
  | 37 => ⟨S_, .i32⟩
  | 38 => ⟨S640000, .i32⟩
  | 39 => ⟨S640000, .i1⟩
  | 40 => ⟨S_, .i32⟩
  | 41 => ⟨S640000, .i32⟩
  | 42 => ⟨S640000, .i32⟩
  | 43 => ⟨S640000, .i32⟩
  | 44 => ⟨S640000x1, .i32⟩
  | 45 => ⟨S1, .i32⟩
  | 46 => ⟨S_, .i32⟩
  | 47 => ⟨S640000x1, .i32⟩
  | 48 => ⟨S640000x1, .i1⟩
  | 49 => ⟨S1x1, .i32⟩
  | 50 => ⟨S640000x1, .i32⟩
  | 51 => ⟨S640000x1, .i1⟩
  | 52 => ⟨S640000x1, .i1⟩
  | 53 => ⟨S_, .i1⟩
  | 54 => ⟨S640000, .i1⟩
  | 55 => ⟨S640000x128, .f32⟩
  | 56 => ⟨S640000x128, .i1⟩
  | 57 => ⟨S_, .f32⟩
  | 58 => ⟨S640000x128, .f32⟩
  | 59 => ⟨S640000x128, .f32⟩
  | 60 => ⟨S640000x1, .f32⟩
  | 61 => ⟨S640000x128, .f32⟩
  | 62 => ⟨S640000x128, .f32⟩
  | 63 => ⟨S_, .f32⟩
  | 64 => ⟨S100000x128, .f32⟩
  | 65 => ⟨S640000x1, .i32⟩
  | 66 => ⟨S100000x128, .f32⟩
  | 67 => ⟨S1x128, .f32⟩
  | 68 => ⟨S1x128, .f32⟩
  | 69 => ⟨S1x128, .f32⟩
  | 70 => ⟨S100000x128, .f32⟩
  | 71 => ⟨S1x128x128, .f32⟩
  | 72 => ⟨S128x128, .f32⟩
  | 73 => ⟨S1x128x128, .f32⟩
  | 74 => ⟨S128x128, .f32⟩
  | 75 => ⟨S2x100000x128, .f32⟩
  | 76 => ⟨S100000x128, .f32⟩
  | 77 => ⟨S200000x128, .f32⟩
  | 78 => ⟨S_, .i32⟩
  | 79 => ⟨S640000, .i32⟩
  | 80 => ⟨S640000, .i32⟩
  | 81 => ⟨S640000, .i32⟩
  | 82 => ⟨S_, .i32⟩
  | 83 => ⟨S640000, .i32⟩
  | 84 => ⟨S640000, .i1⟩
  | 85 => ⟨S_, .i32⟩
  | 86 => ⟨S640000, .i32⟩
  | 87 => ⟨S640000, .i32⟩
  | 88 => ⟨S640000, .i32⟩
  | 89 => ⟨S640000x1, .i32⟩
  | 90 => ⟨S1, .i32⟩
  | 91 => ⟨S_, .i32⟩
  | 92 => ⟨S640000x1, .i32⟩
  | 93 => ⟨S640000x1, .i1⟩
  | 94 => ⟨S1x1, .i32⟩
  | 95 => ⟨S640000x1, .i32⟩
  | 96 => ⟨S640000x1, .i1⟩
  | 97 => ⟨S640000x1, .i1⟩
  | 98 => ⟨S_, .i1⟩
  | 99 => ⟨S640000, .i1⟩
  | 100 => ⟨S640000x128, .f32⟩
  | 101 => ⟨S640000x128, .i1⟩
  | 102 => ⟨S_, .f32⟩
  | 103 => ⟨S640000x128, .f32⟩
  | 104 => ⟨S640000x128, .f32⟩
  | 105 => ⟨S640000x1, .f32⟩
  | 106 => ⟨S640000x128, .f32⟩
  | 107 => ⟨S640000x128, .f32⟩
  | 108 => ⟨S_, .f32⟩
  | 109 => ⟨S100000x128, .f32⟩
  | 110 => ⟨S640000x1, .i32⟩
  | 111 => ⟨S100000x128, .f32⟩
  | 112 => ⟨S1x128, .f32⟩
  | 113 => ⟨S100000x128, .f32⟩
  | 114 => ⟨S_, .i32⟩
  | 115 => ⟨S16384, .i32⟩
  | 116 => ⟨S16384, .i1⟩
  | 117 => ⟨S_, .i32⟩
  | 118 => ⟨S16384, .i32⟩
  | 119 => ⟨S16384, .i32⟩
  | 120 => ⟨S16384, .i32⟩
  | 121 => ⟨S16384x1, .i32⟩
  | 122 => ⟨S1, .i32⟩
  | 123 => ⟨S_, .i32⟩
  | 124 => ⟨S16384x1, .i32⟩
  | 125 => ⟨S16384x1, .i1⟩
  | 126 => ⟨S1x1, .i32⟩
  | 127 => ⟨S16384x1, .i32⟩
  | _ => ⟨S16384, .i32⟩

abbrev hbmTy0_1 (i : Nat) : BufTy := match i % 128 with
  | 0 => ⟨S16384x1, .i1⟩
  | 1 => ⟨S16384x1, .i1⟩
  | 2 => ⟨S_, .i1⟩
  | 3 => ⟨S16384, .i1⟩
  | 4 => ⟨S16384x128, .f32⟩
  | 5 => ⟨S16384x128, .i1⟩
  | 6 => ⟨S_, .f32⟩
  | 7 => ⟨S16384x128, .f32⟩
  | 8 => ⟨S16384x128, .f32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S1, .i32⟩
  | 18 => ⟨S_, .i32⟩
  | 19 => ⟨S16384x1, .i32⟩
  | 20 => ⟨S16384x1, .i1⟩
  | 21 => ⟨S1x1, .i32⟩
  | 22 => ⟨S16384x1, .i32⟩
  | 23 => ⟨S16384x1, .i1⟩
  | 24 => ⟨S16384x1, .i1⟩
  | 25 => ⟨S_, .i1⟩
  | 26 => ⟨S16384, .i1⟩
  | 27 => ⟨S16384x128, .f32⟩
  | 28 => ⟨S16384x128, .i1⟩
  | 29 => ⟨S_, .f32⟩
  | 30 => ⟨S16384x128, .f32⟩
  | 31 => ⟨S16384x128, .f32⟩
  | 32 => ⟨S1x128, .f32⟩
  | 33 => ⟨S1x64, .f32⟩
  | 34 => ⟨S1x32, .f32⟩
  | 35 => ⟨S1x1, .f32⟩
  | 36 => ⟨S16384x1, .f32⟩
  | 37 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S2x5000x128, .f32⟩
  | .local _ .vmem, ⟨6, _⟩ => ⟨S2x5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S2x5000x128, .f32⟩
  | .local _ .vmem, ⟨24, _⟩ => ⟨S2x5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | .local _ .vmem, ⟨37, _⟩ => ⟨S2048x128, .f32⟩
  | .local _ .vmem, ⟨38, _⟩ => ⟨S256x128, .f32⟩
  | .local _ .vmem, ⟨39, _⟩ => ⟨S1x128, .f32⟩
  | .local _ .vmem, ⟨40, _⟩ => ⟨S128x64, .f32⟩
  | .local _ .vmem, ⟨41, _⟩ => ⟨S1x64, .f32⟩
  | .local _ .vmem, ⟨42, _⟩ => ⟨S64x32, .f32⟩
  | .local _ .vmem, ⟨43, _⟩ => ⟨S1x32, .f32⟩
  | .local _ .vmem, ⟨44, _⟩ => ⟨S160x1, .f32⟩
  | .local _ .vmem, ⟨45, _⟩ => ⟨S1x1, .f32⟩
  | .local _ .vmem, ⟨46, _⟩ => ⟨S2048x1, .f32⟩
  | .local _ .vmem, ⟨47, _⟩ => ⟨S2048x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8_0 : Ref sig .tc := ⟨.hbm, 30, rfl⟩
abbrev main_v8_1 : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call0_c : Ref sig .tc := ⟨.hbm, 37, rfl⟩
abbrev main_call0_v0 : Ref sig .tc := ⟨.hbm, 38, rfl⟩
abbrev main_call0_v1 : Ref sig .tc := ⟨.hbm, 39, rfl⟩
abbrev main_call0_c_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_c_1 : Ref sig .tc := ⟨.hbm, 45, rfl⟩
abbrev main_call0_c_2 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_3 : Ref sig .tc := ⟨.hbm, 53, rfl⟩
abbrev main_call0_v12 : Ref sig .tc := ⟨.hbm, 54, rfl⟩
abbrev main_call0_v13 : Ref sig .tc := ⟨.hbm, 55, rfl⟩
abbrev main_call0_v14 : Ref sig .tc := ⟨.hbm, 56, rfl⟩
abbrev main_call0_cst : Ref sig .tc := ⟨.hbm, 57, rfl⟩
abbrev main_call0_v15 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_cst : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28_0 : Ref sig .tc := ⟨.hbm, 75, rfl⟩
abbrev main_v28_1 : Ref sig .tc := ⟨.hbm, 76, rfl⟩
abbrev main_v29 : Ref sig .tc := ⟨.hbm, 77, rfl⟩
abbrev main_c_0 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_cst_1 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_v14 : Ref sig .tc := ⟨.hbm, 133, rfl⟩
abbrev main_call2_cst : Ref sig .tc := ⟨.hbm, 134, rfl⟩
abbrev main_call2_v15 : Ref sig .tc := ⟨.hbm, 135, rfl⟩
abbrev main_v42 : Ref sig .tc := ⟨.hbm, 136, rfl⟩
abbrev main_call3_c : Ref sig .tc := ⟨.hbm, 137, rfl⟩
abbrev main_call3_v0 : Ref sig .tc := ⟨.hbm, 138, rfl⟩
abbrev main_call3_v1 : Ref sig .tc := ⟨.hbm, 139, rfl⟩
abbrev main_call3_c_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_c_1 : Ref sig .tc := ⟨.hbm, 145, rfl⟩
abbrev main_call3_c_2 : Ref sig .tc := ⟨.hbm, 146, rfl⟩
abbrev main_call3_v6 : Ref sig .tc := ⟨.hbm, 147, rfl⟩
abbrev main_call3_v7 : Ref sig .tc := ⟨.hbm, 148, rfl⟩
abbrev main_call3_v8 : Ref sig .tc := ⟨.hbm, 149, rfl⟩
abbrev main_call3_v9 : Ref sig .tc := ⟨.hbm, 150, rfl⟩
abbrev main_call3_v10 : Ref sig .tc := ⟨.hbm, 151, rfl⟩
abbrev main_call3_v11 : Ref sig .tc := ⟨.hbm, 152, rfl⟩
abbrev main_call3_c_3 : Ref sig .tc := ⟨.hbm, 153, rfl⟩
abbrev main_call3_v12 : Ref sig .tc := ⟨.hbm, 154, rfl⟩
abbrev main_call3_v13 : Ref sig .tc := ⟨.hbm, 155, rfl⟩
abbrev main_call3_v14 : Ref sig .tc := ⟨.hbm, 156, rfl⟩
abbrev main_call3_cst : Ref sig .tc := ⟨.hbm, 157, rfl⟩
abbrev main_call3_v15 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg10_0 : Ref sig .tc := ⟨.vmem, 46, rfl⟩
abbrev cc4_stg10_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem8_0 : DmaSem sig := 44
abbrev cc4_sem9_0 : DmaSem sig := 45
abbrev cc4_sem10_0 : DmaSem sig := 46
abbrev cc4_sem10_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2x5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S64x32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x32 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S160x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S2048x1 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2x5000x128_S1x5000x128_0_0_0 : ∀ a, (![0, 0, 0] : Fin 3 → Nat) a + S1x5000x128.size a ≤ S2x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  inb_S2x5000x128_S1x5000x128_1_0_0 : ∀ a, (![1, 0, 0] : Fin 3 → Nat) a + S1x5000x128.size a ≤ S2x5000x128.size a
  shapeCasts_S2x100000x128_S200000x128 : S2x100000x128.ShapeCasts S200000x128
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x128_0 : S16384.BroadcastsInDim S16384x128 (![0] : Fin 1 → Fin S16384x128.rank)
  bcast_S_S16384x128 : S_.BroadcastsInDim S16384x128 (![] : Fin 0 → Fin S16384x128.rank)
  shapeCasts_S64_S1x64 : S64.ShapeCasts S1x64
  shapeCasts_S32_S1x32 : S32.ShapeCasts S1x32
  shapeCasts_S1_S1x1 : S1.ShapeCasts S1x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  concatenates_S2048x128_S2048x128_S2048x256_d1 : Shape.Concatenates [S2048x128, S2048x128] S2048x256 1
  inb_S256x128_S256x128_0_0 : ∀ a, (![0, 0] : Fin 2 → Nat) a + S256x128.size a ≤ S256x128.size a
  h_S256x128 : 0 < S256x128.numel
  broadcasts_S1x128_S2048x128 : S1x128.Broadcasts S2048x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  concatenates_S2048x128_S2048x32_S2048x160_d1 : Shape.Concatenates [S2048x128, S2048x32] S2048x160 1
  inb_S160x1_S160x1_0_0 : ∀ a, (![0, 0] : Fin 2 → Nat) a + S160x1.size a ≤ S160x1.size a
  h_S160x1 : 0 < S160x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  dot_S5000x128_S128x128_S5000x128_1_0_0_1_n_n_wf : DotDims.WF S5000x128 S128x128 S5000x128 [1] [0] [0] [1] [] []
  gather_S200000x128_S640000x1_S640000x128_1_0_n_n_0_1_1128_wf : GatherDims.WF S200000x128 S640000x1 S640000x128 [1] [0] [] [0] [] 1 ![1, 128]
  scatter_S100000x128_S640000x1_S640000x128_1_0_0_1_wf : ScatterDims.WF S100000x128 S640000x1 S640000x128 [1] [0] [0] 1
  gather_S100000x128_S16384x1_S16384x128_1_0_n_n_0_1_1128_wf : GatherDims.WF S100000x128 S16384x1 S16384x128 [1] [0] [] [0] [] 1 ![1, 128]
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  dot_S2048x64_S64x32_S2048x32_1_0_0_1_n_n_wf : DotDims.WF S2048x64 S64x32 S2048x32 [1] [0] [0] [1] [] []
  dot_S2048x160_S160x1_S2048x1_1_0_0_1_n_n_wf : DotDims.WF S2048x160 S160x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x5000x128.size a ≤ S2x100000x128.size a
  hwx0_4 : ∀ i : grid0.Coords, EltTy.bits .f32 = 32 ∨ (Rect.block (s := S2x100000x128) S2x5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2x5000x128.size a ≤ S2x100000x128.size a
  hwx2_4 : ∀ i : grid2.Coords, EltTy.bits .f32 = 32 ∨ (Rect.block (s := S2x100000x128) S2x5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S16384x128.size a
  hwx4_0 : ∀ i : grid4.Coords, EltTy.bits .f32 = 32 ∨ (Rect.block (s := S16384x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S16384x128.size a
  hwx4_1 : ∀ i : grid4.Coords, EltTy.bits .f32 = 32 ∨ (Rect.block (s := S16384x128) S2048x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S64x32.size a ≤ S64x32.size a
  hwx4_6 : ∀ i : grid4.Coords, EltTy.bits .f32 = 32 ∨ (Rect.block (s := S64x32) S64x32.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x32.size a ≤ S1x32.size a
  hwx4_7 : ∀ i : grid4.Coords, EltTy.bits .f32 = 32 ∨ (Rect.block (s := S1x32) S1x32.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S160x1.size a ≤ S160x1.size a
  hwx4_8 : ∀ i : grid4.Coords, EltTy.bits .f32 = 32 ∨ (Rect.block (s := S160x1) S160x1.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x1.size a ≤ S1x1.size a
  hwx4_9 : ∀ i : grid4.Coords, EltTy.bits .f32 = 32 ∨ (Rect.block (s := S1x1) S1x1.size (cc4_transform_9 i) (hinb4_9 i)).WholeWords (EltTy.packing .f32)
  hstage4_10 : ∀ j, (stage4_10 j).IsWhole
  nbuf4_10 : grid4.bufCount reads4_10 false = 2
  hreads4_10 : ∀ i i' : grid4.Coords, (∀ a, reads4_10 a = true → i a = i' a) → cc4_transform_10 i = cc4_transform_10 i'
  hinb4_10 : ∀ (i : grid4.Coords) a, (cc4_transform_10 i a + 1) * S2048x1.size a ≤ S16384x1.size a
  hwx4_10 : ∀ i : grid4.Coords, EltTy.bits .f32 = 32 ∨ (Rect.block (s := S16384x1) S2048x1.size (cc4_transform_10 i) (hinb4_10 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S200000x128_S640000x1_S640000x128_1_0_n_n_0_1_1128 : GatherDims S200000x128 S640000x1 S640000x128 where
  offsetDims := [1]
  collapsedSliceDims := [0]
  operandBatchingDims := []
  startIndicesBatchingDims := []
  startIndexMap := [0]
  indexVectorDim := 1
  sliceSizes := ![1, 128]
  wf := gather_S200000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x160_S160x1_S2048x1_1_0_0_1_n_n : DotDims S2048x160 S160x1 S2048x1 where
  lhsContracting := [1]
  rhsContracting := [0]
  lhsNonContracting := [0]
  rhsNonContracting := [1]
  lhsBatch := []
  rhsBatch := []
  wf := dot_S2048x160_S160x1_S2048x1_1_0_0_1_n_n_wf

abbrev win0_0 : Pipeline.Window sig grid0 :=
  Pipeline.Window.ofSpec (Memref.whole main_arg5) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S2x5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28_0) S2x5000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v28_1) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v39) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v40) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v41) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v42) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v43) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v45) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg18) S64x32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v46) S1x32.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_arg20) S160x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v47) S1x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v48) S2048x1.size cc4_transform_10 reads4_10 true false 2 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

class Facts : Prop extends Facts₀ where

variable [Facts]
-- ==== ReferenceIdeal.lean ====
abbrev S16384 : Shape := ⟨1, ![16384]⟩
abbrev S2x640000 : Shape := ⟨2, ![2, 640000]⟩
abbrev S640000 : Shape := ⟨1, ![640000]⟩
abbrev S100000x128 : Shape := ⟨2, ![100000, 128]⟩
abbrev S2x128x128 : Shape := ⟨3, ![2, 128, 128]⟩
abbrev S128x128 : Shape := ⟨2, ![128, 128]⟩
abbrev S128 : Shape := ⟨1, ![128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S160x1 : Shape := ⟨2, ![160, 1]⟩
abbrev S1 : Shape := ⟨1, ![1]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S1x128 : Shape := ⟨2, ![1, 128]⟩
abbrev S100000 : Shape := ⟨1, ![100000]⟩
abbrev S100000x1 : Shape := ⟨2, ![100000, 1]⟩
abbrev S16384x1 : Shape := ⟨2, ![16384, 1]⟩
abbrev S16384x128 : Shape := ⟨2, ![16384, 128]⟩
abbrev S16384x256 : Shape := ⟨2, ![16384, 256]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S16384x160 : Shape := ⟨2, ![16384, 160]⟩
abbrev S1x1 : Shape := ⟨2, ![1, 1]⟩

abbrev nBuf : Space → Nat
  | .hbm => 235
  | .vmem => 0
  | .smem => 0
  | _ => 0

abbrev hbmTy0_0 (i : Nat) : BufTy := match i % 128 with
  | 0 => ⟨S16384, .i32⟩
  | 1 => ⟨S16384, .i32⟩
  | 2 => ⟨S2x640000, .i32⟩
  | 3 => ⟨S640000, .i32⟩
  | 4 => ⟨S640000, .f32⟩
  | 5 => ⟨S100000x128, .f32⟩
  | 6 => ⟨S2x128x128, .f32⟩
  | 7 => ⟨S128x128, .f32⟩
  | 8 => ⟨S128, .f32⟩
  | 9 => ⟨S128, .f32⟩
  | 10 => ⟨S128, .f32⟩
  | 11 => ⟨S2x128x128, .f32⟩
  | 12 => ⟨S128x128, .f32⟩
  | 13 => ⟨S128, .f32⟩
  | 14 => ⟨S256x128, .f32⟩
  | 15 => ⟨S128, .f32⟩
  | 16 => ⟨S128x64, .f32⟩
  | 17 => ⟨S64, .f32⟩
  | 18 => ⟨S64x32, .f32⟩
  | 19 => ⟨S32, .f32⟩
  | 20 => ⟨S160x1, .f32⟩
  | 21 => ⟨S1, .f32⟩
  | 22 => ⟨S1x640000, .i32⟩
  | 23 => ⟨S640000, .i32⟩
  | 24 => ⟨S1x640000, .i32⟩
  | 25 => ⟨S640000, .i32⟩
  | 26 => ⟨S_, .i32⟩
  | 27 => ⟨S640000, .i32⟩
  | 28 => ⟨S640000, .i1⟩
  | 29 => ⟨S_, .i32⟩
  | 30 => ⟨S640000, .i32⟩
  | 31 => ⟨S640000, .i32⟩
  | 32 => ⟨S640000, .i32⟩
  | 33 => ⟨S640000x1, .i32⟩
  | 34 => ⟨S640000x128, .f32⟩
  | 35 => ⟨S_, .f32⟩
  | 36 => ⟨S640000x128, .f32⟩
  | 37 => ⟨S_, .i32⟩
  | 38 => ⟨S640000, .i32⟩
  | 39 => ⟨S640000, .i1⟩
  | 40 => ⟨S640000x1, .i1⟩
  | 41 => ⟨S1x128x128, .f32⟩
  | 42 => ⟨S128x128, .f32⟩
  | 43 => ⟨S640000x128, .f32⟩
  | 44 => ⟨S_, .f32⟩
  | 45 => ⟨S_, .f32⟩
  | 46 => ⟨S640000x128, .i1⟩
  | 47 => ⟨S640000x128, .f32⟩
  | 48 => ⟨S640000x128, .f32⟩
  | 49 => ⟨S640000x128, .f32⟩
  | 50 => ⟨S_, .i32⟩
  | 51 => ⟨S640000, .i32⟩
  | 52 => ⟨S640000, .i1⟩
  | 53 => ⟨S640000x1, .i1⟩
  | 54 => ⟨S1x128x128, .f32⟩
  | 55 => ⟨S128x128, .f32⟩
  | 56 => ⟨S640000x128, .f32⟩
  | 57 => ⟨S_, .f32⟩
  | 58 => ⟨S_, .f32⟩
  | 59 => ⟨S640000x128, .i1⟩
  | 60 => ⟨S640000x128, .f32⟩
  | 61 => ⟨S640000x128, .f32⟩
  | 62 => ⟨S640000x128, .f32⟩
  | 63 => ⟨S640000x1, .f32⟩
  | 64 => ⟨S640000x128, .f32⟩
  | 65 => ⟨S640000x128, .f32⟩
  | 66 => ⟨S_, .f32⟩
  | 67 => ⟨S100000x128, .f32⟩
  | 68 => ⟨S640000x1, .i32⟩
  | 69 => ⟨S100000x128, .f32⟩
  | 70 => ⟨S100000x128, .f32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S_, .f32⟩
  | 79 => ⟨S100000, .f32⟩
  | 80 => ⟨S100000x1, .f32⟩
  | 81 => ⟨S_, .f32⟩
  | 82 => ⟨S100000x1, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000, .f32⟩
  | 89 => ⟨S100000x1, .f32⟩
  | 90 => ⟨S_, .f32⟩
  | 91 => ⟨S100000x1, .f32⟩
  | 92 => ⟨S100000x1, .f32⟩
  | 93 => ⟨S100000x128, .f32⟩
  | 94 => ⟨S100000x128, .f32⟩
  | 95 => ⟨S_, .f32⟩
  | 96 => ⟨S100000x1, .f32⟩
  | 97 => ⟨S100000x1, .f32⟩
  | 98 => ⟨S100000x1, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S1x640000, .i32⟩
  | 108 => ⟨S640000, .i32⟩
  | 109 => ⟨S1x640000, .i32⟩
  | 110 => ⟨S640000, .i32⟩
  | 111 => ⟨S_, .i32⟩
  | 112 => ⟨S640000, .i32⟩
  | 113 => ⟨S640000, .i1⟩
  | 114 => ⟨S_, .i32⟩
  | 115 => ⟨S640000, .i32⟩
  | 116 => ⟨S640000, .i32⟩
  | 117 => ⟨S640000, .i32⟩
  | 118 => ⟨S640000x1, .i32⟩
  | 119 => ⟨S640000x128, .f32⟩
  | 120 => ⟨S_, .f32⟩
  | 121 => ⟨S640000x128, .f32⟩
  | 122 => ⟨S_, .i32⟩
  | 123 => ⟨S640000, .i32⟩
  | 124 => ⟨S640000, .i1⟩
  | 125 => ⟨S640000x1, .i1⟩
  | 126 => ⟨S1x128x128, .f32⟩
  | 127 => ⟨S128x128, .f32⟩
  | _ => ⟨S16384, .i32⟩

abbrev hbmTy0_1 (i : Nat) : BufTy := match i % 128 with
  | 0 => ⟨S640000x128, .f32⟩
  | 1 => ⟨S_, .f32⟩
  | 2 => ⟨S_, .f32⟩
  | 3 => ⟨S640000x128, .i1⟩
  | 4 => ⟨S640000x128, .f32⟩
  | 5 => ⟨S640000x128, .f32⟩
  | 6 => ⟨S640000x128, .f32⟩
  | 7 => ⟨S_, .i32⟩
  | 8 => ⟨S640000, .i32⟩
  | 9 => ⟨S640000, .i1⟩
  | 10 => ⟨S640000x1, .i1⟩
  | 11 => ⟨S1x128x128, .f32⟩
  | 12 => ⟨S128x128, .f32⟩
  | 13 => ⟨S640000x128, .f32⟩
  | 14 => ⟨S_, .f32⟩
  | 15 => ⟨S_, .f32⟩
  | 16 => ⟨S640000x128, .i1⟩
  | 17 => ⟨S640000x128, .f32⟩
  | 18 => ⟨S640000x128, .f32⟩
  | 19 => ⟨S640000x128, .f32⟩
  | 20 => ⟨S640000x1, .f32⟩
  | 21 => ⟨S640000x128, .f32⟩
  | 22 => ⟨S640000x128, .f32⟩
  | 23 => ⟨S_, .f32⟩
  | 24 => ⟨S100000x128, .f32⟩
  | 25 => ⟨S640000x1, .i32⟩
  | 26 => ⟨S100000x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .i32⟩
  | 33 => ⟨S16384, .i32⟩
  | 34 => ⟨S16384, .i1⟩
  | 35 => ⟨S_, .i32⟩
  | 36 => ⟨S16384, .i32⟩
  | 37 => ⟨S16384, .i32⟩
  | 38 => ⟨S16384, .i32⟩
  | 39 => ⟨S16384x1, .i32⟩
  | 40 => ⟨S16384x128, .f32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S16384x128, .f32⟩
  | 50 => ⟨S16384x128, .f32⟩
  | 51 => ⟨S_, .f32⟩
  | 52 => ⟨S16384, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S16384x128, .f32⟩
  | 59 => ⟨S16384x128, .f32⟩
  | 60 => ⟨S16384x128, .f32⟩
  | 61 => ⟨S_, .f32⟩
  | 62 => ⟨S16384, .f32⟩
  | 63 => ⟨S16384x1, .f32⟩
  | 64 => ⟨S16384x1, .f32⟩
  | 65 => ⟨S_, .f32⟩
  | 66 => ⟨S16384x1, .f32⟩
  | 67 => ⟨S16384x1, .f32⟩
  | 68 => ⟨S16384x128, .f32⟩
  | 69 => ⟨S16384x128, .f32⟩
  | 70 => ⟨S16384x128, .f32⟩
  | 71 => ⟨S16384x256, .f32⟩
  | 72 => ⟨S16384x128, .f32⟩
  | 73 => ⟨S1x128, .f32⟩
  | 74 => ⟨S16384x128, .f32⟩
  | 75 => ⟨S16384x128, .f32⟩
  | 76 => ⟨S_, .f32⟩
  | 77 => ⟨S16384x128, .f32⟩
  | 78 => ⟨S16384x128, .f32⟩
  | 79 => ⟨S16384x64, .f32⟩
  | 80 => ⟨S1x64, .f32⟩
  | 81 => ⟨S16384x64, .f32⟩
  | 82 => ⟨S16384x64, .f32⟩
  | 83 => ⟨S_, .f32⟩
  | 84 => ⟨S16384x64, .f32⟩
  | 85 => ⟨S16384x64, .f32⟩
  | 86 => ⟨S16384x32, .f32⟩
  | 87 => ⟨S1x32, .f32⟩
  | 88 => ⟨S16384x32, .f32⟩
  | 89 => ⟨S16384x32, .f32⟩
  | 90 => ⟨S_, .f32⟩
  | 91 => ⟨S16384x32, .f32⟩
  | 92 => ⟨S16384x32, .f32⟩
  | 93 => ⟨S16384x160, .f32⟩
  | 94 => ⟨S16384x1, .f32⟩
  | 95 => ⟨S1x1, .f32⟩
  | 96 => ⟨S16384x1, .f32⟩
  | 97 => ⟨S16384x1, .f32⟩
  | 98 => ⟨S16384x1, .f32⟩
  | 99 => ⟨S16384x1, .f32⟩
  | 100 => ⟨S_, .f32⟩
  | 101 => ⟨S16384x1, .f32⟩
  | 102 => ⟨S16384x1, .f32⟩
  | 103 => ⟨S_, .f32⟩
  | 104 => ⟨S16384x1, .f32⟩
  | 105 => ⟨S16384x1, .f32⟩
  | 106 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v18 : Ref sig .tc := ⟨.hbm, 48, rfl⟩
abbrev main_v19 : Ref sig .tc := ⟨.hbm, 49, rfl⟩
abbrev main_c_3 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_cst_5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_call2_cst : Ref sig .tc := ⟨.hbm, 75, rfl⟩
abbrev main_call2_v0 : Ref sig .tc := ⟨.hbm, 76, rfl⟩
abbrev main_v39 : Ref sig .tc := ⟨.hbm, 77, rfl⟩
abbrev main_cst_6 : Ref sig .tc := ⟨.hbm, 78, rfl⟩
abbrev main_v40 : Ref sig .tc := ⟨.hbm, 79, rfl⟩
abbrev main_v41 : Ref sig .tc := ⟨.hbm, 80, rfl⟩
abbrev main_cst_7 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_8 : Ref sig .tc := ⟨.hbm, 87, rfl⟩
abbrev main_v47 : Ref sig .tc := ⟨.hbm, 88, rfl⟩
abbrev main_v48 : Ref sig .tc := ⟨.hbm, 89, rfl⟩
abbrev main_cst_9 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_10 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_11 : Ref sig .tc := ⟨.hbm, 111, rfl⟩
abbrev main_v68 : Ref sig .tc := ⟨.hbm, 112, rfl⟩
abbrev main_v69 : Ref sig .tc := ⟨.hbm, 113, rfl⟩
abbrev main_c_12 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_13 : Ref sig .tc := ⟨.hbm, 120, rfl⟩
abbrev main_v75 : Ref sig .tc := ⟨.hbm, 121, rfl⟩
abbrev main_c_14 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_cst_15 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v82 : Ref sig .tc := ⟨.hbm, 133, rfl⟩
abbrev main_v83 : Ref sig .tc := ⟨.hbm, 134, rfl⟩
abbrev main_c_16 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_cst_17 : Ref sig .tc := ⟨.hbm, 142, rfl⟩
abbrev main_call4_v0 : Ref sig .tc := ⟨.hbm, 143, rfl⟩
abbrev main_call4_v1 : Ref sig .tc := ⟨.hbm, 144, rfl⟩
abbrev main_call4_v2 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_18 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_19 : Ref sig .tc := ⟨.hbm, 160, rfl⟩
abbrev main_v103 : Ref sig .tc := ⟨.hbm, 161, rfl⟩
abbrev main_v104 : Ref sig .tc := ⟨.hbm, 162, rfl⟩
abbrev main_c_20 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_c_21 : Ref sig .tc := ⟨.hbm, 169, rfl⟩
abbrev main_v110 : Ref sig .tc := ⟨.hbm, 170, rfl⟩
abbrev main_v111 : Ref sig .tc := ⟨.hbm, 171, rfl⟩
abbrev main_c_22 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_cst_23 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_24 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_cst_25 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_cst_26 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_call5_cst : Ref sig .tc := ⟨.hbm, 204, rfl⟩
abbrev main_call5_v0 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_call6_cst : Ref sig .tc := ⟨.hbm, 211, rfl⟩
abbrev main_call6_v0 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_call7_cst : Ref sig .tc := ⟨.hbm, 218, rfl⟩
abbrev main_call7_v0 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_cst_27 : Ref sig .tc := ⟨.hbm, 228, rfl⟩
abbrev main_v157 : Ref sig .tc := ⟨.hbm, 229, rfl⟩
abbrev main_v158 : Ref sig .tc := ⟨.hbm, 230, rfl⟩
abbrev main_cst_28 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x128 : S_.BroadcastsInDim S640000x128 (![] : Fin 0 → Fin S640000x128.rank)
  slices_S2x128x128_S1x128x128_0_0_0 : S2x128x128.Slices ![0, 0, 0] S1x128x128
  shapeCasts_S1x128x128_S128x128 : S1x128x128.ShapeCasts S128x128
  bcast_S640000x1_S640000x128_0_1 : S640000x1.BroadcastsInDim S640000x128 (![0, 1] : Fin 2 → Fin S640000x128.rank)
  slices_S2x128x128_S1x128x128_1_0_0 : S2x128x128.Slices ![1, 0, 0] S1x128x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x128_S16384_d1 : S16384x128.ReducesTo [1] S16384
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  concatenates_S16384x128_S16384x128_S16384x256_d1 : Shape.Concatenates [S16384x128, S16384x128] S16384x256 1
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x128_S16384x32_S16384x160_d1 : Shape.Concatenates [S16384x128, S16384x32] S16384x160 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  gather_S100000x128_S640000x1_S640000x128_1_0_n_n_0_1_1128_wf : GatherDims.WF S100000x128 S640000x1 S640000x128 [1] [0] [] [0] [] 1 ![1, 128]
  dot_S640000x128_S128x128_S640000x128_1_0_0_1_n_n_wf : DotDims.WF S640000x128 S128x128 S640000x128 [1] [0] [0] [1] [] []
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  gather_S100000x128_S16384x1_S16384x128_1_0_n_n_0_1_1128_wf : GatherDims.WF S100000x128 S16384x1 S16384x128 [1] [0] [] [0] [] 1 ![1, 128]
  dot_S16384x256_S256x128_S16384x128_1_0_0_1_n_n_wf : DotDims.WF S16384x256 S256x128 S16384x128 [1] [0] [0] [1] [] []
  dot_S16384x128_S128x64_S16384x64_1_0_0_1_n_n_wf : DotDims.WF S16384x128 S128x64 S16384x64 [1] [0] [0] [1] [] []
  dot_S16384x64_S64x32_S16384x32_1_0_0_1_n_n_wf : DotDims.WF S16384x64 S64x32 S16384x32 [1] [0] [0] [1] [] []
  dot_S16384x160_S160x1_S16384x1_1_0_0_1_n_n_wf : DotDims.WF S16384x160 S160x1 S16384x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S16384x1_S16384x128_1_0_n_n_0_1_1128 : GatherDims S100000x128 S16384x1 S16384x128 where
  offsetDims := [1]
  collapsedSliceDims := [0]
  operandBatchingDims := []
  startIndicesBatchingDims := []
  startIndexMap := [0]
  indexVectorDim := 1
  sliceSizes := ![1, 128]
  wf := gather_S100000x128_S16384x1_S16384x128_1_0_n_n_0_1_1128_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x160_S160x1_S16384x1_1_0_0_1_n_n : DotDims S16384x160 S160x1 S16384x1 where
  lhsContracting := [1]
  rhsContracting := [0]
  lhsNonContracting := [0]
  rhsNonContracting := [1]
  lhsBatch := []
  rhsBatch := []
  wf := dot_S16384x160_S160x1_S16384x1_1_0_0_1_n_n_wf

class Facts : Prop extends Facts₀ where

variable [Facts]
-- ==== Proof.RefRunH.lean ====
/-
  The reference's run, stated by its stages. @main is a straight line of 213 host operations; run in order from the
  launch contents they leave every buffer at a fold of the operations' results. The line is cut into nine stretches. For
  each stretch, from ANY contents Z before it: a buffer the stretch does not write keeps its contents, and each buffer a
  later stretch reads holds its stage's value of the arguments as soon as the buffers the stretch reads hold theirs.
  Chained over the nine stretches: the result buffer ends at the last stage's value of the arguments' launch contents,
  and the arguments, which no operation writes, end as they started.
-/
import proofs.«408798_j72559177499383_1_alg».proof.Proof.RefOpsP
import proofs.«408798_j72559177499383_1_alg».proof.Proof.RefStagesP
import Idealize.ShloMosaic.Lib.StableHlo.Run
import Idealize.ShloMosaic.Lib.Pipeline.Frame

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-! ## The nine stretches, each with the buffers it writes -/

/-- The first stretch of @main's operations: the source and destination rows of the edge list, the gathered source rows,
    the first relation's masked product added onto zero. -/
abbrev c1 : List (HloOp τ sig (Elt F)) :=
  [ unary main_arg2 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg2 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v1 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 100000#32),
    unary main_c_0 main_v6 (broadcastInDim S640000 ![] bcast_S_S640000 : (⟨S_, .i32⟩ : BufTy).Contents (Elt F) → (⟨S640000, .i32⟩ : BufTy).Contents (Elt F)),
    binary main_v1 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v1 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg5 main_v9 main_v10 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst (constant S_ .f32 0x00000000#32),
    unary main_cst main_v11 (broadcastInDim S640000x128 ![] bcast_S_S640000x128 : (⟨S_, .f32⟩ : BufTy).Contents (Elt F) → (⟨S640000x128, .f32⟩ : BufTy).Contents (Elt F)),
    nullary main_c_1 (constantI S_ 32 0#32),
    unary main_c_1 main_v12 (broadcastInDim S640000 ![] bcast_S_S640000 : (⟨S_, .i32⟩ : BufTy).Contents (Elt F) → (⟨S640000, .i32⟩ : BufTy).Contents (Elt F)),
    binary main_arg3 main_v12 main_v13 (cmpi .eq : (⟨S640000, .i32⟩ : BufTy).Contents (Elt F) → (⟨S640000, .i32⟩ : BufTy).Contents (Elt F) → (⟨S640000, .i1⟩ : BufTy).Contents (Elt F)),
    unary main_v13 main_v14 (broadcastInDim S640000x1 ![0] bcast_S640000_S640000x1_0 : (⟨S640000, .i1⟩ : BufTy).Contents (Elt F) → (⟨S640000x1, .i1⟩ : BufTy).Contents (Elt F)),
    unary main_arg6 main_v15 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v15 main_v16 rfl shapeCasts_S1x128x128_S128x128,
    binary main_v10 main_v16 main_v17 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S640000x1, .i1⟩) main_v14) (TRef.of (T := ⟨S640000x128, .i1⟩) main_call0_v1) (broadcastInDim S640000x128 ![0, 1] bcast_S640000x1_S640000x128_0_1),
    TRef.unary (TRef.of (T := ⟨S_, .f32⟩) main_call0_v0) (TRef.of (T := ⟨S640000x128, .f32⟩) main_call0_v2) (broadcastInDim S640000x128 ![] bcast_S_S640000x128),
    TRef.ternary (TRef.of (T := ⟨S640000x128, .i1⟩) main_call0_v1) (TRef.of (T := ⟨S640000x128, .f32⟩) main_v17) (TRef.of (T := ⟨S640000x128, .f32⟩) main_call0_v2) (TRef.of (T := ⟨S640000x128, .f32⟩) main_v18) select,
    binary main_v11 main_v18 main_v19 (addf : (⟨S640000x128, .f32⟩ : BufTy).Contents (Elt F) → (⟨S640000x128, .f32⟩ : BufTy).Contents (Elt F) → (⟨S640000x128, .f32⟩ : BufTy).Contents (Elt F)) ]

/-- The buffers stretch 1 writes. -/
abbrev c1_W : List (Ref sig .tc) := [main_v0, main_v1, main_v2, main_v3, main_c, main_v4, main_v5, main_c_0, main_v6, main_v7, main_v8, main_v9, main_v10, main_cst, main_v11, main_c_1, main_v12, main_v13, main_v14, main_v15, main_v16, main_v17, main_cst_2, main_call0_v0, main_call0_v1, main_call0_v2, main_v18, main_v19]

theorem c1_writes : (c1 : List (HloOp τ sig (Elt F))).Forall fun op =>
    op.writes ⊆ (c1_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 1 does not write keeps its contents through it. -/
theorem c1_keep (Z : Valuation τ sig (Elt F)) (r : Ref sig .tc) (h : r ∉ c1_W) :
    after c1 Z (Proc.devRef .tc r) = Z (Proc.devRef .tc r) :=
  after_of_writes_sub c1 Z c1_writes h

/-- Every operation of stretch 1 determines its results. -/
theorem c1_fresh : ∀ op ∈ (c1 : List (HloOp τ sig (Elt F))), op.fresh = ∅ := by
  intro _ h
  repeat (cases h with | head => rfl | tail _ h => ?_)
  exact nomatch h

/-- After stretch 1 the destination row of the edge list is its stage's value. -/
theorem c1_v3 (Z : Valuation τ sig (Elt F)) (x2 : (⟨S2x640000, .i32⟩ : BufTy).Contents (Elt F)) (a2 : Z (Proc.devRef .tc main_arg2) = x2) :
    after c1 Z (Proc.devRef .tc main_v3) = Read.val_main_v3 (F := F) x2 := by
  subst a2
  simp only [c1]
  after_results_simp
  rfl

/-- After stretch 1 the gathered source rows are their stage's value. -/
theorem c1_v10 (Z : Valuation τ sig (Elt F)) (x2 : (⟨S2x640000, .i32⟩ : BufTy).Contents (Elt F)) (x5 : (⟨S100000x128, .f32⟩ : BufTy).Contents (Elt F))
    (a2 : Z (Proc.devRef .tc main_arg2) = x2) (a5 : Z (Proc.devRef .tc main_arg5) = x5) :
    after c1 Z (Proc.devRef .tc main_v10) = Read.val_main_v10 (F := F) x2 x5 := by
  subst a2 a5
  simp only [c1]
  after_results_simp
  rfl

set_option maxRecDepth 1000000 in
/-- After stretch 1 the first masked product added onto zero is its stage's value. -/
theorem c1_v19 (Z : Valuation τ sig (Elt F)) (x2 : (⟨S2x640000, .i32⟩ : BufTy).Contents (Elt F)) (x3 : (⟨S640000, .i32⟩ : BufTy).Contents (Elt F)) (x5 : (⟨S100000x128, .f32⟩ : BufTy).Contents (Elt F)) (x6 : (⟨S2x128x128, .f32⟩ : BufTy).Contents (Elt F))
    (a2 : Z (Proc.devRef .tc main_arg2) = x2) (a3 : Z (Proc.devRef .tc main_arg3) = x3) (a5 : Z (Proc.devRef .tc main_arg5) = x5)
    (a6 : Z (Proc.devRef .tc main_arg6) = x6) :
    after c1 Z (Proc.devRef .tc main_v19) = Read.val_main_v19 (F := F) x2 x3 x5 x6 := by
  subst a2 a3 a5 a6
  simp only [c1]
  after_results_simp <;> (try simp only [TRef.ofBuf, TRef.toBuf, cast_eq])
  rfl

/-- The second stretch: the second relation's masked product added on, the sum scaled by the edge weights and added into
    the destination nodes. -/
abbrev c2 : List (HloOp τ sig (Elt F)) :=
  [ nullary main_c_3 (constantI S_ 32 1#32),
    unary main_c_3 main_v20 (broadcastInDim S640000 ![] bcast_S_S640000 : (⟨S_, .i32⟩ : BufTy).Contents (Elt F) → (⟨S640000, .i32⟩ : BufTy).Contents (Elt F)),
    binary main_arg3 main_v20 main_v21 (cmpi .eq : (⟨S640000, .i32⟩ : BufTy).Contents (Elt F) → (⟨S640000, .i32⟩ : BufTy).Contents (Elt F) → (⟨S640000, .i1⟩ : BufTy).Contents (Elt F)),
    unary main_v21 main_v22 (broadcastInDim S640000x1 ![0] bcast_S640000_S640000x1_0 : (⟨S640000, .i1⟩ : BufTy).Contents (Elt F) → (⟨S640000x1, .i1⟩ : BufTy).Contents (Elt F)),
    unary main_arg6 main_v23 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v23 main_v24 rfl shapeCasts_S1x128x128_S128x128,
    binary main_v10 main_v24 main_v25 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S640000x1, .i1⟩) main_v22) (TRef.of (T := ⟨S640000x128, .i1⟩) main_call1_v1) (broadcastInDim S640000x128 ![0, 1] bcast_S640000x1_S640000x128_0_1),
    TRef.unary (TRef.of (T := ⟨S_, .f32⟩) main_call1_v0) (TRef.of (T := ⟨S640000x128, .f32⟩) main_call1_v2) (broadcastInDim S640000x128 ![] bcast_S_S640000x128),
    TRef.ternary (TRef.of (T := ⟨S640000x128, .i1⟩) main_call1_v1) (TRef.of (T := ⟨S640000x128, .f32⟩) main_v25) (TRef.of (T := ⟨S640000x128, .f32⟩) main_call1_v2) (TRef.of (T := ⟨S640000x128, .f32⟩) main_v26) select,
    binary main_v19 main_v26 main_v27 (addf : (⟨S640000x128, .f32⟩ : BufTy).Contents (Elt F) → (⟨S640000x128, .f32⟩ : BufTy).Contents (Elt F) → (⟨S640000x128, .f32⟩ : BufTy).Contents (Elt F)),
    unary main_arg4 main_v28 (broadcastInDim S640000x1 ![0] bcast_S640000_S640000x1_0 : (⟨S640000, .f32⟩ : BufTy).Contents (Elt F) → (⟨S640000x1, .f32⟩ : BufTy).Contents (Elt F)),
    unary main_v28 main_v29 (broadcastInDim S640000x128 ![0, 1] bcast_S640000x1_S640000x128_0_1 : (⟨S640000x1, .f32⟩ : BufTy).Contents (Elt F) → (⟨S640000x128, .f32⟩ : BufTy).Contents (Elt F)),
    binary main_v27 main_v29 main_v30 (mulf : (⟨S640000x128, .f32⟩ : BufTy).Contents (Elt F) → (⟨S640000x128, .f32⟩ : BufTy).Contents (Elt F) → (⟨S640000x128, .f32⟩ : BufTy).Contents (Elt F)),
    nullary main_cst_5 (constant S_ .f32 0x00000000#32),
    unary main_cst_5 main_v31 (broadcastInDim S100000x128 ![] bcast_S_S100000x128 : (⟨S_, .f32⟩ : BufTy).Contents (Elt F) → (⟨S100000x128, .f32⟩ : BufTy).Contents (Elt F)),
    unary main_v3 main_v32 (broadcastInDim S640000x1 ![0] bcast_S640000_S640000x1_0 : (⟨S640000, .i32⟩ : BufTy).Contents (Elt F) → (⟨S640000x1, .i32⟩ : BufTy).Contents (Elt F)),
    ternary main_v31 main_v32 main_v30 main_v33 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)) ]

/-- The buffers stretch 2 writes. -/
abbrev c2_W : List (Ref sig .tc) := [main_c_3, main_v20, main_v21, main_v22, main_v23, main_v24, main_v25, main_cst_4, main_call1_v0, main_call1_v1, main_call1_v2, main_v26, main_v27, main_v28, main_v29, main_v30, main_cst_5, main_v31, main_v32, main_v33]

theorem c2_writes : (c2 : List (HloOp τ sig (Elt F))).Forall fun op =>
    op.writes ⊆ (c2_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 2 does not write keeps its contents through it. -/
theorem c2_keep (Z : Valuation τ sig (Elt F)) (r : Ref sig .tc) (h : r ∉ c2_W) :
    after c2 Z (Proc.devRef .tc r) = Z (Proc.devRef .tc r) :=
  after_of_writes_sub c2 Z c2_writes h

/-- Every operation of stretch 2 determines its results. -/
theorem c2_fresh : ∀ op ∈ (c2 : List (HloOp τ sig (Elt F))), op.fresh = ∅ := by
  intro _ h
  repeat (cases h with | head => rfl | tail _ h => ?_)
  exact nomatch h

set_option maxRecDepth 1000000 in
/-- After stretch 2 the first layer's aggregated messages are their stage's value, once the three buffers stretch 2
    takes over from stretch 1 hold theirs. -/
theorem c2_v33 (Z : Valuation τ sig (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F))
    (a3 : Z (Proc.devRef .tc main_arg3) = x3) (a4 : Z (Proc.devRef .tc main_arg4) = x4) (a6 : Z (Proc.devRef .tc main_arg6) = x6)
    (h3 : Z (Proc.devRef .tc main_v3) = Read.val_main_v3 (F := F) x2)
    (h10 : Z (Proc.devRef .tc main_v10) = Read.val_main_v10 (F := F) x2 x5)
    (h19 : Z (Proc.devRef .tc main_v19) = Read.val_main_v19 (F := F) x2 x3 x5 x6) :
    after c2 Z (Proc.devRef .tc main_v33) = Read.val_main_v33 (F := F) x2 x3 x4 x5 x6 := by
  subst a3 a4 a6
  simp only [c2]
  after_results_simp <;> (try simp only [TRef.ofBuf, TRef.toBuf, cast_eq])
  rw [h3, h10, h19]
  rfl

/-- The third stretch: the root product, the bias, the maximum with zero and the layer normalisation: the first layer's
    output. -/
abbrev c3 : List (HloOp τ sig (Elt F)) :=
  [ binary main_arg5 main_arg7 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v33 main_v34 main_v35 (addf : (⟨S100000x128, .f32⟩ : BufTy).Contents (Elt F) → (⟨S100000x128, .f32⟩ : BufTy).Contents (Elt F) → (⟨S100000x128, .f32⟩ : BufTy).Contents (Elt F)),
    unary main_arg8 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v38) (TRef.of (T := ⟨S100000x128, .f32⟩) main_call2_v0) (TRef.of (T := ⟨S100000x128, .f32⟩) main_v39) maximumf,
    nullary main_cst_6 (constant S_ .f32 0x00000000#32),
    binary main_v39 main_cst_6 main_v40 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    nullary main_cst_7 (constant S_ .f32 0x43000000#32),
    unary main_cst_7 main_v42 (broadcastInDim S100000x1 ![] bcast_S_S100000x1 : (⟨S_, .f32⟩ : BufTy).Contents (Elt F) → (⟨S100000x1, .f32⟩ : BufTy).Contents (Elt F)),
    binary main_v41 main_v42 main_v43 (Host.divf : (⟨S100000x1, .f32⟩ : BufTy).Contents (Elt F) → (⟨S100000x1, .f32⟩ : BufTy).Contents (Elt F) → (⟨S100000x1, .f32⟩ : BufTy).Contents (Elt F)),
    unary main_v43 main_v44 (broadcastInDim S100000x128 ![0, 1] bcast_S100000x1_S100000x128_0_1 : (⟨S100000x1, .f32⟩ : BufTy).Contents (Elt F) → (⟨S100000x128, .f32⟩ : BufTy).Contents (Elt F)),
    binary main_v39 main_v44 main_v45 (subf : (⟨S100000x128, .f32⟩ : BufTy).Contents (Elt F) → (⟨S100000x128, .f32⟩ : BufTy).Contents (Elt F) → (⟨S100000x128, .f32⟩ : BufTy).Contents (Elt F)),
    binary main_v45 main_v45 main_v46 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v46 main_cst_8 main_v47 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v47 main_v48 (broadcastInDim S100000x1 ![0] bcast_S100000_S100000x1_0 : (⟨S100000, .f32⟩ : BufTy).Contents (Elt F) → (⟨S100000x1, .f32⟩ : BufTy).Contents (Elt F)),
    nullary main_cst_9 (constant S_ .f32 0x43000000#32),
    unary main_cst_9 main_v49 (broadcastInDim S100000x1 ![] bcast_S_S100000x1 : (⟨S_, .f32⟩ : BufTy).Contents (Elt F) → (⟨S100000x1, .f32⟩ : BufTy).Contents (Elt F)),
    binary main_v48 main_v49 main_v50 (Host.divf : (⟨S100000x1, .f32⟩ : BufTy).Contents (Elt F) → (⟨S100000x1, .f32⟩ : BufTy).Contents (Elt F) → (⟨S100000x1, .f32⟩ : BufTy).Contents (Elt F)),
    unary main_v43 main_v51 (broadcastInDim S100000x128 ![0, 1] bcast_S100000x1_S100000x128_0_1 : (⟨S100000x1, .f32⟩ : BufTy).Contents (Elt F) → (⟨S100000x128, .f32⟩ : BufTy).Contents (Elt F)),
    binary main_v39 main_v51 main_v52 (subf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v53 (broadcastInDim S100000x1 ![] bcast_S_S100000x1 : (⟨S_, .f32⟩ : BufTy).Contents (Elt F) → (⟨S100000x1, .f32⟩ : BufTy).Contents (Elt F)),
    binary main_v50 main_v53 main_v54 (addf : (⟨S100000x1, .f32⟩ : BufTy).Contents (Elt F) → (⟨S100000x1, .f32⟩ : BufTy).Contents (Elt F) → (⟨S100000x1, .f32⟩ : BufTy).Contents (Elt F)),
    unary main_v54 main_v55 (Host.rsqrt : (⟨S100000x1, .f32⟩ : BufTy).Contents (Elt F) → (⟨S100000x1, .f32⟩ : BufTy).Contents (Elt F)),
    unary main_v55 main_v56 (broadcastInDim S100000x128 ![0, 1] bcast_S100000x1_S100000x128_0_1 : (⟨S100000x1, .f32⟩ : BufTy).Contents (Elt F) → (⟨S100000x128, .f32⟩ : BufTy).Contents (Elt F)),
    binary main_v52 main_v56 main_v57 (mulf : (⟨S100000x128, .f32⟩ : BufTy).Contents (Elt F) → (⟨S100000x128, .f32⟩ : BufTy).Contents (Elt F) → (⟨S100000x128, .f32⟩ : BufTy).Contents (Elt F)),
    unary main_arg9 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (mulf : (⟨S100000x128, .f32⟩ : BufTy).Contents (Elt F) → (⟨S100000x128, .f32⟩ : BufTy).Contents (Elt F) → (⟨S100000x128, .f32⟩ : BufTy).Contents (Elt F)),
    unary main_arg10 main_v61 (broadcastInDim S1x128 ![1] bcast_S128_S1x128_1 : (⟨S128, .f32⟩ : BufTy).Contents (Elt F) → (⟨S1x128, .f32⟩ : BufTy).Contents (Elt F)),
    unary main_v61 main_v62 (broadcastInDim S100000x128 ![0, 1] bcast_S1x128_S100000x128_0_1 : (⟨S1x128, .f32⟩ : BufTy).Contents (Elt F) → (⟨S100000x128, .f32⟩ : BufTy).Contents (Elt F)),
    binary main_v60 main_v62 main_v63 (addf : (⟨S100000x128, .f32⟩ : BufTy).Contents (Elt F) → (⟨S100000x128, .f32⟩ : BufTy).Contents (Elt F) → (⟨S100000x128, .f32⟩ : BufTy).Contents (Elt F)) ]

/-- The buffers stretch 3 writes. -/
abbrev c3_W : List (Ref sig .tc) := [main_v34, main_v35, main_v36, main_v37, main_v38, main_call2_cst, main_call2_v0, main_v39, main_cst_6, main_v40, main_v41, main_cst_7, main_v42, main_v43, main_v44, main_v45, main_v46, main_cst_8, main_v47, main_v48, main_cst_9, main_v49, main_v50, main_v51, main_v52, main_cst_10, main_v53, main_v54, main_v55, main_v56, main_v57, main_v58, main_v59, main_v60, main_v61, main_v62, main_v63]

theorem c3_writes : (c3 : List (HloOp τ sig (Elt F))).Forall fun op =>
    op.writes ⊆ (c3_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 3 does not write keeps its contents through it. -/
theorem c3_keep (Z : Valuation τ sig (Elt F)) (r : Ref sig .tc) (h : r ∉ c3_W) :
    after c3 Z (Proc.devRef .tc r) = Z (Proc.devRef .tc r) :=
  after_of_writes_sub c3 Z c3_writes h

/-- Every operation of stretch 3 determines its results. -/
theorem c3_fresh : ∀ op ∈ (c3 : List (HloOp τ sig (Elt F))), op.fresh = ∅ := by
  intro _ h
  repeat (cases h with | head => rfl | tail _ h => ?_)
  exact nomatch h

set_option maxRecDepth 1000000 in
/-- After stretch 3 the first layer's output is its stage's value, once the aggregated messages hold theirs. -/
theorem c3_v63 (Z : Valuation τ sig (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F))
    (a5 : Z (Proc.devRef .tc main_arg5) = x5) (a7 : Z (Proc.devRef .tc main_arg7) = x7) (a8 : Z (Proc.devRef .tc main_arg8) = x8)
    (a9 : Z (Proc.devRef .tc main_arg9) = x9) (a10 : Z (Proc.devRef .tc main_arg10) = x10)
    (h33 : Z (Proc.devRef .tc main_v33) = Read.val_main_v33 (F := F) x2 x3 x4 x5 x6) :
    after c3 Z (Proc.devRef .tc main_v63) = Read.val_main_v63 (F := F) x2 x3 x4 x5 x6 x7 x8 x9 x10 := by
  subst a5 a7 a8 a9 a10
  simp only [c3]
  after_results_simp <;> (try simp only [TRef.ofBuf, TRef.toBuf, cast_eq])
  rw [h33]
  rfl

/-- The fourth stretch: the edge list's rows again, the rows of the first layer's output gathered, the first relation's
    masked product of the second layer added onto zero. -/
abbrev c4 : List (HloOp τ sig (Elt F)) :=
  [ unary main_arg2 main_v64 ((extractStridedSlice S1x640000 ![0, 0] · slices_S2x640000_S1x640000_0_0) : (⟨S2x640000, .i32⟩ : BufTy).Contents (Elt F) → (⟨S1x640000, .i32⟩ : BufTy).Contents (Elt F)),
    reshape main_v64 main_v65 rfl shapeCasts_S1x640000_S640000,
    unary main_arg2 main_v66 ((extractStridedSlice S1x640000 ![1, 0] · slices_S2x640000_S1x640000_1_0) : (⟨S2x640000, .i32⟩ : BufTy).Contents (Elt F) → (⟨S1x640000, .i32⟩ : BufTy).Contents (Elt F)),
    reshape main_v66 main_v67 rfl shapeCasts_S1x640000_S640000,
    nullary main_c_11 (constantI S_ 32 0#32),
    unary main_c_11 main_v68 (broadcastInDim S640000 ![] bcast_S_S640000 : (⟨S_, .i32⟩ : BufTy).Contents (Elt F) → (⟨S640000, .i32⟩ : BufTy).Contents (Elt F)),
    binary main_v65 main_v68 main_v69 (cmpi .slt : (⟨S640000, .i32⟩ : BufTy).Contents (Elt F) → (⟨S640000, .i32⟩ : BufTy).Contents (Elt F) → (⟨S640000, .i1⟩ : BufTy).Contents (Elt F)),
    nullary main_c_12 (constantI S_ 32 100000#32),
    unary main_c_12 main_v70 (broadcastInDim S640000 ![] bcast_S_S640000 : (⟨S_, .i32⟩ : BufTy).Contents (Elt F) → (⟨S640000, .i32⟩ : BufTy).Contents (Elt F)),
    binary main_v65 main_v70 main_v71 (addi : (⟨S640000, .i32⟩ : BufTy).Contents (Elt F) → (⟨S640000, .i32⟩ : BufTy).Contents (Elt F) → (⟨S640000, .i32⟩ : BufTy).Contents (Elt F)),
    ternary main_v69 main_v71 main_v65 main_v72 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v72 main_v73 (broadcastInDim S640000x1 ![0] bcast_S640000_S640000x1_0 : (⟨S640000, .i32⟩ : BufTy).Contents (Elt F) → (⟨S640000x1, .i32⟩ : BufTy).Contents (Elt F)),
    binary main_v63 main_v73 main_v74 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    nullary main_cst_13 (constant S_ .f32 0x00000000#32),
    unary main_cst_13 main_v75 (broadcastInDim S640000x128 ![] bcast_S_S640000x128 : (⟨S_, .f32⟩ : BufTy).Contents (Elt F) → (⟨S640000x128, .f32⟩ : BufTy).Contents (Elt F)),
    nullary main_c_14 (constantI S_ 32 0#32),
    unary main_c_14 main_v76 (broadcastInDim S640000 ![] bcast_S_S640000 : (⟨S_, .i32⟩ : BufTy).Contents (Elt F) → (⟨S640000, .i32⟩ : BufTy).Contents (Elt F)),
    binary main_arg3 main_v76 main_v77 (cmpi .eq : (⟨S640000, .i32⟩ : BufTy).Contents (Elt F) → (⟨S640000, .i32⟩ : BufTy).Contents (Elt F) → (⟨S640000, .i1⟩ : BufTy).Contents (Elt F)),
    unary main_v77 main_v78 (broadcastInDim S640000x1 ![0] bcast_S640000_S640000x1_0 : (⟨S640000, .i1⟩ : BufTy).Contents (Elt F) → (⟨S640000x1, .i1⟩ : BufTy).Contents (Elt F)),
    unary main_arg11 main_v79 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v79 main_v80 rfl shapeCasts_S1x128x128_S128x128,
    binary main_v74 main_v80 main_v81 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    nullary main_cst_15 (constant S_ .f32 0x00000000#32),
    TRef.unary (TRef.of (T := ⟨S_, .f32⟩) main_cst_15) (TRef.of (T := ⟨S_, .f32⟩) main_call3_v0) id,
    TRef.unary (TRef.of (T := ⟨S640000x1, .i1⟩) main_v78) (TRef.of (T := ⟨S640000x128, .i1⟩) main_call3_v1) (broadcastInDim S640000x128 ![0, 1] bcast_S640000x1_S640000x128_0_1),
    TRef.unary (TRef.of (T := ⟨S_, .f32⟩) main_call3_v0) (TRef.of (T := ⟨S640000x128, .f32⟩) main_call3_v2) (broadcastInDim S640000x128 ![] bcast_S_S640000x128),
    TRef.ternary (TRef.of (T := ⟨S640000x128, .i1⟩) main_call3_v1) (TRef.of (T := ⟨S640000x128, .f32⟩) main_v81) (TRef.of (T := ⟨S640000x128, .f32⟩) main_call3_v2) (TRef.of (T := ⟨S640000x128, .f32⟩) main_v82) select,
    binary main_v75 main_v82 main_v83 (addf : (⟨S640000x128, .f32⟩ : BufTy).Contents (Elt F) → (⟨S640000x128, .f32⟩ : BufTy).Contents (Elt F) → (⟨S640000x128, .f32⟩ : BufTy).Contents (Elt F)) ]

/-- The buffers stretch 4 writes. -/
abbrev c4_W : List (Ref sig .tc) := [main_v64, main_v65, main_v66, main_v67, main_c_11, main_v68, main_v69, main_c_12, main_v70, main_v71, main_v72, main_v73, main_v74, main_cst_13, main_v75, main_c_14, main_v76, main_v77, main_v78, main_v79, main_v80, main_v81, main_cst_15, main_call3_v0, main_call3_v1, main_call3_v2, main_v82, main_v83]

theorem c4_writes : (c4 : List (HloOp τ sig (Elt F))).Forall fun op =>
    op.writes ⊆ (c4_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 4 does not write keeps its contents through it. -/
theorem c4_keep (Z : Valuation τ sig (Elt F)) (r : Ref sig .tc) (h : r ∉ c4_W) :
    after c4 Z (Proc.devRef .tc r) = Z (Proc.devRef .tc r) :=
  after_of_writes_sub c4 Z c4_writes h

/-- Every operation of stretch 4 determines its results. -/
theorem c4_fresh : ∀ op ∈ (c4 : List (HloOp τ sig (Elt F))), op.fresh = ∅ := by
  intro _ h
  repeat (cases h with | head => rfl | tail _ h => ?_)
  exact nomatch h

/-- After stretch 4 the destination row of the edge list, read again, is its stage's value. -/
theorem c4_v67 (Z : Valuation τ sig (Elt F)) (x2 : (⟨S2x640000, .i32⟩ : BufTy).Contents (Elt F)) (a2 : Z (Proc.devRef .tc main_arg2) = x2) :
    after c4 Z (Proc.devRef .tc main_v67) = Read.val_main_v67 (F := F) x2 := by
  subst a2
  simp only [c4]
  after_results_simp
  rfl

set_option maxRecDepth 1000000 in
/-- After stretch 4 the gathered rows of the first layer's output are their stage's value, once that output holds its. -/
theorem c4_v74 (Z : Valuation τ sig (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F))
    (a2 : Z (Proc.devRef .tc main_arg2) = x2)
    (h63 : Z (Proc.devRef .tc main_v63) = Read.val_main_v63 (F := F) x2 x3 x4 x5 x6 x7 x8 x9 x10) :
    after c4 Z (Proc.devRef .tc main_v74) = Read.val_main_v74 (F := F) x2 x3 x4 x5 x6 x7 x8 x9 x10 := by
  subst a2
  simp only [c4]
  after_results_simp <;> (try simp only [TRef.ofBuf, TRef.toBuf, cast_eq])
  rw [h63]
  rfl

set_option maxRecDepth 1000000 in
/-- After stretch 4 the second layer's first masked product added onto zero is its stage's value. -/
theorem c4_v83 (Z : Valuation τ sig (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S2x128x128, .f32⟩ : BufTy).Contents (Elt F))
    (a2 : Z (Proc.devRef .tc main_arg2) = x2) (a3 : Z (Proc.devRef .tc main_arg3) = x3) (a11 : Z (Proc.devRef .tc main_arg11) = x11)
    (h63 : Z (Proc.devRef .tc main_v63) = Read.val_main_v63 (F := F) x2 x3 x4 x5 x6 x7 x8 x9 x10) :
    after c4 Z (Proc.devRef .tc main_v83) = Read.val_main_v83 (F := F) x2 x3 x4 x5 x6 x7 x8 x9 x10 x11 := by
  subst a2 a3 a11
  simp only [c4]
  after_results_simp <;> (try simp only [TRef.ofBuf, TRef.toBuf, cast_eq])
  rw [h63]
  rfl

/-- The fifth stretch: the second relation's masked product, the weights, the sum into the destination nodes, the root
    product and the bias: the second layer's output. -/
abbrev c5 : List (HloOp τ sig (Elt F)) :=
  [ nullary main_c_16 (constantI S_ 32 1#32),
    unary main_c_16 main_v84 (broadcastInDim S640000 ![] bcast_S_S640000 : (⟨S_, .i32⟩ : BufTy).Contents (Elt F) → (⟨S640000, .i32⟩ : BufTy).Contents (Elt F)),
    binary main_arg3 main_v84 main_v85 (cmpi .eq : (⟨S640000, .i32⟩ : BufTy).Contents (Elt F) → (⟨S640000, .i32⟩ : BufTy).Contents (Elt F) → (⟨S640000, .i1⟩ : BufTy).Contents (Elt F)),
    unary main_v85 main_v86 (broadcastInDim S640000x1 ![0] bcast_S640000_S640000x1_0 : (⟨S640000, .i1⟩ : BufTy).Contents (Elt F) → (⟨S640000x1, .i1⟩ : BufTy).Contents (Elt F)),
    unary main_arg11 main_v87 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v87 main_v88 rfl shapeCasts_S1x128x128_S128x128,
    binary main_v74 main_v88 main_v89 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    nullary main_cst_17 (constant S_ .f32 0x00000000#32),
    TRef.unary (TRef.of (T := ⟨S_, .f32⟩) main_cst_17) (TRef.of (T := ⟨S_, .f32⟩) main_call4_v0) id,
    TRef.unary (TRef.of (T := ⟨S640000x1, .i1⟩) main_v86) (TRef.of (T := ⟨S640000x128, .i1⟩) main_call4_v1) (broadcastInDim S640000x128 ![0, 1] bcast_S640000x1_S640000x128_0_1),
    TRef.unary (TRef.of (T := ⟨S_, .f32⟩) main_call4_v0) (TRef.of (T := ⟨S640000x128, .f32⟩) main_call4_v2) (broadcastInDim S640000x128 ![] bcast_S_S640000x128),
    TRef.ternary (TRef.of (T := ⟨S640000x128, .i1⟩) main_call4_v1) (TRef.of (T := ⟨S640000x128, .f32⟩) main_v89) (TRef.of (T := ⟨S640000x128, .f32⟩) main_call4_v2) (TRef.of (T := ⟨S640000x128, .f32⟩) main_v90) select,
    binary main_v83 main_v90 main_v91 (addf : (⟨S640000x128, .f32⟩ : BufTy).Contents (Elt F) → (⟨S640000x128, .f32⟩ : BufTy).Contents (Elt F) → (⟨S640000x128, .f32⟩ : BufTy).Contents (Elt F)),
    unary main_arg4 main_v92 (broadcastInDim S640000x1 ![0] bcast_S640000_S640000x1_0 : (⟨S640000, .f32⟩ : BufTy).Contents (Elt F) → (⟨S640000x1, .f32⟩ : BufTy).Contents (Elt F)),
    unary main_v92 main_v93 (broadcastInDim S640000x128 ![0, 1] bcast_S640000x1_S640000x128_0_1 : (⟨S640000x1, .f32⟩ : BufTy).Contents (Elt F) → (⟨S640000x128, .f32⟩ : BufTy).Contents (Elt F)),
    binary main_v91 main_v93 main_v94 (mulf : (⟨S640000x128, .f32⟩ : BufTy).Contents (Elt F) → (⟨S640000x128, .f32⟩ : BufTy).Contents (Elt F) → (⟨S640000x128, .f32⟩ : BufTy).Contents (Elt F)),
    nullary main_cst_18 (constant S_ .f32 0x00000000#32),
    unary main_cst_18 main_v95 (broadcastInDim S100000x128 ![] bcast_S_S100000x128 : (⟨S_, .f32⟩ : BufTy).Contents (Elt F) → (⟨S100000x128, .f32⟩ : BufTy).Contents (Elt F)),
    unary main_v67 main_v96 (broadcastInDim S640000x1 ![0] bcast_S640000_S640000x1_0 : (⟨S640000, .i32⟩ : BufTy).Contents (Elt F) → (⟨S640000x1, .i32⟩ : BufTy).Contents (Elt F)),
    ternary main_v95 main_v96 main_v94 main_v97 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)),
    binary main_v63 main_arg12 main_v98 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v97 main_v98 main_v99 (addf : (⟨S100000x128, .f32⟩ : BufTy).Contents (Elt F) → (⟨S100000x128, .f32⟩ : BufTy).Contents (Elt F) → (⟨S100000x128, .f32⟩ : BufTy).Contents (Elt F)),
    unary main_arg13 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v99 main_v101 main_v102 (addf : (⟨S100000x128, .f32⟩ : BufTy).Contents (Elt F) → (⟨S100000x128, .f32⟩ : BufTy).Contents (Elt F) → (⟨S100000x128, .f32⟩ : BufTy).Contents (Elt F)) ]

/-- The buffers stretch 5 writes. -/
abbrev c5_W : List (Ref sig .tc) := [main_c_16, main_v84, main_v85, main_v86, main_v87, main_v88, main_v89, main_cst_17, main_call4_v0, main_call4_v1, main_call4_v2, main_v90, main_v91, main_v92, main_v93, main_v94, main_cst_18, main_v95, main_v96, main_v97, main_v98, main_v99, main_v100, main_v101, main_v102]

theorem c5_writes : (c5 : List (HloOp τ sig (Elt F))).Forall fun op =>
    op.writes ⊆ (c5_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 5 does not write keeps its contents through it. -/
theorem c5_keep (Z : Valuation τ sig (Elt F)) (r : Ref sig .tc) (h : r ∉ c5_W) :
    after c5 Z (Proc.devRef .tc r) = Z (Proc.devRef .tc r) :=
  after_of_writes_sub c5 Z c5_writes h

/-- Every operation of stretch 5 determines its results. -/
theorem c5_fresh : ∀ op ∈ (c5 : List (HloOp τ sig (Elt F))), op.fresh = ∅ := by
  intro _ h
  repeat (cases h with | head => rfl | tail _ h => ?_)
  exact nomatch h

set_option maxRecDepth 1000000 in
/-- After stretch 5 the second layer's output is its stage's value, once the four buffers stretch 5 takes over hold
    theirs. -/
theorem c5_v102 (Z : Valuation τ sig (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S2x128x128, .f32⟩ : BufTy).Contents (Elt F)) (x12 : (⟨S128x128, .f32⟩ : BufTy).Contents (Elt F)) (x13 : (⟨S128, .f32⟩ : BufTy).Contents (Elt F))
    (a3 : Z (Proc.devRef .tc main_arg3) = x3) (a4 : Z (Proc.devRef .tc main_arg4) = x4) (a11 : Z (Proc.devRef .tc main_arg11) = x11)
    (a12 : Z (Proc.devRef .tc main_arg12) = x12) (a13 : Z (Proc.devRef .tc main_arg13) = x13)
    (h63 : Z (Proc.devRef .tc main_v63) = Read.val_main_v63 (F := F) x2 x3 x4 x5 x6 x7 x8 x9 x10)
    (h67 : Z (Proc.devRef .tc main_v67) = Read.val_main_v67 (F := F) x2)
    (h74 : Z (Proc.devRef .tc main_v74) = Read.val_main_v74 (F := F) x2 x3 x4 x5 x6 x7 x8 x9 x10)
    (h83 : Z (Proc.devRef .tc main_v83) = Read.val_main_v83 (F := F) x2 x3 x4 x5 x6 x7 x8 x9 x10 x11) :
    after c5 Z (Proc.devRef .tc main_v102) = Read.val_main_v102 (F := F) x2 x3 x4 x5 x6 x7 x8 x9 x10 x11 x12 x13 := by
  subst a3 a4 a11 a12 a13
  simp only [c5]
  after_results_simp <;> (try simp only [TRef.ofBuf, TRef.toBuf, cast_eq])
  rw [h63, h67, h74, h83]
  rfl

/-- The sixth stretch: the rows of the second layer's output picked by the two index vectors. -/
abbrev c6 : List (HloOp τ sig (Elt F)) :=
  [ nullary main_c_19 (constantI S_ 32 0#32),
    unary main_c_19 main_v103 (broadcastInDim S16384 ![] bcast_S_S16384 : (⟨S_, .i32⟩ : BufTy).Contents (Elt F) → (⟨S16384, .i32⟩ : BufTy).Contents (Elt F)),
    binary main_arg0 main_v103 main_v104 (cmpi .slt : (⟨S16384, .i32⟩ : BufTy).Contents (Elt F) → (⟨S16384, .i32⟩ : BufTy).Contents (Elt F) → (⟨S16384, .i1⟩ : BufTy).Contents (Elt F)),
    nullary main_c_20 (constantI S_ 32 100000#32),
    unary main_c_20 main_v105 (broadcastInDim S16384 ![] bcast_S_S16384 : (⟨S_, .i32⟩ : BufTy).Contents (Elt F) → (⟨S16384, .i32⟩ : BufTy).Contents (Elt F)),
    binary main_arg0 main_v105 main_v106 (addi : (⟨S16384, .i32⟩ : BufTy).Contents (Elt F) → (⟨S16384, .i32⟩ : BufTy).Contents (Elt F) → (⟨S16384, .i32⟩ : BufTy).Contents (Elt F)),
    ternary main_v104 main_v106 main_arg0 main_v107 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v107 main_v108 (broadcastInDim S16384x1 ![0] bcast_S16384_S16384x1_0 : (⟨S16384, .i32⟩ : BufTy).Contents (Elt F) → (⟨S16384x1, .i32⟩ : BufTy).Contents (Elt F)),
    binary main_v102 main_v108 main_v109 ((fun x i => Host.gather gather_S100000x128_S16384x1_S16384x128_1_0_n_n_0_1_1128 x i) : (⟨S100000x128, .f32⟩ : BufTy).Contents (Elt F) → (⟨S16384x1, .i32⟩ : BufTy).Contents (Elt F) → (⟨S16384x128, .f32⟩ : BufTy).Contents (Elt F)),
    nullary main_c_21 (constantI S_ 32 0#32),
    unary main_c_21 main_v110 (broadcastInDim S16384 ![] bcast_S_S16384 : (⟨S_, .i32⟩ : BufTy).Contents (Elt F) → (⟨S16384, .i32⟩ : BufTy).Contents (Elt F)),
    binary main_arg1 main_v110 main_v111 (cmpi .slt : (⟨S16384, .i32⟩ : BufTy).Contents (Elt F) → (⟨S16384, .i32⟩ : BufTy).Contents (Elt F) → (⟨S16384, .i1⟩ : BufTy).Contents (Elt F)),
    nullary main_c_22 (constantI S_ 32 100000#32),
    unary main_c_22 main_v112 (broadcastInDim S16384 ![] bcast_S_S16384 : (⟨S_, .i32⟩ : BufTy).Contents (Elt F) → (⟨S16384, .i32⟩ : BufTy).Contents (Elt F)),
    binary main_arg1 main_v112 main_v113 (addi : (⟨S16384, .i32⟩ : BufTy).Contents (Elt F) → (⟨S16384, .i32⟩ : BufTy).Contents (Elt F) → (⟨S16384, .i32⟩ : BufTy).Contents (Elt F)),
    ternary main_v111 main_v113 main_arg1 main_v114 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v114 main_v115 (broadcastInDim S16384x1 ![0] bcast_S16384_S16384x1_0 : (⟨S16384, .i32⟩ : BufTy).Contents (Elt F) → (⟨S16384x1, .i32⟩ : BufTy).Contents (Elt F)),
    binary main_v102 main_v115 main_v116 ((fun x i => Host.gather gather_S100000x128_S16384x1_S16384x128_1_0_n_n_0_1_1128 x i) : (⟨S100000x128, .f32⟩ : BufTy).Contents (Elt F) → (⟨S16384x1, .i32⟩ : BufTy).Contents (Elt F) → (⟨S16384x128, .f32⟩ : BufTy).Contents (Elt F)) ]

/-- The buffers stretch 6 writes. -/
abbrev c6_W : List (Ref sig .tc) := [main_c_19, main_v103, main_v104, main_c_20, main_v105, main_v106, main_v107, main_v108, main_v109, main_c_21, main_v110, main_v111, main_c_22, main_v112, main_v113, main_v114, main_v115, main_v116]

theorem c6_writes : (c6 : List (HloOp τ sig (Elt F))).Forall fun op =>
    op.writes ⊆ (c6_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 6 does not write keeps its contents through it. -/
theorem c6_keep (Z : Valuation τ sig (Elt F)) (r : Ref sig .tc) (h : r ∉ c6_W) :
    after c6 Z (Proc.devRef .tc r) = Z (Proc.devRef .tc r) :=
  after_of_writes_sub c6 Z c6_writes h

/-- Every operation of stretch 6 determines its results. -/
theorem c6_fresh : ∀ op ∈ (c6 : List (HloOp τ sig (Elt F))), op.fresh = ∅ := by
  intro _ h
  repeat (cases h with | head => rfl | tail _ h => ?_)
  exact nomatch h

/-- After stretch 6 the rows picked by the first index vector are their stage's value, once the second layer's output
    holds its. -/
theorem c6_v109 (Z : Valuation τ sig (Elt F)) (x0 : (⟨S16384, .i32⟩ : BufTy).Contents (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S2x128x128, .f32⟩ : BufTy).Contents (Elt F)) (x12 : (⟨S128x128, .f32⟩ : BufTy).Contents (Elt F)) (x13 : (⟨S128, .f32⟩ : BufTy).Contents (Elt F))
    (a0 : Z (Proc.devRef .tc main_arg0) = x0)
    (h102 : Z (Proc.devRef .tc main_v102) = Read.val_main_v102 (F := F) x2 x3 x4 x5 x6 x7 x8 x9 x10 x11 x12 x13) :
    after c6 Z (Proc.devRef .tc main_v109) = Read.val_main_v109 (F := F) x0 x2 x3 x4 x5 x6 x7 x8 x9 x10 x11 x12 x13 := by
  subst a0
  simp only [c6]
  after_results_simp
  rw [h102]
  rfl

/-- After stretch 6 the rows picked by the second index vector are their stage's value. -/
theorem c6_v116 (Z : Valuation τ sig (Elt F)) (x1 : (⟨S16384, .i32⟩ : BufTy).Contents (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S2x128x128, .f32⟩ : BufTy).Contents (Elt F)) (x12 : (⟨S128x128, .f32⟩ : BufTy).Contents (Elt F)) (x13 : (⟨S128, .f32⟩ : BufTy).Contents (Elt F))
    (a1 : Z (Proc.devRef .tc main_arg1) = x1)
    (h102 : Z (Proc.devRef .tc main_v102) = Read.val_main_v102 (F := F) x2 x3 x4 x5 x6 x7 x8 x9 x10 x11 x12 x13) :
    after c6 Z (Proc.devRef .tc main_v116) = Read.val_main_v116 (F := F) x1 x2 x3 x4 x5 x6 x7 x8 x9 x10 x11 x12 x13 := by
  subst a1
  simp only [c6]
  after_results_simp
  rw [h102]
  rfl

/-- The seventh stretch: the two picked rows divided by their norms and multiplied entry by entry. -/
abbrev c7 : List (HloOp τ sig (Elt F)) :=
  [ binary main_v109 main_v109 main_v117 (mulf : (⟨S16384x128, .f32⟩ : BufTy).Contents (Elt F) → (⟨S16384x128, .f32⟩ : BufTy).Contents (Elt F) → (⟨S16384x128, .f32⟩ : BufTy).Contents (Elt F)),
    nullary main_cst_23 (constant S_ .f32 0x00000000#32),
    binary main_v117 main_cst_23 main_v118 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v118 main_v119 (broadcastInDim S16384x1 ![0] bcast_S16384_S16384x1_0 : (⟨S16384, .f32⟩ : BufTy).Contents (Elt F) → (⟨S16384x1, .f32⟩ : BufTy).Contents (Elt F)),
    unary main_v119 main_v120 (Host.sqrt : (⟨S16384x1, .f32⟩ : BufTy).Contents (Elt F) → (⟨S16384x1, .f32⟩ : BufTy).Contents (Elt F)),
    nullary main_cst_24 (constant S_ .f32 0x2B8CBCCC#32),
    unary main_cst_24 main_v121 (broadcastInDim S16384x1 ![] bcast_S_S16384x1 : (⟨S_, .f32⟩ : BufTy).Contents (Elt F) → (⟨S16384x1, .f32⟩ : BufTy).Contents (Elt F)),
    binary main_v120 main_v121 main_v122 (maximumf : (⟨S16384x1, .f32⟩ : BufTy).Contents (Elt F) → (⟨S16384x1, .f32⟩ : BufTy).Contents (Elt F) → (⟨S16384x1, .f32⟩ : BufTy).Contents (Elt F)),
    unary main_v122 main_v123 (broadcastInDim S16384x128 ![0, 1] bcast_S16384x1_S16384x128_0_1 : (⟨S16384x1, .f32⟩ : BufTy).Contents (Elt F) → (⟨S16384x128, .f32⟩ : BufTy).Contents (Elt F)),
    binary main_v109 main_v123 main_v124 (Host.divf : (⟨S16384x128, .f32⟩ : BufTy).Contents (Elt F) → (⟨S16384x128, .f32⟩ : BufTy).Contents (Elt F) → (⟨S16384x128, .f32⟩ : BufTy).Contents (Elt F)),
    binary main_v116 main_v116 main_v125 (mulf : (⟨S16384x128, .f32⟩ : BufTy).Contents (Elt F) → (⟨S16384x128, .f32⟩ : BufTy).Contents (Elt F) → (⟨S16384x128, .f32⟩ : BufTy).Contents (Elt F)),
    nullary main_cst_25 (constant S_ .f32 0x00000000#32),
    binary main_v125 main_cst_25 main_v126 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    unary main_v126 main_v127 (broadcastInDim S16384x1 ![0] bcast_S16384_S16384x1_0 : (⟨S16384, .f32⟩ : BufTy).Contents (Elt F) → (⟨S16384x1, .f32⟩ : BufTy).Contents (Elt F)),
    unary main_v127 main_v128 (Host.sqrt : (⟨S16384x1, .f32⟩ : BufTy).Contents (Elt F) → (⟨S16384x1, .f32⟩ : BufTy).Contents (Elt F)),
    nullary main_cst_26 (constant S_ .f32 0x2B8CBCCC#32),
    unary main_cst_26 main_v129 (broadcastInDim S16384x1 ![] bcast_S_S16384x1 : (⟨S_, .f32⟩ : BufTy).Contents (Elt F) → (⟨S16384x1, .f32⟩ : BufTy).Contents (Elt F)),
    binary main_v128 main_v129 main_v130 (maximumf : (⟨S16384x1, .f32⟩ : BufTy).Contents (Elt F) → (⟨S16384x1, .f32⟩ : BufTy).Contents (Elt F) → (⟨S16384x1, .f32⟩ : BufTy).Contents (Elt F)),
    unary main_v130 main_v131 (broadcastInDim S16384x128 ![0, 1] bcast_S16384x1_S16384x128_0_1 : (⟨S16384x1, .f32⟩ : BufTy).Contents (Elt F) → (⟨S16384x128, .f32⟩ : BufTy).Contents (Elt F)),
    binary main_v116 main_v131 main_v132 (Host.divf : (⟨S16384x128, .f32⟩ : BufTy).Contents (Elt F) → (⟨S16384x128, .f32⟩ : BufTy).Contents (Elt F) → (⟨S16384x128, .f32⟩ : BufTy).Contents (Elt F)),
    binary main_v124 main_v132 main_v133 (mulf : (⟨S16384x128, .f32⟩ : BufTy).Contents (Elt F) → (⟨S16384x128, .f32⟩ : BufTy).Contents (Elt F) → (⟨S16384x128, .f32⟩ : BufTy).Contents (Elt F)) ]

/-- The buffers stretch 7 writes. -/
abbrev c7_W : List (Ref sig .tc) := [main_v117, main_cst_23, main_v118, main_v119, main_v120, main_cst_24, main_v121, main_v122, main_v123, main_v124, main_v125, main_cst_25, main_v126, main_v127, main_v128, main_cst_26, main_v129, main_v130, main_v131, main_v132, main_v133]

theorem c7_writes : (c7 : List (HloOp τ sig (Elt F))).Forall fun op =>
    op.writes ⊆ (c7_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 7 does not write keeps its contents through it. -/
theorem c7_keep (Z : Valuation τ sig (Elt F)) (r : Ref sig .tc) (h : r ∉ c7_W) :
    after c7 Z (Proc.devRef .tc r) = Z (Proc.devRef .tc r) :=
  after_of_writes_sub c7 Z c7_writes h

/-- Every operation of stretch 7 determines its results. -/
theorem c7_fresh : ∀ op ∈ (c7 : List (HloOp τ sig (Elt F))), op.fresh = ∅ := by
  intro _ h
  repeat (cases h with | head => rfl | tail _ h => ?_)
  exact nomatch h

/-- After stretch 7 the product of the two normalised rows is its stage's value, once the two picked rows hold theirs. -/
theorem c7_v133 (Z : Valuation τ sig (Elt F)) (x0 : (⟨S16384, .i32⟩ : BufTy).Contents (Elt F)) (x1 : (⟨S16384, .i32⟩ : BufTy).Contents (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S2x128x128, .f32⟩ : BufTy).Contents (Elt F)) (x12 : (⟨S128x128, .f32⟩ : BufTy).Contents (Elt F)) (x13 : (⟨S128, .f32⟩ : BufTy).Contents (Elt F))
    (h109 : Z (Proc.devRef .tc main_v109) = Read.val_main_v109 (F := F) x0 x2 x3 x4 x5 x6 x7 x8 x9 x10 x11 x12 x13)
    (h116 : Z (Proc.devRef .tc main_v116) = Read.val_main_v116 (F := F) x1 x2 x3 x4 x5 x6 x7 x8 x9 x10 x11 x12 x13) :
    after c7 Z (Proc.devRef .tc main_v133) = Read.val_main_v133 (F := F) x0 x1 x2 x3 x4 x5 x6 x7 x8 x9 x10 x11 x12 x13 := by
  simp only [c7]
  after_results_simp
  rw [h109, h116]
  rfl

/-- The eighth stretch: the two picked rows side by side and the three dense layers. -/
abbrev c8 : List (HloOp τ sig (Elt F)) :=
  [ binary main_v109 main_v116 main_v134 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    binary main_v134 main_arg14 main_v135 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    unary main_arg15 main_v136 (broadcastInDim S1x128 ![1] bcast_S128_S1x128_1 : (⟨S128, .f32⟩ : BufTy).Contents (Elt F) → (⟨S1x128, .f32⟩ : BufTy).Contents (Elt F)),
    unary main_v136 main_v137 (broadcastInDim S16384x128 ![0, 1] bcast_S1x128_S16384x128_0_1 : (⟨S1x128, .f32⟩ : BufTy).Contents (Elt F) → (⟨S16384x128, .f32⟩ : BufTy).Contents (Elt F)),
    binary main_v135 main_v137 main_v138 (addf : (⟨S16384x128, .f32⟩ : BufTy).Contents (Elt F) → (⟨S16384x128, .f32⟩ : BufTy).Contents (Elt F) → (⟨S16384x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S16384x128, .f32⟩) main_call5_v0) (broadcastInDim S16384x128 ![] bcast_S_S16384x128),
    TRef.binary (TRef.of (T := ⟨S16384x128, .f32⟩) main_v138) (TRef.of (T := ⟨S16384x128, .f32⟩) main_call5_v0) (TRef.of (T := ⟨S16384x128, .f32⟩) main_v139) maximumf,
    binary main_v139 main_arg16 main_v140 ((fun l r => Host.dotGeneral dot_S16384x128_S128x64_S16384x64_1_0_0_1_n_n none l r) : (⟨S16384x128, .f32⟩ : BufTy).Contents (Elt F) → (⟨S128x64, .f32⟩ : BufTy).Contents (Elt F) → (⟨S16384x64, .f32⟩ : BufTy).Contents (Elt F)),
    unary main_arg17 main_v141 (broadcastInDim S1x64 ![1] bcast_S64_S1x64_1 : (⟨S64, .f32⟩ : BufTy).Contents (Elt F) → (⟨S1x64, .f32⟩ : BufTy).Contents (Elt F)),
    unary main_v141 main_v142 (broadcastInDim S16384x64 ![0, 1] bcast_S1x64_S16384x64_0_1 : (⟨S1x64, .f32⟩ : BufTy).Contents (Elt F) → (⟨S16384x64, .f32⟩ : BufTy).Contents (Elt F)),
    binary main_v140 main_v142 main_v143 (addf : (⟨S16384x64, .f32⟩ : BufTy).Contents (Elt F) → (⟨S16384x64, .f32⟩ : BufTy).Contents (Elt F) → (⟨S16384x64, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S16384x64, .f32⟩) main_call6_v0) (broadcastInDim S16384x64 ![] bcast_S_S16384x64),
    TRef.binary (TRef.of (T := ⟨S16384x64, .f32⟩) main_v143) (TRef.of (T := ⟨S16384x64, .f32⟩) main_call6_v0) (TRef.of (T := ⟨S16384x64, .f32⟩) main_v144) maximumf,
    binary main_v144 main_arg18 main_v145 ((fun l r => Host.dotGeneral dot_S16384x64_S64x32_S16384x32_1_0_0_1_n_n none l r) : (⟨S16384x64, .f32⟩ : BufTy).Contents (Elt F) → (⟨S64x32, .f32⟩ : BufTy).Contents (Elt F) → (⟨S16384x32, .f32⟩ : BufTy).Contents (Elt F)),
    unary main_arg19 main_v146 (broadcastInDim S1x32 ![1] bcast_S32_S1x32_1 : (⟨S32, .f32⟩ : BufTy).Contents (Elt F) → (⟨S1x32, .f32⟩ : BufTy).Contents (Elt F)),
    unary main_v146 main_v147 (broadcastInDim S16384x32 ![0, 1] bcast_S1x32_S16384x32_0_1 : (⟨S1x32, .f32⟩ : BufTy).Contents (Elt F) → (⟨S16384x32, .f32⟩ : BufTy).Contents (Elt F)),
    binary main_v145 main_v147 main_v148 (addf : (⟨S16384x32, .f32⟩ : BufTy).Contents (Elt F) → (⟨S16384x32, .f32⟩ : BufTy).Contents (Elt F) → (⟨S16384x32, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S16384x32, .f32⟩) main_call7_v0) (broadcastInDim S16384x32 ![] bcast_S_S16384x32),
    TRef.binary (TRef.of (T := ⟨S16384x32, .f32⟩) main_v148) (TRef.of (T := ⟨S16384x32, .f32⟩) main_call7_v0) (TRef.of (T := ⟨S16384x32, .f32⟩) main_v149) maximumf ]

/-- The buffers stretch 8 writes. -/
abbrev c8_W : List (Ref sig .tc) := [main_v134, main_v135, main_v136, main_v137, main_v138, main_call5_cst, main_call5_v0, main_v139, main_v140, main_v141, main_v142, main_v143, main_call6_cst, main_call6_v0, main_v144, main_v145, main_v146, main_v147, main_v148, main_call7_cst, main_call7_v0, main_v149]

theorem c8_writes : (c8 : List (HloOp τ sig (Elt F))).Forall fun op =>
    op.writes ⊆ (c8_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 8 does not write keeps its contents through it. -/
theorem c8_keep (Z : Valuation τ sig (Elt F)) (r : Ref sig .tc) (h : r ∉ c8_W) :
    after c8 Z (Proc.devRef .tc r) = Z (Proc.devRef .tc r) :=
  after_of_writes_sub c8 Z c8_writes h

/-- Every operation of stretch 8 determines its results. -/
theorem c8_fresh : ∀ op ∈ (c8 : List (HloOp τ sig (Elt F))), op.fresh = ∅ := by
  intro _ h
  repeat (cases h with | head => rfl | tail _ h => ?_)
  exact nomatch h

set_option maxRecDepth 1000000 in
/-- After stretch 8 the third dense layer's output is its stage's value, once the two picked rows hold theirs. -/
theorem c8_v149 (Z : Valuation τ sig (Elt F)) (x0 : (⟨S16384, .i32⟩ : BufTy).Contents (Elt F)) (x1 : (⟨S16384, .i32⟩ : BufTy).Contents (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S2x128x128, .f32⟩ : BufTy).Contents (Elt F)) (x12 : (⟨S128x128, .f32⟩ : BufTy).Contents (Elt F)) (x13 : (⟨S128, .f32⟩ : BufTy).Contents (Elt F)) (x14 : (⟨S256x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F))
    (a14 : Z (Proc.devRef .tc main_arg14) = x14) (a15 : Z (Proc.devRef .tc main_arg15) = x15) (a16 : Z (Proc.devRef .tc main_arg16) = x16)
    (a17 : Z (Proc.devRef .tc main_arg17) = x17) (a18 : Z (Proc.devRef .tc main_arg18) = x18) (a19 : Z (Proc.devRef .tc main_arg19) = x19)
    (h109 : Z (Proc.devRef .tc main_v109) = Read.val_main_v109 (F := F) x0 x2 x3 x4 x5 x6 x7 x8 x9 x10 x11 x12 x13)
    (h116 : Z (Proc.devRef .tc main_v116) = Read.val_main_v116 (F := F) x1 x2 x3 x4 x5 x6 x7 x8 x9 x10 x11 x12 x13) :
    after c8 Z (Proc.devRef .tc main_v149)
      = Read.val_main_v149 (F := F) x0 x1 x2 x3 x4 x5 x6 x7 x8 x9 x10 x11 x12 x13 x14 x15 x16 x17 x18 x19 := by
  subst a14 a15 a16 a17 a18 a19
  simp only [c8]
  after_results_simp <;> (try simp only [TRef.ofBuf, TRef.toBuf, cast_eq])
  rw [h109, h116]
  rfl

/-- The ninth stretch: the product beside the dense layers' output, the last dense layer, the logistic function, the
    result as a vector. -/
abbrev c9 : List (HloOp τ sig (Elt F)) :=
  [ binary main_v133 main_v149 main_v150 ((fun a b => concatenate S16384x160 1 [⟨S16384x128, a⟩, ⟨S16384x32, b⟩] concatenates_S16384x128_S16384x32_S16384x160_d1) : (⟨S16384x128, .f32⟩ : BufTy).Contents (Elt F) → (⟨S16384x32, .f32⟩ : BufTy).Contents (Elt F) → (⟨S16384x160, .f32⟩ : BufTy).Contents (Elt F)),
    binary main_v150 main_arg20 main_v151 ((fun l r => Host.dotGeneral dot_S16384x160_S160x1_S16384x1_1_0_0_1_n_n none l r) : (⟨S16384x160, .f32⟩ : BufTy).Contents (Elt F) → (⟨S160x1, .f32⟩ : BufTy).Contents (Elt F) → (⟨S16384x1, .f32⟩ : BufTy).Contents (Elt F)),
    unary main_arg21 main_v152 (broadcastInDim S1x1 ![1] bcast_S1_S1x1_1 : (⟨S1, .f32⟩ : BufTy).Contents (Elt F) → (⟨S1x1, .f32⟩ : BufTy).Contents (Elt F)),
    unary main_v152 main_v153 (broadcastInDim S16384x1 ![0, 1] bcast_S1x1_S16384x1_0_1 : (⟨S1x1, .f32⟩ : BufTy).Contents (Elt F) → (⟨S16384x1, .f32⟩ : BufTy).Contents (Elt F)),
    binary main_v151 main_v153 main_v154 (addf : (⟨S16384x1, .f32⟩ : BufTy).Contents (Elt F) → (⟨S16384x1, .f32⟩ : BufTy).Contents (Elt F) → (⟨S16384x1, .f32⟩ : BufTy).Contents (Elt F)),
    unary main_v154 main_v155 (Host.negf : (⟨S16384x1, .f32⟩ : BufTy).Contents (Elt F) → (⟨S16384x1, .f32⟩ : BufTy).Contents (Elt F)),
    unary main_v155 main_v156 (Host.exp : (⟨S16384x1, .f32⟩ : BufTy).Contents (Elt F) → (⟨S16384x1, .f32⟩ : BufTy).Contents (Elt F)),
    nullary main_cst_27 (constant S_ .f32 0x3F800000#32),
    unary main_cst_27 main_v157 (broadcastInDim S16384x1 ![] bcast_S_S16384x1 : (⟨S_, .f32⟩ : BufTy).Contents (Elt F) → (⟨S16384x1, .f32⟩ : BufTy).Contents (Elt F)),
    binary main_v157 main_v156 main_v158 (addf : (⟨S16384x1, .f32⟩ : BufTy).Contents (Elt F) → (⟨S16384x1, .f32⟩ : BufTy).Contents (Elt F) → (⟨S16384x1, .f32⟩ : BufTy).Contents (Elt F)),
    nullary main_cst_28 (constant S_ .f32 0x3F800000#32),
    unary main_cst_28 main_v159 (broadcastInDim S16384x1 ![] bcast_S_S16384x1 : (⟨S_, .f32⟩ : BufTy).Contents (Elt F) → (⟨S16384x1, .f32⟩ : BufTy).Contents (Elt F)),
    binary main_v159 main_v158 main_v160 (Host.divf : (⟨S16384x1, .f32⟩ : BufTy).Contents (Elt F) → (⟨S16384x1, .f32⟩ : BufTy).Contents (Elt F) → (⟨S16384x1, .f32⟩ : BufTy).Contents (Elt F)),
    reshape main_v160 main_v161 rfl shapeCasts_S16384x1_S16384 ]

/-- The buffers stretch 9 writes. -/
abbrev c9_W : List (Ref sig .tc) := [main_v150, main_v151, main_v152, main_v153, main_v154, main_v155, main_v156, main_cst_27, main_v157, main_v158, main_cst_28, main_v159, main_v160, main_v161]

theorem c9_writes : (c9 : List (HloOp τ sig (Elt F))).Forall fun op =>
    op.writes ⊆ (c9_W.map (Proc.devRef (τ := τ) .tc)).toFinset := by
  simp only [List.Forall]
  and_intros <;>
    (simp only [nullary_writes, unary_writes, binary_writes, ternary_writes, reshape_writes, Finset.singleton_subset_iff,
      List.mem_toFinset]; exact List.mem_map_of_mem (by decide))

/-- A buffer stretch 9 does not write keeps its contents through it. -/
theorem c9_keep (Z : Valuation τ sig (Elt F)) (r : Ref sig .tc) (h : r ∉ c9_W) :
    after c9 Z (Proc.devRef .tc r) = Z (Proc.devRef .tc r) :=
  after_of_writes_sub c9 Z c9_writes h

/-- Every operation of stretch 9 determines its results. -/
theorem c9_fresh : ∀ op ∈ (c9 : List (HloOp τ sig (Elt F))), op.fresh = ∅ := by
  intro _ h
  repeat (cases h with | head => rfl | tail _ h => ?_)
  exact nomatch h

/-- After stretch 9 the result is the last stage's value, once the product and the dense layers' output hold theirs. -/
theorem c9_v161 (Z : Valuation τ sig (Elt F)) (x0 : (⟨S16384, .i32⟩ : BufTy).Contents (Elt F)) (x1 : (⟨S16384, .i32⟩ : BufTy).Contents (Elt F)) (x2 : (⟨S2x640000, .i32⟩ : BufTy).Contents (Elt F)) (x3 : (⟨S640000, .i32⟩ : BufTy).Contents (Elt F)) (x4 : (⟨S640000, .f32⟩ : BufTy).Contents (Elt F)) (x5 : (⟨S100000x128, .f32⟩ : BufTy).Contents (Elt F)) (x6 : (⟨S2x128x128, .f32⟩ : BufTy).Contents (Elt F)) (x7 : (⟨S128x128, .f32⟩ : BufTy).Contents (Elt F)) (x8 : (⟨S128, .f32⟩ : BufTy).Contents (Elt F)) (x9 : (⟨S128, .f32⟩ : BufTy).Contents (Elt F)) (x10 : (⟨S128, .f32⟩ : BufTy).Contents (Elt F)) (x11 : (⟨S2x128x128, .f32⟩ : BufTy).Contents (Elt F)) (x12 : (⟨S128x128, .f32⟩ : BufTy).Contents (Elt F)) (x13 : (⟨S128, .f32⟩ : BufTy).Contents (Elt F)) (x14 : (⟨S256x128, .f32⟩ : BufTy).Contents (Elt F)) (x15 : (⟨S128, .f32⟩ : BufTy).Contents (Elt F)) (x16 : (⟨S128x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S160x1, .f32⟩ : BufTy).Contents (Elt F)) (x21 : (⟨S1, .f32⟩ : BufTy).Contents (Elt F))
    (a20 : Z (Proc.devRef .tc main_arg20) = x20) (a21 : Z (Proc.devRef .tc main_arg21) = x21)
    (h133 : Z (Proc.devRef .tc main_v133) = Read.val_main_v133 (F := F) x0 x1 x2 x3 x4 x5 x6 x7 x8 x9 x10 x11 x12 x13)
    (h149 : Z (Proc.devRef .tc main_v149)
      = Read.val_main_v149 (F := F) x0 x1 x2 x3 x4 x5 x6 x7 x8 x9 x10 x11 x12 x13 x14 x15 x16 x17 x18 x19) :
    after c9 Z (Proc.devRef .tc main_v161)
      = Read.val_main_v161 (F := F) x0 x1 x2 x3 x4 x5 x6 x7 x8 x9 x10 x11 x12 x13 x14 x15 x16 x17 x18 x19 x20 x21 := by
  subst a20 a21
  simp only [c9]
  after_results_simp
  rw [h133, h149]
  rfl

/-! ## The line is the nine stretches in a row -/

set_option maxRecDepth 8192 in
theorem ops_cut : (ValueOps.ops : List (HloOp τ sig (Elt F)))
    = c1 ++ (c2 ++ (c3 ++ (c4 ++ (c5 ++ (c6 ++ (c7 ++ (c8 ++ c9))))))) := rfl

/-- Every operation of the line determines its results: it lies in one of the stretches. -/
theorem ops_fresh : ∀ op ∈ (ValueOps.ops : List (HloOp τ sig (Elt F))), op.fresh = ∅ := by
  intro op h
  rw [ops_cut] at h
  simp only [List.mem_append] at h
  rcases h with h | h | h | h | h | h | h | h | h
  · exact c1_fresh op h
  · exact c2_fresh op h
  · exact c3_fresh op h
  · exact c4_fresh op h
  · exact c5_fresh op h
  · exact c6_fresh op h
  · exact c7_fresh op h
  · exact c8_fresh op h
  · exact c9_fresh op h

/-! ## The contents after each stretch, from contents `V` -/

def U1 (V : Valuation τ sig (Elt F)) : Valuation τ sig (Elt F) := after c1 V
def U2 (V : Valuation τ sig (Elt F)) : Valuation τ sig (Elt F) := after c2 (U1 V)
def U3 (V : Valuation τ sig (Elt F)) : Valuation τ sig (Elt F) := after c3 (U2 V)
def U4 (V : Valuation τ sig (Elt F)) : Valuation τ sig (Elt F) := after c4 (U3 V)
def U5 (V : Valuation τ sig (Elt F)) : Valuation τ sig (Elt F) := after c5 (U4 V)
def U6 (V : Valuation τ sig (Elt F)) : Valuation τ sig (Elt F) := after c6 (U5 V)
def U7 (V : Valuation τ sig (Elt F)) : Valuation τ sig (Elt F) := after c7 (U6 V)
def U8 (V : Valuation τ sig (Elt F)) : Valuation τ sig (Elt F) := after c8 (U7 V)
def U9 (V : Valuation τ sig (Elt F)) : Valuation τ sig (Elt F) := after c9 (U8 V)

/-- The whole line run from `V` is the nine stretches run one after the other. -/
theorem after_ops (V : Valuation τ sig (Elt F)) : after (ValueOps.ops : List (HloOp τ sig (Elt F))) V = U9 V := by
  rw [ops_cut]
  simp only [after_append]
  rfl

/-! ## The arguments: no stretch writes one -/

/-- @main's arguments. -/
abbrev argRefs : List (Ref sig .tc) :=
  [main_arg0, main_arg1, main_arg2, main_arg3, main_arg4, main_arg5, main_arg6, main_arg7, main_arg8, main_arg9, main_arg10,
    main_arg11, main_arg12, main_arg13, main_arg14, main_arg15, main_arg16, main_arg17, main_arg18, main_arg19, main_arg20,
    main_arg21]

theorem arg_notW1 : ∀ r ∈ argRefs, r ∉ c1_W := by decide
theorem arg_notW2 : ∀ r ∈ argRefs, r ∉ c2_W := by decide
theorem arg_notW3 : ∀ r ∈ argRefs, r ∉ c3_W := by decide
theorem arg_notW4 : ∀ r ∈ argRefs, r ∉ c4_W := by decide
theorem arg_notW5 : ∀ r ∈ argRefs, r ∉ c5_W := by decide
theorem arg_notW6 : ∀ r ∈ argRefs, r ∉ c6_W := by decide
theorem arg_notW7 : ∀ r ∈ argRefs, r ∉ c7_W := by decide
theorem arg_notW8 : ∀ r ∈ argRefs, r ∉ c8_W := by decide
theorem arg_notW9 : ∀ r ∈ argRefs, r ∉ c9_W := by decide

theorem U1_arg (V : Valuation τ sig (Elt F)) (r : Ref sig .tc) (hr : r ∈ argRefs) : U1 V (Proc.devRef .tc r) = V (Proc.devRef .tc r) :=
  c1_keep V r (arg_notW1 r hr)
theorem U2_arg (V : Valuation τ sig (Elt F)) (r : Ref sig .tc) (hr : r ∈ argRefs) : U2 V (Proc.devRef .tc r) = V (Proc.devRef .tc r) :=
  (c2_keep (U1 V) r (arg_notW2 r hr)).trans (U1_arg V r hr)
theorem U3_arg (V : Valuation τ sig (Elt F)) (r : Ref sig .tc) (hr : r ∈ argRefs) : U3 V (Proc.devRef .tc r) = V (Proc.devRef .tc r) :=
  (c3_keep (U2 V) r (arg_notW3 r hr)).trans (U2_arg V r hr)
theorem U4_arg (V : Valuation τ sig (Elt F)) (r : Ref sig .tc) (hr : r ∈ argRefs) : U4 V (Proc.devRef .tc r) = V (Proc.devRef .tc r) :=
  (c4_keep (U3 V) r (arg_notW4 r hr)).trans (U3_arg V r hr)
theorem U5_arg (V : Valuation τ sig (Elt F)) (r : Ref sig .tc) (hr : r ∈ argRefs) : U5 V (Proc.devRef .tc r) = V (Proc.devRef .tc r) :=
  (c5_keep (U4 V) r (arg_notW5 r hr)).trans (U4_arg V r hr)
theorem U6_arg (V : Valuation τ sig (Elt F)) (r : Ref sig .tc) (hr : r ∈ argRefs) : U6 V (Proc.devRef .tc r) = V (Proc.devRef .tc r) :=
  (c6_keep (U5 V) r (arg_notW6 r hr)).trans (U5_arg V r hr)
theorem U7_arg (V : Valuation τ sig (Elt F)) (r : Ref sig .tc) (hr : r ∈ argRefs) : U7 V (Proc.devRef .tc r) = V (Proc.devRef .tc r) :=
  (c7_keep (U6 V) r (arg_notW7 r hr)).trans (U6_arg V r hr)
theorem U8_arg (V : Valuation τ sig (Elt F)) (r : Ref sig .tc) (hr : r ∈ argRefs) : U8 V (Proc.devRef .tc r) = V (Proc.devRef .tc r) :=
  (c8_keep (U7 V) r (arg_notW8 r hr)).trans (U7_arg V r hr)
theorem U9_arg (V : Valuation τ sig (Elt F)) (r : Ref sig .tc) (hr : r ∈ argRefs) : U9 V (Proc.devRef .tc r) = V (Proc.devRef .tc r) :=
  (c9_keep (U8 V) r (arg_notW9 r hr)).trans (U8_arg V r hr)

/-! ## The buffers a later stretch reads, at each cut: each its stage's value of the arguments -/

theorem U1_v3 (V : Valuation τ sig (Elt F)) : U1 V (Proc.devRef .tc main_v3) = Read.val_main_v3 (F := F) (V (Proc.devRef .tc main_arg2)) :=
  c1_v3 V _ rfl
theorem U1_v10 (V : Valuation τ sig (Elt F)) : U1 V (Proc.devRef .tc main_v10) = Read.val_main_v10 (F := F) (V (Proc.devRef .tc main_arg2)) (V (Proc.devRef .tc main_arg5)) :=
  c1_v10 V _ _ rfl rfl
theorem U1_v19 (V : Valuation τ sig (Elt F)) :
    U1 V (Proc.devRef .tc main_v19) = Read.val_main_v19 (F := F) (V (Proc.devRef .tc main_arg2)) (V (Proc.devRef .tc main_arg3)) (V (Proc.devRef .tc main_arg5)) (V (Proc.devRef .tc main_arg6)) :=
  c1_v19 V _ _ _ _ rfl rfl rfl rfl

theorem U2_v33 (V : Valuation τ sig (Elt F)) :
    U2 V (Proc.devRef .tc main_v33) = Read.val_main_v33 (F := F) (V (Proc.devRef .tc main_arg2)) (V (Proc.devRef .tc main_arg3)) (V (Proc.devRef .tc main_arg4)) (V (Proc.devRef .tc main_arg5)) (V (Proc.devRef .tc main_arg6)) :=
  c2_v33 (U1 V) _ _ _ _ _ (U1_arg V main_arg3 (by decide)) (U1_arg V main_arg4 (by decide)) (U1_arg V main_arg6 (by decide))
    (U1_v3 V) (U1_v10 V) (U1_v19 V)

theorem U3_v63 (V : Valuation τ sig (Elt F)) :
    U3 V (Proc.devRef .tc main_v63) = Read.val_main_v63 (F := F) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  c3_v63 (U2 V) _ _ _ _ _ _ _ _ _ (U2_arg V main_arg5 (by decide)) (U2_arg V main_arg7 (by decide)) (U2_arg V main_arg8 (by decide))
    (U2_arg V main_arg9 (by decide)) (U2_arg V main_arg10 (by decide)) (U2_v33 V)

theorem U4_v63 (V : Valuation τ sig (Elt F)) :
    U4 V (Proc.devRef .tc main_v63) = Read.val_main_v63 (F := F) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  (c4_keep (U3 V) main_v63 (by decide)).trans (U3_v63 V)
theorem U4_v67 (V : Valuation τ sig (Elt F)) : U4 V (Proc.devRef .tc main_v67) = Read.val_main_v67 (F := F) (V (Proc.devRef .tc main_arg2)) :=
  c4_v67 (U3 V) _ (U3_arg V main_arg2 (by decide))
theorem U4_v74 (V : Valuation τ sig (Elt F)) :
    U4 V (Proc.devRef .tc main_v74) = Read.val_main_v74 (F := F) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) :=
  c4_v74 (U3 V) _ _ _ _ _ _ _ _ _ (U3_arg V main_arg2 (by decide)) (U3_v63 V)
theorem U4_v83 (V : Valuation τ sig (Elt F)) :
    U4 V (Proc.devRef .tc main_v83) = Read.val_main_v83 (F := F) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  c4_v83 (U3 V) _ _ _ _ _ _ _ _ _ _ (U3_arg V main_arg2 (by decide)) (U3_arg V main_arg3 (by decide)) (U3_arg V main_arg11 (by decide))
    (U3_v63 V)

theorem U5_v102 (V : Valuation τ sig (Elt F)) :
    U5 V (Proc.devRef .tc main_v102) = Read.val_main_v102 (F := F) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  c5_v102 (U4 V) _ _ _ _ _ _ _ _ _ _ _ _ (U4_arg V main_arg3 (by decide)) (U4_arg V main_arg4 (by decide)) (U4_arg V main_arg11 (by decide))
    (U4_arg V main_arg12 (by decide)) (U4_arg V main_arg13 (by decide)) (U4_v63 V) (U4_v67 V) (U4_v74 V) (U4_v83 V)

theorem U6_v109 (V : Valuation τ sig (Elt F)) :
    U6 V (Proc.devRef .tc main_v109) = Read.val_main_v109 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  c6_v109 (U5 V) _ _ _ _ _ _ _ _ _ _ _ _ _ (U5_arg V main_arg0 (by decide)) (U5_v102 V)
theorem U6_v116 (V : Valuation τ sig (Elt F)) :
    U6 V (Proc.devRef .tc main_v116) = Read.val_main_v116 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  c6_v116 (U5 V) _ _ _ _ _ _ _ _ _ _ _ _ _ (U5_arg V main_arg1 (by decide)) (U5_v102 V)

theorem U7_v109 (V : Valuation τ sig (Elt F)) :
    U7 V (Proc.devRef .tc main_v109) = Read.val_main_v109 (F := F) (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  (c7_keep (U6 V) main_v109 (by decide)).trans (U6_v109 V)
theorem U7_v116 (V : Valuation τ sig (Elt F)) :
    U7 V (Proc.devRef .tc main_v116) = Read.val_main_v116 (F := F) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  (c7_keep (U6 V) main_v116 (by decide)).trans (U6_v116 V)
theorem U7_v133 (V : Valuation τ sig (Elt F)) :
    U7 V (Proc.devRef .tc main_v133) = Read.val_main_v133 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  c7_v133 (U6 V) _ _ _ _ _ _ _ _ _ _ _ _ _ _ (U6_v109 V) (U6_v116 V)

theorem U8_v133 (V : Valuation τ sig (Elt F)) :
    U8 V (Proc.devRef .tc main_v133) = Read.val_main_v133 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) :=
  (c8_keep (U7 V) main_v133 (by decide)).trans (U7_v133 V)
theorem U8_v149 (V : Valuation τ sig (Elt F)) :
    U8 V (Proc.devRef .tc main_v149) = Read.val_main_v149 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) :=
  c8_v149 (U7 V) _ _ _ _ _ _ _ _ _ _ _ _ _ _ _ _ _ _ _ _ (U7_arg V main_arg14 (by decide)) (U7_arg V main_arg15 (by decide))
    (U7_arg V main_arg16 (by decide)) (U7_arg V main_arg17 (by decide)) (U7_arg V main_arg18 (by decide)) (U7_arg V main_arg19 (by decide))
    (U7_v109 V) (U7_v116 V)

/-- The result buffer after the whole line: the last stage's value of the arguments. -/
theorem U9_v161 (V : Valuation τ sig (Elt F)) :
    U9 V (Proc.devRef .tc main_v161) = Read.val_main_v161 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) :=
  c9_v161 (U8 V) _ _ _ _ _ _ _ _ _ _ _ _ _ _ _ _ _ _ _ _ _ _ (U8_arg V main_arg20 (by decide)) (U8_arg V main_arg21 (by decide))
    (U8_v133 V) (U8_v149 V)

/-! ## The run -/

/-- On every device, for any float values, from any memory with zero counters: every weakly fair execution of @main
    terminates with the result buffer at the last stage's value of the arguments' launch contents and the arguments
    unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v161)
        = Read.val_main_v161 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c =>
    ⟨(h c main_v161).trans ((congrFun (after_ops (launchContents m c)) _).trans (U9_v161 (launchContents m c))),
      (h c main_arg0).trans ((congrFun (after_ops (launchContents m c)) _).trans (U9_arg (launchContents m c) main_arg0 (by decide))),
      (h c main_arg1).trans ((congrFun (after_ops (launchContents m c)) _).trans (U9_arg (launchContents m c) main_arg1 (by decide))),
      (h c main_arg2).trans ((congrFun (after_ops (launchContents m c)) _).trans (U9_arg (launchContents m c) main_arg2 (by decide))),
      (h c main_arg3).trans ((congrFun (after_ops (launchContents m c)) _).trans (U9_arg (launchContents m c) main_arg3 (by decide))),
      (h c main_arg4).trans ((congrFun (after_ops (launchContents m c)) _).trans (U9_arg (launchContents m c) main_arg4 (by decide))),
      (h c main_arg5).trans ((congrFun (after_ops (launchContents m c)) _).trans (U9_arg (launchContents m c) main_arg5 (by decide))),
      (h c main_arg6).trans ((congrFun (after_ops (launchContents m c)) _).trans (U9_arg (launchContents m c) main_arg6 (by decide))),
      (h c main_arg7).trans ((congrFun (after_ops (launchContents m c)) _).trans (U9_arg (launchContents m c) main_arg7 (by decide))),
      (h c main_arg8).trans ((congrFun (after_ops (launchContents m c)) _).trans (U9_arg (launchContents m c) main_arg8 (by decide))),
      (h c main_arg9).trans ((congrFun (after_ops (launchContents m c)) _).trans (U9_arg (launchContents m c) main_arg9 (by decide))),
      (h c main_arg10).trans ((congrFun (after_ops (launchContents m c)) _).trans (U9_arg (launchContents m c) main_arg10 (by decide))),
      (h c main_arg11).trans ((congrFun (after_ops (launchContents m c)) _).trans (U9_arg (launchContents m c) main_arg11 (by decide))),
      (h c main_arg12).trans ((congrFun (after_ops (launchContents m c)) _).trans (U9_arg (launchContents m c) main_arg12 (by decide))),
      (h c main_arg13).trans ((congrFun (after_ops (launchContents m c)) _).trans (U9_arg (launchContents m c) main_arg13 (by decide))),
      (h c main_arg14).trans ((congrFun (after_ops (launchContents m c)) _).trans (U9_arg (launchContents m c) main_arg14 (by decide))),
      (h c main_arg15).trans ((congrFun (after_ops (launchContents m c)) _).trans (U9_arg (launchContents m c) main_arg15 (by decide))),
      (h c main_arg16).trans ((congrFun (after_ops (launchContents m c)) _).trans (U9_arg (launchContents m c) main_arg16 (by decide))),
      (h c main_arg17).trans ((congrFun (after_ops (launchContents m c)) _).trans (U9_arg (launchContents m c) main_arg17 (by decide))),
      (h c main_arg18).trans ((congrFun (after_ops (launchContents m c)) _).trans (U9_arg (launchContents m c) main_arg18 (by decide))),
      (h c main_arg19).trans ((congrFun (after_ops (launchContents m c)) _).trans (U9_arg (launchContents m c) main_arg19 (by decide))),
      (h c main_arg20).trans ((congrFun (after_ops (launchContents m c)) _).trans (U9_arg (launchContents m c) main_arg20 (by decide))),
      (h c main_arg21).trans ((congrFun (after_ops (launchContents m c)) _).trans (U9_arg (launchContents m c) main_arg21 (by decide)))⟩)
    (run_seq ValueOps.scopedRefs_eq ValueOps.scopedSems_eq defs main (fun _ => ValueOps.ops) ValueOps.main_eq
      (fun _ => ValueOps.ops_sub) m ρ (fun _ => ops_fresh))

end Cert.ReferenceIdeal.RunH

end
-- ==== Proof.KHost.lean ====
/-
  The stretches of whole-array operations between the tiled kernels, as functions of the arrays they read:

  * `flat t s`        the row of the stacked table an edge reads: its relation times the number of nodes plus its source;
  * `take2 y idx`     the rows of the stacked 200000-row table picked by `idx` (an index below zero counted from the end,
                       a row outside the table filled with the not-a-number word);
  * `take1 x idx`     the same over the 100000-row table and the 16384 scored pairs;
  * `weigh g ω`       every picked row scaled by its edge's weight;
  * `aggr dst u`      the weighted rows added into their destination nodes, from zero.
-/
import proofs.«408798_j72559177499383_1_alg».proof.Proof.Gen.KernelIdeal

noncomputable section

namespace Cert.KernelIdeal.KHost

open Idealize.ShloMosaic Cert.KernelIdeal Cert.KernelIdeal.Gen

variable {F : FTy → Type} [FloatOps F]

/-- Relation times 100000 plus source. -/
def flat (t s : IVec S640000 32) : IVec S640000 32 :=
  addi (muli t (broadcastInDim S640000 ![] bcast_S_S640000 (constantI S_ 32 100000#32))) s

/-- An index below zero counted from the end of the 200000 rows. -/
def wrap2 (idx : IVec S640000 32) : IVec S640000 32 :=
  select (cmpi .slt idx (broadcastInDim S640000 ![] bcast_S_S640000 (constantI S_ 32 0#32)))
    (addi idx (broadcastInDim S640000 ![] bcast_S_S640000 (constantI S_ 32 200000#32))) idx

/-- The wrapped indices as a column. -/
def col2 (idx : IVec S640000 32) : IVec S640000x1 32 :=
  broadcastInDim S640000x1 ![0] bcast_S640000_S640000x1_0 (wrap2 idx)

/-- Whether a wrapped index names a row of the 200000-row table. -/
def inb2 (idx : IVec S640000 32) : IVec S640000 1 :=
  (fun x v => Host.reduce IntOp.andi x v reducesTo_S640000x1_S640000_d1 h_S_)
    (andi (cmpi .sge (col2 idx) (broadcastInDim S640000x1 ![] bcast_S_S640000x1 (constantI S_ 32 0#32)))
      (cmpi .sle (col2 idx) (broadcastInDim S640000x1 ![0, 1] bcast_S1x1_S640000x1_0_1
        (broadcastInDim S1x1 ![1] bcast_S1_S1x1_1 (constantI S1 32 199999#32)))))
    (constantI S_ 1 1#1)

/-- The rows of the stacked table picked by `idx`. -/
def take2 (y : FVec F S200000x128 .f32) (idx : IVec S640000 32) : FVec F S640000x128 .f32 :=
  select (broadcastInDim S640000x128 ![0] bcast_S640000_S640000x128_0 (inb2 idx))
    (Host.gather gather_S200000x128_S640000x1_S640000x128_1_0_n_n_0_1_1128 y (col2 idx))
    (broadcastInDim S640000x128 ![] bcast_S_S640000x128 (constant S_ .f32 0x7FC00000#32))

/-- An index below zero counted from the end of the 100000 rows. -/
def wrap1 (idx : IVec S16384 32) : IVec S16384 32 :=
  select (cmpi .slt idx (broadcastInDim S16384 ![] bcast_S_S16384 (constantI S_ 32 0#32)))
    (addi idx (broadcastInDim S16384 ![] bcast_S_S16384 (constantI S_ 32 100000#32))) idx

/-- The wrapped indices as a column. -/
def col1 (idx : IVec S16384 32) : IVec S16384x1 32 :=
  broadcastInDim S16384x1 ![0] bcast_S16384_S16384x1_0 (wrap1 idx)

/-- Whether a wrapped index names a row of the 100000-row table. -/
def inb1 (idx : IVec S16384 32) : IVec S16384 1 :=
  (fun x v => Host.reduce IntOp.andi x v reducesTo_S16384x1_S16384_d1 h_S_)
    (andi (cmpi .sge (col1 idx) (broadcastInDim S16384x1 ![] bcast_S_S16384x1 (constantI S_ 32 0#32)))
      (cmpi .sle (col1 idx) (broadcastInDim S16384x1 ![0, 1] bcast_S1x1_S16384x1_0_1
        (broadcastInDim S1x1 ![1] bcast_S1_S1x1_1 (constantI S1 32 99999#32)))))
    (constantI S_ 1 1#1)

/-- The rows of the node table picked by `idx`. -/
def take1 (x : FVec F S100000x128 .f32) (idx : IVec S16384 32) : FVec F S16384x128 .f32 :=
  select (broadcastInDim S16384x128 ![0] bcast_S16384_S16384x128_0 (inb1 idx))
    (Host.gather gather_S100000x128_S16384x1_S16384x128_1_0_n_n_0_1_1128 x (col1 idx))
    (broadcastInDim S16384x128 ![] bcast_S_S16384x128 (constant S_ .f32 0x7FC00000#32))

/-- Every picked row scaled by its edge's weight. -/
def weigh (g : FVec F S640000x128 .f32) (ω : FVec F S640000 .f32) : FVec F S640000x128 .f32 :=
  mulf g (broadcastInDim S640000x128 ![0, 1] bcast_S640000x1_S640000x128_0_1
    (broadcastInDim S640000x1 ![0] bcast_S640000_S640000x1_0 ω))

/-- The weighted rows added into their destination nodes, from zero. -/
def aggr (dst : IVec S640000 32) (u : FVec F S640000x128 .f32) : FVec F S100000x128 .f32 :=
  Host.scatterAdd scatter_S100000x128_S640000x1_S640000x128_1_0_0_1
    (broadcastInDim S100000x128 ![] bcast_S_S100000x128 (constant S_ .f32 0x00000000#32))
    (broadcastInDim S640000x1 ![0] bcast_S640000_S640000x1_0 dst) u

end Cert.KernelIdeal.KHost

end
-- ==== Proof.Spec.lean ====
/-
  The layers of the graph network, as functions of whole arrays on the extended reals, element by element.
  Both programs are compared with these: the tiled kernels compute them block of rows by block of rows, the
  reference one whole-array operation after another.

  * `mm x w`            the matrix product, entry (p, q) the sum over j of x(p, j) · w(j, q);
  * `addBias x v`       a row vector added to every row;
  * `relu x`            the maximum with zero, entry by entry;
  * `lnorm h g β`       every row centred by its mean, scaled by the reciprocal root of its variance plus ε,
                         then by g and shifted by β (mean and variance are sums over the 128 columns divided by 128);
  * `msg x w s r ω`     the message of edge e: row s(e) of x times the matrix of relation r(e), scaled by ω(e);
  * `rowsOf x u`        the rows of x picked by u;
  * `l2n u`             every row divided by the larger of its Euclidean norm and a small constant;
  * `cat x y`           two arrays side by side;
  * `head …`            the scoring head: the product of the two normalised rows beside three dense layers of the
                         two rows side by side, one last dense layer, the logistic function.
  Float literals stay the words the programs print (`Ideal.ofBits .f32 …`): the same word stands on both sides.
-/
import Idealize.ShloMosaic.Lib.ValueIdx
import Idealize.ShloMosaic.PureOps.Ideal

noncomputable section

open scoped BigOperators

namespace Cert.Spec

open Idealize.ShloMosaic Idealize.ShloMosaic.ValueIdx

/-- An array of extents `a × b` of extended reals. -/
abbrev Mat (a b : Nat) := FVec Ideal (⟨2, ![a, b]⟩ : Shape) .f32
/-- A vector of extent `a`. -/
abbrev Row (a : Nat) := FVec Ideal (⟨1, ![a]⟩ : Shape) .f32
/-- An array of extents `a × b × c`. -/
abbrev Cube (a b c : Nat) := FVec Ideal (⟨3, ![a, b, c]⟩ : Shape) .f32

/-- The row of an index into an `a × b` array. -/
abbrev c0 {a b : Nat} (i : (⟨2, ![a, b]⟩ : Shape).Idx) : Fin a := ⟨(i 0).val, (i 0).isLt⟩
/-- Its column. -/
abbrev c1 {a b : Nat} (i : (⟨2, ![a, b]⟩ : Shape).Idx) : Fin b := ⟨(i 1).val, (i 1).isLt⟩

/-- The word of zero. -/
abbrev zeroW : Ideal .f32 := Ideal.ofBits .f32 0x00000000#32
/-- The word of 128. -/
abbrev w128 : Ideal .f32 := Ideal.ofBits .f32 0x43000000#32
/-- The variance's ε (the word of 1e-5). -/
abbrev epsLN : Ideal .f32 := Ideal.ofBits .f32 0x3727C5AC#32
/-- The norm's floor (the word of 1e-12). -/
abbrev epsNorm : Ideal .f32 := Ideal.ofBits .f32 0x2B8CBCCC#32

/-- The matrix product. -/
def mm {a k b : Nat} (x : Mat a k) (w : Mat k b) : Mat a b :=
  fun i => ∑ j : Fin k, x (ix2 (c0 i) j) * w (ix2 j (c1 i))

/-- A row vector added to every row. -/
def addBias {a b : Nat} (x : Mat a b) (v : Row b) : Mat a b :=
  fun i => x i + v (ix1 (c1 i))

/-- Entry by entry the larger of the entry and zero. -/
def relu {a b : Nat} (x : Mat a b) : Mat a b :=
  fun i => max (x i) zeroW

/-- The sum of a row, from the word of zero. -/
def rowSum {a b : Nat} (x : Mat a b) (p : Fin a) : Ideal .f32 :=
  zeroW + ∑ q : Fin b, x (ix2 p q)

/-- The mean of a row of 128 entries. -/
def rowMean {a : Nat} (h : Mat a 128) (p : Fin a) : Ideal .f32 :=
  Ideal.div (rowSum h p) w128

/-- The variance of a row of 128 entries about its mean. -/
def rowVar {a : Nat} (h : Mat a 128) (p : Fin a) : Ideal .f32 :=
  Ideal.div (zeroW + ∑ q : Fin 128, (h (ix2 p q) - rowMean h p) * (h (ix2 p q) - rowMean h p)) w128

/-- Layer normalisation of every row, with gain `g` and shift `β`. -/
def lnorm {a : Nat} (h : Mat a 128) (g β : Row 128) : Mat a 128 :=
  fun i => ((h i - rowMean h (c0 i)) * Ideal.rsqrt (rowVar h (c0 i) + epsLN)) * g (ix1 (c1 i)) + β (ix1 (c1 i))

/-- The first layer's output from the aggregated messages, the root term and the layer's vectors. -/
def layer1 {a : Nat} (agg root : Mat a 128) (b g β : Row 128) : Mat a 128 :=
  lnorm (relu (addBias (fun i => agg i + root i) b)) g β

/-- The second layer's output. -/
def layer2 {a : Nat} (agg root : Mat a 128) (b : Row 128) : Mat a 128 :=
  addBias (fun i => agg i + root i) b

/-- The message array: edge `e` carries row `s e` of `x` times the matrix of relation `r e`, scaled by `ω e`. -/
def msg {n E : Nat} (x : Mat n 128) (w : Cube 2 128 128) (s : Fin E → Fin n) (r : Fin E → Fin 2) (ω : Row E) : Mat E 128 :=
  fun i => (∑ j : Fin 128, x (ix2 (s (c0 i)) j) * w (ix3 (r (c0 i)) j (c1 i))) * ω (ix1 (c0 i))

/-- The rows of `x` picked by `u`. -/
def rowsOf {n B c : Nat} (x : Mat n c) (u : Fin B → Fin n) : Mat B c :=
  fun i => x (ix2 (u (c0 i)) (c1 i))

/-- Every row divided by the larger of its Euclidean norm and the floor. -/
def l2n {a : Nat} (u : Mat a 128) : Mat a 128 :=
  fun i => Ideal.div (u i) (max (Ideal.sqrt (zeroW + ∑ q : Fin 128, u (ix2 (c0 i) q) * u (ix2 (c0 i) q))) epsNorm)

/-- Two arrays side by side. -/
def cat {a b c n : Nat} (hn : b + c = n) (x : Mat a b) (y : Mat a c) : Mat a n :=
  fun i => if h : (i 1).val < b then x (ix2 (c0 i) ⟨(i 1).val, h⟩)
    else y (ix2 (c0 i) ⟨(i 1).val - b, by have := (i 1).isLt; have : (i 1).val < n := this; omega⟩)

/-- One dense layer with the maximum with zero after it. -/
def dense {a k b : Nat} (x : Mat a k) (w : Mat k b) (v : Row b) : Mat a b :=
  relu (addBias (mm x w) v)

/-- The scoring head on the two picked rows `u`, `v`. -/
def head {a : Nat} (u v : Mat a 128) (w0 : Mat 256 128) (b0 : Row 128) (w1 : Mat 128 64) (b1 : Row 64)
    (w2 : Mat 64 32) (b2 : Row 32) (ow : Mat 160 1) (ob : Row 1) : Mat a 1 :=
  fun i => Ideal.logistic (addBias (mm (cat (n := 160) rfl (fun j => l2n u j * l2n v j)
      (dense (dense (dense (cat (n := 256) rfl u v) w0 b0) w1 b1) w2 b2)) ow) ob i)

end Cert.Spec

end
-- ==== Proof.KIdx.lean ====
/-
  Pieces of the arguments both programs cut out before they use them, read at an element:

  * `srcOf`, `dstOf`    the two rows of the 2 × E edge table (sources, destinations) as vectors;
  * `rel0`, `rel1`      the two 128 × 128 matrices of the stacked 2 × 128 × 128 relation weights;
  * a vector of n entries seen as a 1 × n row.

  Each is a slice of unit extent along the leading axis with that axis then dropped (or a unit axis added): in row-major
  order the element at (r, …) of the whole is the element at (…) of piece r.
-/
import proofs.«408798_j72559177499383_1_alg».proof.Proof.Gen.KernelIdeal
import proofs.«408798_j72559177499383_1_alg».proof.Proof.Spec
import Idealize.ShloMosaic.Lib.Pipeline.Value
import Idealize.ShloMosaic.Lib.ValueIdx

noncomputable section

namespace Cert.KernelIdeal.KIdx

open Idealize.ShloMosaic Idealize.ShloMosaic.ValueIdx Cert.KernelIdeal Cert.KernelIdeal.Gen

variable {F : FTy → Type} [FloatOps F]

/-! ## The pieces -/

/-- The sources: row 0 of the edge table. -/
abbrev srcOf (e : IVec S2x640000 32) : IVec S640000 32 :=
  shapeCast S640000 (extractStridedSlice S1x640000 ![0, 0] e slices_S2x640000_S1x640000_0_0) shapeCasts_S1x640000_S640000

/-- The destinations: row 1 of the edge table. -/
abbrev dstOf (e : IVec S2x640000 32) : IVec S640000 32 :=
  shapeCast S640000 (extractStridedSlice S1x640000 ![1, 0] e slices_S2x640000_S1x640000_1_0) shapeCasts_S1x640000_S640000

/-- The matrix of relation 0. -/
abbrev rel0 (w : FVec F S2x128x128 .f32) : FVec F S128x128 .f32 :=
  shapeCast S128x128 (extractStridedSlice S1x128x128 ![0, 0, 0] w slices_S2x128x128_S1x128x128_0_0_0)
    shapeCasts_S1x128x128_S128x128

/-- The matrix of relation 1. -/
abbrev rel1 (w : FVec F S2x128x128 .f32) : FVec F S128x128 .f32 :=
  shapeCast S128x128 (extractStridedSlice S1x128x128 ![1, 0, 0] w slices_S2x128x128_S1x128x128_1_0_0)
    shapeCasts_S1x128x128_S128x128

/-! ## Read at an element, at any extents -/

/-- Row r of an R × N table as a vector: entry e is the table at (r, e). -/
theorem sliceRow_apply {α : Type} {R N : Nat} (x : (⟨2, ![R, N]⟩ : Shape).Idx → α) (r : Fin R) (o : Nat) (ho : o = r.val)
    (hs : (⟨2, ![R, N]⟩ : Shape).Slices ![o, 0] ⟨2, ![1, N]⟩) (hc : (⟨2, ![1, N]⟩ : Shape).ShapeCasts ⟨1, ![N]⟩)
    (e : Fin N) :
    shapeCast ⟨1, ![N]⟩ (extractStridedSlice ⟨2, ![1, N]⟩ ![o, 0] x hs) hc (ix1 e) = x (ix2 r e) := by
  rw [shapeCast_apply _ hc (ix1 e) (ix2 (0 : Fin 1) e)
    (by rw [Shape.rowMajor_val_two, Shape.rowMajor_val_one]; show 0 * N + e.val = e.val; omega)]
  exact extractStridedSlice_apply ![o, 0] x hs (ix2 (0 : Fin 1) e) (ix2 r e) (fun a => match a with
    | ⟨0, _⟩ => by show r.val = o + 0; omega
    | ⟨1, _⟩ => by show e.val = 0 + e.val; omega)

/-- Matrix r of R stacked A × B matrices: entry (j, q) is the stack at (r, j, q). -/
theorem sliceMat_apply {α : Type} {R A B : Nat} (w : (⟨3, ![R, A, B]⟩ : Shape).Idx → α) (r : Fin R) (o : Nat)
    (ho : o = r.val) (hs : (⟨3, ![R, A, B]⟩ : Shape).Slices ![o, 0, 0] ⟨3, ![1, A, B]⟩)
    (hc : (⟨3, ![1, A, B]⟩ : Shape).ShapeCasts ⟨2, ![A, B]⟩) (j : Fin A) (q : Fin B) :
    shapeCast ⟨2, ![A, B]⟩ (extractStridedSlice ⟨3, ![1, A, B]⟩ ![o, 0, 0] w hs) hc (ix2 j q) = w (ix3 r j q) := by
  rw [shapeCast_apply _ hc (ix2 j q) (ix3 (0 : Fin 1) j q)
    (by rw [Shape.rowMajor_val_three, Shape.rowMajor_val_two]
        show (0 * A + j.val) * B + q.val = j.val * B + q.val
        rw [Nat.zero_mul, Nat.zero_add])]
  exact extractStridedSlice_apply ![o, 0, 0] w hs (ix3 (0 : Fin 1) j q) (ix3 r j q) (fun a => match a with
    | ⟨0, _⟩ => by show r.val = o + 0; omega
    | ⟨1, _⟩ => by show j.val = 0 + j.val; omega
    | ⟨2, _⟩ => by show q.val = 0 + q.val; omega)

/-- A vector seen as a 1 × n row: entry (0, q) is the vector at q. -/
theorem rowVec_apply {α : Type} {n : Nat} (b : (⟨1, ![n]⟩ : Shape).Idx → α)
    (h : (⟨1, ![n]⟩ : Shape).ShapeCasts ⟨2, ![1, n]⟩) (q : Fin n) :
    shapeCast ⟨2, ![1, n]⟩ b h (ix2 (0 : Fin 1) q) = b (ix1 q) :=
  shapeCast_apply b h (ix2 (0 : Fin 1) q) (ix1 q)
    (by rw [Shape.rowMajor_val_two, Shape.rowMajor_val_one]; show q.val = 0 * n + q.val; omega)

/-! ## The pieces of this program -/

/-- The source of edge e. -/
theorem srcOf_apply (e2 : IVec S2x640000 32) (e : Fin 640000) : srcOf e2 (ix1 e) = e2 (ix2 (0 : Fin 2) e) :=
  sliceRow_apply e2 (0 : Fin 2) 0 rfl slices_S2x640000_S1x640000_0_0 shapeCasts_S1x640000_S640000 e

/-- The destination of edge e. -/
theorem dstOf_apply (e2 : IVec S2x640000 32) (e : Fin 640000) : dstOf e2 (ix1 e) = e2 (ix2 (1 : Fin 2) e) :=
  sliceRow_apply e2 (1 : Fin 2) 1 rfl slices_S2x640000_S1x640000_1_0 shapeCasts_S1x640000_S640000 e

/-- Relation 0's matrix at (j, q). -/
theorem rel0_apply (w : FVec F S2x128x128 .f32) (j q : Fin 128) : rel0 w (ix2 j q) = w (ix3 (0 : Fin 2) j q) :=
  sliceMat_apply w (0 : Fin 2) 0 rfl slices_S2x128x128_S1x128x128_0_0_0 shapeCasts_S1x128x128_S128x128 j q

/-- Relation 1's matrix at (j, q). -/
theorem rel1_apply (w : FVec F S2x128x128 .f32) (j q : Fin 128) : rel1 w (ix2 j q) = w (ix3 (1 : Fin 2) j q) :=
  sliceMat_apply w (1 : Fin 2) 1 rfl slices_S2x128x128_S1x128x128_1_0_0 shapeCasts_S1x128x128_S128x128 j q

/-- A vector of 128 entries as a row. -/
theorem row128_apply (b : FVec F S128 .f32) (q : Fin 128) :
    shapeCast S1x128 b shapeCasts_S128_S1x128 (ix2 (0 : Fin 1) q) = b (ix1 q) :=
  rowVec_apply b shapeCasts_S128_S1x128 q

/-- A vector of 64 entries as a row. -/
theorem row64_apply (b : FVec F S64 .f32) (q : Fin 64) :
    shapeCast S1x64 b shapeCasts_S64_S1x64 (ix2 (0 : Fin 1) q) = b (ix1 q) :=
  rowVec_apply b shapeCasts_S64_S1x64 q

/-- A vector of 32 entries as a row. -/
theorem row32_apply (b : FVec F S32 .f32) (q : Fin 32) :
    shapeCast S1x32 b shapeCasts_S32_S1x32 (ix2 (0 : Fin 1) q) = b (ix1 q) :=
  rowVec_apply b shapeCasts_S32_S1x32 q

/-- A vector of one entry as a row. -/
theorem row1_apply (b : FVec F S1 .f32) (q : Fin 1) :
    shapeCast S1x1 b shapeCasts_S1_S1x1 (ix2 (0 : Fin 1) q) = b (ix1 q) :=
  rowVec_apply b shapeCasts_S1_S1x1 q

end Cert.KernelIdeal.KIdx

end
-- ==== Proof.KFoldA.lean ====
/-
  What the buffers hold at the boundaries between the kernel program's segments, read back through the fold of its
  host stretches and regions: each host stretch's results as the named host functions (the flat row index, the
  weighted sum into destinations, the slices and reshapes) of what the stretch found, and every buffer a segment
  does not write carried across it unchanged. Stated for any float family.
-/
import proofs.«408798_j72559177499383_1_alg».proof.Proof.Gen.KernelIdeal.Frame
import proofs.«408798_j72559177499383_1_alg».proof.Proof.KHost
import proofs.«408798_j72559177499383_1_alg».proof.Proof.KIdx
import Idealize.ShloMosaic.Lib.StableHlo.Run

set_option maxRecDepth 16384
set_option maxHeartbeats 4000000

noncomputable section

namespace Cert.KernelIdeal.KFoldA

open Cert.KernelIdeal Cert.KernelIdeal.Gen Idealize.ShloMosaic Idealize.ShloMosaic.TcCoe Idealize.SL.Sem Idealize.ShloMosaic.StableHlo
open Cert.KernelIdeal.KIdx (srcOf dstOf rel0 rel1)

variable {F : FTy → Type} [FloatOps F]

/-- Across a host stretch none of whose operations writes the buffer. -/
macro "hold" : tactic => `(tactic|
  (refine (StableHlo.after_of_forall_not_mem _ _ (List.forall_iff_forall_mem.mp ?hw)).trans ?rest
   case hw =>
     simp only [hostOps0, hostOps1, hostOps1_1, hostOps1_2, hostOps2, hostOps3, hostOps3_1, hostOps3_2, hostOps4, hostOps4_1,
       hostOps4_2, hostOps5, List.flatten_cons, List.flatten_nil, List.append_nil, List.cons_append, List.nil_append,
       List.Forall, StableHlo.nullary_writes, StableHlo.unary_writes, StableHlo.binary_writes, StableHlo.ternary_writes,
       StableHlo.quaternary_writes, StableHlo.reshape_writes, StableHlo.binaryIndexed_writes, Finset.mem_singleton]
     repeat' apply And.intro
     all_goals (apply StableHlo.devRef_ne_of_ne; decide)))
/-- Across the first region, for a buffer that is none of its windows' arrays. -/
macro "reg0" : tactic => `(tactic| refine (W2_of_ne _ _ _ _ (by decide)).trans ?_)
/-- Across the second region. -/
macro "reg1" : tactic => `(tactic| refine (W6_of_ne _ _ _ _ (by decide)).trans ?_)
/-- Across the third region. -/
macro "reg2" : tactic => `(tactic| refine (W8_of_ne _ _ _ _ (by decide)).trans ?_)
/-- Across the fourth region. -/
macro "reg3" : tactic => `(tactic| refine (W12_of_ne _ _ _ _ (by decide)).trans ?_)
/-- Across the fifth region. -/
macro "reg4" : tactic => `(tactic| refine (W16_of_ne _ _ _ _ (by decide)).trans ?_)
/-! ## Each host stretch's results, from whatever contents it is entered at -/

theorem ops0_v1 (Z : Valuation τ sig (Elt F)) : StableHlo.after hostOps0 Z (Proc.devRef .tc main_v1)
    = srcOf (Z (Proc.devRef .tc main_arg2)) := by
  after_results
  rfl
theorem ops0_v3 (Z : Valuation τ sig (Elt F)) : StableHlo.after hostOps0 Z (Proc.devRef .tc main_v3)
    = dstOf (Z (Proc.devRef .tc main_arg2)) := by
  after_results
  rfl
theorem ops0_v5 (Z : Valuation τ sig (Elt F)) : StableHlo.after hostOps0 Z (Proc.devRef .tc main_v5)
    = rel0 (Z (Proc.devRef .tc main_arg6)) := by
  after_results
  rfl
theorem ops0_v7 (Z : Valuation τ sig (Elt F)) : StableHlo.after hostOps0 Z (Proc.devRef .tc main_v7)
    = rel1 (Z (Proc.devRef .tc main_arg6)) := by
  after_results
  rfl

theorem ops1_v9 (Z : Valuation τ sig (Elt F)) : StableHlo.after hostOps1 Z (Proc.devRef .tc main_v9)
    = shapeCast S200000x128 (Z (Proc.devRef .tc main_v8_0)) shapeCasts_S2x100000x128_S200000x128 := by
  after_results
  rfl
theorem ops1_v12 (Z : Valuation τ sig (Elt F)) : StableHlo.after hostOps1 Z (Proc.devRef .tc main_v12)
    = KHost.flat (Z (Proc.devRef .tc main_arg3)) (Z (Proc.devRef .tc main_v1)) := by
  after_results
  rfl

theorem ops1_2_v19 (Z : Valuation τ sig (Elt F)) : StableHlo.after hostOps1_2 Z (Proc.devRef .tc main_v19)
    = KHost.aggr (Z (Proc.devRef .tc main_v3)) (KHost.weigh (Z (Proc.devRef .tc main_v13)) (Z (Proc.devRef .tc main_arg4))) := by
  after_results_simp
  rfl
theorem ops1_2_v20 (Z : Valuation τ sig (Elt F)) : StableHlo.after hostOps1_2 Z (Proc.devRef .tc main_v20)
    = shapeCast S1x128 (Z (Proc.devRef .tc main_arg8)) shapeCasts_S128_S1x128 := by
  after_results
  rfl
theorem ops1_2_v21 (Z : Valuation τ sig (Elt F)) : StableHlo.after hostOps1_2 Z (Proc.devRef .tc main_v21)
    = shapeCast S1x128 (Z (Proc.devRef .tc main_arg9)) shapeCasts_S128_S1x128 := by
  after_results
  rfl
theorem ops1_2_v22 (Z : Valuation τ sig (Elt F)) : StableHlo.after hostOps1_2 Z (Proc.devRef .tc main_v22)
    = shapeCast S1x128 (Z (Proc.devRef .tc main_arg10)) shapeCasts_S128_S1x128 := by
  after_results
  rfl

theorem ops2_v25 (Z : Valuation τ sig (Elt F)) : StableHlo.after hostOps2 Z (Proc.devRef .tc main_v25)
    = rel0 (Z (Proc.devRef .tc main_arg11)) := by
  after_results
  rfl
theorem ops2_v27 (Z : Valuation τ sig (Elt F)) : StableHlo.after hostOps2 Z (Proc.devRef .tc main_v27)
    = rel1 (Z (Proc.devRef .tc main_arg11)) := by
  after_results
  rfl

theorem ops3_v29 (Z : Valuation τ sig (Elt F)) : StableHlo.after hostOps3 Z (Proc.devRef .tc main_v29)
    = shapeCast S200000x128 (Z (Proc.devRef .tc main_v28_0)) shapeCasts_S2x100000x128_S200000x128 := by
  after_results
  rfl
theorem ops3_v32 (Z : Valuation τ sig (Elt F)) : StableHlo.after hostOps3 Z (Proc.devRef .tc main_v32)
    = KHost.flat (Z (Proc.devRef .tc main_arg3)) (Z (Proc.devRef .tc main_v1)) := by
  after_results
  rfl

theorem ops3_2_v39 (Z : Valuation τ sig (Elt F)) : StableHlo.after hostOps3_2 Z (Proc.devRef .tc main_v39)
    = KHost.aggr (Z (Proc.devRef .tc main_v3)) (KHost.weigh (Z (Proc.devRef .tc main_v33)) (Z (Proc.devRef .tc main_arg4))) := by
  after_results_simp
  rfl
theorem ops3_2_v40 (Z : Valuation τ sig (Elt F)) : StableHlo.after hostOps3_2 Z (Proc.devRef .tc main_v40)
    = shapeCast S1x128 (Z (Proc.devRef .tc main_arg13)) shapeCasts_S128_S1x128 := by
  after_results
  rfl

theorem ops4_2_v44 (Z : Valuation τ sig (Elt F)) : StableHlo.after hostOps4_2 Z (Proc.devRef .tc main_v44)
    = shapeCast S1x128 (Z (Proc.devRef .tc main_arg15)) shapeCasts_S128_S1x128 := by
  after_results
  rfl
theorem ops4_2_v45 (Z : Valuation τ sig (Elt F)) : StableHlo.after hostOps4_2 Z (Proc.devRef .tc main_v45)
    = shapeCast S1x64 (Z (Proc.devRef .tc main_arg17)) shapeCasts_S64_S1x64 := by
  after_results
  rfl
theorem ops4_2_v46 (Z : Valuation τ sig (Elt F)) : StableHlo.after hostOps4_2 Z (Proc.devRef .tc main_v46)
    = shapeCast S1x32 (Z (Proc.devRef .tc main_arg19)) shapeCasts_S32_S1x32 := by
  after_results
  rfl
theorem ops4_2_v47 (Z : Valuation τ sig (Elt F)) : StableHlo.after hostOps4_2 Z (Proc.devRef .tc main_v47)
    = shapeCast S1x1 (Z (Proc.devRef .tc main_arg21)) shapeCasts_S1_S1x1 := by
  after_results
  rfl

theorem ops5_v49 (Z : Valuation τ sig (Elt F)) : StableHlo.after hostOps5 Z (Proc.devRef .tc main_v49)
    = shapeCast S16384 (Z (Proc.devRef .tc main_v48)) shapeCasts_S16384x1_S16384 := by
  after_results
  rfl

/-! ## The boundaries of this program -/

variable (m : (ℓ : Loc nD τ sig) → Buf (Elt F) ℓ) (ρ : Dev nD → PrngReg) (c : Dev nD)

/-! ### Before the first region -/

theorem w1_v1 : (W1 m ρ c (Proc.devRef .tc main_v1)) = srcOf (m ((c : Thread nD τ).loc main_arg2)) := ops0_v1 (W0 m ρ c)
theorem w1_v3 : (W1 m ρ c (Proc.devRef .tc main_v3)) = dstOf (m ((c : Thread nD τ).loc main_arg2)) := ops0_v3 (W0 m ρ c)
theorem w1_v5 : (W1 m ρ c (Proc.devRef .tc main_v5)) = rel0 (m ((c : Thread nD τ).loc main_arg6)) := ops0_v5 (W0 m ρ c)
theorem w1_v7 : (W1 m ρ c (Proc.devRef .tc main_v7)) = rel1 (m ((c : Thread nD τ).loc main_arg6)) := ops0_v7 (W0 m ρ c)
theorem w1_arg5 : W1 m ρ c (Proc.devRef .tc main_arg5) = m ((c : Thread nD τ).loc main_arg5) := by
  hold
  rfl
theorem w1_arg7 : W1 m ρ c (Proc.devRef .tc main_arg7) = m ((c : Thread nD τ).loc main_arg7) := by
  hold
  rfl

/-! ### Between the first region and the second: the first layer's messages -/

theorem w2_arg3 : W2 m ρ c (Proc.devRef .tc main_arg3) = m ((c : Thread nD τ).loc main_arg3) := by
  reg0
  hold
  rfl
theorem w2_v1 : (W2 m ρ c (Proc.devRef .tc main_v1)) = srcOf (m ((c : Thread nD τ).loc main_arg2)) := by
  reg0
  exact w1_v1 m ρ c
theorem w3_v9 : (W3 m ρ c (Proc.devRef .tc main_v9))
    = shapeCast S200000x128 ((dat0 (V1 m ρ) c).arrAt 4 cfg0.N) shapeCasts_S2x100000x128_S200000x128 :=
  (ops1_v9 (W2 m ρ c)).trans (by rw [W2_arr m ρ c 4])
theorem w3_v12 : (W3 m ρ c (Proc.devRef .tc main_v12))
    = KHost.flat (m ((c : Thread nD τ).loc main_arg3)) (srcOf (m ((c : Thread nD τ).loc main_arg2))) :=
  (ops1_v12 (W2 m ρ c)).trans (by rw [w2_arg3 m ρ c, w2_v1 m ρ c])
theorem w4_v3 : (W4 m ρ c (Proc.devRef .tc main_v3)) = dstOf (m ((c : Thread nD τ).loc main_arg2)) := by
  hold
  hold
  reg0
  exact w1_v3 m ρ c
theorem w4_arg4 : W4 m ρ c (Proc.devRef .tc main_arg4) = m ((c : Thread nD τ).loc main_arg4) := by
  hold
  hold
  reg0
  hold
  rfl
theorem w4_arg8 : W4 m ρ c (Proc.devRef .tc main_arg8) = m ((c : Thread nD τ).loc main_arg8) := by
  hold
  hold
  reg0
  hold
  rfl
theorem w4_arg9 : W4 m ρ c (Proc.devRef .tc main_arg9) = m ((c : Thread nD τ).loc main_arg9) := by
  hold
  hold
  reg0
  hold
  rfl
theorem w4_arg10 : W4 m ρ c (Proc.devRef .tc main_arg10) = m ((c : Thread nD τ).loc main_arg10) := by
  hold
  hold
  reg0
  hold
  rfl
/-- The aggregated messages of the first layer, from the picked rows. -/
theorem w5_v19 : (W5 m ρ c (Proc.devRef .tc main_v19))
    = KHost.aggr (dstOf (m ((c : Thread nD τ).loc main_arg2))) (KHost.weigh (W4 m ρ c (Proc.devRef .tc main_v13)) (m ((c : Thread nD τ).loc main_arg4))) :=
  (ops1_2_v19 (W4 m ρ c)).trans (by rw [w4_v3 m ρ c, w4_arg4 m ρ c])
theorem w5_v20 : (W5 m ρ c (Proc.devRef .tc main_v20)) = shapeCast S1x128 (m ((c : Thread nD τ).loc main_arg8)) shapeCasts_S128_S1x128 :=
  (ops1_2_v20 (W4 m ρ c)).trans (by rw [w4_arg8 m ρ c])
theorem w5_v21 : (W5 m ρ c (Proc.devRef .tc main_v21)) = shapeCast S1x128 (m ((c : Thread nD τ).loc main_arg9)) shapeCasts_S128_S1x128 :=
  (ops1_2_v21 (W4 m ρ c)).trans (by rw [w4_arg9 m ρ c])
theorem w5_v22 : (W5 m ρ c (Proc.devRef .tc main_v22)) = shapeCast S1x128 (m ((c : Thread nD τ).loc main_arg10)) shapeCasts_S128_S1x128 :=
  (ops1_2_v22 (W4 m ρ c)).trans (by rw [w4_arg10 m ρ c])
theorem w5_v8_1 : (W5 m ρ c (Proc.devRef .tc main_v8_1)) = (dat0 (V1 m ρ) c).arrAt 5 cfg0.N := by
  hold
  hold
  hold
  exact W2_arr m ρ c 5

/-! ### Between the second region and the third -/

theorem w6_arg11 : W6 m ρ c (Proc.devRef .tc main_arg11) = m ((c : Thread nD τ).loc main_arg11) := by
  reg1
  hold
  hold
  hold
  reg0
  hold
  rfl
theorem w7_v25 : (W7 m ρ c (Proc.devRef .tc main_v25)) = rel0 (m ((c : Thread nD τ).loc main_arg11)) :=
  (ops2_v25 (W6 m ρ c)).trans (by rw [w6_arg11 m ρ c])
theorem w7_v27 : (W7 m ρ c (Proc.devRef .tc main_v27)) = rel1 (m ((c : Thread nD τ).loc main_arg11)) :=
  (ops2_v27 (W6 m ρ c)).trans (by rw [w6_arg11 m ρ c])
theorem w7_v23 : (W7 m ρ c (Proc.devRef .tc main_v23)) = (dat1 (V5 m ρ) c).arrAt 5 cfg1.N := by
  hold
  exact W6_arr m ρ c 5
theorem w7_arg12 : W7 m ρ c (Proc.devRef .tc main_arg12) = m ((c : Thread nD τ).loc main_arg12) := by
  hold
  reg1
  hold
  hold
  hold
  reg0
  hold
  rfl

/-! ### Between the third region and the fourth: the second layer's messages -/

theorem w8_arg3 : W8 m ρ c (Proc.devRef .tc main_arg3) = m ((c : Thread nD τ).loc main_arg3) := by
  reg2
  hold
  reg1
  hold
  hold
  hold
  reg0
  hold
  rfl
theorem w8_v1 : (W8 m ρ c (Proc.devRef .tc main_v1)) = srcOf (m ((c : Thread nD τ).loc main_arg2)) := by
  reg2
  hold
  reg1
  hold
  hold
  hold
  reg0
  exact w1_v1 m ρ c
theorem w9_v29 : (W9 m ρ c (Proc.devRef .tc main_v29))
    = shapeCast S200000x128 ((dat2 (V7 m ρ) c).arrAt 4 cfg2.N) shapeCasts_S2x100000x128_S200000x128 :=
  (ops3_v29 (W8 m ρ c)).trans (by rw [W8_arr m ρ c 4])
theorem w9_v32 : (W9 m ρ c (Proc.devRef .tc main_v32))
    = KHost.flat (m ((c : Thread nD τ).loc main_arg3)) (srcOf (m ((c : Thread nD τ).loc main_arg2))) :=
  (ops3_v32 (W8 m ρ c)).trans (by rw [w8_arg3 m ρ c, w8_v1 m ρ c])
theorem w10_v3 : (W10 m ρ c (Proc.devRef .tc main_v3)) = dstOf (m ((c : Thread nD τ).loc main_arg2)) := by
  hold
  hold
  reg2
  hold
  reg1
  hold
  hold
  hold
  reg0
  exact w1_v3 m ρ c
theorem w10_arg4 : W10 m ρ c (Proc.devRef .tc main_arg4) = m ((c : Thread nD τ).loc main_arg4) := by
  hold
  hold
  reg2
  hold
  reg1
  hold
  hold
  hold
  reg0
  hold
  rfl
theorem w10_arg13 : W10 m ρ c (Proc.devRef .tc main_arg13) = m ((c : Thread nD τ).loc main_arg13) := by
  hold
  hold
  reg2
  hold
  reg1
  hold
  hold
  hold
  reg0
  hold
  rfl
theorem w11_v39 : (W11 m ρ c (Proc.devRef .tc main_v39))
    = KHost.aggr (dstOf (m ((c : Thread nD τ).loc main_arg2))) (KHost.weigh (W10 m ρ c (Proc.devRef .tc main_v33)) (m ((c : Thread nD τ).loc main_arg4))) :=
  (ops3_2_v39 (W10 m ρ c)).trans (by rw [w10_v3 m ρ c, w10_arg4 m ρ c])
theorem w11_v40 : (W11 m ρ c (Proc.devRef .tc main_v40)) = shapeCast S1x128 (m ((c : Thread nD τ).loc main_arg13)) shapeCasts_S128_S1x128 :=
  (ops3_2_v40 (W10 m ρ c)).trans (by rw [w10_arg13 m ρ c])
theorem w11_v28_1 : (W11 m ρ c (Proc.devRef .tc main_v28_1)) = (dat2 (V7 m ρ) c).arrAt 5 cfg2.N := by
  hold
  hold
  hold
  exact W8_arr m ρ c 5

/-! ### Between the fourth region and the last: the scored pairs' rows -/

theorem w12_arg0 : W12 m ρ c (Proc.devRef .tc main_arg0) = m ((c : Thread nD τ).loc main_arg0) := by
  reg3
  hold
  hold
  hold
  reg2
  hold
  reg1
  hold
  hold
  hold
  reg0
  hold
  rfl
theorem w13_arg1 : W13 m ρ c (Proc.devRef .tc main_arg1) = m ((c : Thread nD τ).loc main_arg1) := by
  hold
  reg3
  hold
  hold
  hold
  reg2
  hold
  reg1
  hold
  hold
  hold
  reg0
  hold
  rfl
theorem w13_v41 : (W13 m ρ c (Proc.devRef .tc main_v41)) = (dat3 (V11 m ρ) c).arrAt 3 cfg3.N := by
  hold
  exact W12_arr m ρ c 3
theorem w14_arg15 : W14 m ρ c (Proc.devRef .tc main_arg15) = m ((c : Thread nD τ).loc main_arg15) := by
  hold
  hold
  reg3
  hold
  hold
  hold
  reg2
  hold
  reg1
  hold
  hold
  hold
  reg0
  hold
  rfl
theorem w14_arg17 : W14 m ρ c (Proc.devRef .tc main_arg17) = m ((c : Thread nD τ).loc main_arg17) := by
  hold
  hold
  reg3
  hold
  hold
  hold
  reg2
  hold
  reg1
  hold
  hold
  hold
  reg0
  hold
  rfl
theorem w14_arg19 : W14 m ρ c (Proc.devRef .tc main_arg19) = m ((c : Thread nD τ).loc main_arg19) := by
  hold
  hold
  reg3
  hold
  hold
  hold
  reg2
  hold
  reg1
  hold
  hold
  hold
  reg0
  hold
  rfl
theorem w14_arg21 : W14 m ρ c (Proc.devRef .tc main_arg21) = m ((c : Thread nD τ).loc main_arg21) := by
  hold
  hold
  reg3
  hold
  hold
  hold
  reg2
  hold
  reg1
  hold
  hold
  hold
  reg0
  hold
  rfl
theorem w15_v44 : (W15 m ρ c (Proc.devRef .tc main_v44)) = shapeCast S1x128 (m ((c : Thread nD τ).loc main_arg15)) shapeCasts_S128_S1x128 :=
  (ops4_2_v44 (W14 m ρ c)).trans (by rw [w14_arg15 m ρ c])
theorem w15_v45 : (W15 m ρ c (Proc.devRef .tc main_v45)) = shapeCast S1x64 (m ((c : Thread nD τ).loc main_arg17)) shapeCasts_S64_S1x64 :=
  (ops4_2_v45 (W14 m ρ c)).trans (by rw [w14_arg17 m ρ c])
theorem w15_v46 : (W15 m ρ c (Proc.devRef .tc main_v46)) = shapeCast S1x32 (m ((c : Thread nD τ).loc main_arg19)) shapeCasts_S32_S1x32 :=
  (ops4_2_v46 (W14 m ρ c)).trans (by rw [w14_arg19 m ρ c])
theorem w15_v47 : (W15 m ρ c (Proc.devRef .tc main_v47)) = shapeCast S1x1 (m ((c : Thread nD τ).loc main_arg21)) shapeCasts_S1_S1x1 :=
  (ops4_2_v47 (W14 m ρ c)).trans (by rw [w14_arg21 m ρ c])
theorem w15_v42 : (W15 m ρ c (Proc.devRef .tc main_v42)) = (W13 m ρ c (Proc.devRef .tc main_v42)) := by
  hold
  hold
  rfl
theorem w15_v43 : (W15 m ρ c (Proc.devRef .tc main_v43)) = (W14 m ρ c (Proc.devRef .tc main_v43)) := by
  hold
  rfl
theorem w15_arg14 : W15 m ρ c (Proc.devRef .tc main_arg14) = m ((c : Thread nD τ).loc main_arg14) := by
  hold
  hold
  hold
  reg3
  hold
  hold
  hold
  reg2
  hold
  reg1
  hold
  hold
  hold
  reg0
  hold
  rfl
theorem w15_arg16 : W15 m ρ c (Proc.devRef .tc main_arg16) = m ((c : Thread nD τ).loc main_arg16) := by
  hold
  hold
  hold
  reg3
  hold
  hold
  hold
  reg2
  hold
  reg1
  hold
  hold
  hold
  reg0
  hold
  rfl
theorem w15_arg18 : W15 m ρ c (Proc.devRef .tc main_arg18) = m ((c : Thread nD τ).loc main_arg18) := by
  hold
  hold
  hold
  reg3
  hold
  hold
  hold
  reg2
  hold
  reg1
  hold
  hold
  hold
  reg0
  hold
  rfl
theorem w15_arg20 : W15 m ρ c (Proc.devRef .tc main_arg20) = m ((c : Thread nD τ).loc main_arg20) := by
  hold
  hold
  hold
  reg3
  hold
  hold
  hold
  reg2
  hold
  reg1
  hold
  hold
  hold
  reg0
  hold
  rfl

/-! ### After the last region -/

theorem w17_v49 : (W17 m ρ c (Proc.devRef .tc main_v49))
    = shapeCast S16384 ((dat4 (V15 m ρ) c).arrAt 10 cfg4.N) shapeCasts_S16384x1_S16384 :=
  (ops5_v49 (W16 m ρ c)).trans (by rw [W16_arr m ρ c 10])

end Cert.KernelIdeal.KFoldA

end
-- ==== Proof.KTakeA.lean ====
/-
  The first layer's row pick: whatever the stretch is entered at, it leaves the named pick of the stacked table at
  the flat row indices, both as it found them.
-/
import proofs.«408798_j72559177499383_1_alg».proof.Proof.Gen.KernelIdeal.Launch
import proofs.«408798_j72559177499383_1_alg».proof.Proof.KHost
import Idealize.ShloMosaic.Lib.StableHlo.Run

noncomputable section

namespace Cert.KernelIdeal.KTakeA

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
set_option maxRecDepth 1000000 in
theorem ops1_1_v13 (Z : Valuation τ sig (Elt F)) : StableHlo.after hostOps1_1 Z (Proc.devRef .tc main_v13)
    = KHost.take2 (Z (Proc.devRef .tc main_v9)) (Z (Proc.devRef .tc main_v12)) := by
  after_results_simp <;> (try simp only [TRef.ofBuf, TRef.toBuf, cast_eq]) <;> rfl

end Cert.KernelIdeal.KTakeA

end
-- ==== Proof.KTakeB.lean ====
/-
  The second layer's row pick: whatever the stretch is entered at, it leaves the named pick of the stacked table at
  the flat row indices, both as it found them.
-/
import proofs.«408798_j72559177499383_1_alg».proof.Proof.Gen.KernelIdeal.Launch
import proofs.«408798_j72559177499383_1_alg».proof.Proof.KHost
import Idealize.ShloMosaic.Lib.StableHlo.Run

noncomputable section

namespace Cert.KernelIdeal.KTakeB

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
set_option maxRecDepth 1000000 in
theorem ops3_1_v33 (Z : Valuation τ sig (Elt F)) : StableHlo.after hostOps3_1 Z (Proc.devRef .tc main_v33)
    = KHost.take2 (Z (Proc.devRef .tc main_v29)) (Z (Proc.devRef .tc main_v32)) := by
  after_results_simp <;> (try simp only [TRef.ofBuf, TRef.toBuf, cast_eq]) <;> rfl

end Cert.KernelIdeal.KTakeB

end
-- ==== Proof.KTakeC.lean ====
/-
  The first scored row of every pair: whatever the stretch is entered at, it leaves the named pick of the node table
  at the first index vector, both as it found them.
-/
import proofs.«408798_j72559177499383_1_alg».proof.Proof.Gen.KernelIdeal.Launch
import proofs.«408798_j72559177499383_1_alg».proof.Proof.KHost
import Idealize.ShloMosaic.Lib.StableHlo.Run

noncomputable section

namespace Cert.KernelIdeal.KTakeC

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
set_option maxRecDepth 1000000 in
theorem ops4_v42 (Z : Valuation τ sig (Elt F)) : StableHlo.after hostOps4 Z (Proc.devRef .tc main_v42)
    = KHost.take1 (Z (Proc.devRef .tc main_v41)) (Z (Proc.devRef .tc main_arg0)) := by
  after_results_simp <;> (try simp only [TRef.ofBuf, TRef.toBuf, cast_eq]) <;> rfl

end Cert.KernelIdeal.KTakeC

end
-- ==== Proof.KTakeD.lean ====
/-
  The second scored row of every pair: whatever the stretch is entered at, it leaves the named pick of the node table
  at the second index vector, both as it found them.
-/
import proofs.«408798_j72559177499383_1_alg».proof.Proof.Gen.KernelIdeal.Launch
import proofs.«408798_j72559177499383_1_alg».proof.Proof.KHost
import Idealize.ShloMosaic.Lib.StableHlo.Run

noncomputable section

namespace Cert.KernelIdeal.KTakeD

open Cert.KernelIdeal Cert.KernelIdeal.Gen Idealize.ShloMosaic Idealize.ShloMosaic.TcCoe Idealize.SL.Sem Idealize.ShloMosaic.StableHlo

variable {F : FTy → Type} [FloatOps F]

set_option maxHeartbeats 4000000 in
set_option maxRecDepth 1000000 in
theorem ops4_1_v43 (Z : Valuation τ sig (Elt F)) : StableHlo.after hostOps4_1 Z (Proc.devRef .tc main_v43)
    = KHost.take1 (Z (Proc.devRef .tc main_v41)) (Z (Proc.devRef .tc main_arg1)) := by
  after_results_simp <;> (try simp only [TRef.ofBuf, TRef.toBuf, cast_eq]) <;> rfl

end Cert.KernelIdeal.KTakeD

end
-- ==== Proof.Net.lean ====
/-
  The network's three stages over an abstract aggregation `agg` (the map that adds the edges' messages into their
  destination nodes): the first layer's node features, the second layer's, and the scores of the picked pairs. Both
  programs' results are stated as these terms; only `agg` is each program's own host operation, and the two agree.
-/
import proofs.«408798_j72559177499383_1_alg».proof.Proof.Spec

noncomputable section

namespace Cert.Spec

open Idealize.ShloMosaic Idealize.ShloMosaic.ValueIdx

/-- The first layer: messages along the edges from the input features, aggregated, plus the root term and the bias,
    then the maximum with zero and the layer normalisation. -/
def feat1 {n E : Nat} (agg : Mat E 128 → Mat n 128) (s : Fin E → Fin n) (r : Fin E → Fin 2) (ω : Row E)
    (x : Mat n 128) (w : Cube 2 128 128) (wo : Mat 128 128) (b g β : Row 128) : Mat n 128 :=
  layer1 (agg (msg x w s r ω)) (mm x wo) b g β

/-- The second layer: the same messages from the first layer's features, plus the root term and the bias. -/
def feat2 {n E : Nat} (agg : Mat E 128 → Mat n 128) (s : Fin E → Fin n) (r : Fin E → Fin 2) (ω : Row E)
    (x : Mat n 128) (w : Cube 2 128 128) (wo : Mat 128 128) (b : Row 128) : Mat n 128 :=
  layer2 (agg (msg x w s r ω)) (mm x wo) b

/-- The scores: the head on the rows of the final features picked by the two index vectors. -/
def score {n B : Nat} (u v : Fin B → Fin n) (x : Mat n 128) (w0 : Mat 256 128) (b0 : Row 128) (w1 : Mat 128 64) (b1 : Row 64)
    (w2 : Mat 64 32) (b2 : Row 32) (ow : Mat 160 1) (ob : Row 1) : Mat B 1 :=
  head (rowsOf x u) (rowsOf x v) w0 b0 w1 b1 w2 b2 ow ob

end Cert.Spec

end
-- ==== Proof.LibRows.lean ====
/-
  Two host operations read at an element, for any extents: a ROW GATHER (`table[idx]` over a rank-2 table: result row `e`
  is the table's row named by start index `e`, read signed and clamped into the table) and a ROW SCATTER-ADD onto a rank-2
  operand (`operand.at[idx].add(updates)`: element `(n, q)` of the result is the operand's plus the sum of the updates'
  `(e, q)` over the update rows `e` whose start index, read signed and not clamped, is `n`; a row landing outside the
  operand contributes nothing).
-/
import Idealize.ShloMosaic.Lib.ValueIdx
import Idealize.ShloMosaic.PureOps.Ideal

noncomputable section

open scoped BigOperators

namespace Cert.LibRows

open Idealize.ShloMosaic Idealize.ShloMosaic.ValueIdx

/-! ## The row gather -/

/-- The start-indices index a result index `(e, q)` reads, whatever the component: row `e` of the index column
    (the result's one batch axis is axis 0, which reads the start indices' axis 0; the index vector's axis holds the
    component, and a start index has one). -/
theorem gather_siIdx {N C E : Nat} (d : GatherDims ⟨2, ![N, C]⟩ ⟨2, ![E, 1]⟩ ⟨2, ![E, C]⟩)
    (hoff : d.offsetDims = [1]) (hsim : d.startIndexMap = [0]) (hivd : d.indexVectorDim = 1)
    (e : Fin E) (q : Fin C) (c : Fin d.startIndexMap.length) :
    d.siIdx (ix2 e q) c = ix2 e (0 : Fin 1) := by
  obtain ⟨od, cd, ob, sb, sm, iv, ss, wf⟩ := d
  dsimp only at hoff hsim hivd c ⊢
  subst hoff hsim hivd
  funext b
  apply Fin.ext
  match b with
  | ⟨0, _⟩ => rfl
  | ⟨1, _⟩ => exact Nat.lt_one_iff.mp c.isLt

/-- Axis 0 of the operand index: the start index of row `e`, read signed and clamped into the table (the axis is
    collapsed, slice size 1: no batching and no offset coordinate). -/
theorem gather_operandIdx_row {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (q : Fin C) :
    (d.operandIdx (ix2 e q) idx (0 : Fin 2)).val = min (idx (ix2 e (0 : Fin 1))).toInt.toNat (N - 1) := by
  have hsl : d.sliceSizes 0 = 1 := d.slice_collapsed 0 (by rw [hcoll]; exact List.mem_singleton.mpr rfl)
  have h0 : (0 : Fin 2) ∈ d.startIndexMap := by rw [hsim]; exact List.mem_singleton.mpr rfl
  have hc : (0 : Fin 2) ∉ d.sKept := fun h => ((d.mem_sKept 0).mp h).1 (by rw [hcoll]; exact List.mem_singleton.mpr rfl)
  have hb : (0 : Fin 2) ∉ d.operandBatchingDims := by rw [hob]; exact List.not_mem_nil
  show d.start (ix2 e q) idx 0 + d.batchCoord (ix2 e q) 0 + d.offCoord (ix2 e q) 0 = _
  rw [d.batchCoord_eq_zero _ _ hb, d.offCoord_eq_zero _ _ hc, Nat.add_zero]
  unfold GatherDims.start
  rw [dif_pos h0, gather_siIdx d hoff hsim hivd, hsl]
  rfl

/-- Axis 1 of the operand index: the result's column (the start index map does not name the axis, it is not a
    batching axis, and it is the one kept axis, read by the result's one offset axis). -/
theorem gather_operandIdx_col {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0])
    (idx : IVec ⟨2, ![E, 1]⟩ w) (e : Fin E) (q : Fin C) :
    (d.operandIdx (ix2 e q) idx (1 : Fin 2)).val = q.val := by
  obtain ⟨od, cd, ob, sb, sm, iv, ss, wf⟩ := d
  dsimp only at hoff hcoll hob hsim
  subst hoff hcoll hob hsim
  have h1 : (1 : Fin 2) ∉ ([0] : List (Fin 2)) := by decide
  simp only [GatherDims.operandIdx]
  rw [GatherDims.batchCoord_eq_zero _ _ _ List.not_mem_nil]
  unfold GatherDims.start GatherDims.offCoord
  rw [dif_neg h1, dif_pos ((GatherDims.mem_sKept _ _).mpr ⟨h1, List.not_mem_nil⟩), Nat.zero_add]
  rfl

/-- THE ROW GATHER: the dimension numbers are the printed ones of `table[idx]` over a rank-2 table with the start
    indices an [E × 1] column (each hypothesis holds of a printed record by `rfl`). -/
theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  match a with
  | ⟨0, _⟩ => exact gather_operandIdx_row d hoff hcoll hob hsim hivd idx e q
  | ⟨1, _⟩ => exact gather_operandIdx_col d hoff hcoll hob hsim idx e q

/-! ## The row scatter-add -/

/-- The scatter-indices index an update index `(e, q')` reads, whatever the component: row `e` of the index column
    (the updates' one scatter axis is axis 0, which reads the scatter indices' axis 0). -/
theorem scatter_siIdx {N C E : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

/-- On axis 0 the window starts at the index word of row `e`, read signed and not clamped. -/
theorem scatter_start_row {N C E w : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx (0 : Fin 2) = (idx (ix2 e (0 : Fin 1))).toInt := by
  have h0 : (0 : Fin 2) ∈ d.scatterDimsToOperandDims := by rw [hsd]; exact List.mem_singleton.mpr rfl
  unfold ScatterDims.start
  rw [dif_pos h0, scatter_siIdx d huw hsd hivd]

/-- On axis 1 it starts at 0: the map does not name that axis. -/
theorem scatter_start_col {N C E w : Nat} (d : ScatterDims ⟨2, ![N, C]⟩ ⟨2, ![E, 1]⟩ ⟨2, ![E, C]⟩)
    (hsd : d.scatterDimsToOperandDims = [0])
    (idx : IVec ⟨2, ![E, 1]⟩ w) (j : (⟨2, ![E, C]⟩ : Shape).Idx) :
    d.start j idx (1 : Fin 2) = 0 := by
  have h1 : (1 : Fin 2) ∉ d.scatterDimsToOperandDims := by
    rw [hsd]; exact (show (1 : Fin 2) ∉ ([0] : List (Fin 2)) by decide)
  unfold ScatterDims.start
  rw [dif_neg h1]

/-- Axis 0 is the inserted axis: no window coordinate there. -/
theorem scatter_window_row {N C E : Nat} (d : ScatterDims ⟨2, ![N, C]⟩ ⟨2, ![E, 1]⟩ ⟨2, ![E, C]⟩)
    (hiw : d.insertedWindowDims = [0]) (j : (⟨2, ![E, C]⟩ : Shape).Idx) :
    d.window j (0 : Fin 2) = 0 := by
  have h0 : (0 : Fin 2) ∉ d.sKept := by
    simp [ScatterDims.sKept, Shape.kept, List.mem_filter, hiw]
  unfold ScatterDims.window
  rw [dif_neg h0]

/-- Axis 1 is the one kept axis, read by the updates' one window axis: its coordinate is the update's column. -/
theorem scatter_window_col {N C E : Nat} (d : ScatterDims ⟨2, ![N, C]⟩ ⟨2, ![E, 1]⟩ ⟨2, ![E, C]⟩)
    (huw : d.updateWindowDims = [1]) (hiw : d.insertedWindowDims = [0]) (e : Fin E) (q' : Fin C) :
    d.window (ix2 e q') (1 : Fin 2) = q'.val := by
  have h1 : (1 : Fin 2) ∈ d.sKept := by
    simp [ScatterDims.sKept, Shape.kept, List.mem_filter, hiw]
  obtain ⟨uw, iw, sd, iv, wf⟩ := d
  dsimp only at huw hiw
  subst huw hiw
  unfold ScatterDims.window
  rw [dif_pos h1]
  rfl

/-- WHERE AN UPDATE LANDS: update `(e, q')` lands at `(n, q)` exactly when its row's index word, read signed, is `n`
    and the columns agree. On axis 0 the landing coordinate is the index word (start) plus 0 (no window coordinate),
    in range exactly when it is some `n` below `N`; on axis 1 it is 0 plus `q'`, always in range. -/
theorem scatter_resultIdx_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (q' : Fin C) (n : Fin N) (q : Fin C) :
    d.resultIdx? (ix2 e q') idx = some (ix2 n q)
      ↔ ((idx (ix2 e (0 : Fin 1))).toInt = (n.val : ℤ) ∧ q' = q) := by
  have hs0 := scatter_start_row d huw hsd hivd idx e q'
  have hs1 := scatter_start_col d hsd idx (ix2 e q')
  have hw0 := scatter_window_row d hiw (ix2 e q')
  have hw1 := scatter_window_col d huw hiw e q'
  have hN : (⟨2, ![N, C]⟩ : Shape).size (0 : Fin 2) = N := rfl
  have hC : (⟨2, ![N, C]⟩ : Shape).size (1 : Fin 2) = C := rfl
  have hn := n.isLt
  have hq' := q'.isLt
  unfold ScatterDims.resultIdx?
  constructor
  · intro h
    split at h
    · next hin =>
      -- in range on both axes: compare the landing index with (n, q) coordinate by coordinate
      have hf := Option.some.inj h
      have c0 : (d.start (ix2 e q') idx 0 + d.window (ix2 e q') 0).toNat = n.val :=
        congrArg (fun f => (f (0 : Fin 2)).val) hf
      have c1 : (d.start (ix2 e q') idx 1 + d.window (ix2 e q') 1).toNat = q.val :=
        congrArg (fun f => (f (1 : Fin 2)).val) hf
      have b0 := hin 0
      rw [hs0, hw0] at c0 b0
      rw [hs1, hw1] at c1
      exact ⟨by omega, Fin.ext (by omega)⟩
    · exact absurd h (by simp)
  · rintro ⟨hi, rfl⟩
    have p0 : 0 ≤ d.start (ix2 e q') idx 0 + d.window (ix2 e q') 0
        ∧ d.start (ix2 e q') idx 0 + d.window (ix2 e q') 0 < (⟨2, ![N, C]⟩ : Shape).size (0 : Fin 2) := by
      rw [hs0, hw0, hi, hN]; omega
    have p1 : 0 ≤ d.start (ix2 e q') idx 1 + d.window (ix2 e q') 1
        ∧ d.start (ix2 e q') idx 1 + d.window (ix2 e q') 1 < (⟨2, ![N, C]⟩ : Shape).size (1 : Fin 2) := by
      rw [hs1, hw1, hC]; omega
    rw [dif_pos (Fin.forall_fin_two.mpr ⟨p0, p1⟩)]
    congr 1
    funext a
    apply Fin.ext
    match a with
    | ⟨0, _⟩ =>
      show (d.start (ix2 e q') idx 0 + d.window (ix2 e q') 0).toNat = n.val
      rw [hs0, hw0, hi]; omega
    | ⟨1, _⟩ =>
      show (d.start (ix2 e q') idx 1 + d.window (ix2 e q') 1).toNat = q'.val
      rw [hs1, hw1]; omega

/-- THE ROW SCATTER-ADD at the ideal instance: the dimension numbers are the printed ones of a segment sum over rows
    (each hypothesis holds of a printed record by `rfl`). -/
theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    (Host.scatterAdd (F := Ideal) (φ := .f32) d x idx upd : (⟨2, ![N, C]⟩ : Shape).Idx → EReal) (ix2 n q)
      = x (ix2 n q)
        + ∑ e ∈ Finset.univ.filter (fun e : Fin E => (idx (ix2 e (0 : Fin 1))).toInt = (n.val : ℤ)), upd (ix2 e q) := by
  -- every update index is (row, column): the landing criterion read at it
  have key : ∀ j : (⟨2, ![E, C]⟩ : Shape).Idx, d.resultIdx? j idx = some (ix2 n q)
      ↔ ((idx (ix2 (j 0) (0 : Fin 1))).toInt = (n.val : ℤ) ∧ j 1 = q) := fun j => by
    have := scatter_resultIdx_iff d huw hiw hsd hivd idx (j 0) (j 1) n q
    rw [congrArg (fun k => d.resultIdx? k idx) (eq_ix2 j)]
    exact this
  -- an update landing at (n, q) sits in column q
  have back : ∀ j : (⟨2, ![E, C]⟩ : Shape).Idx, d.resultIdx? j idx = some (ix2 n q) → ix2 (j 0) q = j := fun j hj => by
    rw [← ((key j).mp hj).2]; exact (eq_ix2 j).symm
  show x (ix2 n q) + ∑ j ∈ Finset.univ.filter (fun j => d.resultIdx? j idx = some (ix2 n q)), upd j = _
  congr 1
  -- so the updates landing at (n, q) are the (e, q) over the rows e whose index word reads n: re-index by the row
  refine Finset.sum_bij' (fun j _ => j 0) (fun e _ => ix2 e q) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e q)).mpr ⟨(Finset.mem_filter.mp he).2, rfl⟩⟩
  · intro j hj
    exact back j (Finset.mem_filter.mp hj).2
  · intro e _
    rfl
  · intro j hj
    exact congrArg upd (back j (Finset.mem_filter.mp hj).2).symm

end Cert.LibRows

end
-- ==== Proof.KMsg.lean ====
/-
  The rows the kernel program picks between its tiled kernels, read at an element.

  * An edge's row of the stacked table is its relation times the number of nodes plus its source. With the relation 0 or 1
    and the source below the number of nodes the sum does not wrap and names a row of the table, so counting from the end
    does nothing, the in-range test holds, the picked row is kept, and the gather's clamp does nothing. Row
    relation · N + source of the stacked table laid out row-major is row source of the relation's table.
  * The picked row scaled by the edge's weight is the edge's message.
  * The rows picked for the scored pairs likewise.
-/
import proofs.«408798_j72559177499383_1_alg».proof.Proof.KHost
import proofs.«408798_j72559177499383_1_alg».proof.Proof.Spec
import proofs.«408798_j72559177499383_1_alg».proof.Proof.LibRows
import Idealize.ShloMosaic.Lib.StableHlo.Predicate

noncomputable section

open scoped BigOperators

namespace Cert.KernelIdeal.KMsg

open Idealize.ShloMosaic Idealize.ShloMosaic.ValueIdx Cert.KernelIdeal Cert.KernelIdeal.Gen

/-! ## Words -/

/-- A 32-bit word whose signed value is a natural number has that number as its unsigned value. -/
theorem toNat_of_toInt {a : BitVec 32} {n : Nat} (h : a.toInt = (n : ℤ)) : a.toNat = n := by
  have hlt := a.isLt
  rw [BitVec.toInt_eq_toNat_cond] at h
  split at h <;> omega

/-- A word with a non-negative signed value is not below zero. -/
theorem slt_zero_of_nonneg {a : BitVec 32} (h : 0 ≤ a.toInt) : IntOp.cmpi .slt a 0#32 = 0#1 := by
  have h0 : (0#32 : BitVec 32).toInt = 0 := by decide
  have hf : a.slt 0#32 = false := by
    unfold BitVec.slt
    rw [h0]
    exact decide_eq_false (by omega)
  show BitVec.ofBool (a.slt 0#32) = 0#1
  rw [hf]
  rfl

/-- A word whose signed value lies between zero and a bound passes the two-sided range test. -/
theorem inrange_one {a hi : BitVec 32} (h0 : 0 ≤ a.toInt) (h1 : a.toInt ≤ hi.toInt) :
    IntOp.andi (IntOp.cmpi .sge a 0#32) (IntOp.cmpi .sle a hi) = 1#1 := by
  have hz : (0#32 : BitVec 32).toInt = 0 := by decide
  have hA : (0#32 : BitVec 32).sle a = true := by
    unfold BitVec.sle
    rw [hz]
    exact decide_eq_true h0
  have hB : a.sle hi = true := by
    unfold BitVec.sle
    exact decide_eq_true h1
  show IntOp.andi (BitVec.ofBool ((0#32 : BitVec 32).sle a)) (BitVec.ofBool (a.sle hi)) = 1#1
  rw [hA, hB]
  rfl

/-- A left fold by "and" from one over ones is one. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- A reduction by "and" from one of an array of ones is one everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## Reads -/

/-- A vector laid along the first axis of a rectangle reads, at (p, c), the vector at p. -/
theorem bcast_vec_rows {α : Type} {n m : Nat} (h : (⟨1, ![n]⟩ : Shape).BroadcastsInDim ⟨2, ![n, m]⟩ ![0])
    (v : (⟨1, ![n]⟩ : Shape).Idx → α) (p : Fin n) (c : Fin m) :
    broadcastInDim ⟨2, ![n, m]⟩ ![0] h v (ix2 p c) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

/-- A column laid across a rectangle's columns reads, at (p, c), the column at (p, 0). -/
theorem bcast_col_cols {α : Type} {n m : Nat} (h : (⟨2, ![n, 1]⟩ : Shape).BroadcastsInDim ⟨2, ![n, m]⟩ ![0, 1])
    (v : (⟨2, ![n, 1]⟩ : Shape).Idx → α) (p : Fin n) (c : Fin m) :
    broadcastInDim ⟨2, ![n, m]⟩ ![0, 1] h v (ix2 p c) = v (ix2 p (0 : Fin 1)) := by
  simp only [broadcastInDim]
  congr 1
  funext a
  match a with
  | ⟨0, _⟩ =>
    apply Fin.ext
    have hp := p.isLt
    split
    · next h1 => change n = 1 at h1; show (0 : Nat) = p.val; omega
    · rfl
  | ⟨1, _⟩ =>
    apply Fin.ext
    split
    · rfl
    · next h1 => exact absurd rfl h1

/-- The stacked table laid out row-major: row r · N + n of the R · N rows is row n of table r. -/
theorem shapeCast_stack_apply {α : Type} {R N C M : Nat} (y : (⟨3, ![R, N, C]⟩ : Shape).Idx → α)
    (h : (⟨3, ![R, N, C]⟩ : Shape).ShapeCasts ⟨2, ![M, C]⟩) (m : Fin M) (r : Fin R) (n : Fin N) (q : Fin C)
    (hm : m.val = r.val * N + n.val) :
    shapeCast ⟨2, ![M, C]⟩ y h (ix2 m q) = y (ix3 r n q) := by
  unfold shapeCast
  congr 1
  apply Shape.reshapeEquiv_eq_of_rowMajor
  rw [Shape.rowMajor_val_three, Shape.rowMajor_val_two]
  show (r.val * N + n.val) * C + q.val = m.val * C + q.val
  rw [hm]

/-! ## The picked rows -/

/-- The rows of the node table picked by index words that name rows of the table. -/
theorem take1_apply (x : FVec Ideal S100000x128 .f32) (idx : IVec S16384 32) (u : Fin 16384 → Fin 100000)
    (hu : ∀ b, (idx (ix1 b)).toInt = ((u b).val : ℤ)) (b : Fin 16384) (q : Fin 128) :
    KHost.take1 x idx (ix2 b q) = x (ix2 (u b) q) := by
  have h9 : (99999#32 : BitVec 32).toInt = 99999 := by decide
  -- counting from the end does nothing
  have hwrap : ∀ p : Fin 16384, KHost.wrap1 idx (ix1 p) = idx (ix1 p) := fun p => by
    show Scalar.select (IntOp.cmpi .slt (idx (ix1 p)) 0#32) _ (idx (ix1 p)) = _
    rw [slt_zero_of_nonneg (by rw [hu p]; omega), select_zero]
  have hcol : ∀ (p : Fin 16384) (z : Fin 1), KHost.col1 idx (ix2 p z) = idx (ix1 p) := fun p z => by
    unfold KHost.col1
    rw [bcast_vec_rows, hwrap]
  -- the in-range test holds of every row
  have hmask : ∀ j, KHost.inb1 idx j = 1#1 := fun j => by
    unfold KHost.inb1
    refine reduce_andi_ones _ _ _ _ (fun i => ?_) rfl j
    obtain ⟨p, z, rfl⟩ : ∃ (p : Fin 16384) (z : Fin 1), i = ix2 p z := ⟨i 0, i 1, eq_ix2 i⟩
    show IntOp.andi (IntOp.cmpi .sge (KHost.col1 idx (ix2 p z)) 0#32)
      (IntOp.cmpi .sle (KHost.col1 idx (ix2 p z)) 99999#32) = 1#1
    rw [hcol]
    have hlt := (u p).isLt
    exact inrange_one (by rw [hu]; omega) (by rw [hu, h9]; omega)
  unfold KHost.take1
  rw [select_apply, bcast_vec_rows, hmask, select_one,
    Cert.LibRows.gather_rows_apply gather_S100000x128_S16384x1_S16384x128_1_0_n_n_0_1_1128 rfl rfl rfl rfl rfl x
      (KHost.col1 idx) b q (by decide)]
  refine congrArg (fun k => x (ix2 k q)) (Fin.ext ?_)
  show min (KHost.col1 idx (ix2 b (0 : Fin 1))).toInt.toNat (100000 - 1) = (u b).val
  rw [hcol, hu]
  have hlt := (u b).isLt
  omega

/-- The rows of the stacked table picked by index words that name rows of the table. -/
theorem take2_apply (y : FVec Ideal S200000x128 .f32) (idx : IVec S640000 32) (m : Fin 640000 → Fin 200000)
    (hm : ∀ e, (idx (ix1 e)).toInt = ((m e).val : ℤ)) (e : Fin 640000) (q : Fin 128) :
    KHost.take2 y idx (ix2 e q) = y (ix2 (m e) q) := by
  have h9 : (199999#32 : BitVec 32).toInt = 199999 := by decide
  -- counting from the end does nothing
  have hwrap : ∀ p : Fin 640000, KHost.wrap2 idx (ix1 p) = idx (ix1 p) := fun p => by
    show Scalar.select (IntOp.cmpi .slt (idx (ix1 p)) 0#32) _ (idx (ix1 p)) = _
    rw [slt_zero_of_nonneg (by rw [hm p]; omega), select_zero]
  have hcol : ∀ (p : Fin 640000) (z : Fin 1), KHost.col2 idx (ix2 p z) = idx (ix1 p) := fun p z => by
    unfold KHost.col2
    rw [bcast_vec_rows, hwrap]
  -- the in-range test holds of every row
  have hmask : ∀ j, KHost.inb2 idx j = 1#1 := fun j => by
    unfold KHost.inb2
    refine reduce_andi_ones _ _ _ _ (fun i => ?_) rfl j
    obtain ⟨p, z, rfl⟩ : ∃ (p : Fin 640000) (z : Fin 1), i = ix2 p z := ⟨i 0, i 1, eq_ix2 i⟩
    show IntOp.andi (IntOp.cmpi .sge (KHost.col2 idx (ix2 p z)) 0#32)
      (IntOp.cmpi .sle (KHost.col2 idx (ix2 p z)) 199999#32) = 1#1
    rw [hcol]
    have hlt := (m p).isLt
    exact inrange_one (by rw [hm]; omega) (by rw [hm, h9]; omega)
  unfold KHost.take2
  rw [select_apply, bcast_vec_rows, hmask, select_one,
    Cert.LibRows.gather_rows_apply gather_S200000x128_S640000x1_S640000x128_1_0_n_n_0_1_1128 rfl rfl rfl rfl rfl y
      (KHost.col2 idx) e q (by decide)]
  refine congrArg (fun k => y (ix2 k q)) (Fin.ext ?_)
  show min (KHost.col2 idx (ix2 e (0 : Fin 1))).toInt.toNat (200000 - 1) = (m e).val
  rw [hcol, hm]
  have hlt := (m e).isLt
  omega

/-! ## The edge's row of the stacked table -/

/-- Relation times the number of nodes plus source, as a number: no wrap, since the relation is 0 or 1 and the source is
    below the number of nodes. -/
theorem flat_toInt (t src : IVec S640000 32) (s : Fin 640000 → Fin 100000) (r : Fin 640000 → Fin 2)
    (hs : ∀ e, (src (ix1 e)).toInt = ((s e).val : ℤ)) (hr : ∀ e, (t (ix1 e)).toInt = ((r e).val : ℤ)) (e : Fin 640000) :
    (KHost.flat t src (ix1 e)).toInt = (((r e).val * 100000 + (s e).val : Nat) : ℤ) := by
  have h1 := toNat_of_toInt (hr e)
  have h2 := toNat_of_toInt (hs e)
  have hr' := (r e).isLt
  have hs' := (s e).isLt
  have hnat : (KHost.flat t src (ix1 e)).toNat = (r e).val * 100000 + (s e).val := by
    show ((t (ix1 e)) * 100000#32 + (src (ix1 e))).toNat = _
    rw [BitVec.toNat_add, BitVec.toNat_mul, h1, h2]
    have hc : (100000#32 : BitVec 32).toNat = 100000 := by decide
    rw [hc]
    omega
  rw [StableHlo.Predicate.toInt_eq_toNat_of_lt (by rw [hnat]; omega), hnat]

/-! ## The messages and the scored rows -/

/-- The weighted picked rows of the stacked table are the messages. -/
theorem kernel_msg (y : Spec.Cube 2 100000 128) (x : Spec.Mat 100000 128) (w : Spec.Cube 2 128 128)
    (hy : ∀ (r : Fin 2) (n : Fin 100000) (q : Fin 128),
      y (ix3 r n q) = ∑ j : Fin 128, x (ix2 n j) * w (ix3 r j q))
    (t src : IVec S640000 32) (ω : Spec.Row 640000) (s : Fin 640000 → Fin 100000) (r : Fin 640000 → Fin 2)
    (hs : ∀ e, (src (ix1 e)).toInt = ((s e).val : ℤ)) (hr : ∀ e, (t (ix1 e)).toInt = ((r e).val : ℤ)) :
    KHost.weigh (F := Ideal)
        (KHost.take2 (shapeCast S200000x128 y shapeCasts_S2x100000x128_S200000x128) (KHost.flat t src)) ω
      = Spec.msg x w s r ω := by
  funext i
  obtain ⟨e, q, rfl⟩ : ∃ (e : Fin 640000) (q : Fin 128), i = ix2 e q := ⟨i 0, i 1, eq_ix2 i⟩
  -- the row of the stacked table edge e reads
  have hrow : ∀ e' : Fin 640000, (r e').val * 100000 + (s e').val < 200000 := fun e' => by
    have := (r e').isLt
    have := (s e').isLt
    omega
  unfold KHost.weigh
  rw [mulf_apply, bcast_col_cols, bcast_vec_rows,
    take2_apply _ _ (fun e' => ⟨(r e').val * 100000 + (s e').val, hrow e'⟩) (flat_toInt t src s r hs hr) e q,
    shapeCast_stack_apply y _ _ (r e) (s e) q rfl, hy]
  rfl

/-- The rows picked for the scored pairs. -/
theorem kernel_rows (x : Spec.Mat 100000 128) (idx : IVec S16384 32) (u : Fin 16384 → Fin 100000)
    (hu : ∀ b, (idx (ix1 b)).toInt = ((u b).val : ℤ)) :
    KHost.take1 (F := Ideal) x idx = Spec.rowsOf x u := by
  funext i
  obtain ⟨b, q, rfl⟩ : ∃ (b : Fin 16384) (q : Fin 128), i = ix2 b q := ⟨i 0, i 1, eq_ix2 i⟩
  exact take1_apply x idx u hu b q

end Cert.KernelIdeal.KMsg

end
-- ==== Proof.RegionNT.lean ====
/-
  The node transform (regions 0 and 2 of the kernel program): over blocks of 5000 rows the kernel multiplies
  the feature block by the two relation matrices and by the root matrix.  Read as whole arrays: the stacked
  table y(r, n, q) is the sum over j of x(n, j) · W_r(j, q), and the root term is the matrix product x · W_root.
-/
import proofs.«408798_j72559177499383_1_alg».proof.Proof.Gen.KernelIdeal.Frame
import proofs.«408798_j72559177499383_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionNT

open Cert.KernelIdeal Cert.KernelIdeal.Gen Idealize.ShloMosaic Idealize.ShloMosaic.TcCoe Idealize.ShloMosaic.ValueIdx
open Idealize.ShloMosaic.Pipeline (Dat)

/-- Entry (r, n, q) of the stacked table of a feature array `x` and the two relation matrices `w0`, `w1`:
    the sum over j of x(n, j) · W_r(j, q). -/
abbrev ytab (x : Spec.Mat 100000 128) (w0 w1 : Spec.Mat 128 128) (r : Fin 2) (n : Fin 100000) (q : Fin 128) : Ideal .f32 :=
  ∑ j : Fin 128, x (ix2 n j) * (if r = 0 then w0 else w1) (ix2 j q)

/-! ## A block of 5000 rows times a 128 × 128 matrix, at an entry -/

/-- The product's left operand is read at the output's row … -/
theorem lhs_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the summation index; -/
theorem lhs_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- the right operand at the summation index … -/
theorem rhs_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and the output's column. -/
theorem rhs_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Into the zero accumulator the block product at (p, q) is the sum over j of x(p, j) · w(j, q). -/
theorem mm_block (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ j : Fin 128, x (ix2 p j) * w (ix2 j q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The root payload of region 0 at (p, q). -/
theorem pay0_root (x : Vec Ideal S5000x128 .f32) (w : Vec Ideal S128x128 .f32) (p : Fin 5000) (q : Fin 128) :
    k0_pay4 (F := Ideal) x w (ix2 p q) = ∑ j : Fin 128, x (ix2 p j) * w (ix2 j q) := by
  unfold k0_pay4 k0_pay1
  exact mm_block _ _ p q

/-- The root payload of region 2 at (p, q). -/
theorem pay2_root (x : Vec Ideal S5000x128 .f32) (w : Vec Ideal S128x128 .f32) (p : Fin 5000) (q : Fin 128) :
    k2_pay4 (F := Ideal) x w (ix2 p q) = ∑ j : Fin 128, x (ix2 p j) * w (ix2 j q) := by
  unfold k2_pay4 k2_pay1
  refine (mm_block _ _ p q).trans ?_
  rw [shapeCast_self]
  rfl

/-- The first relation's payload of region 0 at (0, p, q). -/
theorem pay0_y0 (x : Vec Ideal S5000x128 .f32) (w : Vec Ideal S128x128 .f32) (z : Fin 1) (p : Fin 5000) (q : Fin 128) :
    k0_pay2 (F := Ideal) x w (ix3 z p q) = ∑ j : Fin 128, x (ix2 p j) * w (ix2 j q) := by
  unfold k0_pay2 k0_pay1
  refine (shapeCast_addUnit_apply ![5000, 128] _ _ (ix3 z p q)).trans ?_
  refine Eq.trans (congrArg _ (?_ : _ = ix2 p q)) ?_
  · funext a; match a with | ⟨0, _⟩ => rfl | ⟨1, _⟩ => rfl
  refine (mm_block _ _ p q).trans ?_
  rw [shapeCast_self]
  rfl

/-- The second relation's payload of region 0 at (0, p, q). -/
theorem pay0_y1 (x : Vec Ideal S5000x128 .f32) (w : Vec Ideal S128x128 .f32) (z : Fin 1) (p : Fin 5000) (q : Fin 128) :
    k0_pay3 (F := Ideal) x w (ix3 z p q) = ∑ j : Fin 128, x (ix2 p j) * w (ix2 j q) := by
  unfold k0_pay3 k0_pay1
  refine (shapeCast_addUnit_apply ![5000, 128] _ _ (ix3 z p q)).trans ?_
  refine Eq.trans (congrArg _ (?_ : _ = ix2 p q)) ?_
  · funext a; match a with | ⟨0, _⟩ => rfl | ⟨1, _⟩ => rfl
  refine (mm_block _ _ p q).trans ?_
  rw [shapeCast_self]
  rfl

/-- The first relation's payload of region 2 at (0, p, q). -/
theorem pay2_y0 (x : Vec Ideal S5000x128 .f32) (w : Vec Ideal S128x128 .f32) (z : Fin 1) (p : Fin 5000) (q : Fin 128) :
    k2_pay2 (F := Ideal) x w (ix3 z p q) = ∑ j : Fin 128, x (ix2 p j) * w (ix2 j q) := by
  unfold k2_pay2 k2_pay1
  refine (shapeCast_addUnit_apply ![5000, 128] _ _ (ix3 z p q)).trans ?_
  refine Eq.trans (congrArg _ (?_ : _ = ix2 p q)) ?_
  · funext a; match a with | ⟨0, _⟩ => rfl | ⟨1, _⟩ => rfl
  refine (mm_block _ _ p q).trans ?_
  rw [shapeCast_self, shapeCast_self]
  rfl

/-- The second relation's payload of region 2 at (0, p, q). -/
theorem pay2_y1 (x : Vec Ideal S5000x128 .f32) (w : Vec Ideal S128x128 .f32) (z : Fin 1) (p : Fin 5000) (q : Fin 128) :
    k2_pay3 (F := Ideal) x w (ix3 z p q) = ∑ j : Fin 128, x (ix2 p j) * w (ix2 j q) := by
  unfold k2_pay3 k2_pay1
  refine (shapeCast_addUnit_apply ![5000, 128] _ _ (ix3 z p q)).trans ?_
  refine Eq.trans (congrArg _ (?_ : _ = ix2 p q)) ?_
  · funext a; match a with | ⟨0, _⟩ => rfl | ⟨1, _⟩ => rfl
  refine (mm_block _ _ p q).trans ?_
  rw [shapeCast_self, shapeCast_self]
  rfl

/-! ## What the body leaves in its two output blocks, at an entry -/

theorem hz2 : (![0, 0] : Fin 2 → Nat) = fun _ => 0 := funext fun a => by fin_cases a <;> rfl

/-- The root block of region 0 at (p, q): the block of features times the root matrix. -/
theorem out0_root (x0 : Vec Ideal S5000x128 .f32) (x1 x2 x3 : Vec Ideal S128x128 .f32) (p : Fin 5000) (q : Fin 128) :
    out0_5 (F := Ideal) x0 x1 x2 x3 (ix2 p q) = ∑ j : Fin 128, x0 (ix2 p j) * x3 (ix2 j q) := by
  unfold out0_5
  rw [View.canon_unit_zero hz2]
  simp only [View.ld_unit_zero (S := S5000x128) hz2, View.ld_unit_zero (S := S128x128) hz2]
  exact pay0_root x0 x3 p q

/-- The same in region 2. -/
theorem out2_root (x0 : Vec Ideal S5000x128 .f32) (x1 x2 x3 : Vec Ideal S128x128 .f32) (p : Fin 5000) (q : Fin 128) :
    out2_5 (F := Ideal) x0 x1 x2 x3 (ix2 p q) = ∑ j : Fin 128, x0 (ix2 p j) * x3 (ix2 j q) := by
  unfold out2_5
  rw [View.canon_unit_zero hz2]
  simp only [View.ld_unit_zero (S := S5000x128) hz2, View.ld_unit_zero (S := S128x128) hz2]
  exact pay2_root x0 x3 p q

/-! ## The table block: two slabs stored one after the other -/

/-- Entry (0, p, q) of the table block is entry (0, p, q) of the slab stored at leading coordinate 0 … -/
theorem slab0_emb (p : Fin 5000) (q : Fin 128) :
    (ix3 (0 : Fin 2) p q : S2x5000x128.Idx) = r0_2.emb (ix3 (0 : Fin 1) p q) := by
  funext a; apply Fin.ext; rw [Rect.emb_apply]
  match a with
  | ⟨0, _⟩ => show (0 : ℕ) = 0 + 1 * 0; omega
  | ⟨1, _⟩ => show p.val = 0 + 1 * p.val; omega
  | ⟨2, _⟩ => show q.val = 0 + 1 * q.val; omega

/-- … and entry (1, p, q) is entry (0, p, q) of the slab stored at leading coordinate 1. -/
theorem slab1_emb (p : Fin 5000) (q : Fin 128) :
    (ix3 (1 : Fin 2) p q : S2x5000x128.Idx) = r0_3.emb (ix3 (0 : Fin 1) p q) := by
  funext a; apply Fin.ext; rw [Rect.emb_apply]
  match a with
  | ⟨0, _⟩ => show (1 : ℕ) = 1 + 1 * 0; omega
  | ⟨1, _⟩ => show p.val = 0 + 1 * p.val; omega
  | ⟨2, _⟩ => show q.val = 0 + 1 * q.val; omega

/-- The two slabs read back: relation r's slab at (r, p, q). -/
theorem canon_slabs (w1 w0 : Vec Ideal S1x5000x128 .f32) (r : Fin 2) (p : Fin 5000) (q : Fin 128) :
    View.canon [(⟨r0_3, w1⟩ : View.Piece (Elt Ideal) S2x5000x128 .f32), ⟨r0_2, w0⟩] (ix3 r p q)
      = if r = 0 then w0 (ix3 (0 : Fin 1) p q) else w1 (ix3 (0 : Fin 1) p q) := by
  have hr : r = 0 ∨ r = 1 := by
    rcases r with ⟨v, hv⟩
    have : v = 0 ∨ v = 1 := by omega
    rcases this with rfl | rfl
    · exact Or.inl rfl
    · exact Or.inr rfl
  rcases hr with rfl | rfl
  · have hn : (ix3 (0 : Fin 2) p q : S2x5000x128.Idx) ∉ r0_3.set := fun h => by
      have h1 : (1 : ℕ) ≤ 0 := (Rect.mem_set_unit.mp h 0).1
      omega
    rw [if_pos rfl, View.canon_cons_of_not_mem (⟨r0_3, w1⟩ : View.Piece (Elt Ideal) S2x5000x128 .f32) [⟨r0_2, w0⟩] hn, slab0_emb p q, View.canon_cons_emb]
  · rw [if_neg (by decide), slab1_emb p q, View.canon_cons_emb]

/-- The table block of region 0 at (r, p, q): the block of features times relation r's matrix. -/
theorem out0_y (x0 : Vec Ideal S5000x128 .f32) (x1 x2 x3 : Vec Ideal S128x128 .f32) (r : Fin 2) (p : Fin 5000) (q : Fin 128) :
    out0_4 (F := Ideal) x0 x1 x2 x3 (ix3 r p q) = ∑ j : Fin 128, x0 (ix2 p j) * (if r = 0 then x1 else x2) (ix2 j q) := by
  unfold out0_4
  simp only [View.ld_unit_zero (S := S5000x128) hz2, View.ld_unit_zero (S := S128x128) hz2]
  refine (canon_slabs _ _ r p q).trans ?_
  by_cases h : r = 0
  · rw [if_pos h, if_pos h]; exact pay0_y0 x0 x1 0 p q
  · rw [if_neg h, if_neg h]; exact pay0_y1 x0 x2 0 p q

/-- The same in region 2. -/
theorem out2_y (x0 : Vec Ideal S5000x128 .f32) (x1 x2 x3 : Vec Ideal S128x128 .f32) (r : Fin 2) (p : Fin 5000) (q : Fin 128) :
    out2_4 (F := Ideal) x0 x1 x2 x3 (ix3 r p q) = ∑ j : Fin 128, x0 (ix2 p j) * (if r = 0 then x1 else x2) (ix2 j q) := by
  unfold out2_4
  simp only [View.ld_unit_zero (S := S5000x128) hz2, View.ld_unit_zero (S := S128x128) hz2]
  refine (canon_slabs _ _ r p q).trans ?_
  by_cases h : r = 0
  · rw [if_pos h, if_pos h]; exact pay2_y0 x0 x1 0 p q
  · rw [if_neg h, if_neg h]; exact pay2_y1 x0 x2 0 p q

/-! ## From a block of rows to the whole arrays -/

/-- The stacked table as one array: entry (r, n, q) is `ytab … r n q`. -/
abbrev ytable (x : Spec.Mat 100000 128) (w0 w1 : Spec.Mat 128 128) : Spec.Cube 2 100000 128 :=
  fun i => ytab x w0 w1 ⟨(i 0).val, (i 0).isLt⟩ ⟨(i 1).val, (i 1).isLt⟩ ⟨(i 2).val, (i 2).isLt⟩

/-- Block k of the rows of the product x · w is the product of block k of the rows of x with w: an entry of
    the block product `o`, at the array entry i that sits k blocks of 5000 rows further down. -/
theorem root_at (x : Spec.Mat 100000 128) (w : Spec.Mat 128 128) (xb : Vec Ideal S5000x128 .f32) (wb : Vec Ideal S128x128 .f32)
    (o : Vec Ideal S5000x128 .f32)
    (ho : ∀ (p : Fin 5000) (q : Fin 128), o (ix2 p q) = ∑ j : Fin 128, xb (ix2 p j) * wb (ix2 j q))
    (k : ℕ) (hk : k < 20)
    (hx : ∀ (p : Fin 5000) (j : Fin 128), xb (ix2 p j) = x (ix2 (⟨k * 5000 + p.val, by omega⟩ : Fin 100000) j))
    (hw : ∀ (j q : Fin 128), wb (ix2 j q) = w (ix2 j q))
    (y : S5000x128.Idx) (i : S100000x128.Idx) (hi0 : (i 0).val = k * 5000 + (y 0).val) (hi1 : (i 1).val = (y 1).val) :
    o y = Spec.mm x w i := by
  obtain ⟨p, q, rfl⟩ : ∃ (p : Fin 5000) (q : Fin 128), y = ix2 p q := ⟨y 0, y 1, eq_ix2 y⟩
  rw [ho]
  unfold Spec.mm
  have e0 : (⟨k * 5000 + p.val, by omega⟩ : Fin 100000) = Spec.c0 i := Fin.ext hi0.symm
  have e1 : q = Spec.c1 i := Fin.ext hi1.symm
  refine Finset.sum_congr rfl fun j _ => ?_
  rw [hx, hw, e0, e1]

/-- The same for the stacked table: the leading coordinate (the relation) is the block's own. -/
theorem y_at (x : Spec.Mat 100000 128) (w0 w1 : Spec.Mat 128 128) (xb : Vec Ideal S5000x128 .f32) (b0 b1 : Vec Ideal S128x128 .f32)
    (o : Vec Ideal S2x5000x128 .f32)
    (ho : ∀ (r : Fin 2) (p : Fin 5000) (q : Fin 128),
      o (ix3 r p q) = ∑ j : Fin 128, xb (ix2 p j) * (if r = 0 then b0 else b1) (ix2 j q))
    (k : ℕ) (hk : k < 20)
    (hx : ∀ (p : Fin 5000) (j : Fin 128), xb (ix2 p j) = x (ix2 (⟨k * 5000 + p.val, by omega⟩ : Fin 100000) j))
    (h0 : ∀ (j q : Fin 128), b0 (ix2 j q) = w0 (ix2 j q)) (h1 : ∀ (j q : Fin 128), b1 (ix2 j q) = w1 (ix2 j q))
    (y : S2x5000x128.Idx) (i : S2x100000x128.Idx) (hi0 : (i 0).val = (y 0).val)
    (hi1 : (i 1).val = k * 5000 + (y 1).val) (hi2 : (i 2).val = (y 2).val) :
    o y = ytable x w0 w1 i := by
  obtain ⟨r, p, q, rfl⟩ : ∃ (r : Fin 2) (p : Fin 5000) (q : Fin 128), y = ix3 r p q := ⟨y 0, y 1, y 2, eq_ix3 y⟩
  rw [ho]
  have e0 : (⟨(i 0).val, (i 0).isLt⟩ : Fin 2) = r := Fin.ext hi0
  have e1 : (⟨(i 1).val, (i 1).isLt⟩ : Fin 100000) = ⟨k * 5000 + p.val, by omega⟩ := Fin.ext hi1
  have e2 : (⟨(i 2).val, (i 2).isLt⟩ : Fin 128) = q := Fin.ext hi2
  show _ = ytab x w0 w1 ⟨(i 0).val, (i 0).isLt⟩ ⟨(i 1).val, (i 1).isLt⟩ ⟨(i 2).val, (i 2).isLt⟩
  rw [e0, e1, e2]
  refine Finset.sum_congr rfl fun j _ => ?_
  rw [hx]
  by_cases h : r = 0
  · rw [if_pos h, if_pos h, h0]
  · rw [if_neg h, if_neg h, h1]

/-! ## Region 0 -/

section Region0

variable (V : (c : Dev nD) → (b : Ref sig .tc) → Buf (Elt Ideal) ((c : Thread nD τ).loc b))

/-- The printed index maps over the 20 points: the feature window and the two output windows move one block of rows
    per point, the three matrices stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0
    ∧ win0_5.index t (0 : Fin 2) = t.val ∧ win0_5.index t (1 : Fin 2) = 0 :=
  (by decide +kernel : ∀ t : Fin grid0.N, _)

/-- Point t writes back block t of the rows of x · W_root. -/
theorem flushed0_root (c : Dev nD) (t : Fin cfg0.N) :
    (dat0 (F := Ideal) V c).flushed 5 t
      = ((cfg0.win 5).blk t).view.read (Elt Ideal)
          (Spec.mm (V c main_arg5 : Spec.Mat 100000 128) (V c main_arg7 : Spec.Mat 128 128)) := by
  show (cfg0.win 5).cut (grid0.coords t) ((dat0 V c).after 5 t) = _
  rw [after0_5]
  obtain ⟨a0, a1, b0, b1, c0, c1, d0, d1, e0, e1, e2, f0, f1⟩ := idx_facts0 t
  have ht : t.val < 20 := by have h := t.isLt; have hN : cfg0.N = 20 := N_0; omega
  funext j
  show out0_5 (F := Ideal) (iblk0 V c 0 t) (iblk0 V c 1 t) (iblk0 V c 2 t) (iblk0 V c 3 t) j
      = Spec.mm (V c main_arg5 : Spec.Mat 100000 128) (V c main_arg7 : Spec.Mat 128 128) (((cfg0.win 5).blk t).view.emb j)
  refine root_at (V c main_arg5) (V c main_arg7) (iblk0 V c 0 t) (iblk0 V c 3 t) _
    (out0_root (iblk0 V c 0 t) (iblk0 V c 1 t) (iblk0 V c 2 t) (iblk0 V c 3 t)) t.val ht ?_ ?_ j _ ?_ ?_
  · intro p jj
    show V c main_arg5 (((cfg0.win 0).blk t).view.emb (ix2 p jj)) = _
    refine congrArg _ (funext fun a => Fin.ext ?_)
    match a with
    | ⟨0, _⟩ => show win0_0.index t (0 : Fin 2) * 5000 + 1 * p.val = t.val * 5000 + p.val; rw [a0]; omega
    | ⟨1, _⟩ => show win0_0.index t (1 : Fin 2) * 128 + 1 * jj.val = jj.val; rw [a1]; omega
  · intro jj q
    show V c main_arg7 (((cfg0.win 3).blk t).view.emb (ix2 jj q)) = _
    refine congrArg _ (funext fun a => Fin.ext ?_)
    match a with
    | ⟨0, _⟩ => show win0_3.index t (0 : Fin 2) * 128 + 1 * jj.val = jj.val; rw [d0]; omega
    | ⟨1, _⟩ => show win0_3.index t (1 : Fin 2) * 128 + 1 * q.val = q.val; rw [d1]; omega
  · show win0_5.index t (0 : Fin 2) * 5000 + 1 * (j 0).val = t.val * 5000 + (j 0).val; rw [f0]; omega
  · show win0_5.index t (1 : Fin 2) * 128 + 1 * (j 1).val = (j 1).val; rw [f1]; omega

/-- Point t writes back block t of the rows of the stacked table (both relations' slabs). -/
theorem flushed0_y (c : Dev nD) (t : Fin cfg0.N) :
    (dat0 (F := Ideal) V c).flushed 4 t
      = ((cfg0.win 4).blk t).view.read (Elt Ideal)
          (ytable (V c main_arg5) (V c main_v5) (V c main_v7)) := by
  show (cfg0.win 4).cut (grid0.coords t) ((dat0 V c).after 4 t) = _
  rw [after0_4]
  obtain ⟨a0, a1, b0, b1, c0, c1, d0, d1, e0, e1, e2, f0, f1⟩ := idx_facts0 t
  have ht : t.val < 20 := by have h := t.isLt; have hN : cfg0.N = 20 := N_0; omega
  funext j
  show out0_4 (F := Ideal) (iblk0 V c 0 t) (iblk0 V c 1 t) (iblk0 V c 2 t) (iblk0 V c 3 t) j
      = ytable (V c main_arg5) (V c main_v5) (V c main_v7) (((cfg0.win 4).blk t).view.emb j)
  refine y_at (V c main_arg5) (V c main_v5) (V c main_v7) (iblk0 V c 0 t) (iblk0 V c 1 t) (iblk0 V c 2 t) _
    (out0_y (iblk0 V c 0 t) (iblk0 V c 1 t) (iblk0 V c 2 t) (iblk0 V c 3 t)) t.val ht ?_ ?_ ?_ j _ ?_ ?_ ?_
  · intro p jj
    show V c main_arg5 (((cfg0.win 0).blk t).view.emb (ix2 p jj)) = _
    refine congrArg _ (funext fun a => Fin.ext ?_)
    match a with
    | ⟨0, _⟩ => show win0_0.index t (0 : Fin 2) * 5000 + 1 * p.val = t.val * 5000 + p.val; rw [a0]; omega
    | ⟨1, _⟩ => show win0_0.index t (1 : Fin 2) * 128 + 1 * jj.val = jj.val; rw [a1]; omega
  · intro jj q
    show V c main_v5 (((cfg0.win 1).blk t).view.emb (ix2 jj q)) = _
    refine congrArg _ (funext fun a => Fin.ext ?_)
    match a with
    | ⟨0, _⟩ => show win0_1.index t (0 : Fin 2) * 128 + 1 * jj.val = jj.val; rw [b0]; omega
    | ⟨1, _⟩ => show win0_1.index t (1 : Fin 2) * 128 + 1 * q.val = q.val; rw [b1]; omega
  · intro jj q
    show V c main_v7 (((cfg0.win 2).blk t).view.emb (ix2 jj q)) = _
    refine congrArg _ (funext fun a => Fin.ext ?_)
    match a with
    | ⟨0, _⟩ => show win0_2.index t (0 : Fin 2) * 128 + 1 * jj.val = jj.val; rw [c0]; omega
    | ⟨1, _⟩ => show win0_2.index t (1 : Fin 2) * 128 + 1 * q.val = q.val; rw [c1]; omega
  · show win0_4.index t (0 : Fin 3) * 2 + 1 * (j 0).val = (j 0).val; rw [e0]; omega
  · show win0_4.index t (1 : Fin 3) * 5000 + 1 * (j 1).val = t.val * 5000 + (j 1).val; rw [e1]; omega
  · show win0_4.index t (2 : Fin 3) * 128 + 1 * (j 2).val = (j 2).val; rw [e2]; omega

/-- An entry of the root array is in point t's block iff each coordinate is in the block's range. -/
theorem mem_blk0_root (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v8_1).slice (win0_5.rect t)).set ↔ _
  rw [View.set_slice_whole, Rect.mem_set_unit]
  exact Iff.rfl

/-- An entry of the table is in point t's block iff each coordinate is in the block's range. -/
theorem mem_blk0_y (t : Fin cfg0.N) (i : S2x100000x128.Idx) :
    i ∈ ((cfg0.win 4).blk t).view.set ↔ ∀ a : Fin 3, win0_4.index t a * S2x5000x128.size a ≤ (i a).val
      ∧ (i a).val < win0_4.index t a * S2x5000x128.size a + S2x5000x128.size a := by
  show i ∈ ((View.whole main_v8_0).slice (win0_4.rect t)).set ↔ _
  rw [View.set_slice_whole, Rect.mem_set_unit]
  exact Iff.rfl

/-- Row n of the root array lies in the block of point n / 5000. -/
theorem cover0_root (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨a0, a1, b0, b1, c0, c1, d0, d1, e0, e1, e2, f0, f1⟩ := idx_facts0 t
  refine ⟨t, flush0_5 t, ?_⟩
  rw [mem_blk0_root]
  intro a
  match a with
  | ⟨0, _⟩ =>
    show win0_5.index t (0 : Fin 2) * 5000 ≤ (i 0).val ∧ (i 0).val < win0_5.index t (0 : Fin 2) * 5000 + 5000
    rw [f0, ht]; omega
  | ⟨1, _⟩ =>
    show win0_5.index t (1 : Fin 2) * 128 ≤ (i 1).val ∧ (i 1).val < win0_5.index t (1 : Fin 2) * 128 + 128
    rw [f1]; omega

/-- Row n of the table lies in the block of point n / 5000. -/
theorem cover0_y (i : S2x100000x128.Idx) :
    ∃ t : Fin cfg0.N, (cfg0.win 4).flush t = true ∧ i ∈ ((cfg0.win 4).blk t).view.set := by
  have hi0 : (i 0).val < 2 := (i 0).isLt
  have hi1 : (i 1).val < 100000 := (i 1).isLt
  have hi2 : (i 2).val < 128 := (i 2).isLt
  have hN : cfg0.N = 20 := N_0
  obtain ⟨t, ht⟩ : ∃ t : Fin cfg0.N, t.val = (i 1).val / 5000 := ⟨⟨(i 1).val / 5000, by omega⟩, rfl⟩
  obtain ⟨a0, a1, b0, b1, c0, c1, d0, d1, e0, e1, e2, f0, f1⟩ := idx_facts0 t
  refine ⟨t, flush0_4 t, ?_⟩
  rw [mem_blk0_y]
  intro a
  match a with
  | ⟨0, _⟩ =>
    show win0_4.index t (0 : Fin 3) * 2 ≤ (i 0).val ∧ (i 0).val < win0_4.index t (0 : Fin 3) * 2 + 2
    rw [e0]; omega
  | ⟨1, _⟩ =>
    show win0_4.index t (1 : Fin 3) * 5000 ≤ (i 1).val ∧ (i 1).val < win0_4.index t (1 : Fin 3) * 5000 + 5000
    rw [e1, ht]; omega
  | ⟨2, _⟩ =>
    show win0_4.index t (2 : Fin 3) * 128 ≤ (i 2).val ∧ (i 2).val < win0_4.index t (2 : Fin 3) * 128 + 128
    rw [e2]; omega

/-- After region 0 the root array is x · W_root. -/
theorem region0_root (c : Dev nD) :
    ((Gen.dat0 (F := Ideal) V c).arrAt 5 cfg0.N : Spec.Mat 100000 128)
      = Spec.mm (V c main_arg5 : Spec.Mat 100000 128) (V c main_arg7 : Spec.Mat 128 128) :=
  (dat0 (F := Ideal) V c).arrAt_eq_of_cover 5
    (Spec.mm (V c main_arg5 : Spec.Mat 100000 128) (V c main_arg7 : Spec.Mat 128 128))
    (fun t _ => flushed0_root V c t) cover0_root

/-- After region 0 the stacked table is the feature array times each relation's matrix. -/
theorem region0_table (c : Dev nD) :
    ((Gen.dat0 (F := Ideal) V c).arrAt 4 cfg0.N : Spec.Cube 2 100000 128)
      = ytable (V c main_arg5) (V c main_v5) (V c main_v7) :=
  (dat0 (F := Ideal) V c).arrAt_eq_of_cover 4 (ytable (V c main_arg5) (V c main_v5) (V c main_v7))
    (fun t _ => flushed0_y V c t) cover0_y

/-- Entry (r, n, q) of the table after region 0. -/
theorem region0_y (c : Dev nD) (r : Fin 2) (n : Fin 100000) (q : Fin 128) :
    ((Gen.dat0 (F := Ideal) V c).arrAt 4 cfg0.N : Spec.Cube 2 100000 128) (ix3 r n q)
      = ytab (V c main_arg5) (V c main_v5) (V c main_v7) r n q := by
  rw [region0_table]

end Region0

/-! ## Region 2 -/

section Region2

variable (V : (c : Dev nD) → (b : Ref sig .tc) → Buf (Elt Ideal) ((c : Thread nD τ).loc b))

/-- The printed index maps over the 20 points: the feature window and the two output windows move one block of rows
    per point, the three matrices stay. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 3) = 0 ∧ win2_4.index t (1 : Fin 3) = t.val ∧ win2_4.index t (2 : Fin 3) = 0
    ∧ win2_5.index t (0 : Fin 2) = t.val ∧ win2_5.index t (1 : Fin 2) = 0 :=
  (by decide +kernel : ∀ t : Fin grid2.N, _)

/-- Point t writes back block t of the rows of x · W_root. -/
theorem flushed2_root (c : Dev nD) (t : Fin cfg2.N) :
    (dat2 (F := Ideal) V c).flushed 5 t
      = ((cfg2.win 5).blk t).view.read (Elt Ideal)
          (Spec.mm (V c main_v23 : Spec.Mat 100000 128) (V c main_arg12 : Spec.Mat 128 128)) := by
  show (cfg2.win 5).cut (grid2.coords t) ((dat2 V c).after 5 t) = _
  rw [after2_5]
  obtain ⟨a0, a1, b0, b1, c0, c1, d0, d1, e0, e1, e2, f0, f1⟩ := idx_facts2 t
  have ht : t.val < 20 := by have h := t.isLt; have hN : cfg2.N = 20 := N_2; omega
  funext j
  show out2_5 (F := Ideal) (iblk2 V c 0 t) (iblk2 V c 1 t) (iblk2 V c 2 t) (iblk2 V c 3 t) j
      = Spec.mm (V c main_v23 : Spec.Mat 100000 128) (V c main_arg12 : Spec.Mat 128 128) (((cfg2.win 5).blk t).view.emb j)
  refine root_at (V c main_v23) (V c main_arg12) (iblk2 V c 0 t) (iblk2 V c 3 t) _
    (out2_root (iblk2 V c 0 t) (iblk2 V c 1 t) (iblk2 V c 2 t) (iblk2 V c 3 t)) t.val ht ?_ ?_ j _ ?_ ?_
  · intro p jj
    show V c main_v23 (((cfg2.win 0).blk t).view.emb (ix2 p jj)) = _
    refine congrArg _ (funext fun a => Fin.ext ?_)
    match a with
    | ⟨0, _⟩ => show win2_0.index t (0 : Fin 2) * 5000 + 1 * p.val = t.val * 5000 + p.val; rw [a0]; omega
    | ⟨1, _⟩ => show win2_0.index t (1 : Fin 2) * 128 + 1 * jj.val = jj.val; rw [a1]; omega
  · intro jj q
    show V c main_arg12 (((cfg2.win 3).blk t).view.emb (ix2 jj q)) = _
    refine congrArg _ (funext fun a => Fin.ext ?_)
    match a with
    | ⟨0, _⟩ => show win2_3.index t (0 : Fin 2) * 128 + 1 * jj.val = jj.val; rw [d0]; omega
    | ⟨1, _⟩ => show win2_3.index t (1 : Fin 2) * 128 + 1 * q.val = q.val; rw [d1]; omega
  · show win2_5.index t (0 : Fin 2) * 5000 + 1 * (j 0).val = t.val * 5000 + (j 0).val; rw [f0]; omega
  · show win2_5.index t (1 : Fin 2) * 128 + 1 * (j 1).val = (j 1).val; rw [f1]; omega

/-- Point t writes back block t of the rows of the stacked table (both relations' slabs). -/
theorem flushed2_y (c : Dev nD) (t : Fin cfg2.N) :
    (dat2 (F := Ideal) V c).flushed 4 t
      = ((cfg2.win 4).blk t).view.read (Elt Ideal)
          (ytable (V c main_v23) (V c main_v25) (V c main_v27)) := by
  show (cfg2.win 4).cut (grid2.coords t) ((dat2 V c).after 4 t) = _
  rw [after2_4]
  obtain ⟨a0, a1, b0, b1, c0, c1, d0, d1, e0, e1, e2, f0, f1⟩ := idx_facts2 t
  have ht : t.val < 20 := by have h := t.isLt; have hN : cfg2.N = 20 := N_2; omega
  funext j
  show out2_4 (F := Ideal) (iblk2 V c 0 t) (iblk2 V c 1 t) (iblk2 V c 2 t) (iblk2 V c 3 t) j
      = ytable (V c main_v23) (V c main_v25) (V c main_v27) (((cfg2.win 4).blk t).view.emb j)
  refine y_at (V c main_v23) (V c main_v25) (V c main_v27) (iblk2 V c 0 t) (iblk2 V c 1 t) (iblk2 V c 2 t) _
    (out2_y (iblk2 V c 0 t) (iblk2 V c 1 t) (iblk2 V c 2 t) (iblk2 V c 3 t)) t.val ht ?_ ?_ ?_ j _ ?_ ?_ ?_
  · intro p jj
    show V c main_v23 (((cfg2.win 0).blk t).view.emb (ix2 p jj)) = _
    refine congrArg _ (funext fun a => Fin.ext ?_)
    match a with
    | ⟨0, _⟩ => show win2_0.index t (0 : Fin 2) * 5000 + 1 * p.val = t.val * 5000 + p.val; rw [a0]; omega
    | ⟨1, _⟩ => show win2_0.index t (1 : Fin 2) * 128 + 1 * jj.val = jj.val; rw [a1]; omega
  · intro jj q
    show V c main_v25 (((cfg2.win 1).blk t).view.emb (ix2 jj q)) = _
    refine congrArg _ (funext fun a => Fin.ext ?_)
    match a with
    | ⟨0, _⟩ => show win2_1.index t (0 : Fin 2) * 128 + 1 * jj.val = jj.val; rw [b0]; omega
    | ⟨1, _⟩ => show win2_1.index t (1 : Fin 2) * 128 + 1 * q.val = q.val; rw [b1]; omega
  · intro jj q
    show V c main_v27 (((cfg2.win 2).blk t).view.emb (ix2 jj q)) = _
    refine congrArg _ (funext fun a => Fin.ext ?_)
    match a with
    | ⟨0, _⟩ => show win2_2.index t (0 : Fin 2) * 128 + 1 * jj.val = jj.val; rw [c0]; omega
    | ⟨1, _⟩ => show win2_2.index t (1 : Fin 2) * 128 + 1 * q.val = q.val; rw [c1]; omega
  · show win2_4.index t (0 : Fin 3) * 2 + 1 * (j 0).val = (j 0).val; rw [e0]; omega
  · show win2_4.index t (1 : Fin 3) * 5000 + 1 * (j 1).val = t.val * 5000 + (j 1).val; rw [e1]; omega
  · show win2_4.index t (2 : Fin 3) * 128 + 1 * (j 2).val = (j 2).val; rw [e2]; omega

/-- An entry of the root array is in point t's block iff each coordinate is in the block's range. -/
theorem mem_blk2_root (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v28_1).slice (win2_5.rect t)).set ↔ _
  rw [View.set_slice_whole, Rect.mem_set_unit]
  exact Iff.rfl

/-- An entry of the table is in point t's block iff each coordinate is in the block's range. -/
theorem mem_blk2_y (t : Fin cfg2.N) (i : S2x100000x128.Idx) :
    i ∈ ((cfg2.win 4).blk t).view.set ↔ ∀ a : Fin 3, win2_4.index t a * S2x5000x128.size a ≤ (i a).val
      ∧ (i a).val < win2_4.index t a * S2x5000x128.size a + S2x5000x128.size a := by
  show i ∈ ((View.whole main_v28_0).slice (win2_4.rect t)).set ↔ _
  rw [View.set_slice_whole, Rect.mem_set_unit]
  exact Iff.rfl

/-- Row n of the root array lies in the block of point n / 5000. -/
theorem cover2_root (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by omega⟩, rfl⟩
  obtain ⟨a0, a1, b0, b1, c0, c1, d0, d1, e0, e1, e2, f0, f1⟩ := idx_facts2 t
  refine ⟨t, flush2_5 t, ?_⟩
  rw [mem_blk2_root]
  intro a
  match a with
  | ⟨0, _⟩ =>
    show win2_5.index t (0 : Fin 2) * 5000 ≤ (i 0).val ∧ (i 0).val < win2_5.index t (0 : Fin 2) * 5000 + 5000
    rw [f0, ht]; omega
  | ⟨1, _⟩ =>
    show win2_5.index t (1 : Fin 2) * 128 ≤ (i 1).val ∧ (i 1).val < win2_5.index t (1 : Fin 2) * 128 + 128
    rw [f1]; omega

/-- Row n of the table lies in the block of point n / 5000. -/
theorem cover2_y (i : S2x100000x128.Idx) :
    ∃ t : Fin cfg2.N, (cfg2.win 4).flush t = true ∧ i ∈ ((cfg2.win 4).blk t).view.set := by
  have hi0 : (i 0).val < 2 := (i 0).isLt
  have hi1 : (i 1).val < 100000 := (i 1).isLt
  have hi2 : (i 2).val < 128 := (i 2).isLt
  have hN : cfg2.N = 20 := N_2
  obtain ⟨t, ht⟩ : ∃ t : Fin cfg2.N, t.val = (i 1).val / 5000 := ⟨⟨(i 1).val / 5000, by omega⟩, rfl⟩
  obtain ⟨a0, a1, b0, b1, c0, c1, d0, d1, e0, e1, e2, f0, f1⟩ := idx_facts2 t
  refine ⟨t, flush2_4 t, ?_⟩
  rw [mem_blk2_y]
  intro a
  match a with
  | ⟨0, _⟩ =>
    show win2_4.index t (0 : Fin 3) * 2 ≤ (i 0).val ∧ (i 0).val < win2_4.index t (0 : Fin 3) * 2 + 2
    rw [e0]; omega
  | ⟨1, _⟩ =>
    show win2_4.index t (1 : Fin 3) * 5000 ≤ (i 1).val ∧ (i 1).val < win2_4.index t (1 : Fin 3) * 5000 + 5000
    rw [e1, ht]; omega
  | ⟨2, _⟩ =>
    show win2_4.index t (2 : Fin 3) * 128 ≤ (i 2).val ∧ (i 2).val < win2_4.index t (2 : Fin 3) * 128 + 128
    rw [e2]; omega

/-- After region 2 the root array is x · W_root. -/
theorem region2_root (c : Dev nD) :
    ((Gen.dat2 (F := Ideal) V c).arrAt 5 cfg2.N : Spec.Mat 100000 128)
      = Spec.mm (V c main_v23 : Spec.Mat 100000 128) (V c main_arg12 : Spec.Mat 128 128) :=
  (dat2 (F := Ideal) V c).arrAt_eq_of_cover 5
    (Spec.mm (V c main_v23 : Spec.Mat 100000 128) (V c main_arg12 : Spec.Mat 128 128))
    (fun t _ => flushed2_root V c t) cover2_root

/-- After region 2 the stacked table is the feature array times each relation's matrix. -/
theorem region2_table (c : Dev nD) :
    ((Gen.dat2 (F := Ideal) V c).arrAt 4 cfg2.N : Spec.Cube 2 100000 128)
      = ytable (V c main_v23) (V c main_v25) (V c main_v27) :=
  (dat2 (F := Ideal) V c).arrAt_eq_of_cover 4 (ytable (V c main_v23) (V c main_v25) (V c main_v27))
    (fun t _ => flushed2_y V c t) cover2_y

/-- Entry (r, n, q) of the table after region 2. -/
theorem region2_y (c : Dev nD) (r : Fin 2) (n : Fin 100000) (q : Fin 128) :
    ((Gen.dat2 (F := Ideal) V c).arrAt 4 cfg2.N : Spec.Cube 2 100000 128) (ix3 r n q)
      = ytab (V c main_v23) (V c main_v25) (V c main_v27) r n q := by
  rw [region2_table]

end Region2

end Cert.KernelIdeal.RegionNT

end
-- ==== Proof.RegionLN.lean ====
/-
  Region 1 of the kernel program: layer normalisation of the rectified sum.

  The region walks the 100000 rows in 20 blocks of 5000. On a block it adds the aggregated messages, the root
  term and the bias row, takes the larger of each entry and zero, centres every row by its mean over the 128
  columns, scales it by the reciprocal root of its variance plus ε, then by the gain row, and shifts it by the
  shift row. Every step is local to a row, so the blocks put side by side are the same function of the whole
  arrays: `Spec.layer1`.
-/
import proofs.«408798_j72559177499383_1_alg».proof.Proof.Gen.KernelIdeal.Frame
import proofs.«408798_j72559177499383_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.RegionLN

open Idealize.ShloMosaic Idealize.ShloMosaic.TcCoe Idealize.ShloMosaic.ValueIdx
open Idealize.ShloMosaic.Pipeline (Dat Cfg Window)
open Cert.KernelIdeal Cert.KernelIdeal.Gen

/-! ## Layout operations read at an index -/

/-- A vector of `a` entries cast to one column reads, at `(p, u)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over `b` columns reads, at `(p, q)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along the columns of a `5000 × 128` block, read at row `p`: the sum of the row's 128 entries. -/
theorem laneSum_apply (src : FVec Ideal S5000x128 .f32) (h : S5000x128.Reduces [1] S5000)
    (hφ : FKind.Formats .f32) (hacc : (0x00000000#32 : BitVec 32) = FKind.add.neutral .f32 hφ) (p : Fin 5000) :
    multiReduction .add [1] S5000 src 0x00000000#32 h hφ hacc (ix1 p) = ∑ k : Fin 128, src (ix2 p k) := by
  refine (Ideal.multiReduction_add_single src 0x00000000#32 h hφ hacc (ix1 p)).trans ?_
  show ∑ k : Fin 128, src (h.lift (ix1 p) k) = ∑ k : Fin 128, src (ix2 p k)
  refine Finset.sum_congr rfl fun k _ => congrArg src ?_
  funext c
  apply Fin.ext
  match c with
  | ⟨0, _⟩ => rfl
  | ⟨1, _⟩ => rfl

/-! ## The payload, stage by stage

The body's one stored value is, in the order the kernel computes it: the rectified sum `rect`; each row's sum over the
128 columns divided by 128, kept as one column (`colMean`), once for the mean and once more, on the squared centred
rows, for the variance; the centred block (`centre`); and the scaling by the reciprocal root, the gain and the shift
(`normK`). -/

/-- The aggregated messages plus the root term plus the bias row, then entry by entry the larger of it and zero. -/
def rect (x0 x1 : FVec Ideal S5000x128 .f32) (x2 : FVec Ideal S1x128 .f32) : FVec Ideal S5000x128 .f32 :=
  maximumf
    (addf (addf (shapeCast S5000x128 x0 shapeCasts_S5000x128_S5000x128) (shapeCast S5000x128 x1 shapeCasts_S5000x128_S5000x128))
      (broadcastTo S5000x128 (shapeCast S1x128 x2 shapeCasts_S1x128_S1x128) broadcasts_S1x128_S5000x128))
    (broadcast S5000x128 (Scalar.ofBits .f32 0x00000000#32))

/-- Every row's sum over the columns, as one column, divided by 128. -/
def colMean (H : FVec Ideal S5000x128 .f32) : FVec Ideal S5000x1 .f32 :=
  divf (shapeCast S5000x1 (multiReduction .add [1] S5000 H 0x00000000#32 reduces_S5000x128_S5000 (.inl rfl) rfl) shapeCasts_S5000_S5000x1)
    (broadcast S5000x1 (Scalar.ofBits .f32 0x43000000#32))

/-- The block with every row's mean taken off. -/
def centre (H : FVec Ideal S5000x128 .f32) : FVec Ideal S5000x128 .f32 :=
  subf H (broadcastTo S5000x128 (colMean H) broadcasts_S5000x1_S5000x128)

/-- The centred block scaled row by row by the reciprocal root of the variance plus ε, then by the gain row, then
    shifted by the shift row. -/
def normK (H : FVec Ideal S5000x128 .f32) (x3 x4 : FVec Ideal S1x128 .f32) : FVec Ideal S5000x128 .f32 :=
  addf
    (mulf
      (mulf (centre H)
        (broadcastTo S5000x128
          (rsqrt (addf (colMean (mulf (centre H) (centre H))) (broadcast S5000x1 (Scalar.ofBits .f32 0x3727C5AC#32))))
          broadcasts_S5000x1_S5000x128))
      (broadcastTo S5000x128 (shapeCast S1x128 x3 shapeCasts_S1x128_S1x128) broadcasts_S1x128_S5000x128))
    (broadcastTo S5000x128 (shapeCast S1x128 x4 shapeCasts_S1x128_S1x128) broadcasts_S1x128_S5000x128)

/-- The printed payload is these stages composed. -/
theorem pay_stages (x0 x1 : FVec Ideal S5000x128 .f32) (x2 x3 x4 : FVec Ideal S1x128 .f32) :
    k1_pay1 (F := Ideal) x0 x1 x2 x3 x4 = normK (rect x0 x1 x2) x3 x4 := rfl

/-- The specification's row mean without its leading zero word. -/
theorem rowMean_eq {a : ℕ} (H : Spec.Mat a 128) (p : Fin a) :
    Spec.rowMean H p = Ideal.div (∑ k : Fin 128, H (ix2 p k)) Spec.w128 := by
  unfold Spec.rowMean Spec.rowSum
  rw [show Spec.zeroW = (0 : EReal) from Ideal.ofBits_zero_f32, zero_add]

/-- The rectified sum is the specification's, whatever row vector the bias window holds. -/
theorem rect_eq (x0 x1 : FVec Ideal S5000x128 .f32) (x2 : FVec Ideal S1x128 .f32) (b : Spec.Row 128)
    (hb : ∀ q : Fin 128, x2 (ix2 (0 : Fin 1) q) = b (ix1 q)) :
    rect x0 x1 x2 = Spec.relu (a := 5000) (Spec.addBias (fun i => x0 i + x1 i) b) := by
  funext j
  obtain ⟨p, q, rfl⟩ : ∃ (p : Fin 5000) (q : Fin 128), j = ix2 p q := ⟨j 0, j 1, eq_ix2 j⟩
  unfold rect
  rw [shapeCast_self, shapeCast_self, shapeCast_self, maximumf_apply, addf_apply, addf_apply,
    broadcastTo_1b_ab_apply, hb]
  rfl

/-- The column of means at row `p` is the specification's mean of row `p`. -/
theorem colMean_apply (H : FVec Ideal S5000x128 .f32) (p : Fin 5000) (u : Fin 1) :
    colMean H (ix2 p u) = Spec.rowMean (a := 5000) H p := by
  rw [rowMean_eq]
  unfold colMean
  rw [divf_apply, shapeCast_a_a1_apply]
  exact congrArg (fun s => Ideal.div s Spec.w128) (laneSum_apply H _ _ _ p)

/-- The centred block at `(p, q)`: the entry less its row's mean. -/
theorem centre_apply (H : FVec Ideal S5000x128 .f32) (p : Fin 5000) (q : Fin 128) :
    centre H (ix2 p q) = H (ix2 p q) - Spec.rowMean (a := 5000) H p := by
  unfold centre
  rw [subf_apply, broadcastTo_a1_ab_apply, colMean_apply]

/-- The column of mean squares of the centred block at row `p` is the specification's variance of row `p`. -/
theorem colVar_apply (H : FVec Ideal S5000x128 .f32) (p : Fin 5000) (u : Fin 1) :
    colMean (mulf (centre H) (centre H)) (ix2 p u) = Spec.rowVar (a := 5000) H p := by
  rw [colMean_apply, rowMean_eq]
  unfold Spec.rowVar
  rw [show Spec.zeroW = (0 : EReal) from Ideal.ofBits_zero_f32, zero_add]
  refine congrArg (fun s => Ideal.div s Spec.w128) (Finset.sum_congr rfl fun k _ => ?_)
  rw [mulf_apply, centre_apply]

/-- The last stage at `(p, q)` is the specification's normalisation of row `p`. -/
theorem normK_apply (H : FVec Ideal S5000x128 .f32) (x3 x4 : FVec Ideal S1x128 .f32) (g β : Spec.Row 128)
    (hg : ∀ q : Fin 128, x3 (ix2 (0 : Fin 1) q) = g (ix1 q))
    (hβ : ∀ q : Fin 128, x4 (ix2 (0 : Fin 1) q) = β (ix1 q)) (p : Fin 5000) (q : Fin 128) :
    normK H x3 x4 (ix2 p q) = Spec.lnorm (a := 5000) H g β (ix2 p q) := by
  unfold normK
  rw [addf_apply, mulf_apply, mulf_apply, centre_apply, broadcastTo_a1_ab_apply, broadcastTo_1b_ab_apply,
    broadcastTo_1b_ab_apply, shapeCast_self, shapeCast_self, hg, hβ]
  show (H (ix2 p q) - Spec.rowMean (a := 5000) H p)
      * Ideal.rsqrt (colMean (mulf (centre H) (centre H)) (ix2 p (0 : Fin 1)) + Ideal.ofBits .f32 0x3727C5AC#32)
      * g (ix1 q) + β (ix1 q) = _
  rw [colVar_apply]
  rfl

/-- THE PAYLOAD of a block is the first layer's function of the block's rows. -/
theorem pay_eq (x0 x1 : FVec Ideal S5000x128 .f32) (x2 x3 x4 : FVec Ideal S1x128 .f32) (b g β : Spec.Row 128)
    (hb : ∀ q : Fin 128, x2 (ix2 (0 : Fin 1) q) = b (ix1 q))
    (hg : ∀ q : Fin 128, x3 (ix2 (0 : Fin 1) q) = g (ix1 q))
    (hβ : ∀ q : Fin 128, x4 (ix2 (0 : Fin 1) q) = β (ix1 q)) :
    k1_pay1 (F := Ideal) x0 x1 x2 x3 x4 = Spec.layer1 (a := 5000) x0 x1 b g β := by
  rw [pay_stages, rect_eq x0 x1 x2 b hb]
  funext j
  obtain ⟨p, q, rfl⟩ : ∃ (p : Fin 5000) (q : Fin 128), j = ix2 p q := ⟨j 0, j 1, eq_ix2 j⟩
  exact normK_apply _ x3 x4 g β hg hβ p q

/-! ## The first layer is local to a row -/

/-- Two pairs of arrays that agree along one row of each give the first layer the same value there, column by column. -/
theorem layer1_row_ix {a a' : ℕ} (agg root : Spec.Mat a 128) (agg' root' : Spec.Mat a' 128) (b g β : Spec.Row 128)
    (p : Fin a) (n : Fin a')
    (hagg : ∀ k : Fin 128, agg (ix2 p k) = agg' (ix2 n k))
    (hroot : ∀ k : Fin 128, root (ix2 p k) = root' (ix2 n k)) (q : Fin 128) :
    Spec.layer1 agg root b g β (ix2 p q) = Spec.layer1 agg' root' b g β (ix2 n q) := by
  have hH : ∀ k : Fin 128, Spec.relu (Spec.addBias (fun i => agg i + root i) b) (ix2 p k)
      = Spec.relu (Spec.addBias (fun i => agg' i + root' i) b) (ix2 n k) := fun k => by
    show max (agg (ix2 p k) + root (ix2 p k) + b (ix1 k)) Spec.zeroW
      = max (agg' (ix2 n k) + root' (ix2 n k) + b (ix1 k)) Spec.zeroW
    rw [hagg, hroot]
  have hM : Spec.rowMean (Spec.relu (Spec.addBias (fun i => agg i + root i) b)) p
      = Spec.rowMean (Spec.relu (Spec.addBias (fun i => agg' i + root' i) b)) n := by
    unfold Spec.rowMean Spec.rowSum
    rw [Finset.sum_congr rfl fun k _ => hH k]
  have hV : Spec.rowVar (Spec.relu (Spec.addBias (fun i => agg i + root i) b)) p
      = Spec.rowVar (Spec.relu (Spec.addBias (fun i => agg' i + root' i) b)) n := by
    unfold Spec.rowVar
    rw [hM, Finset.sum_congr rfl fun k _ => by rw [hH k]]
  show (Spec.relu (Spec.addBias (fun i => agg i + root i) b) (ix2 p q)
        - Spec.rowMean (Spec.relu (Spec.addBias (fun i => agg i + root i) b)) p)
      * Ideal.rsqrt (Spec.rowVar (Spec.relu (Spec.addBias (fun i => agg i + root i) b)) p + Spec.epsLN)
      * g (ix1 q) + β (ix1 q)
    = (Spec.relu (Spec.addBias (fun i => agg' i + root' i) b) (ix2 n q)
        - Spec.rowMean (Spec.relu (Spec.addBias (fun i => agg' i + root' i) b)) n)
      * Ideal.rsqrt (Spec.rowVar (Spec.relu (Spec.addBias (fun i => agg' i + root' i) b)) n + Spec.epsLN)
      * g (ix1 q) + β (ix1 q)
  rw [hH q, hM, hV]

/-- The same at any two indices with one column: the value at `i` of the first pair is the value at `i'` of the second
    when row `i 0` of the first pair is row `i' 0` of the second. -/
theorem layer1_row {a a' : ℕ} (agg root : Spec.Mat a 128) (agg' root' : Spec.Mat a' 128) (b g β : Spec.Row 128)
    (i : (⟨2, ![a, 128]⟩ : Shape).Idx) (i' : (⟨2, ![a', 128]⟩ : Shape).Idx) (hcol : (i 1).val = (i' 1).val)
    (hagg : ∀ k : Fin 128, agg (ix2 (Spec.c0 i) k) = agg' (ix2 (Spec.c0 i') k))
    (hroot : ∀ k : Fin 128, root (ix2 (Spec.c0 i) k) = root' (ix2 (Spec.c0 i') k)) :
    Spec.layer1 agg root b g β i = Spec.layer1 agg' root' b g β i' := by
  have hi : i = ix2 (Spec.c0 i) (Spec.c1 i) := funext fun d => match d with | ⟨0, _⟩ => rfl | ⟨1, _⟩ => rfl
  have hi' : i' = ix2 (Spec.c0 i') (Spec.c1 i) :=
    funext fun d => match d with | ⟨0, _⟩ => rfl | ⟨1, _⟩ => Fin.ext hcol.symm
  calc Spec.layer1 agg root b g β i
      = Spec.layer1 agg root b g β (ix2 (Spec.c0 i) (Spec.c1 i)) := congrArg _ hi
    _ = Spec.layer1 agg' root' b g β (ix2 (Spec.c0 i') (Spec.c1 i)) :=
        layer1_row_ix agg root agg' root' b g β (Spec.c0 i) (Spec.c0 i') hagg hroot (Spec.c1 i)
    _ = Spec.layer1 agg' root' b g β i' := (congrArg _ hi').symm

/-! ## From blocks to the array -/

theorem hz : (![0, 0] : Fin 2 → Nat) = fun _ => 0 :=
  funext fun a => match a with | ⟨0, _⟩ => rfl | ⟨1, _⟩ => rfl

/-- The printed index maps over the 20 grid points: the two row-blocked inputs and the output sit at block `(t, 0)`, the
    three row vectors at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks

variable (V : (c : Dev nD) → (b : Ref sig .tc) → Buf (Elt Ideal) ((c : Thread nD τ).loc b)) (c : Dev nD)

/-- The region's arrays and its windows' blocks at their literal types. -/
abbrev aggArr : Spec.Mat 100000 128 := V c main_v19
abbrev rootArr : Spec.Mat 100000 128 := V c main_v8_1
abbrev biasArr : Spec.Mat 1 128 := V c main_v20
abbrev gainArr : Spec.Mat 1 128 := V c main_v21
abbrev shiftArr : Spec.Mat 1 128 := V c main_v22
abbrev aggBlk (t : Fin cfg1.N) : FVec Ideal S5000x128 .f32 := iblk1 (F := Ideal) V c 0 t
abbrev rootBlk (t : Fin cfg1.N) : FVec Ideal S5000x128 .f32 := iblk1 (F := Ideal) V c 1 t
abbrev biasBlk (t : Fin cfg1.N) : FVec Ideal S1x128 .f32 := iblk1 (F := Ideal) V c 2 t
abbrev gainBlk (t : Fin cfg1.N) : FVec Ideal S1x128 .f32 := iblk1 (F := Ideal) V c 3 t
abbrev shiftBlk (t : Fin cfg1.N) : FVec Ideal S1x128 .f32 := iblk1 (F := Ideal) V c 4 t

/-- Window 0's block at point `t` is rows `5000 t … 5000 t + 4999` of the aggregated messages. -/
theorem aggBlk_apply (t : Fin cfg1.N) (p : Fin 5000) (k : Fin 128) (n : Fin 100000)
    (hn : n.val = t.val * 5000 + p.val) : aggBlk V c t (ix2 p k) = aggArr V c (ix2 n k) := by
  obtain ⟨e0, e1, -⟩ := idx_facts t
  show aggArr V c (((cfg1.win 0).blk t).view.emb (ix2 p k)) = aggArr V c (ix2 n k)
  refine congrArg (aggArr V c) (funext fun a => Fin.ext ?_)
  match a with
  | ⟨0, _⟩ => show win1_0.index t (0 : Fin 2) * 5000 + 1 * p.val = n.val; rw [e0, hn]; omega
  | ⟨1, _⟩ => show win1_0.index t (1 : Fin 2) * 128 + 1 * k.val = k.val; rw [e1]; omega

/-- Window 1's block at point `t` is the same rows of the root term. -/
theorem rootBlk_apply (t : Fin cfg1.N) (p : Fin 5000) (k : Fin 128) (n : Fin 100000)
    (hn : n.val = t.val * 5000 + p.val) : rootBlk V c t (ix2 p k) = rootArr V c (ix2 n k) := by
  obtain ⟨-, -, e0, e1, -⟩ := idx_facts t
  show rootArr V c (((cfg1.win 1).blk t).view.emb (ix2 p k)) = rootArr V c (ix2 n k)
  refine congrArg (rootArr V c) (funext fun a => Fin.ext ?_)
  match a with
  | ⟨0, _⟩ => show win1_1.index t (0 : Fin 2) * 5000 + 1 * p.val = n.val; rw [e0, hn]; omega
  | ⟨1, _⟩ => show win1_1.index t (1 : Fin 2) * 128 + 1 * k.val = k.val; rw [e1]; omega

/-- Windows 2, 3 and 4 hold their whole one-row arrays at every point. -/
theorem biasBlk_apply (t : Fin cfg1.N) (q : Fin 128) :
    biasBlk V c t (ix2 (0 : Fin 1) q) = biasArr V c (ix2 (0 : Fin 1) q) := by
  obtain ⟨-, -, -, -, e0, e1, -⟩ := idx_facts t
  show biasArr V c (((cfg1.win 2).blk t).view.emb (ix2 (0 : Fin 1) q)) = biasArr V c (ix2 (0 : Fin 1) q)
  refine congrArg (biasArr V c) (funext fun a => Fin.ext ?_)
  match a with
  | ⟨0, _⟩ => show win1_2.index t (0 : Fin 2) * 1 + 1 * 0 = 0; rw [e0]
  | ⟨1, _⟩ => show win1_2.index t (1 : Fin 2) * 128 + 1 * q.val = q.val; rw [e1]; omega

theorem gainBlk_apply (t : Fin cfg1.N) (q : Fin 128) :
    gainBlk V c t (ix2 (0 : Fin 1) q) = gainArr V c (ix2 (0 : Fin 1) q) := by
  obtain ⟨-, -, -, -, -, -, e0, e1, -⟩ := idx_facts t
  show gainArr V c (((cfg1.win 3).blk t).view.emb (ix2 (0 : Fin 1) q)) = gainArr V c (ix2 (0 : Fin 1) q)
  refine congrArg (gainArr V c) (funext fun a => Fin.ext ?_)
  match a with
  | ⟨0, _⟩ => show win1_3.index t (0 : Fin 2) * 1 + 1 * 0 = 0; rw [e0]
  | ⟨1, _⟩ => show win1_3.index t (1 : Fin 2) * 128 + 1 * q.val = q.val; rw [e1]; omega

theorem shiftBlk_apply (t : Fin cfg1.N) (q : Fin 128) :
    shiftBlk V c t (ix2 (0 : Fin 1) q) = shiftArr V c (ix2 (0 : Fin 1) q) := by
  obtain ⟨-, -, -, -, -, -, -, -, e0, e1, -⟩ := idx_facts t
  show shiftArr V c (((cfg1.win 4).blk t).view.emb (ix2 (0 : Fin 1) q)) = shiftArr V c (ix2 (0 : Fin 1) q)
  refine congrArg (shiftArr V c) (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- WHAT POINT `t` WRITES BACK is block `t` of the first layer's function of the whole arrays: the payload is that
    function of the block's rows, and the function is local to a row. -/
theorem flushed_eq (b g β : Spec.Row 128)
    (hb : ∀ q : Fin 128, biasArr V c (ix2 (0 : Fin 1) q) = b (ix1 q))
    (hg : ∀ q : Fin 128, gainArr V c (ix2 (0 : Fin 1) q) = g (ix1 q))
    (hβ : ∀ q : Fin 128, shiftArr V c (ix2 (0 : Fin 1) q) = β (ix1 q)) (t : Fin cfg1.N) :
    (dat1 (F := Ideal) V c).flushed 5 t
      = ((cfg1.win 5).blk t).view.read (Elt Ideal) (Spec.layer1 (aggArr V c) (rootArr V c) b g β) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S1x128) hz]
  rw [pay_eq (aggBlk V c t) (rootBlk V c t) (biasBlk V c t) (gainBlk V c t) (shiftBlk V c t) b g β
    (fun q => (biasBlk_apply V c t q).trans (hb q)) (fun q => (gainBlk_apply V c t q).trans (hg q))
    (fun q => (shiftBlk_apply V c t q).trans (hβ q))]
  obtain ⟨-, -, -, -, -, -, -, -, -, -, e0, e1⟩ := idx_facts t
  funext j
  show Spec.layer1 (a := 5000) (aggBlk V c t) (rootBlk V c t) b g β ((cfg1.win 5).xinj (grid1.coords t) j)
    = Spec.layer1 (a := 100000) (aggArr V c) (rootArr V c) b g β (((cfg1.win 5).blk t).view.emb j)
  have hrow : (Spec.c0 (((cfg1.win 5).blk t).view.emb j : (⟨2, ![100000, 128]⟩ : Shape).Idx)).val
      = t.val * 5000 + (Spec.c0 ((cfg1.win 5).xinj (grid1.coords t) j : (⟨2, ![5000, 128]⟩ : Shape).Idx)).val := by
    show win1_5.index t (0 : Fin 2) * 5000 + 1 * (j 0).val = t.val * 5000 + (j 0).val
    rw [e0]; omega
  refine layer1_row (aggBlk V c t) (rootBlk V c t) (aggArr V c) (rootArr V c) b g β _ _ ?_
    (fun k => aggBlk_apply V c t _ k _ hrow) (fun k => rootBlk_apply V c t _ k _ hrow)
  show (j 1).val = win1_5.index t (1 : Fin 2) * 128 + 1 * (j 1).val
  rw [e1]; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v23).slice (win1_5.rect t)).set ↔ _
  rw [View.set_slice_whole, Rect.mem_set_unit]
  exact Iff.rfl

/-- Row `r` of the output lies in the block of point `r / 5000`: the 20 blocks tile the array. -/
theorem covered (i : S100000x128.Idx) :
    ∃ t : Fin cfg1.N, (cfg1.win 5).flush t = true ∧ i ∈ ((cfg1.win 5).blk t).view.set := by
  have h0 : (i 0).val < 100000 := (i 0).isLt
  have h1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

end Blocks

/-- THE OUTPUT ARRAY of region 1 is the first layer's function of the region's input arrays. -/
theorem region1_value
    (V : (c : Dev nD) → (b : Ref sig .tc) → Buf (Elt Ideal) ((c : Thread nD τ).loc b)) (c : Dev nD)
    (b g β : Spec.Row 128)
    (hb : ∀ q : Fin 128, (V c main_v20 : Spec.Mat 1 128) (ix2 0 q) = b (ix1 q))
    (hg : ∀ q : Fin 128, (V c main_v21 : Spec.Mat 1 128) (ix2 0 q) = g (ix1 q))
    (hβ : ∀ q : Fin 128, (V c main_v22 : Spec.Mat 1 128) (ix2 0 q) = β (ix1 q)) :
    ((Gen.dat1 (F := Ideal) V c).arrAt 5 cfg1.N : Spec.Mat 100000 128)
      = Spec.layer1 (V c main_v19) (V c main_v8_1) b g β :=
  (dat1 (F := Ideal) V c).arrAt_eq_of_cover 5 (Spec.layer1 (aggArr V c) (rootArr V c) b g β)
    (fun t _ => flushed_eq V c b g β hb hg hβ t) covered

end Cert.KernelIdeal.RegionLN

end
-- ==== Proof.RegionAdd.lean ====
/-
  Region 3 of the kernel program: the second layer's combine step. Every block of 5000 rows of the output is the
  aggregated messages plus the root term plus the bias row, entry by entry; the twenty blocks tile the 100000 rows,
  so the whole array is `Spec.layer2` of the three arrays the region reads.
-/
import proofs.«408798_j72559177499383_1_alg».proof.Proof.Gen.KernelIdeal.Frame
import proofs.«408798_j72559177499383_1_alg».proof.Proof.Spec
import Idealize.ShloMosaic.Lib.Pipeline.Value
import Idealize.ShloMosaic.Lib.ValueIdx
import Idealize.ShloMosaic.Lib.ValueLayout

noncomputable section

namespace Cert.KernelIdeal.RegionAdd

open Idealize.ShloMosaic Idealize.ShloMosaic.TcCoe Idealize.ShloMosaic.ValueIdx
open Idealize.ShloMosaic.Pipeline (Dat)
open Cert.KernelIdeal Cert.KernelIdeal.Gen

/-! ## The body at an entry -/

/-- The zero offsets of a whole-buffer access. -/
theorem hz : (![0, 0] : Fin 2 → Nat) = fun _ => 0 := funext fun a => by fin_cases a <;> rfl

/-- What the body leaves at row `p`, column `q` of its output block: the two input blocks' entries added, plus the
    bias row's entry of that column. -/
theorem out3_apply (x0 x1 : Vec Ideal S5000x128 .f32) (x2 : Vec Ideal S1x128 .f32) (p : Fin 5000) (q : Fin 128) :
    Gen.out3_3 x0 x1 x2 (ix2 p q) = x0 (ix2 p q) + x1 (ix2 p q) + x2 (ix2 0 q) := by
  unfold Gen.out3_3
  rw [View.canon_unit_zero hz]
  simp only [View.ld_unit_zero (S := S5000x128) hz, View.ld_unit_zero (S := S1x128) hz]
  unfold Gen.k3_pay1
  simp only [shapeCast_self]
  rw [addf_apply, addf_apply]
  refine congrArg (x0 (ix2 p q) + x1 (ix2 p q) + ·) ?_
  exact broadcastTo_apply x2 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- The same at any index of the block: the bias is read at the index's column. -/
theorem out3_at (x0 x1 : Vec Ideal S5000x128 .f32) (x2 : Vec Ideal S1x128 .f32) (y : S5000x128.Idx) :
    Gen.out3_3 x0 x1 x2 y = x0 y + x1 y + x2 (ix2 0 ⟨(y 1).val, (y 1).isLt⟩) := by
  obtain ⟨p, q, rfl⟩ : ∃ (p : Fin 5000) (q : Fin 128), y = ix2 p q := ⟨y 0, y 1, eq_ix2 y⟩
  exact out3_apply x0 x1 x2 p q

/-! ## The blocks' places in the arrays -/

/-- The windows' block indices at point `t`, decided over the twenty points: the three row-blocked windows are at
    block (t, 0), the bias row always at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Point `t`'s output block, computed from the blocks of any three arrays, is block `t` of the second layer's output
    of those arrays: entry (p, q) of block `t` is entry (5000·t + p, q) of each row-blocked array. -/
theorem block_eq (A R : Spec.Mat 100000 128) (B : Spec.Mat 1 128) (b : Spec.Row 128)
    (hb : ∀ q : Fin 128, B (ix2 0 q) = b (ix1 q)) (t : Fin cfg3.N) :
    (cfg3.win 3).cut (grid3.coords t)
        (Gen.out3_3 (((cfg3.win 0).blk t).view.read (Elt Ideal) A) (((cfg3.win 1).blk t).view.read (Elt Ideal) R)
          (((cfg3.win 2).blk t).view.read (Elt Ideal) B))
      = ((cfg3.win 3).blk t).view.read (Elt Ideal) (Spec.layer2 A R b) := by
  obtain ⟨e00, e01, e10, e11, e20, e21, e30, e31⟩ := idx_facts3 t
  have hN : cfg3.N = 20 := N_3
  have ht : t.val < 20 := hN ▸ t.isLt
  funext j
  have hj0 : (j 0).val < 5000 := (j 0).isLt
  have hj1 : (j 1).val < 128 := (j 1).isLt
  show Gen.out3_3 _ _ _ j = _
  refine (out3_at _ _ _ j).trans ?_
  rw [View.read_apply, View.read_apply, View.read_apply, View.read_apply]
  have h0 : ((cfg3.win 0).blk t).view.emb j
      = (ix2 (⟨t.val * 5000 + (j 0).val, by omega⟩ : Fin 100000) (⟨(j 1).val, hj1⟩ : Fin 128) : S100000x128.Idx) := by
    funext a; apply Fin.ext
    match a with
    | ⟨0, _⟩ => show win3_0.index t (0 : Fin 2) * 5000 + 1 * (j 0).val = t.val * 5000 + (j 0).val; rw [e00]; omega
    | ⟨1, _⟩ => show win3_0.index t (1 : Fin 2) * 128 + 1 * (j 1).val = (j 1).val; rw [e01]; omega
  have h1 : ((cfg3.win 1).blk t).view.emb j
      = (ix2 (⟨t.val * 5000 + (j 0).val, by omega⟩ : Fin 100000) (⟨(j 1).val, hj1⟩ : Fin 128) : S100000x128.Idx) := by
    funext a; apply Fin.ext
    match a with
    | ⟨0, _⟩ => show win3_1.index t (0 : Fin 2) * 5000 + 1 * (j 0).val = t.val * 5000 + (j 0).val; rw [e10]; omega
    | ⟨1, _⟩ => show win3_1.index t (1 : Fin 2) * 128 + 1 * (j 1).val = (j 1).val; rw [e11]; omega
  have h3 : ((cfg3.win 3).blk t).view.emb j
      = (ix2 (⟨t.val * 5000 + (j 0).val, by omega⟩ : Fin 100000) (⟨(j 1).val, hj1⟩ : Fin 128) : S100000x128.Idx) := by
    funext a; apply Fin.ext
    match a with
    | ⟨0, _⟩ => show win3_3.index t (0 : Fin 2) * 5000 + 1 * (j 0).val = t.val * 5000 + (j 0).val; rw [e30]; omega
    | ⟨1, _⟩ => show win3_3.index t (1 : Fin 2) * 128 + 1 * (j 1).val = (j 1).val; rw [e31]; omega
  have h2 : ((cfg3.win 2).blk t).view.emb (ix2 (0 : Fin 1) (⟨(j 1).val, hj1⟩ : Fin 128))
      = (ix2 (0 : Fin 1) (⟨(j 1).val, hj1⟩ : Fin 128) : S1x128.Idx) := by
    funext a; apply Fin.ext
    match a with
    | ⟨0, _⟩ => show win3_2.index t (0 : Fin 2) * 1 + 1 * 0 = 0; rw [e20]
    | ⟨1, _⟩ => show win3_2.index t (1 : Fin 2) * 128 + 1 * (j 1).val = (j 1).val; rw [e21]; omega
  rw [h0, h1, h2, h3, hb]
  rfl

/-! ## From the blocks to the array -/

variable (V : (c : Dev nD) → (b : Ref sig .tc) → Buf (Elt Ideal) ((c : Thread nD τ).loc b))

/-- What point `t` writes back is block `t` of the second layer's output of the arrays the region reads. -/
theorem flushed3_eq (c : Dev nD) (b : Spec.Row 128)
    (hb : ∀ q : Fin 128, (V c main_v40 : Spec.Mat 1 128) (ix2 0 q) = b (ix1 q)) (t : Fin cfg3.N) :
    (Gen.dat3 (F := Ideal) V c).flushed 3 t
      = ((cfg3.win 3).blk t).view.read (Elt Ideal) (Spec.layer2 (V c main_v39) (V c main_v28_1) b) := by
  show (cfg3.win 3).cut (grid3.coords t) ((Gen.dat3 (F := Ideal) V c).after 3 t) = _
  rw [Gen.after3_3]
  exact block_eq (V c main_v39) (V c main_v28_1) (V c main_v40) b hb t

/-- An entry of the array lies in point `t`'s output block iff each coordinate lies in the block's range. -/
theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v41).slice (win3_3.rect t)).set ↔ _
  rw [View.set_slice_whole, Rect.mem_set_unit]
  exact Iff.rfl

/-- Row `n` lies in the block of point `n / 5000`: the twenty blocks cover the array. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, e30, e31⟩ := idx_facts3 t
  refine ⟨t, flush3_3 t, ?_⟩
  rw [mem_blk3]
  intro a
  match a with
  | ⟨0, _⟩ =>
    show win3_3.index t (0 : Fin 2) * 5000 ≤ (i 0).val ∧ (i 0).val < win3_3.index t (0 : Fin 2) * 5000 + 5000
    rw [e30, ht]; omega
  | ⟨1, _⟩ =>
    show win3_3.index t (1 : Fin 2) * 128 ≤ (i 1).val ∧ (i 1).val < win3_3.index t (1 : Fin 2) * 128 + 128
    rw [e31]; omega

/-- The array region 3 writes is the second layer's output of the arrays it reads. -/
theorem region3_value (c : Dev nD) (b : Spec.Row 128)
    (hb : ∀ q : Fin 128, (V c main_v40 : Spec.Mat 1 128) (ix2 0 q) = b (ix1 q)) :
    ((Gen.dat3 (F := Ideal) V c).arrAt 3 cfg3.N : Spec.Mat 100000 128)
      = Spec.layer2 (V c main_v39) (V c main_v28_1) b :=
  (Gen.dat3 (F := Ideal) V c).arrAt_eq_of_cover 3 (Spec.layer2 (V c main_v39) (V c main_v28_1) b)
    (fun t _ => flushed3_eq V c b hb t) cover3

end Cert.KernelIdeal.RegionAdd

end
-- ==== Proof.RegionHead.lean ====
/-
  Region 4, the scoring head, on the kernel side. Each of the eight grid points takes a block of 2048 rows of the two
  picked-row arrays u and v and leaves the scoring head of those rows in the same 2048 rows of the output column. The
  head is row-local: row p of the result depends on row p of u and of v only, so the block's result is the block of
  the head of the whole arrays, and the eight blocks fill the 16384 rows.
-/
import proofs.«408798_j72559177499383_1_alg».proof.Proof.Gen.KernelIdeal.Frame
import proofs.«408798_j72559177499383_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.RegionHead

open Cert.KernelIdeal Cert.KernelIdeal.Gen Idealize.ShloMosaic Idealize.ShloMosaic.TcCoe Idealize.SL.Sem
open Idealize.ShloMosaic.ValueIdx
open Idealize.ShloMosaic.Pipeline (Dat)

/-! ## The layout operations of the body, read at an index -/

section Reading
variable {α : Type}

/-- A vector of extent a seen as a column a × 1 reads, at (p, z), the vector at p. -/
theorem column_apply {a : Nat} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column a × 1 spread over b columns reads, at (p, q), the column at p. -/
theorem spread_apply {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Two arrays joined along the columns are the side-by-side array of the specification. -/
theorem cat_apply {a b c n : Nat} (hn : b + c = n) (x : Spec.Mat a b) (y : Spec.Mat a c)
    (h : Shape.Concatenates [(⟨2, ![a, b]⟩ : Shape), ⟨2, ![a, c]⟩] ⟨2, ![a, n]⟩ 1) :
    concatenate ⟨2, ![a, n]⟩ 1 [⟨⟨2, ![a, b]⟩, x⟩, ⟨⟨2, ![a, c]⟩, y⟩] h = Spec.cat hn x y := by
  funext i
  unfold Spec.cat
  split
  · next hq =>
    exact concatenate_pair_apply_left 1 x y h i rfl _ (fun bb => match bb with | ⟨0, _⟩ => rfl | ⟨1, _⟩ => rfl)
  · next hq =>
    exact concatenate_pair_apply_right 1 x y h i rfl rfl _
      (fun bb hb => match bb with | ⟨0, _⟩ => rfl | ⟨1, _⟩ => absurd rfl hb)
      (by show ((i 1).val - b) + b = (i 1).val; omega)

end Reading

/-! ## The arithmetic operations that are not pointwise, read at an index -/

/-- The square root of a vector reads entry by entry. -/
theorem sqrt_apply {s : Shape} {φ : FTy} (x : FVec Ideal s φ) (i : s.Idx) : sqrt x i = Ideal.sqrt (x i) := rfl

/-- The logistic function of a vector reads entry by entry. -/
theorem logistic_apply {s : Shape} {φ : FTy} (x : FVec Ideal s φ) (i : s.Idx) : logistic x i = Ideal.logistic (x i) := rfl

/-- The sum along the columns from the zero word is, at row p, the sum of the row. -/
theorem rowsum_apply {a b : Nat} (src : FVec Ideal ⟨2, ![a, b]⟩ .f32)
    (h : (⟨2, ![a, b]⟩ : Shape).Reduces [1] ⟨1, ![a]⟩) (hφ : FKind.Formats .f32)
    (hacc : @Eq (BitVec FTy.f32.bits) 0x00000000#32 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext cc; apply Fin.ext
  match cc with
  | ⟨0, _⟩ => rfl
  | ⟨1, _⟩ => rfl

/-- The dimension numbers of a rows-by-columns product: the left operand's columns against the right operand's rows. -/
abbrev rowsByCols {a k b : Nat} (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ :=
  ⟨[1], [0], [0], [1], [], [], wf⟩

section Product
variable {a k b : Nat} (wf : DotDims.WF ⟨2, ![a, k]⟩ ⟨2, ![k, b]⟩ ⟨2, ![a, b]⟩ [1] [0] [0] [1] [] [])

theorem lhs_row (i : (⟨2, ![a, b]⟩ : Shape).Idx) (q : (rowsByCols wf).contr.Idx) :
    ((rowsByCols wf).lhsIdx i q 0).val = (i 0).val := by
  unfold DotDims.lhsIdx
  rw [dif_neg (show ¬(0 : Fin (⟨2, ![a, k]⟩ : Shape).rank) ∈ (rowsByCols wf).lhsBatch from List.not_mem_nil),
    dif_pos (show (0 : Fin (⟨2, ![a, k]⟩ : Shape).rank) ∈ (rowsByCols wf).lhsNonContracting from List.mem_singleton.mpr rfl)]
  rfl
theorem lhs_col (i : (⟨2, ![a, b]⟩ : Shape).Idx) (q : (rowsByCols wf).contr.Idx) :
    ((rowsByCols wf).lhsIdx i q 1).val = (q ⟨0, Nat.one_pos⟩).val :=
  (rowsByCols wf).lhsIdx_val_of_single rfl i q
theorem rhs_row (i : (⟨2, ![a, b]⟩ : Shape).Idx) (q : (rowsByCols wf).contr.Idx) :
    ((rowsByCols wf).rhsIdx i q 0).val = (q ⟨0, Nat.one_pos⟩).val :=
  (rowsByCols wf).rhsIdx_val_of_single rfl i q
theorem rhs_col (i : (⟨2, ![a, b]⟩ : Shape).Idx) (q : (rowsByCols wf).contr.Idx) :
    ((rowsByCols wf).rhsIdx i q 1).val = (i 1).val := by
  unfold DotDims.rhsIdx
  rw [dif_neg (show ¬(1 : Fin (⟨2, ![k, b]⟩ : Shape).rank) ∈ (rowsByCols wf).rhsBatch from List.not_mem_nil),
    dif_pos (show (1 : Fin (⟨2, ![k, b]⟩ : Shape).rank) ∈ (rowsByCols wf).rhsNonContracting from List.mem_singleton.mpr rfl)]
  rfl

/-- A rows-by-columns product into the zero array is, at (p, q), the sum over j of left (p, j) times right (j, q). -/
theorem product_apply {φ₁ φ₂ : FTy} (lhs : FVec Ideal ⟨2, ![a, k]⟩ φ₁) (rhs : FVec Ideal ⟨2, ![k, b]⟩ φ₂)
    (p : Fin a) (q : Fin b) :
    matmul (rowsByCols wf) none lhs rhs (constant (F := Ideal) ⟨2, ![a, b]⟩ .f32 0x00000000#32) (ix2 p q)
      = ∑ j : Fin k, lhs (ix2 p j) * rhs (ix2 j q) := by
  simp only [matmul]
  rw [Ideal.matmul_constant_zero_apply, ← Equiv.sum_comp (contrEquiv1 (rowsByCols wf) k rfl rfl).symm]
  refine Finset.sum_congr rfl fun j _ => ?_
  have hj := contrEquiv1_symm_val (rowsByCols wf) k rfl rfl j
  have el : (rowsByCols wf).lhsIdx (ix2 p q) ((contrEquiv1 (rowsByCols wf) k rfl rfl).symm j) = ix2 p j :=
    funext fun ax => Fin.ext (by
      match ax with
      | ⟨0, _⟩ => exact lhs_row wf _ _
      | ⟨1, _⟩ => exact (lhs_col wf _ _).trans hj)
  have er : (rowsByCols wf).rhsIdx (ix2 p q) ((contrEquiv1 (rowsByCols wf) k rfl rfl).symm j) = ix2 j q :=
    funext fun ax => Fin.ext (by
      match ax with
      | ⟨0, _⟩ => exact (rhs_row wf _ _).trans hj
      | ⟨1, _⟩ => exact rhs_col wf _ _)
  rw [el, er]

end Product

/-! ## The body's payloads as the specification's layers -/

section Payload

/-- Two arrays joined along the columns, read at (p, j): the first where j is below its width, else the second. -/
theorem cat_ix {a b c n : Nat} (hn : b + c = n) (x : Spec.Mat a b) (y : Spec.Mat a c)
    (h : Shape.Concatenates [(⟨2, ![a, b]⟩ : Shape), ⟨2, ![a, c]⟩] ⟨2, ![a, n]⟩ 1) (p : Fin a) (j : Fin n) :
    concatenate ⟨2, ![a, n]⟩ 1 [⟨⟨2, ![a, b]⟩, x⟩, ⟨⟨2, ![a, c]⟩, y⟩] h (ix2 p j)
      = if hq : j.val < b then x (ix2 p ⟨j.val, hq⟩) else y (ix2 p ⟨j.val - b, by have := j.isLt; omega⟩) := by
  rw [cat_apply hn x y h]
  rfl

theorem product0 (lhs : FVec Ideal S2048x256 .bf16) (rhs : FVec Ideal S256x128 .bf16) (p : Fin 2048) (q : Fin 128) :
    matmul dot_S2048x256_S256x128_S2048x128_1_0_0_1_n_n none lhs rhs (constant (F := Ideal) S2048x128 .f32 0x00000000#32) (ix2 p q)
      = ∑ j : Fin 256, lhs (ix2 p j) * rhs (ix2 j q) :=
  product_apply dot_S2048x256_S256x128_S2048x128_1_0_0_1_n_n_wf lhs rhs p q

theorem product1 (lhs : FVec Ideal S2048x128 .bf16) (rhs : FVec Ideal S128x64 .bf16) (p : Fin 2048) (q : Fin 64) :
    matmul dot_S2048x128_S128x64_S2048x64_1_0_0_1_n_n none lhs rhs (constant (F := Ideal) S2048x64 .f32 0x00000000#32) (ix2 p q)
      = ∑ j : Fin 128, lhs (ix2 p j) * rhs (ix2 j q) :=
  product_apply dot_S2048x128_S128x64_S2048x64_1_0_0_1_n_n_wf lhs rhs p q

theorem product2 (lhs : FVec Ideal S2048x64 .bf16) (rhs : FVec Ideal S64x32 .bf16) (p : Fin 2048) (q : Fin 32) :
    matmul dot_S2048x64_S64x32_S2048x32_1_0_0_1_n_n none lhs rhs (constant (F := Ideal) S2048x32 .f32 0x00000000#32) (ix2 p q)
      = ∑ j : Fin 64, lhs (ix2 p j) * rhs (ix2 j q) :=
  product_apply dot_S2048x64_S64x32_S2048x32_1_0_0_1_n_n_wf lhs rhs p q

theorem product3 (lhs : FVec Ideal S2048x160 .bf16) (rhs : FVec Ideal S160x1 .bf16) (p : Fin 2048) (q : Fin 1) :
    matmul dot_S2048x160_S160x1_S2048x1_1_0_0_1_n_n none lhs rhs (constant (F := Ideal) S2048x1 .f32 0x00000000#32) (ix2 p q)
      = ∑ j : Fin 160, lhs (ix2 p j) * rhs (ix2 j q) :=
  product_apply dot_S2048x160_S160x1_S2048x1_1_0_0_1_n_n_wf lhs rhs p q

/-- The first payload: the product, entry by entry, of the two blocks' normalised rows. -/
theorem pay_norm_prod (x0 x1 : FVec Ideal S2048x128 .f32) :
    k4_pay4 (F := Ideal) x0 x1 = fun j => Spec.l2n (a := 2048) x0 j * Spec.l2n (a := 2048) x1 j := by
  funext j
  obtain ⟨p, q, rfl⟩ : ∃ (p : Fin 2048) (q : Fin 128), j = ix2 p q := ⟨j 0, j 1, eq_ix2 j⟩
  unfold k4_pay4 k4_pay2 k4_pay3
  simp only [mulf_apply, divf_apply, maximumf_apply, sqrt_apply, broadcast_apply, shapeCast_self, spread_apply,
    column_apply]
  rw [rowsum_apply (mulf x0 x0) reduces_S2048x128_S2048 _ _ p, rowsum_apply (mulf x1 x1) reduces_S2048x128_S2048 _ _ p]
  simp only [mulf_apply, Spec.l2n, Spec.zeroW, Ideal.ofBits_zero_f32, zero_add]
  rfl

/-- The second payload: the first dense layer of the two blocks side by side, times the second layer's matrix, plus
    its bias (the maximum with zero comes in the third payload). -/
theorem pay_hidden (x0 x1 : FVec Ideal S2048x128 .f32) (x2 : FVec Ideal S256x128 .f32) (x3 : FVec Ideal S1x128 .f32)
    (x4 : FVec Ideal S128x64 .f32) (x5 : FVec Ideal S1x64 .f32) (b0 : Spec.Row 128) (b1 : Spec.Row 64)
    (h0 : ∀ q : Fin 128, x3 (ix2 (0 : Fin 1) q) = b0 (ix1 q)) (h1 : ∀ q : Fin 64, x5 (ix2 (0 : Fin 1) q) = b1 (ix1 q)) :
    k4_pay5 (F := Ideal) x0 x1 x2 x3 x4 x5
      = Spec.addBias (Spec.mm (Spec.dense (Spec.cat (n := 256) rfl x0 x1) x2 b0) x4) b1 := by
  funext j
  obtain ⟨p, q, rfl⟩ : ∃ (p : Fin 2048) (q : Fin 64), j = ix2 p q := ⟨j 0, j 1, eq_ix2 j⟩
  unfold k4_pay5 k4_pay2 k4_pay3
  simp only [addf_apply, maximumf_apply, truncf_apply, broadcast_apply, shapeCast_self, product0, product1,
    broadcastTo_1b_ab_apply, cat_apply (show 128 + 128 = 256 from rfl), h0, h1]
  rfl

/-- The third payload: the rest of the head, from the normalised product and the second layer before its maximum. -/
theorem pay_score (v20 : FVec Ideal S2048x128 .f32) (v39 : FVec Ideal S2048x64 .f32) (x6 : FVec Ideal S64x32 .f32)
    (x7 : FVec Ideal S1x32 .f32) (x8 : FVec Ideal S160x1 .f32) (x9 : FVec Ideal S1x1 .f32)
    (b2 : Spec.Row 32) (ob : Spec.Row 1)
    (h2 : ∀ q : Fin 32, x7 (ix2 (0 : Fin 1) q) = b2 (ix1 q)) (h3 : ∀ q : Fin 1, x9 (ix2 (0 : Fin 1) q) = ob (ix1 q)) :
    k4_pay1 (F := Ideal) v20 v39 x6 x7 x8 x9
      = fun i => Ideal.logistic (Spec.addBias (Spec.mm (Spec.cat (n := 160) rfl v20
          (Spec.dense (Spec.relu v39) x6 b2)) x8) ob i) := by
  funext j
  obtain ⟨p, q, rfl⟩ : ∃ (p : Fin 2048) (q : Fin 1), j = ix2 p q := ⟨j 0, j 1, eq_ix2 j⟩
  unfold k4_pay1
  simp only [logistic_apply, addf_apply, maximumf_apply, truncf_apply, broadcast_apply, shapeCast_self, product2,
    product3, broadcastTo_1b_ab_apply, cat_ix (show 128 + 32 = 160 from rfl), h2, h3]
  rfl

theorem zero_offsets : (![0, 0] : Fin 2 → Nat) = fun _ => 0 := funext fun a => by fin_cases a <;> rfl

/-- What the body leaves in the output window's buffer is the scoring head of the blocks it loaded. -/
theorem block_head (x0 x1 : FVec Ideal S2048x128 .f32) (x2 : FVec Ideal S256x128 .f32) (x3 : FVec Ideal S1x128 .f32)
    (x4 : FVec Ideal S128x64 .f32) (x5 : FVec Ideal S1x64 .f32) (x6 : FVec Ideal S64x32 .f32)
    (x7 : FVec Ideal S1x32 .f32) (x8 : FVec Ideal S160x1 .f32) (x9 : FVec Ideal S1x1 .f32)
    (b0 : Spec.Row 128) (b1 : Spec.Row 64) (b2 : Spec.Row 32) (ob : Spec.Row 1)
    (h0 : ∀ q : Fin 128, x3 (ix2 (0 : Fin 1) q) = b0 (ix1 q)) (h1 : ∀ q : Fin 64, x5 (ix2 (0 : Fin 1) q) = b1 (ix1 q))
    (h2 : ∀ q : Fin 32, x7 (ix2 (0 : Fin 1) q) = b2 (ix1 q)) (h3 : ∀ q : Fin 1, x9 (ix2 (0 : Fin 1) q) = ob (ix1 q)) :
    out4_10 (F := Ideal) x0 x1 x2 x3 x4 x5 x6 x7 x8 x9 = Spec.head (a := 2048) x0 x1 x2 b0 x4 b1 x6 b2 x8 ob := by
  unfold out4_10
  rw [View.canon_unit_zero zero_offsets]
  simp only [View.ld_unit_zero (S := S2048x128) zero_offsets, View.ld_unit_zero (S := S256x128) zero_offsets,
    View.ld_unit_zero (S := S1x128) zero_offsets, View.ld_unit_zero (S := S128x64) zero_offsets,
    View.ld_unit_zero (S := S1x64) zero_offsets, View.ld_unit_zero (S := S64x32) zero_offsets,
    View.ld_unit_zero (S := S1x32) zero_offsets, View.ld_unit_zero (S := S160x1) zero_offsets,
    View.ld_unit_zero (S := S1x1) zero_offsets]
  rw [pay_norm_prod x0 x1, pay_hidden x0 x1 x2 x3 x4 x5 b0 b1 h0 h1, pay_score _ _ x6 x7 x8 x9 b2 ob h2 h3]
  rfl

end Payload

/-! ## The head is row-local: row p of each layer depends on row p of its operand only -/

section RowLocal
variable {a a' : Nat}

theorem mm_row {k b : Nat} (x : Spec.Mat a k) (x' : Spec.Mat a' k) (w : Spec.Mat k b) (p : Fin a) (p' : Fin a')
    (h : ∀ j : Fin k, x (ix2 p j) = x' (ix2 p' j)) (q : Fin b) :
    Spec.mm x w (ix2 p q) = Spec.mm x' w (ix2 p' q) := by
  show ∑ j : Fin k, x (ix2 p j) * w (ix2 j q) = ∑ j : Fin k, x' (ix2 p' j) * w (ix2 j q)
  simp only [h]

theorem addBias_row {b : Nat} (x : Spec.Mat a b) (x' : Spec.Mat a' b) (v : Spec.Row b) (p : Fin a) (p' : Fin a')
    (h : ∀ q : Fin b, x (ix2 p q) = x' (ix2 p' q)) (q : Fin b) :
    Spec.addBias x v (ix2 p q) = Spec.addBias x' v (ix2 p' q) := by
  show x (ix2 p q) + v (ix1 q) = x' (ix2 p' q) + v (ix1 q)
  rw [h q]

theorem relu_row {b : Nat} (x : Spec.Mat a b) (x' : Spec.Mat a' b) (p : Fin a) (p' : Fin a')
    (h : ∀ q : Fin b, x (ix2 p q) = x' (ix2 p' q)) (q : Fin b) :
    Spec.relu x (ix2 p q) = Spec.relu x' (ix2 p' q) := by
  show max (x (ix2 p q)) Spec.zeroW = max (x' (ix2 p' q)) Spec.zeroW
  rw [h q]

theorem dense_row {k b : Nat} (x : Spec.Mat a k) (x' : Spec.Mat a' k) (w : Spec.Mat k b) (v : Spec.Row b)
    (p : Fin a) (p' : Fin a') (h : ∀ j : Fin k, x (ix2 p j) = x' (ix2 p' j)) (q : Fin b) :
    Spec.dense x w v (ix2 p q) = Spec.dense x' w v (ix2 p' q) :=
  relu_row _ _ p p' (addBias_row _ _ v p p' (mm_row x x' w p p' h)) q

/-- The side-by-side array at (p, j): the first array where j is below its width, else the second. -/
theorem cat_at {b c n : Nat} (hn : b + c = n) (x : Spec.Mat a b) (y : Spec.Mat a c) (p : Fin a) (j : Fin n) :
    Spec.cat hn x y (ix2 p j)
      = if hq : j.val < b then x (ix2 p ⟨j.val, hq⟩) else y (ix2 p ⟨j.val - b, by have := j.isLt; omega⟩) := rfl

theorem cat_row {b c n : Nat} (hn : b + c = n) (x : Spec.Mat a b) (x' : Spec.Mat a' b) (y : Spec.Mat a c)
    (y' : Spec.Mat a' c) (p : Fin a) (p' : Fin a') (hx : ∀ q : Fin b, x (ix2 p q) = x' (ix2 p' q))
    (hy : ∀ q : Fin c, y (ix2 p q) = y' (ix2 p' q)) (j : Fin n) :
    Spec.cat hn x y (ix2 p j) = Spec.cat hn x' y' (ix2 p' j) := by
  rw [cat_at, cat_at]
  by_cases hq : j.val < b
  · rw [dif_pos hq, dif_pos hq]; exact hx _
  · rw [dif_neg hq, dif_neg hq]; exact hy _

theorem l2n_row (u : Spec.Mat a 128) (u' : Spec.Mat a' 128) (p : Fin a) (p' : Fin a')
    (h : ∀ q : Fin 128, u (ix2 p q) = u' (ix2 p' q)) (q : Fin 128) :
    Spec.l2n u (ix2 p q) = Spec.l2n u' (ix2 p' q) := by
  show Ideal.div (u (ix2 p q)) (max (Ideal.sqrt (Spec.zeroW + ∑ k : Fin 128, u (ix2 p k) * u (ix2 p k))) Spec.epsNorm)
    = Ideal.div (u' (ix2 p' q)) (max (Ideal.sqrt (Spec.zeroW + ∑ k : Fin 128, u' (ix2 p' k) * u' (ix2 p' k))) Spec.epsNorm)
  simp only [h]

/-- Row p of the scoring head of (u, v) is row p' of the scoring head of (u', v') when rows p of u, v are rows p' of u', v'. -/
theorem head_row (u v : Spec.Mat a 128) (u' v' : Spec.Mat a' 128) (w0 : Spec.Mat 256 128) (b0 : Spec.Row 128)
    (w1 : Spec.Mat 128 64) (b1 : Spec.Row 64) (w2 : Spec.Mat 64 32) (b2 : Spec.Row 32) (ow : Spec.Mat 160 1)
    (ob : Spec.Row 1) (p : Fin a) (p' : Fin a')
    (hu : ∀ q : Fin 128, u (ix2 p q) = u' (ix2 p' q)) (hv : ∀ q : Fin 128, v (ix2 p q) = v' (ix2 p' q)) (z : Fin 1) :
    Spec.head u v w0 b0 w1 b1 w2 b2 ow ob (ix2 p z) = Spec.head u' v' w0 b0 w1 b1 w2 b2 ow ob (ix2 p' z) := by
  unfold Spec.head
  refine congrArg Ideal.logistic (addBias_row _ _ ob p p' (mm_row _ _ ow p p' (cat_row _ _ _ _ _ p p' ?_ ?_)) z)
  · intro q
    show Spec.l2n u (ix2 p q) * Spec.l2n v (ix2 p q) = Spec.l2n u' (ix2 p' q) * Spec.l2n v' (ix2 p' q)
    rw [l2n_row u u' p p' hu q, l2n_row v v' p p' hv q]
  · exact dense_row _ _ w2 b2 p p' (dense_row _ _ w1 b1 p p' (dense_row _ _ w0 b0 p p' (cat_row _ _ _ _ _ p p' hu hv)))

end RowLocal

/-! ## From the blocks to the array -/

section Blocks

/-- The two row-block windows and the output window move together: block t of each is rows 2048·t onwards. -/
theorem idx_rows : ∀ t : Fin cfg4.N, win4_0.index t (0 : Fin 2) = t.val ∧ win4_0.index t (1 : Fin 2) = 0
    ∧ win4_1.index t (0 : Fin 2) = t.val ∧ win4_1.index t (1 : Fin 2) = 0
    ∧ win4_10.index t (0 : Fin 2) = t.val ∧ win4_10.index t (1 : Fin 2) = 0 :=
  (by decide +kernel : ∀ t : Fin grid4.N, _)
theorem idx_whole2 : ∀ t : Fin cfg4.N, win4_2.index t (0 : Fin 2) = 0 ∧ win4_2.index t (1 : Fin 2) = 0 :=
  (by decide +kernel : ∀ t : Fin grid4.N, _)
theorem idx_whole3 : ∀ t : Fin cfg4.N, win4_3.index t (0 : Fin 2) = 0 ∧ win4_3.index t (1 : Fin 2) = 0 :=
  (by decide +kernel : ∀ t : Fin grid4.N, _)
theorem idx_whole4 : ∀ t : Fin cfg4.N, win4_4.index t (0 : Fin 2) = 0 ∧ win4_4.index t (1 : Fin 2) = 0 :=
  (by decide +kernel : ∀ t : Fin grid4.N, _)
theorem idx_whole5 : ∀ t : Fin cfg4.N, win4_5.index t (0 : Fin 2) = 0 ∧ win4_5.index t (1 : Fin 2) = 0 :=
  (by decide +kernel : ∀ t : Fin grid4.N, _)
theorem idx_whole6 : ∀ t : Fin cfg4.N, win4_6.index t (0 : Fin 2) = 0 ∧ win4_6.index t (1 : Fin 2) = 0 :=
  (by decide +kernel : ∀ t : Fin grid4.N, _)
theorem idx_whole7 : ∀ t : Fin cfg4.N, win4_7.index t (0 : Fin 2) = 0 ∧ win4_7.index t (1 : Fin 2) = 0 :=
  (by decide +kernel : ∀ t : Fin grid4.N, _)
theorem idx_whole8 : ∀ t : Fin cfg4.N, win4_8.index t (0 : Fin 2) = 0 ∧ win4_8.index t (1 : Fin 2) = 0 :=
  (by decide +kernel : ∀ t : Fin grid4.N, _)
theorem idx_whole9 : ∀ t : Fin cfg4.N, win4_9.index t (0 : Fin 2) = 0 ∧ win4_9.index t (1 : Fin 2) = 0 :=
  (by decide +kernel : ∀ t : Fin grid4.N, _)

variable (V : (c : Dev nD) → (b : Ref sig .tc) → Buf (Elt Ideal) ((c : Thread nD τ).loc b)) (c : Dev nD)

/-! The eight small operands are staged whole: their one block is the array. -/

theorem whole2 (t : Fin cfg4.N) : iblk4 (F := Ideal) V c 2 t = (V c main_arg14 : Spec.Mat 256 128) := by
  obtain ⟨e0, e1⟩ := idx_whole2 t
  funext y
  show V c main_arg14 (((cfg4.win 2).blk t).view.emb y) = V c main_arg14 y
  refine congrArg _ (funext fun ax => Fin.ext ?_)
  match ax with
  | ⟨0, _⟩ => show win4_2.index t (0 : Fin 2) * 256 + 1 * (y 0).val = (y 0).val; omega
  | ⟨1, _⟩ => show win4_2.index t (1 : Fin 2) * 128 + 1 * (y 1).val = (y 1).val; omega
theorem whole3 (t : Fin cfg4.N) : iblk4 (F := Ideal) V c 3 t = (V c main_v44 : Spec.Mat 1 128) := by
  obtain ⟨e0, e1⟩ := idx_whole3 t
  funext y
  show V c main_v44 (((cfg4.win 3).blk t).view.emb y) = V c main_v44 y
  refine congrArg _ (funext fun ax => Fin.ext ?_)
  match ax with
  | ⟨0, _⟩ => show win4_3.index t (0 : Fin 2) * 1 + 1 * (y 0).val = (y 0).val; omega
  | ⟨1, _⟩ => show win4_3.index t (1 : Fin 2) * 128 + 1 * (y 1).val = (y 1).val; omega
theorem whole4 (t : Fin cfg4.N) : iblk4 (F := Ideal) V c 4 t = (V c main_arg16 : Spec.Mat 128 64) := by
  obtain ⟨e0, e1⟩ := idx_whole4 t
  funext y
  show V c main_arg16 (((cfg4.win 4).blk t).view.emb y) = V c main_arg16 y
  refine congrArg _ (funext fun ax => Fin.ext ?_)
  match ax with
  | ⟨0, _⟩ => show win4_4.index t (0 : Fin 2) * 128 + 1 * (y 0).val = (y 0).val; omega
  | ⟨1, _⟩ => show win4_4.index t (1 : Fin 2) * 64 + 1 * (y 1).val = (y 1).val; omega
theorem whole5 (t : Fin cfg4.N) : iblk4 (F := Ideal) V c 5 t = (V c main_v45 : Spec.Mat 1 64) := by
  obtain ⟨e0, e1⟩ := idx_whole5 t
  funext y
  show V c main_v45 (((cfg4.win 5).blk t).view.emb y) = V c main_v45 y
  refine congrArg _ (funext fun ax => Fin.ext ?_)
  match ax with
  | ⟨0, _⟩ => show win4_5.index t (0 : Fin 2) * 1 + 1 * (y 0).val = (y 0).val; omega
  | ⟨1, _⟩ => show win4_5.index t (1 : Fin 2) * 64 + 1 * (y 1).val = (y 1).val; omega
theorem whole6 (t : Fin cfg4.N) : iblk4 (F := Ideal) V c 6 t = (V c main_arg18 : Spec.Mat 64 32) := by
  obtain ⟨e0, e1⟩ := idx_whole6 t
  funext y
  show V c main_arg18 (((cfg4.win 6).blk t).view.emb y) = V c main_arg18 y
  refine congrArg _ (funext fun ax => Fin.ext ?_)
  match ax with
  | ⟨0, _⟩ => show win4_6.index t (0 : Fin 2) * 64 + 1 * (y 0).val = (y 0).val; omega
  | ⟨1, _⟩ => show win4_6.index t (1 : Fin 2) * 32 + 1 * (y 1).val = (y 1).val; omega
theorem whole7 (t : Fin cfg4.N) : iblk4 (F := Ideal) V c 7 t = (V c main_v46 : Spec.Mat 1 32) := by
  obtain ⟨e0, e1⟩ := idx_whole7 t
  funext y
  show V c main_v46 (((cfg4.win 7).blk t).view.emb y) = V c main_v46 y
  refine congrArg _ (funext fun ax => Fin.ext ?_)
  match ax with
  | ⟨0, _⟩ => show win4_7.index t (0 : Fin 2) * 1 + 1 * (y 0).val = (y 0).val; omega
  | ⟨1, _⟩ => show win4_7.index t (1 : Fin 2) * 32 + 1 * (y 1).val = (y 1).val; omega
theorem whole8 (t : Fin cfg4.N) : iblk4 (F := Ideal) V c 8 t = (V c main_arg20 : Spec.Mat 160 1) := by
  obtain ⟨e0, e1⟩ := idx_whole8 t
  funext y
  show V c main_arg20 (((cfg4.win 8).blk t).view.emb y) = V c main_arg20 y
  refine congrArg _ (funext fun ax => Fin.ext ?_)
  match ax with
  | ⟨0, _⟩ => show win4_8.index t (0 : Fin 2) * 160 + 1 * (y 0).val = (y 0).val; omega
  | ⟨1, _⟩ => show win4_8.index t (1 : Fin 2) * 1 + 1 * (y 1).val = (y 1).val; omega
theorem whole9 (t : Fin cfg4.N) : iblk4 (F := Ideal) V c 9 t = (V c main_v47 : Spec.Mat 1 1) := by
  obtain ⟨e0, e1⟩ := idx_whole9 t
  funext y
  show V c main_v47 (((cfg4.win 9).blk t).view.emb y) = V c main_v47 y
  refine congrArg _ (funext fun ax => Fin.ext ?_)
  match ax with
  | ⟨0, _⟩ => show win4_9.index t (0 : Fin 2) * 1 + 1 * (y 0).val = (y 0).val; omega
  | ⟨1, _⟩ => show win4_9.index t (1 : Fin 2) * 1 + 1 * (y 1).val = (y 1).val; omega

/-- What grid point t writes back is block t of the scoring head of the arrays the region finds. -/
theorem flushed_eq (t : Fin cfg4.N) (b0 : Spec.Row 128) (b1 : Spec.Row 64) (b2 : Spec.Row 32) (ob : Spec.Row 1)
    (h0 : ∀ q : Fin 128, (V c main_v44 : Spec.Mat 1 128) (ix2 0 q) = b0 (ix1 q))
    (h1 : ∀ q : Fin 64, (V c main_v45 : Spec.Mat 1 64) (ix2 0 q) = b1 (ix1 q))
    (h2 : ∀ q : Fin 32, (V c main_v46 : Spec.Mat 1 32) (ix2 0 q) = b2 (ix1 q))
    (h3 : ∀ q : Fin 1, (V c main_v47 : Spec.Mat 1 1) (ix2 0 q) = ob (ix1 q)) :
    (dat4 (F := Ideal) V c).flushed 10 t = ((cfg4.win 10).blk t).view.read (Elt Ideal)
      (Spec.head (V c main_v42) (V c main_v43) (V c main_arg14) b0 (V c main_arg16) b1 (V c main_arg18) b2
        (V c main_arg20) ob : Spec.Mat 16384 1) := by
  show (cfg4.win 10).cut (grid4.coords t) ((dat4 (F := Ideal) V c).after 10 t) = _
  rw [after4_10]
  rw [block_head (iblk4 V c 0 t) (iblk4 V c 1 t) (iblk4 V c 2 t) (iblk4 V c 3 t) (iblk4 V c 4 t) (iblk4 V c 5 t)
    (iblk4 V c 6 t) (iblk4 V c 7 t) (iblk4 V c 8 t) (iblk4 V c 9 t) b0 b1 b2 ob
    (fun q => (congrFun (whole3 V c t) _).trans (h0 q)) (fun q => (congrFun (whole5 V c t) _).trans (h1 q))
    (fun q => (congrFun (whole7 V c t) _).trans (h2 q)) (fun q => (congrFun (whole9 V c t) _).trans (h3 q))]
  rw [whole2 V c t, whole4 V c t, whole6 V c t, whole8 V c t]
  obtain ⟨e0, e0', e1, e1', e10, e10'⟩ := idx_rows t
  have hlt : t.val < 8 := by have h := t.isLt; have hN : cfg4.N = 8 := N_4; omega
  funext j
  obtain ⟨p, z, rfl⟩ : ∃ (p : Fin 2048) (z : Fin 1), j = ix2 p z := ⟨j 0, j 1, @eq_ix2 2048 1 j⟩
  have hp : p.val < 2048 := p.isLt
  have he : ((cfg4.win 10).blk t).view.emb (ix2 p z) = ix2 (⟨t.val * 2048 + p.val, by omega⟩ : Fin 16384) z := by
    funext ax; apply Fin.ext
    match ax with
    | ⟨0, _⟩ => show win4_10.index t (0 : Fin 2) * 2048 + 1 * p.val = t.val * 2048 + p.val; omega
    | ⟨1, _⟩ => show win4_10.index t (1 : Fin 2) * 1 + 1 * z.val = z.val; omega
  show Spec.head (iblk4 V c 0 t) (iblk4 V c 1 t) _ b0 _ b1 _ b2 _ ob (ix2 p z)
    = Spec.head _ _ _ b0 _ b1 _ b2 _ ob (((cfg4.win 10).blk t).view.emb (ix2 p z))
  rw [he]
  refine head_row _ _ _ _ _ b0 _ b1 _ b2 _ ob p _ ?_ ?_ z
  · intro q
    show V c main_v42 (((cfg4.win 0).blk t).view.emb (ix2 p q)) = V c main_v42 (ix2 (⟨t.val * 2048 + p.val, by omega⟩ : Fin 16384) q)
    refine congrArg _ (funext fun ax => Fin.ext ?_)
    match ax with
    | ⟨0, _⟩ => show win4_0.index t (0 : Fin 2) * 2048 + 1 * p.val = t.val * 2048 + p.val; omega
    | ⟨1, _⟩ => show win4_0.index t (1 : Fin 2) * 128 + 1 * q.val = q.val; omega
  · intro q
    show V c main_v43 (((cfg4.win 1).blk t).view.emb (ix2 p q)) = V c main_v43 (ix2 (⟨t.val * 2048 + p.val, by omega⟩ : Fin 16384) q)
    refine congrArg _ (funext fun ax => Fin.ext ?_)
    match ax with
    | ⟨0, _⟩ => show win4_1.index t (0 : Fin 2) * 2048 + 1 * p.val = t.val * 2048 + p.val; omega
    | ⟨1, _⟩ => show win4_1.index t (1 : Fin 2) * 128 + 1 * q.val = q.val; omega

/-- An index of the output column is in point t's block iff each coordinate is in the block's range on its axis. -/
theorem mem_blk (t : Fin cfg4.N) (i : S16384x1.Idx) :
    i ∈ ((cfg4.win 10).blk t).view.set ↔ ∀ ax : Fin 2, win4_10.index t ax * S2048x1.size ax ≤ (i ax).val
      ∧ (i ax).val < win4_10.index t ax * S2048x1.size ax + S2048x1.size ax := by
  show i ∈ ((View.whole main_v48).slice (win4_10.rect t)).set ↔ _
  rw [View.set_slice_whole, Rect.mem_set_unit]
  exact Iff.rfl

/-- Row r of the output column is in the block of point r / 2048: the eight blocks fill the column. -/
theorem cover (i : S16384x1.Idx) :
    ∃ t : Fin cfg4.N, (cfg4.win 10).flush t = true ∧ i ∈ ((cfg4.win 10).blk t).view.set := by
  have hi0 : (i 0).val < 16384 := (i 0).isLt
  have hi1 : (i 1).val < 1 := (i 1).isLt
  have hN : cfg4.N = 8 := N_4
  obtain ⟨t, ht⟩ : ∃ t : Fin cfg4.N, t.val = (i 0).val / 2048 := ⟨⟨(i 0).val / 2048, by rw [hN]; omega⟩, rfl⟩
  obtain ⟨-, -, -, -, e10, e10'⟩ := idx_rows t
  refine ⟨t, flush4_10 t, ?_⟩
  rw [mem_blk]
  intro ax
  match ax with
  | ⟨0, _⟩ =>
    show win4_10.index t (0 : Fin 2) * 2048 ≤ (i 0).val ∧ (i 0).val < win4_10.index t (0 : Fin 2) * 2048 + 2048
    omega
  | ⟨1, _⟩ =>
    show win4_10.index t (1 : Fin 2) * 1 ≤ (i 1).val ∧ (i 1).val < win4_10.index t (1 : Fin 2) * 1 + 1
    omega

end Blocks

/-- The output column after region 4 is the scoring head of the arrays the region finds. -/
theorem region4_value (V : (c : Dev nD) → (b : Ref sig .tc) → Buf (Elt Ideal) ((c : Thread nD τ).loc b)) (c : Dev nD)
    (b0 : Spec.Row 128) (b1 : Spec.Row 64) (b2 : Spec.Row 32) (ob : Spec.Row 1)
    (h0 : ∀ q : Fin 128, (V c main_v44 : Spec.Mat 1 128) (ix2 0 q) = b0 (ix1 q))
    (h1 : ∀ q : Fin 64, (V c main_v45 : Spec.Mat 1 64) (ix2 0 q) = b1 (ix1 q))
    (h2 : ∀ q : Fin 32, (V c main_v46 : Spec.Mat 1 32) (ix2 0 q) = b2 (ix1 q))
    (h3 : ∀ q : Fin 1, (V c main_v47 : Spec.Mat 1 1) (ix2 0 q) = ob (ix1 q)) :
    ((Gen.dat4 (F := Ideal) V c).arrAt 10 cfg4.N : Spec.Mat 16384 1) =
      Spec.head (V c main_v42) (V c main_v43) (V c main_arg14) b0 (V c main_arg16) b1 (V c main_arg18) b2
        (V c main_arg20) ob :=
  (dat4 (F := Ideal) V c).arrAt_eq_of_cover 10 _ (fun t _ => flushed_eq V c t b0 b1 b2 ob h0 h1 h2 h3) cover

end Cert.KernelIdeal.RegionHead

end
-- ==== Proof.KFoldB.lean ====
/-
  The kernel program's result buffer as the network's stages of its arguments.

  Reading the fold of boundaries backwards: the last stretch reshapes the last region's output; that region's output
  is the scoring head of the two picked row sets (its value lemma), which the two row-pick stretches took from the
  fourth region's output; that is the second layer's sum of the aggregated messages, the root product and the bias;
  the messages are the picked, weighted rows of the stacked per-relation products of the third region, which under
  the index ranges are the message array of the specification; and the same once more for the first layer with the
  layer normalisation of the second region. Every array a region reads is traced to the arguments or to an earlier
  region's output by the boundary facts.
-/
import proofs.«408798_j72559177499383_1_alg».proof.Proof.KFoldA
import proofs.«408798_j72559177499383_1_alg».proof.Proof.KIdx
import proofs.«408798_j72559177499383_1_alg».proof.Proof.KTakeA
import proofs.«408798_j72559177499383_1_alg».proof.Proof.KTakeB
import proofs.«408798_j72559177499383_1_alg».proof.Proof.KTakeC
import proofs.«408798_j72559177499383_1_alg».proof.Proof.KTakeD
import proofs.«408798_j72559177499383_1_alg».proof.Proof.Net
import proofs.«408798_j72559177499383_1_alg».proof.Proof.KMsg
import proofs.«408798_j72559177499383_1_alg».proof.Proof.RegionNT
import proofs.«408798_j72559177499383_1_alg».proof.Proof.RegionLN
import proofs.«408798_j72559177499383_1_alg».proof.Proof.RegionAdd
import proofs.«408798_j72559177499383_1_alg».proof.Proof.RegionHead

set_option maxRecDepth 16384

noncomputable section

namespace Cert.KernelIdeal.KFoldB

open Cert.KernelIdeal Cert.KernelIdeal.Gen Idealize.ShloMosaic Idealize.ShloMosaic.TcCoe Idealize.ShloMosaic.ValueIdx Idealize.SL.Sem
open Cert.KernelIdeal.KFoldA Cert.KernelIdeal.KIdx

variable (m : (ℓ : Loc nD τ sig) → Buf (Elt Ideal) ℓ) (ρ : Dev nD → PrngReg) (c : Dev nD)

/-! ## The arguments, and the regions' outputs, as arrays of their literal extents -/

/-- Argument 0: the first index vector of the scored pairs. -/
abbrev A0 : IVec S16384 32 := m ((c : Thread nD τ).loc main_arg0)
/-- Argument 1: the second index vector of the scored pairs. -/
abbrev A1 : IVec S16384 32 := m ((c : Thread nD τ).loc main_arg1)
/-- Argument 2: the edge list. -/
abbrev A2 : IVec S2x640000 32 := m ((c : Thread nD τ).loc main_arg2)
/-- Argument 3: the edges' relations. -/
abbrev A3 : IVec S640000 32 := m ((c : Thread nD τ).loc main_arg3)
/-- Argument 4: the edges' weights. -/
abbrev A4 : Spec.Row 640000 := m ((c : Thread nD τ).loc main_arg4)
/-- Argument 5: the input features. -/
abbrev A5 : Spec.Mat 100000 128 := m ((c : Thread nD τ).loc main_arg5)
/-- Argument 6: the first layer's pair of relation matrices. -/
abbrev A6 : Spec.Cube 2 128 128 := m ((c : Thread nD τ).loc main_arg6)
/-- Argument 7: the first layer's root matrix. -/
abbrev A7 : Spec.Mat 128 128 := m ((c : Thread nD τ).loc main_arg7)
/-- Argument 8: the first layer's bias. -/
abbrev A8 : Spec.Row 128 := m ((c : Thread nD τ).loc main_arg8)
/-- Argument 9: the normalisation's gain. -/
abbrev A9 : Spec.Row 128 := m ((c : Thread nD τ).loc main_arg9)
/-- Argument 10: the normalisation's shift. -/
abbrev A10 : Spec.Row 128 := m ((c : Thread nD τ).loc main_arg10)
/-- Argument 11: the second layer's pair of relation matrices. -/
abbrev A11 : Spec.Cube 2 128 128 := m ((c : Thread nD τ).loc main_arg11)
/-- Argument 12: the second layer's root matrix. -/
abbrev A12 : Spec.Mat 128 128 := m ((c : Thread nD τ).loc main_arg12)
/-- Argument 13: the second layer's bias. -/
abbrev A13 : Spec.Row 128 := m ((c : Thread nD τ).loc main_arg13)
/-- Argument 14: the head's first dense matrix. -/
abbrev A14 : Spec.Mat 256 128 := m ((c : Thread nD τ).loc main_arg14)
/-- Argument 15: its bias. -/
abbrev A15 : Spec.Row 128 := m ((c : Thread nD τ).loc main_arg15)
/-- Argument 16: the head's second dense matrix. -/
abbrev A16 : Spec.Mat 128 64 := m ((c : Thread nD τ).loc main_arg16)
/-- Argument 17: its bias. -/
abbrev A17 : Spec.Row 64 := m ((c : Thread nD τ).loc main_arg17)
/-- Argument 18: the head's third dense matrix. -/
abbrev A18 : Spec.Mat 64 32 := m ((c : Thread nD τ).loc main_arg18)
/-- Argument 19: its bias. -/
abbrev A19 : Spec.Row 32 := m ((c : Thread nD τ).loc main_arg19)
/-- Argument 20: the head's output matrix. -/
abbrev A20 : Spec.Mat 160 1 := m ((c : Thread nD τ).loc main_arg20)
/-- Argument 21: its bias. -/
abbrev A21 : Spec.Row 1 := m ((c : Thread nD τ).loc main_arg21)
/-- The first region's stacked per-relation products. -/
abbrev Y1 : Spec.Cube 2 100000 128 := (dat0 (F := Ideal) (V1 m ρ) c).arrAt 4 cfg0.N
/-- The third region's stacked per-relation products. -/
abbrev Y2 : Spec.Cube 2 100000 128 := (dat2 (F := Ideal) (V7 m ρ) c).arrAt 4 cfg2.N

variable (s : Fin 640000 → Fin 100000) (r : Fin 640000 → Fin 2) (u v : Fin 16384 → Fin 100000)

/-- How this program adds the edges' messages into their destination nodes. -/
abbrev aggK : Spec.Mat 640000 128 → Spec.Mat 100000 128 :=
  fun μ => KHost.aggr (F := Ideal) (dstOf (A2 m c)) μ

/-- The first layer's node features. -/
abbrev X1 : Spec.Mat 100000 128 :=
  Spec.feat1 (aggK m c) s r (A4 m c) (A5 m c) (A6 m c) (A7 m c) (A8 m c) (A9 m c) (A10 m c)
/-- The second layer's node features. -/
abbrev X2 : Spec.Mat 100000 128 :=
  Spec.feat2 (aggK m c) s r (A4 m c) (X1 m c s r) (A11 m c) (A12 m c) (A13 m c)

variable (hs : ∀ e : Fin 640000, ((A2 m c) (ix2 (0 : Fin 2) e)).toInt = ((s e).val : ℤ))
  (hr : ∀ e : Fin 640000, ((A3 m c) (ix1 e)).toInt = ((r e).val : ℤ))
  (hu : ∀ b : Fin 16384, ((A0 m c) (ix1 b)).toInt = ((u b).val : ℤ))
  (hv : ∀ b : Fin 16384, ((A1 m c) (ix1 b)).toInt = ((v b).val : ℤ))

include hs in
/-- The sources as the kernel program reads them: row 0 of the edge list, entry by entry. -/
theorem src_int (e : Fin 640000) : ((srcOf (A2 m c)) (ix1 e)).toInt = ((s e).val : ℤ) := by
  rw [srcOf_apply]
  exact hs e

/-! ## What the four row-pick stretches leave -/

theorem w4_v13 : W4 m ρ c (Proc.devRef .tc main_v13)
    = KHost.take2 (F := Ideal) (W3 m ρ c (Proc.devRef .tc main_v9)) (W3 m ρ c (Proc.devRef .tc main_v12)) := KTakeA.ops1_1_v13 (W3 m ρ c)
theorem w10_v33 : W10 m ρ c (Proc.devRef .tc main_v33)
    = KHost.take2 (F := Ideal) (W9 m ρ c (Proc.devRef .tc main_v29)) (W9 m ρ c (Proc.devRef .tc main_v32)) := KTakeB.ops3_1_v33 (W9 m ρ c)
theorem w13_v42 : W13 m ρ c (Proc.devRef .tc main_v42)
    = KHost.take1 (F := Ideal) (W12 m ρ c (Proc.devRef .tc main_v41)) (W12 m ρ c (Proc.devRef .tc main_arg0)) := KTakeC.ops4_v42 (W12 m ρ c)
theorem w14_v43 : W14 m ρ c (Proc.devRef .tc main_v43)
    = KHost.take1 (F := Ideal) (W13 m ρ c (Proc.devRef .tc main_v41)) (W13 m ρ c (Proc.devRef .tc main_arg1)) := KTakeD.ops4_1_v43 (W13 m ρ c)

/-- Picking one of two matrices by the relation and reading an entry is reading the pair of matrices at that relation. -/
theorem pick_rel (t : Fin 2) (w0 w1 : Spec.Mat 128 128) (w : Spec.Cube 2 128 128) (j q : Fin 128)
    (h0 : w0 (ix2 j q) = w (ix3 (0 : Fin 2) j q)) (h1 : w1 (ix2 j q) = w (ix3 (1 : Fin 2) j q)) :
    (if t = 0 then w0 else w1) (ix2 j q) = w (ix3 t j q) := by
  match t with
  | ⟨0, _⟩ => exact (congrFun (if_pos rfl) _).trans h0
  | ⟨1, _⟩ => exact (congrFun (if_neg (fun h => absurd (show (1 : ℕ) = 0 from congrArg Fin.val h) Nat.one_ne_zero)) _).trans h1

/-! ## The first layer -/

/-- The stacked per-relation products of the first region, at an entry. -/
theorem y1_at (t : Fin 2) (n : Fin 100000) (q : Fin 128) :
    Y1 m ρ c (ix3 t n q) = ∑ j : Fin 128, (A5 m c) (ix2 n j) * (A6 m c) (ix3 t j q) := by
  have h : Y1 m ρ c (ix3 t n q) = RegionNT.ytab (V1 m ρ c main_arg5) (V1 m ρ c main_v5) (V1 m ρ c main_v7) t n q :=
    RegionNT.region0_y (V1 m ρ) c t n q
  rw [h]
  refine Finset.sum_congr rfl fun j _ => ?_
  rw [show (V1 m ρ c main_arg5 : Spec.Mat 100000 128) = (A5 m c) from w1_arg5 m ρ c]
  exact congrArg (fun z => (A5 m c) (ix2 n j) * z) (pick_rel t _ _ (A6 m c) j q
    (by rw [show (V1 m ρ c main_v5 : Spec.Mat 128 128) = rel0 (A6 m c) from w1_v5 m ρ c, rel0_apply])
    (by rw [show (V1 m ρ c main_v7 : Spec.Mat 128 128) = rel1 (A6 m c) from w1_v7 m ρ c, rel1_apply]))

include hs hr in
/-- The aggregated messages the second region reads. -/
theorem agg1 : (V5 m ρ c main_v19 : Spec.Mat 100000 128) = aggK m c (Spec.msg (A5 m c) (A6 m c) s r (A4 m c)) := by
  refine (w5_v19 m ρ c).trans ?_
  rw [w4_v13 m ρ c, w3_v9 m ρ c, w3_v12 m ρ c]
  exact congrArg (aggK m c) (KMsg.kernel_msg (Y1 m ρ c) (A5 m c) (A6 m c) (y1_at m ρ c) (A3 m c) (srcOf (A2 m c)) (A4 m c) s r (src_int m c s hs) hr)

/-- The root product the second region reads. -/
theorem root1 : (V5 m ρ c main_v8_1 : Spec.Mat 100000 128) = Spec.mm (A5 m c) (A7 m c) := by
  refine (w5_v8_1 m ρ c).trans ?_
  refine (RegionNT.region0_root (V1 m ρ) c).trans ?_
  rw [show (V1 m ρ c main_arg5 : Spec.Mat 100000 128) = (A5 m c) from w1_arg5 m ρ c,
    show (V1 m ρ c main_arg7 : Spec.Mat 128 128) = (A7 m c) from w1_arg7 m ρ c]

include hs hr in
/-- The second region's output: the first layer's features. -/
theorem x1_eq : ((dat1 (F := Ideal) (V5 m ρ) c).arrAt 5 cfg1.N : Spec.Mat 100000 128) = X1 m c s r := by
  refine (RegionLN.region1_value (V5 m ρ) c (A8 m c) (A9 m c) (A10 m c)
    (fun q => by rw [show (V5 m ρ c main_v20 : Spec.Mat 1 128) = _ from w5_v20 m ρ c]; exact row128_apply (F := Ideal) _ q)
    (fun q => by rw [show (V5 m ρ c main_v21 : Spec.Mat 1 128) = _ from w5_v21 m ρ c]; exact row128_apply (F := Ideal) _ q)
    (fun q => by rw [show (V5 m ρ c main_v22 : Spec.Mat 1 128) = _ from w5_v22 m ρ c]; exact row128_apply (F := Ideal) _ q)).trans ?_
  rw [agg1 m ρ c s r hs hr, root1 m ρ c]
  rfl

/-! ## The second layer -/

include hs hr in
/-- What the third region reads as features: the first layer's. -/
theorem v7_v23 : (V7 m ρ c main_v23 : Spec.Mat 100000 128) = X1 m c s r :=
  (w7_v23 m ρ c).trans (x1_eq m ρ c s r hs hr)

include hs hr in
/-- The stacked per-relation products of the third region, at an entry. -/
theorem y2_at (t : Fin 2) (n : Fin 100000) (q : Fin 128) :
    Y2 m ρ c (ix3 t n q) = ∑ j : Fin 128, (X1 m c s r) (ix2 n j) * (A11 m c) (ix3 t j q) := by
  have h : Y2 m ρ c (ix3 t n q) = RegionNT.ytab (V7 m ρ c main_v23) (V7 m ρ c main_v25) (V7 m ρ c main_v27) t n q :=
    RegionNT.region2_y (V7 m ρ) c t n q
  rw [h]
  refine Finset.sum_congr rfl fun j _ => ?_
  rw [v7_v23 m ρ c s r hs hr]
  exact congrArg (fun z => (X1 m c s r) (ix2 n j) * z) (pick_rel t _ _ (A11 m c) j q
    (by rw [show (V7 m ρ c main_v25 : Spec.Mat 128 128) = rel0 (A11 m c) from w7_v25 m ρ c, rel0_apply])
    (by rw [show (V7 m ρ c main_v27 : Spec.Mat 128 128) = rel1 (A11 m c) from w7_v27 m ρ c, rel1_apply]))

include hs hr in
/-- The aggregated messages the fourth region reads. -/
theorem agg2 : (V11 m ρ c main_v39 : Spec.Mat 100000 128) = aggK m c (Spec.msg (X1 m c s r) (A11 m c) s r (A4 m c)) := by
  refine (w11_v39 m ρ c).trans ?_
  rw [w10_v33 m ρ c, w9_v29 m ρ c, w9_v32 m ρ c]
  exact congrArg (aggK m c) (KMsg.kernel_msg (Y2 m ρ c) (X1 m c s r) (A11 m c) (y2_at m ρ c s r hs hr) (A3 m c) (srcOf (A2 m c)) (A4 m c) s r (src_int m c s hs) hr)

include hs hr in
/-- The root product the fourth region reads. -/
theorem root2 : (V11 m ρ c main_v28_1 : Spec.Mat 100000 128) = Spec.mm (X1 m c s r) (A12 m c) := by
  refine (w11_v28_1 m ρ c).trans ?_
  refine (RegionNT.region2_root (V7 m ρ) c).trans ?_
  rw [v7_v23 m ρ c s r hs hr, show (V7 m ρ c main_arg12 : Spec.Mat 128 128) = (A12 m c) from w7_arg12 m ρ c]

include hs hr in
/-- The fourth region's output: the second layer's features. -/
theorem x2_eq : ((dat3 (F := Ideal) (V11 m ρ) c).arrAt 3 cfg3.N : Spec.Mat 100000 128) = X2 m c s r := by
  refine (RegionAdd.region3_value (V11 m ρ) c (A13 m c)
    (fun q => by rw [show (V11 m ρ c main_v40 : Spec.Mat 1 128) = _ from w11_v40 m ρ c]; exact row128_apply (F := Ideal) _ q)).trans ?_
  rw [agg2 m ρ c s r hs hr, root2 m ρ c s r hs hr]
  rfl

/-! ## The scoring head -/

include hs hr hu in
/-- The first picked rows. -/
theorem rows_u : (V15 m ρ c main_v42 : Spec.Mat 16384 128) = Spec.rowsOf (X2 m c s r) u := by
  refine (w15_v42 m ρ c).trans ?_
  rw [w13_v42 m ρ c, W12_arr m ρ c 3, x2_eq m ρ c s r hs hr, w12_arg0 m ρ c]
  exact KMsg.kernel_rows (X2 m c s r) (A0 m c) u hu

include hs hr hv in
/-- The second picked rows. -/
theorem rows_v : (V15 m ρ c main_v43 : Spec.Mat 16384 128) = Spec.rowsOf (X2 m c s r) v := by
  refine (w15_v43 m ρ c).trans ?_
  rw [w14_v43 m ρ c, w13_v41 m ρ c, x2_eq m ρ c s r hs hr, w13_arg1 m ρ c]
  exact KMsg.kernel_rows (X2 m c s r) (A1 m c) v hv

include hs hr hu hv in
/-- THE KERNEL PROGRAM'S RESULT: the scores of the picked pairs, reshaped to a vector. -/
theorem kernel_value : W17 m ρ c (Proc.devRef .tc main_v49)
    = shapeCast S16384 (Spec.score u v (X2 m c s r) (A14 m c) (A15 m c) (A16 m c) (A17 m c) (A18 m c) (A19 m c) (A20 m c) (A21 m c))
        shapeCasts_S16384x1_S16384 := by
  refine (w17_v49 m ρ c).trans ?_
  refine congrArg (fun z => shapeCast S16384 z shapeCasts_S16384x1_S16384) ?_
  refine (RegionHead.region4_value (V15 m ρ) c (A15 m c) (A17 m c) (A19 m c) (A21 m c)
    (fun q => by rw [show (V15 m ρ c main_v44 : Spec.Mat 1 128) = _ from w15_v44 m ρ c]; exact row128_apply (F := Ideal) _ q)
    (fun q => by rw [show (V15 m ρ c main_v45 : Spec.Mat 1 64) = _ from w15_v45 m ρ c]; exact row64_apply (F := Ideal) _ q)
    (fun q => by rw [show (V15 m ρ c main_v46 : Spec.Mat 1 32) = _ from w15_v46 m ρ c]; exact row32_apply (F := Ideal) _ q)
    (fun q => by rw [show (V15 m ρ c main_v47 : Spec.Mat 1 1) = _ from w15_v47 m ρ c]; exact row1_apply (F := Ideal) _ q)).trans ?_
  rw [rows_u m ρ c s r u hs hr hu, rows_v m ρ c s r v hs hr hv,
    show (V15 m ρ c main_arg14 : Spec.Mat 256 128) = (A14 m c) from w15_arg14 m ρ c,
    show (V15 m ρ c main_arg16 : Spec.Mat 128 64) = (A16 m c) from w15_arg16 m ρ c,
    show (V15 m ρ c main_arg18 : Spec.Mat 64 32) = (A18 m c) from w15_arg18 m ρ c,
    show (V15 m ρ c main_arg20 : Spec.Mat 160 1) = (A20 m c) from w15_arg20 m ρ c]
  rfl

end Cert.KernelIdeal.KFoldB

end
-- ==== Proof.RefLayers.lean ====
/-
  The reference program's dense and normalisation stages, read entry by entry: the two root terms are matrix
  products, the first layer is the layer normalisation of the positive part of (aggregate + root + bias), the second
  layer is aggregate + root + bias.
-/
import proofs.«408798_j72559177499383_1_alg».proof.Proof.RefStagesP
import proofs.«408798_j72559177499383_1_alg».proof.Proof.Spec

noncomputable section

namespace Cert.ReferenceIdeal.RefLayers

open Idealize.ShloMosaic Idealize.ShloMosaic.ValueIdx
open Cert.ReferenceIdeal Cert.ReferenceIdeal.Gen Cert.ReferenceIdeal.Read

/-! ## The stages' composed index maps, by coordinates -/

/-- The left factor of entry (p, q) of a product runs along row p. -/
theorem lidx34_eq (i : S100000x128.Idx) (k : Fin 128) : lidx_main_v34 i k = ix2 (Spec.c0 i) k :=
  funext fun a => Fin.ext (by match a with | ⟨0, _⟩ => rfl | ⟨1, _⟩ => rfl)
/-- The right factor runs down column q. -/
theorem ridx34_eq (i : S100000x128.Idx) (k : Fin 128) : ridx_main_v34 i k = ix2 k (Spec.c1 i) :=
  funext fun a => Fin.ext (by match a with | ⟨0, _⟩ => rfl | ⟨1, _⟩ => rfl)
theorem lidx98_eq (i : S100000x128.Idx) (k : Fin 128) : lidx_main_v98 i k = ix2 (Spec.c0 i) k :=
  funext fun a => Fin.ext (by match a with | ⟨0, _⟩ => rfl | ⟨1, _⟩ => rfl)
theorem ridx98_eq (i : S100000x128.Idx) (k : Fin 128) : ridx_main_v98 i k = ix2 k (Spec.c1 i) :=
  funext fun a => Fin.ext (by match a with | ⟨0, _⟩ => rfl | ⟨1, _⟩ => rfl)

/-- A vector stretched to a row and then over all rows is read at the entry's column. -/
theorem bias1_idx (i : S100000x128.Idx) : idx_main_v36 (idx_main_v37 i) = ix1 (Spec.c1 i) :=
  funext fun a => Fin.ext (by match a with | ⟨0, _⟩ => rfl)
theorem gain_idx (i : S100000x128.Idx) : idx_main_v58 (idx_main_v59 i) = ix1 (Spec.c1 i) :=
  funext fun a => Fin.ext (by match a with | ⟨0, _⟩ => rfl)
theorem shift_idx (i : S100000x128.Idx) : idx_main_v61 (idx_main_v62 i) = ix1 (Spec.c1 i) :=
  funext fun a => Fin.ext (by match a with | ⟨0, _⟩ => rfl)
theorem bias2_idx (i : S100000x128.Idx) : idx_main_v100 (idx_main_v101 i) = ix1 (Spec.c1 i) :=
  funext fun a => Fin.ext (by match a with | ⟨0, _⟩ => rfl)

/-- The row mean stretched back over the columns sums the entry's own row (as the centring reads it). -/
theorem mean_idx_a (i : S100000x128.Idx) (k : Fin 128) :
    idx_main_v40 (idx_main_v41 (idx_main_v44 i)) k = ix2 (Spec.c0 i) k :=
  funext fun a => Fin.ext (by match a with | ⟨0, _⟩ => rfl | ⟨1, _⟩ => rfl)
/-- The same through the second stretching of the mean. -/
theorem mean_idx_b (i : S100000x128.Idx) (k : Fin 128) :
    idx_main_v40 (idx_main_v41 (idx_main_v51 i)) k = ix2 (Spec.c0 i) k :=
  funext fun a => Fin.ext (by match a with | ⟨0, _⟩ => rfl | ⟨1, _⟩ => rfl)
/-- The row variance stretched back over the columns sums the entry's own row. -/
theorem var_idx (i : S100000x128.Idx) (k : Fin 128) :
    idx_main_v47 (idx_main_v48 (idx_main_v56 i)) k = ix2 (Spec.c0 i) k :=
  funext fun a => Fin.ext (by match a with | ⟨0, _⟩ => rfl | ⟨1, _⟩ => rfl)

/-! ## The root terms -/

/-- The first layer's root term is the node features times the root matrix. -/
theorem ref_root1 (x5 : (⟨S100000x128, .f32⟩ : BufTy).Contents (Elt Ideal)) (x7 : (⟨S128x128, .f32⟩ : BufTy).Contents (Elt Ideal)) :
    val_main_v34 (F := Ideal) x5 x7 = Spec.mm x5 x7 := by
  funext i
  rw [val_main_v34_apply]
  exact Finset.sum_congr rfl fun k _ => by rw [lidx34_eq, ridx34_eq]

/-- The second layer's root term is the first layer's output times the second root matrix. -/
theorem ref_root2 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x12 : (⟨S128x128, .f32⟩ : BufTy).Contents (Elt Ideal)) :
    val_main_v98 (F := Ideal) x2 x3 x4 x5 x6 x7 x8 x9 x10 x12
      = Spec.mm (val_main_v63 (F := Ideal) x2 x3 x4 x5 x6 x7 x8 x9 x10) x12 := by
  funext i
  rw [val_main_v98_apply]
  exact Finset.sum_congr rfl fun k _ => by rw [lidx98_eq, ridx98_eq]

/-! ## The first layer -/

/-- Before the normalisation: the positive part of aggregate + root + bias. -/
theorem ref_act1 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 : (⟨S128, .f32⟩ : BufTy).Contents (Elt Ideal)) :
    val_main_v39 (F := Ideal) x2 x3 x4 x5 x6 x7 x8
      = Spec.relu (Spec.addBias (fun i => val_main_v33 (F := Ideal) x2 x3 x4 x5 x6 i + val_main_v34 (F := Ideal) x5 x7 i) x8) := by
  funext i
  rw [val_main_v39_apply, val_main_v38_apply, val_main_v35_apply, val_main_v37_apply, val_main_v36_apply,
    val_main_call2_v0_apply, val_main_call2_cst_apply, bias1_idx]
  rfl

/-- The normalisation stages are `Spec.lnorm` of the activations. -/
theorem ref_norm1 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) :
    val_main_v63 (F := Ideal) x2 x3 x4 x5 x6 x7 x8 x9 x10
      = Spec.lnorm (val_main_v39 (F := Ideal) x2 x3 x4 x5 x6 x7 x8) x9 x10 := by
  funext i
  simp only [val_main_v63_apply, val_main_v60_apply, val_main_v62_apply, val_main_v61_apply, val_main_v57_apply,
    val_main_v59_apply, val_main_v58_apply, val_main_v52_apply, val_main_v56_apply, val_main_v55_apply,
    val_main_v54_apply, val_main_v50_apply, val_main_v53_apply, val_main_cst_10_apply, val_main_v48_apply,
    val_main_v49_apply, val_main_cst_9_apply, val_main_v47_apply, val_main_cst_8_apply, val_main_v46_apply,
    val_main_v45_apply, val_main_v44_apply, val_main_v51_apply, val_main_v43_apply, val_main_v41_apply,
    val_main_v42_apply, val_main_cst_7_apply, val_main_v40_apply, val_main_cst_6_apply]
  generalize val_main_v39 (F := Ideal) x2 x3 x4 x5 x6 x7 x8 = h
  simp only [var_idx, mean_idx_a, mean_idx_b, gain_idx, shift_idx]
  rfl

/-- The first layer's output is the layer normalisation of the positive part of aggregate + root + bias. -/
theorem ref_layer1 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) :
    val_main_v63 (F := Ideal) x2 x3 x4 x5 x6 x7 x8 x9 x10
      = Spec.layer1 (val_main_v33 (F := Ideal) x2 x3 x4 x5 x6) (val_main_v34 (F := Ideal) x5 x7) x8 x9 x10 := by
  rw [ref_norm1, ref_act1]
  rfl

/-! ## The second layer -/

/-- The second layer's output is aggregate + root + bias. -/
theorem ref_layer2 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x11 : (⟨S2x128x128, .f32⟩ : BufTy).Contents (Elt Ideal)) (x12 : (⟨S128x128, .f32⟩ : BufTy).Contents (Elt Ideal)) (x13 : (⟨S128, .f32⟩ : BufTy).Contents (Elt Ideal)) :
    val_main_v102 (F := Ideal) x2 x3 x4 x5 x6 x7 x8 x9 x10 x11 x12 x13
      = Spec.layer2 (val_main_v97 (F := Ideal) x2 x3 x4 x5 x6 x7 x8 x9 x10 x11)
          (val_main_v98 (F := Ideal) x2 x3 x4 x5 x6 x7 x8 x9 x10 x12) x13 := by
  funext i
  rw [val_main_v102_apply, val_main_v99_apply, val_main_v101_apply, val_main_v100_apply, bias2_idx]
  rfl

end Cert.ReferenceIdeal.RefLayers

end
-- ==== Proof.RefMsg.lean ====
/-
  The reference's per-edge messages and its picked rows, read at an element.

  * the message of edge e in either layer: the source's row of the node table is gathered (the source is a node number,
    so counting from the end does nothing and the gather's clamp does nothing), multiplied by the matrix of relation 0
    and by the matrix of relation 1, each product kept where the edge's relation is that one and replaced by zero
    elsewhere, the two added onto zero, the sum scaled by the edge's weight. The relation is 0 or 1, so exactly one of
    the two products is kept: 0 + a + 0 = a and 0 + 0 + a = a;
  * the rows picked for the scored pairs: the same gather over the second layer's output.
-/
import proofs.«408798_j72559177499383_1_alg».proof.Proof.RefStagesP
import proofs.«408798_j72559177499383_1_alg».proof.Proof.Spec
import proofs.«408798_j72559177499383_1_alg».proof.Proof.LibRows

noncomputable section

open scoped BigOperators

namespace Cert.ReferenceIdeal.RefMsg

open Cert.ReferenceIdeal Cert.ReferenceIdeal.Gen Cert.ReferenceIdeal.Read Idealize.ShloMosaic Idealize.ShloMosaic.ValueIdx

/-! ## Words -/

/-- An index word that reads as a natural number is not below zero, so counting it from the end leaves it alone. -/
theorem wrap_id (w a : BitVec 32) (h : 0 ≤ w.toInt) : Scalar.select (IntOp.cmpi .slt w 0#32) a w = w := by
  have hf : w.slt 0#32 = false := by
    have h0 : (0#32 : BitVec 32).toInt = 0 := by decide
    simp only [BitVec.slt, h0, decide_eq_false_iff_not, not_lt]
    exact h
  have hc : IntOp.cmpi .slt w 0#32 = 0#1 := by
    show BitVec.ofBool (w.slt 0#32) = 0#1
    rw [hf]
    rfl
  rw [hc, select_zero]

/-! ## The row gather at a start index that names a row -/

/-- A row gather over the 100000-row table whose start index of row `e` reads as the node `n` reads the table's
    row `n`: the clamp into the table does nothing. -/
theorem gather_at {E : Nat} (d : GatherDims ⟨2, ![100000, 128]⟩ ⟨2, ![E, 1]⟩ ⟨2, ![E, 128]⟩)
    (hoff : d.offsetDims = [1]) (hcoll : d.collapsedSliceDims = [0]) (hob : d.operandBatchingDims = [])
    (hsim : d.startIndexMap = [0]) (hivd : d.indexVectorDim = 1)
    (x : Spec.Mat 100000 128) (idx : IVec ⟨2, ![E, 1]⟩ 32) (e : Fin E) (q : Fin 128) (n : Fin 100000)
    (h : (idx (ix2 e (0 : Fin 1))).toInt = (n.val : ℤ)) :
    Host.gather d x idx (ix2 e q) = x (ix2 n q) := by
  rw [LibRows.gather_rows_apply d hoff hcoll hob hsim hivd x idx e q (by decide)]
  congr 2
  apply Fin.ext
  show min (idx (ix2 e (0 : Fin 1))).toInt.toNat (100000 - 1) = n.val
  rw [h, Int.toNat_natCast]
  have := n.isLt
  omega

/-! ## The two masks -/

/-- The relation's word is the word of 0 or of 1 as the relation is. -/
theorem word_of_rel (w : BitVec 32) (r : Fin 2) (hw : w.toInt = (r.val : ℤ)) : w = BitVec.ofNat 32 r.val := by
  apply BitVec.eq_of_toInt_eq
  rw [hw]
  match r with
  | ⟨0, _⟩ => rfl
  | ⟨1, _⟩ => rfl

/-- Of the two masked products exactly the relation's is kept: zero plus it plus zero, or zero plus zero plus it,
    is it. -/
theorem keep_one (w : BitVec 32) (r : Fin 2) (hw : w.toInt = (r.val : ℤ)) (f : Fin 2 → EReal) :
    Ideal.ofBits .f32 0x00000000#32
        + Scalar.select (IntOp.cmpi .eq w 0#32) (f 0) (Ideal.ofBits .f32 0x00000000#32)
        + Scalar.select (IntOp.cmpi .eq w 1#32) (f 1) (Ideal.ofBits .f32 0x00000000#32) = f r := by
  rw [word_of_rel w r hw, Ideal.ofBits_zero_f32]
  match r with
  | ⟨0, _⟩ =>
    rw [show IntOp.cmpi .eq (BitVec.ofNat 32 (⟨0, by omega⟩ : Fin 2).val) 0#32 = 1#1 from rfl,
      show IntOp.cmpi .eq (BitVec.ofNat 32 (⟨0, by omega⟩ : Fin 2).val) 1#32 = 0#1 from rfl,
      select_one, select_zero, zero_add, add_zero]
    rfl
  | ⟨1, _⟩ =>
    rw [show IntOp.cmpi .eq (BitVec.ofNat 32 (⟨1, by omega⟩ : Fin 2).val) 0#32 = 0#1 from rfl,
      show IntOp.cmpi .eq (BitVec.ofNat 32 (⟨1, by omega⟩ : Fin 2).val) 1#32 = 1#1 from rfl,
      select_zero, select_one, zero_add, zero_add]
    rfl

/-! ## The first layer's messages -/

theorem ref_msg1 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal))
    (s : Fin 640000 → Fin 100000) (r : Fin 640000 → Fin 2)
    (hs : ∀ e : Fin 640000, (x2 (ix2 (0 : Fin 2) e)).toInt = ((s e).val : ℤ))
    (hr : ∀ e : Fin 640000, (x3 (ix1 e)).toInt = ((r e).val : ℤ)) :
    val_main_v30 (F := Ideal) x2 x3 x4 x5 x6 = Spec.msg x5 x6 s r x4 := by
  funext i
  obtain ⟨e, q, rfl⟩ : ∃ e q, i = ix2 e q := ⟨i 0, i 1, eq_ix2 i⟩
  -- the start index of edge e is its source, read from row 0 of the edge list
  have hsrc : (val_main_v9 (F := Ideal) x2 (ix2 e (0 : Fin 1))).toInt = ((s e).val : ℤ) := by
    have e9 : idx_main_v9 (ix2 e (0 : Fin 1)) = ix1 e := by
      funext a; match a with | ⟨0, _⟩ => rfl
    have e01 : idx_main_v0 (idx_main_v1 (ix1 e)) = ix2 (0 : Fin 2) e := by
      funext a
      apply Fin.ext
      match a with
      | ⟨0, _⟩ => rfl
      | ⟨1, _⟩ => exact Nat.mod_eq_of_lt e.isLt
    have hw : val_main_v1 (F := Ideal) x2 (ix1 e) = x2 (ix2 (0 : Fin 2) e) := by
      rw [val_main_v1_apply, val_main_v0_apply, e01]
    rw [val_main_v9_apply, e9, val_main_v8_apply, val_main_v5_apply, val_main_v4_apply, val_main_c_apply, hw,
      wrap_id _ _ (by rw [hs]; exact Int.natCast_nonneg _)]
    exact hs e
  -- so the gathered row is row s e of the node table
  have hg : ∀ k : Fin 128, val_main_v10 (F := Ideal) x2 x5 (ix2 e k) = x5 (ix2 (s e) k) := fun k => by
    unfold val_main_v10
    exact gather_at _ rfl rfl rfl rfl rfl x5 _ e k (s e) hsrc
  -- the two relation matrices, cut out of the stack
  have hw0 : ∀ k : Fin 128, val_main_v16 (F := Ideal) x6 (ix2 k q) = x6 (ix3 (0 : Fin 2) k q) := fun k => by
    rw [val_main_v16_apply, val_main_v15_apply]
    congr 1
    funext a
    apply Fin.ext
    have hk := k.isLt
    have hq := q.isLt
    match a with
    | ⟨0, _⟩ => rfl
    | ⟨1, _⟩ => show (k.val * 128 + q.val) / 128 % 128 = k.val; omega
    | ⟨2, _⟩ => show (k.val * 128 + q.val) % 128 = q.val; omega
  have hw1 : ∀ k : Fin 128, val_main_v24 (F := Ideal) x6 (ix2 k q) = x6 (ix3 (1 : Fin 2) k q) := fun k => by
    rw [val_main_v24_apply, val_main_v23_apply]
    congr 1
    funext a
    apply Fin.ext
    have hk := k.isLt
    have hq := q.isLt
    match a with
    | ⟨0, _⟩ => rfl
    | ⟨1, _⟩ => show (k.val * 128 + q.val) / 128 % 128 = k.val; omega
    | ⟨2, _⟩ => show (k.val * 128 + q.val) % 128 = q.val; omega
  -- the two products
  have hA : val_main_v17 (F := Ideal) x2 x5 x6 (ix2 e q)
      = ∑ k : Fin 128, x5 (ix2 (s e) k) * x6 (ix3 (0 : Fin 2) k q) := by
    rw [val_main_v17_apply]
    refine Finset.sum_congr rfl fun k _ => ?_
    have el : lidx_main_v17 (ix2 e q) k = ix2 e k := by
      funext a; match a with | ⟨0, _⟩ => rfl | ⟨1, _⟩ => rfl
    have er : ridx_main_v17 (ix2 e q) k = ix2 k q := by
      funext a; match a with | ⟨0, _⟩ => rfl | ⟨1, _⟩ => rfl
    rw [el, er, hg, hw0]
  have hB : val_main_v25 (F := Ideal) x2 x5 x6 (ix2 e q)
      = ∑ k : Fin 128, x5 (ix2 (s e) k) * x6 (ix3 (1 : Fin 2) k q) := by
    rw [val_main_v25_apply]
    refine Finset.sum_congr rfl fun k _ => ?_
    have el : lidx_main_v25 (ix2 e q) k = ix2 e k := by
      funext a; match a with | ⟨0, _⟩ => rfl | ⟨1, _⟩ => rfl
    have er : ridx_main_v25 (ix2 e q) k = ix2 k q := by
      funext a; match a with | ⟨0, _⟩ => rfl | ⟨1, _⟩ => rfl
    rw [el, er, hg, hw1]
  -- the two masks: the edge's relation compared with 0 and with 1
  have hm0 : val_main_call0_v1 (F := Ideal) x3 (ix2 e q) = IntOp.cmpi .eq (x3 (ix1 e)) 0#32 := by
    have e1 : idx_main_v14 (idx_main_call0_v1 (ix2 e q)) = ix1 e := by
      funext a; match a with | ⟨0, _⟩ => rfl
    rw [val_main_call0_v1_apply, val_main_v14_apply, e1, val_main_v13_apply, val_main_v12_apply, val_main_c_1_apply]
  have hm1 : val_main_call1_v1 (F := Ideal) x3 (ix2 e q) = IntOp.cmpi .eq (x3 (ix1 e)) 1#32 := by
    have e1 : idx_main_v22 (idx_main_call1_v1 (ix2 e q)) = ix1 e := by
      funext a; match a with | ⟨0, _⟩ => rfl
    rw [val_main_call1_v1_apply, val_main_v22_apply, e1, val_main_v21_apply, val_main_v20_apply, val_main_c_3_apply]
  -- the zeros
  have hz : val_main_v11 (F := Ideal) (ix2 e q) = Ideal.ofBits .f32 0x00000000#32 := by
    rw [val_main_v11_apply, val_main_cst_apply]; rfl
  have hz0 : val_main_call0_v2 (F := Ideal) (ix2 e q) = Ideal.ofBits .f32 0x00000000#32 := by
    rw [val_main_call0_v2_apply, val_main_call0_v0_apply, val_main_cst_2_apply]; rfl
  have hz1 : val_main_call1_v2 (F := Ideal) (ix2 e q) = Ideal.ofBits .f32 0x00000000#32 := by
    rw [val_main_call1_v2_apply, val_main_call1_v0_apply, val_main_cst_4_apply]; rfl
  -- the weight
  have hω : val_main_v29 (F := Ideal) x4 (ix2 e q) = x4 (ix1 e) := by
    have e1 : idx_main_v28 (idx_main_v29 (ix2 e q)) = ix1 e := by
      funext a; match a with | ⟨0, _⟩ => rfl
    rw [val_main_v29_apply, val_main_v28_apply, e1]
  rw [val_main_v30_apply, val_main_v27_apply, val_main_v19_apply, val_main_v18_apply, val_main_v26_apply,
    hz, hm0, hm1, hz0, hz1, hA, hB, hω]
  have key := keep_one (x3 (ix1 e)) (r e) (hr e) (fun ρ => ∑ k : Fin 128, x5 (ix2 (s e) k) * x6 (ix3 ρ k q))
  show _ = (∑ j : Fin 128, x5 (ix2 (s e) j) * x6 (ix3 (r e) j q)) * x4 (ix1 e)
  exact congrArg (fun t => t * x4 (ix1 e)) key

/-! ## The second layer's messages: the same stages over the first layer's output and the second stack of matrices -/

theorem ref_msg2 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x11 : (⟨S2x128x128, .f32⟩ : BufTy).Contents (Elt Ideal))
    (s : Fin 640000 → Fin 100000) (r : Fin 640000 → Fin 2)
    (hs : ∀ e : Fin 640000, (x2 (ix2 (0 : Fin 2) e)).toInt = ((s e).val : ℤ))
    (hr : ∀ e : Fin 640000, (x3 (ix1 e)).toInt = ((r e).val : ℤ)) :
    val_main_v94 (F := Ideal) x2 x3 x4 x5 x6 x7 x8 x9 x10 x11
      = Spec.msg (val_main_v63 (F := Ideal) x2 x3 x4 x5 x6 x7 x8 x9 x10) x11 s r x4 := by
  funext i
  obtain ⟨e, q, rfl⟩ : ∃ e q, i = ix2 e q := ⟨i 0, i 1, eq_ix2 i⟩
  obtain ⟨y, hy⟩ : ∃ y, val_main_v63 (F := Ideal) x2 x3 x4 x5 x6 x7 x8 x9 x10 = y := ⟨_, rfl⟩
  rw [hy]
  -- the start index of edge e is its source, read from row 0 of the edge list
  have hsrc : (val_main_v73 (F := Ideal) x2 (ix2 e (0 : Fin 1))).toInt = ((s e).val : ℤ) := by
    have e9 : idx_main_v73 (ix2 e (0 : Fin 1)) = ix1 e := by
      funext a; match a with | ⟨0, _⟩ => rfl
    have e01 : idx_main_v64 (idx_main_v65 (ix1 e)) = ix2 (0 : Fin 2) e := by
      funext a
      apply Fin.ext
      match a with
      | ⟨0, _⟩ => rfl
      | ⟨1, _⟩ => exact Nat.mod_eq_of_lt e.isLt
    have hw : val_main_v65 (F := Ideal) x2 (ix1 e) = x2 (ix2 (0 : Fin 2) e) := by
      rw [val_main_v65_apply, val_main_v64_apply, e01]
    rw [val_main_v73_apply, e9, val_main_v72_apply, val_main_v69_apply, val_main_v68_apply, val_main_c_11_apply, hw,
      wrap_id _ _ (by rw [hs]; exact Int.natCast_nonneg _)]
    exact hs e
  -- so the gathered row is row s e of the first layer's output
  have hg : ∀ k : Fin 128, val_main_v74 (F := Ideal) x2 x3 x4 x5 x6 x7 x8 x9 x10 (ix2 e k) = y (ix2 (s e) k) := fun k => by
    unfold val_main_v74
    rw [hy]
    exact gather_at _ rfl rfl rfl rfl rfl y _ e k (s e) hsrc
  -- the two relation matrices, cut out of the stack
  have hw0 : ∀ k : Fin 128, val_main_v80 (F := Ideal) x11 (ix2 k q) = x11 (ix3 (0 : Fin 2) k q) := fun k => by
    rw [val_main_v80_apply, val_main_v79_apply]
    congr 1
    funext a
    apply Fin.ext
    have hk := k.isLt
    have hq := q.isLt
    match a with
    | ⟨0, _⟩ => rfl
    | ⟨1, _⟩ => show (k.val * 128 + q.val) / 128 % 128 = k.val; omega
    | ⟨2, _⟩ => show (k.val * 128 + q.val) % 128 = q.val; omega
  have hw1 : ∀ k : Fin 128, val_main_v88 (F := Ideal) x11 (ix2 k q) = x11 (ix3 (1 : Fin 2) k q) := fun k => by
    rw [val_main_v88_apply, val_main_v87_apply]
    congr 1
    funext a
    apply Fin.ext
    have hk := k.isLt
    have hq := q.isLt
    match a with
    | ⟨0, _⟩ => rfl
    | ⟨1, _⟩ => show (k.val * 128 + q.val) / 128 % 128 = k.val; omega
    | ⟨2, _⟩ => show (k.val * 128 + q.val) % 128 = q.val; omega
  -- the two products
  have hA : val_main_v81 (F := Ideal) x2 x3 x4 x5 x6 x7 x8 x9 x10 x11 (ix2 e q)
      = ∑ k : Fin 128, y (ix2 (s e) k) * x11 (ix3 (0 : Fin 2) k q) := by
    rw [val_main_v81_apply]
    refine Finset.sum_congr rfl fun k _ => ?_
    have el : lidx_main_v81 (ix2 e q) k = ix2 e k := by
      funext a; match a with | ⟨0, _⟩ => rfl | ⟨1, _⟩ => rfl
    have er : ridx_main_v81 (ix2 e q) k = ix2 k q := by
      funext a; match a with | ⟨0, _⟩ => rfl | ⟨1, _⟩ => rfl
    rw [el, er, hg, hw0]
  have hB : val_main_v89 (F := Ideal) x2 x3 x4 x5 x6 x7 x8 x9 x10 x11 (ix2 e q)
      = ∑ k : Fin 128, y (ix2 (s e) k) * x11 (ix3 (1 : Fin 2) k q) := by
    rw [val_main_v89_apply]
    refine Finset.sum_congr rfl fun k _ => ?_
    have el : lidx_main_v89 (ix2 e q) k = ix2 e k := by
      funext a; match a with | ⟨0, _⟩ => rfl | ⟨1, _⟩ => rfl
    have er : ridx_main_v89 (ix2 e q) k = ix2 k q := by
      funext a; match a with | ⟨0, _⟩ => rfl | ⟨1, _⟩ => rfl
    rw [el, er, hg, hw1]
  -- the two masks: the edge's relation compared with 0 and with 1
  have hm0 : val_main_call3_v1 (F := Ideal) x3 (ix2 e q) = IntOp.cmpi .eq (x3 (ix1 e)) 0#32 := by
    have e1 : idx_main_v78 (idx_main_call3_v1 (ix2 e q)) = ix1 e := by
      funext a; match a with | ⟨0, _⟩ => rfl
    rw [val_main_call3_v1_apply, val_main_v78_apply, e1, val_main_v77_apply, val_main_v76_apply, val_main_c_14_apply]
  have hm1 : val_main_call4_v1 (F := Ideal) x3 (ix2 e q) = IntOp.cmpi .eq (x3 (ix1 e)) 1#32 := by
    have e1 : idx_main_v86 (idx_main_call4_v1 (ix2 e q)) = ix1 e := by
      funext a; match a with | ⟨0, _⟩ => rfl
    rw [val_main_call4_v1_apply, val_main_v86_apply, e1, val_main_v85_apply, val_main_v84_apply, val_main_c_16_apply]
  -- the zeros
  have hz : val_main_v75 (F := Ideal) (ix2 e q) = Ideal.ofBits .f32 0x00000000#32 := by
    rw [val_main_v75_apply, val_main_cst_13_apply]; rfl
  have hz0 : val_main_call3_v2 (F := Ideal) (ix2 e q) = Ideal.ofBits .f32 0x00000000#32 := by
    rw [val_main_call3_v2_apply, val_main_call3_v0_apply, val_main_cst_15_apply]; rfl
  have hz1 : val_main_call4_v2 (F := Ideal) (ix2 e q) = Ideal.ofBits .f32 0x00000000#32 := by
    rw [val_main_call4_v2_apply, val_main_call4_v0_apply, val_main_cst_17_apply]; rfl
  -- the weight
  have hω : val_main_v93 (F := Ideal) x4 (ix2 e q) = x4 (ix1 e) := by
    have e1 : idx_main_v92 (idx_main_v93 (ix2 e q)) = ix1 e := by
      funext a; match a with | ⟨0, _⟩ => rfl
    rw [val_main_v93_apply, val_main_v92_apply, e1]
  rw [val_main_v94_apply, val_main_v91_apply, val_main_v83_apply, val_main_v82_apply, val_main_v90_apply,
    hz, hm0, hm1, hz0, hz1, hA, hB, hω]
  have key := keep_one (x3 (ix1 e)) (r e) (hr e) (fun ρ => ∑ k : Fin 128, y (ix2 (s e) k) * x11 (ix3 ρ k q))
  show _ = (∑ j : Fin 128, y (ix2 (s e) j) * x11 (ix3 (r e) j q)) * x4 (ix1 e)
  exact congrArg (fun t => t * x4 (ix1 e)) key

/-! ## The rows picked for the scored pairs -/

theorem ref_rows_u (x0 : (⟨S16384, .i32⟩ : BufTy).Contents (Elt Ideal)) (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x11 : (⟨S2x128x128, .f32⟩ : BufTy).Contents (Elt Ideal)) (x12 : (⟨S128x128, .f32⟩ : BufTy).Contents (Elt Ideal)) (x13 : (⟨S128, .f32⟩ : BufTy).Contents (Elt Ideal))
    (u : Fin 16384 → Fin 100000) (hu : ∀ b : Fin 16384, (x0 (ix1 b)).toInt = ((u b).val : ℤ)) :
    val_main_v109 (F := Ideal) x0 x2 x3 x4 x5 x6 x7 x8 x9 x10 x11 x12 x13
      = Spec.rowsOf (val_main_v102 (F := Ideal) x2 x3 x4 x5 x6 x7 x8 x9 x10 x11 x12 x13) u := by
  funext i
  obtain ⟨b, q, rfl⟩ : ∃ b q, i = ix2 b q := ⟨i 0, i 1, eq_ix2 i⟩
  unfold val_main_v109
  generalize val_main_v102 (F := Ideal) x2 x3 x4 x5 x6 x7 x8 x9 x10 x11 x12 x13 = y
  have hidx : (val_main_v108 (F := Ideal) x0 (ix2 b (0 : Fin 1))).toInt = ((u b).val : ℤ) := by
    have e1 : idx_main_v108 (ix2 b (0 : Fin 1)) = ix1 b := by
      funext a; match a with | ⟨0, _⟩ => rfl
    rw [val_main_v108_apply, e1, val_main_v107_apply, val_main_v104_apply, val_main_v103_apply, val_main_c_19_apply,
      wrap_id _ _ (by rw [hu]; exact Int.natCast_nonneg _)]
    exact hu b
  exact gather_at _ rfl rfl rfl rfl rfl y _ b q (u b) hidx

theorem ref_rows_v (x1 : (⟨S16384, .i32⟩ : BufTy).Contents (Elt Ideal)) (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x11 : (⟨S2x128x128, .f32⟩ : BufTy).Contents (Elt Ideal)) (x12 : (⟨S128x128, .f32⟩ : BufTy).Contents (Elt Ideal)) (x13 : (⟨S128, .f32⟩ : BufTy).Contents (Elt Ideal))
    (v : Fin 16384 → Fin 100000) (hv : ∀ b : Fin 16384, (x1 (ix1 b)).toInt = ((v b).val : ℤ)) :
    val_main_v116 (F := Ideal) x1 x2 x3 x4 x5 x6 x7 x8 x9 x10 x11 x12 x13
      = Spec.rowsOf (val_main_v102 (F := Ideal) x2 x3 x4 x5 x6 x7 x8 x9 x10 x11 x12 x13) v := by
  funext i
  obtain ⟨b, q, rfl⟩ : ∃ b q, i = ix2 b q := ⟨i 0, i 1, eq_ix2 i⟩
  unfold val_main_v116
  generalize val_main_v102 (F := Ideal) x2 x3 x4 x5 x6 x7 x8 x9 x10 x11 x12 x13 = y
  have hidx : (val_main_v115 (F := Ideal) x1 (ix2 b (0 : Fin 1))).toInt = ((v b).val : ℤ) := by
    have e1 : idx_main_v115 (ix2 b (0 : Fin 1)) = ix1 b := by
      funext a; match a with | ⟨0, _⟩ => rfl
    rw [val_main_v115_apply, e1, val_main_v114_apply, val_main_v111_apply, val_main_v110_apply, val_main_c_21_apply,
      wrap_id _ _ (by rw [hv]; exact Int.natCast_nonneg _)]
    exact hv b
  exact gather_at _ rfl rfl rfl rfl rfl y _ b q (v b) hidx

end Cert.ReferenceIdeal.RefMsg

end
-- ==== Proof.RefTop.lean ====
/-
  The reference program's three stages as the network's terms over its own aggregation: the first layer's features,
  the second layer's, and the scores. The aggregation is the reference's scatter-add of the message rows into their
  destination nodes from the zero array; both layers apply the same one.
-/
import proofs.«408798_j72559177499383_1_alg».proof.Proof.RefStagesP
import proofs.«408798_j72559177499383_1_alg».proof.Proof.Spec
import proofs.«408798_j72559177499383_1_alg».proof.Proof.Net
import proofs.«408798_j72559177499383_1_alg».proof.Proof.RefLayers
import proofs.«408798_j72559177499383_1_alg».proof.Proof.RefMsg

noncomputable section

namespace Cert.ReferenceIdeal.RefTop

open Idealize.ShloMosaic Idealize.ShloMosaic.ValueIdx
open Cert.ReferenceIdeal Cert.ReferenceIdeal.Gen Cert.ReferenceIdeal.Read

/-- The reference's aggregation: the message rows added into their destination nodes (row 1 of the edge list, as a
    column), starting from the zero array. -/
abbrev aggR (x2 : (⟨S2x640000, .i32⟩ : BufTy).Contents (Elt Ideal)) : Spec.Mat 640000 128 → Spec.Mat 100000 128 :=
  fun μ => Host.scatterAdd scatter_S100000x128_S640000x1_S640000x128_1_0_0_1 (val_main_v31 (F := Ideal))
    (val_main_v32 (F := Ideal) x2) μ

/-- The second layer's zero array is the first layer's. -/
theorem zero2_eq : val_main_v95 (F := Ideal) = val_main_v31 (F := Ideal) := by
  unfold val_main_v95 val_main_v31 val_main_cst_18 val_main_cst_5
  rfl

/-- The second layer's destination column is the first layer's: both are row 1 of the edge list. -/
theorem dst2_eq (x2 : (⟨S2x640000, .i32⟩ : BufTy).Contents (Elt Ideal)) : val_main_v96 (F := Ideal) x2 = val_main_v32 (F := Ideal) x2 := by
  unfold val_main_v96 val_main_v32 val_main_v67 val_main_v3 val_main_v66 val_main_v2
  rfl

/-- The first layer's aggregate is the aggregation of its messages. -/
theorem agg1_eq (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) :
    val_main_v33 (F := Ideal) x2 x3 x4 x5 x6 = aggR x2 (val_main_v30 (F := Ideal) x2 x3 x4 x5 x6) := by
  unfold val_main_v33
  rfl

/-- The second layer's aggregate is the same aggregation of its messages. -/
theorem agg2_eq (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x11 : (⟨S2x128x128, .f32⟩ : BufTy).Contents (Elt Ideal)) :
    val_main_v97 (F := Ideal) x2 x3 x4 x5 x6 x7 x8 x9 x10 x11 = aggR x2 (val_main_v94 (F := Ideal) x2 x3 x4 x5 x6 x7 x8 x9 x10 x11) := by
  unfold val_main_v97
  rw [zero2_eq, dst2_eq]

/-- The first layer's features. -/
theorem ref_feat1 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal))
    (s : Fin 640000 → Fin 100000) (r : Fin 640000 → Fin 2)
    (hs : ∀ e : Fin 640000, (x2 (ix2 (0 : Fin 2) e)).toInt = ((s e).val : ℤ))
    (hr : ∀ e : Fin 640000, (x3 (ix1 e)).toInt = ((r e).val : ℤ)) :
    val_main_v63 (F := Ideal) x2 x3 x4 x5 x6 x7 x8 x9 x10 = Spec.feat1 (aggR x2) s r x4 x5 x6 x7 x8 x9 x10 := by
  unfold Spec.feat1
  rw [RefLayers.ref_layer1, RefLayers.ref_root1, agg1_eq, RefMsg.ref_msg1 x2 x3 x4 x5 x6 s r hs hr]

/-- The second layer's features, from the first layer's. -/
theorem ref_feat2 (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x11 : (⟨S2x128x128, .f32⟩ : BufTy).Contents (Elt Ideal)) (x12 : (⟨S128x128, .f32⟩ : BufTy).Contents (Elt Ideal)) (x13 : (⟨S128, .f32⟩ : BufTy).Contents (Elt Ideal))
    (s : Fin 640000 → Fin 100000) (r : Fin 640000 → Fin 2)
    (hs : ∀ e : Fin 640000, (x2 (ix2 (0 : Fin 2) e)).toInt = ((s e).val : ℤ))
    (hr : ∀ e : Fin 640000, (x3 (ix1 e)).toInt = ((r e).val : ℤ)) :
    val_main_v102 (F := Ideal) x2 x3 x4 x5 x6 x7 x8 x9 x10 x11 x12 x13
      = Spec.feat2 (aggR x2) s r x4 (val_main_v63 (F := Ideal) x2 x3 x4 x5 x6 x7 x8 x9 x10) x11 x12 x13 := by
  unfold Spec.feat2
  rw [RefLayers.ref_layer2, RefLayers.ref_root2, agg2_eq, RefMsg.ref_msg2 x2 x3 x4 x5 x6 x7 x8 x9 x10 x11 s r hs hr]

/-- The result: the scores of the picked pairs from the second layer's features, as a vector. -/
theorem ref_value
    (hhead : ∀ (x0 x1 : (⟨S16384, .i32⟩ : BufTy).Contents (Elt Ideal)) (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x11 : (⟨S2x128x128, .f32⟩ : BufTy).Contents (Elt Ideal)) (x12 : (⟨S128x128, .f32⟩ : BufTy).Contents (Elt Ideal)) (x13 : (⟨S128, .f32⟩ : BufTy).Contents (Elt Ideal)) (x14 : (⟨S256x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S160x1, .f32⟩ : BufTy).Contents (Elt Ideal)) (x21 : (⟨S1, .f32⟩ : BufTy).Contents (Elt Ideal)),
      val_main_v160 (F := Ideal) x0 x1 x2 x3 x4 x5 x6 x7 x8 x9 x10 x11 x12 x13 x14 x15 x16 x17 x18 x19 x20 x21
        = Spec.head (val_main_v109 (F := Ideal) x0 x2 x3 x4 x5 x6 x7 x8 x9 x10 x11 x12 x13) (val_main_v116 (F := Ideal) x1 x2 x3 x4 x5 x6 x7 x8 x9 x10 x11 x12 x13) x14 x15 x16 x17 x18 x19 x20 x21)
    (x0 x1 : (⟨S16384, .i32⟩ : BufTy).Contents (Elt Ideal)) (x2 : (⟨S2x640000, .i32⟩ : BufTy).Contents (Elt Ideal)) (x3 : (⟨S640000, .i32⟩ : BufTy).Contents (Elt Ideal)) (x4 : (⟨S640000, .f32⟩ : BufTy).Contents (Elt Ideal)) (x5 : (⟨S100000x128, .f32⟩ : BufTy).Contents (Elt Ideal)) (x6 : (⟨S2x128x128, .f32⟩ : BufTy).Contents (Elt Ideal)) (x7 : (⟨S128x128, .f32⟩ : BufTy).Contents (Elt Ideal)) (x8 x9 x10 : (⟨S128, .f32⟩ : BufTy).Contents (Elt Ideal)) (x11 : (⟨S2x128x128, .f32⟩ : BufTy).Contents (Elt Ideal)) (x12 : (⟨S128x128, .f32⟩ : BufTy).Contents (Elt Ideal)) (x13 : (⟨S128, .f32⟩ : BufTy).Contents (Elt Ideal)) (x14 : (⟨S256x128, .f32⟩ : BufTy).Contents (Elt Ideal)) (x15 : (⟨S128, .f32⟩ : BufTy).Contents (Elt Ideal)) (x16 : (⟨S128x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S160x1, .f32⟩ : BufTy).Contents (Elt Ideal)) (x21 : (⟨S1, .f32⟩ : BufTy).Contents (Elt Ideal))
    (u v : Fin 16384 → Fin 100000)
    (hu : ∀ b : Fin 16384, (x0 (ix1 b)).toInt = ((u b).val : ℤ))
    (hv : ∀ b : Fin 16384, (x1 (ix1 b)).toInt = ((v b).val : ℤ)) :
    val_main_v161 (F := Ideal) x0 x1 x2 x3 x4 x5 x6 x7 x8 x9 x10 x11 x12 x13 x14 x15 x16 x17 x18 x19 x20 x21
      = shapeCast _ (Spec.score u v (val_main_v102 (F := Ideal) x2 x3 x4 x5 x6 x7 x8 x9 x10 x11 x12 x13) x14 x15 x16 x17 x18 x19 x20 x21) shapeCasts_S16384x1_S16384 := by
  unfold val_main_v161 Spec.score
  rw [hhead, RefMsg.ref_rows_u x0 x2 x3 x4 x5 x6 x7 x8 x9 x10 x11 x12 x13 u hu, RefMsg.ref_rows_v x1 x2 x3 x4 x5 x6 x7 x8 x9 x10 x11 x12 x13 v hv]

end Cert.ReferenceIdeal.RefTop

end
-- ==== Proof.RefHead.lean ====
/-
  The reference's scoring head, read one whole-array operation at a time, is the scoring head of the two arrays of
  picked rows: each row divided by the larger of its Euclidean norm and the floor, the product of the two normalised
  rows beside three dense layers of the two rows side by side, one last dense layer, the logistic function.
-/
import proofs.«408798_j72559177499383_1_alg».proof.Proof.RefStagesP
import proofs.«408798_j72559177499383_1_alg».proof.Proof.Spec
import Idealize.ShloMosaic.Lib.IdealHost

noncomputable section

open scoped BigOperators

namespace Cert.ReferenceIdeal.RefHead

open Cert.ReferenceIdeal Cert.ReferenceIdeal.Gen Cert.ReferenceIdeal.Read Idealize.ShloMosaic Idealize.ShloMosaic.ValueIdx

variable (x0 x1 : (⟨S16384, .i32⟩ : BufTy).Contents (Elt Ideal))
  (x2 : (⟨S2x640000, .i32⟩ : BufTy).Contents (Elt Ideal))
  (x3 : (⟨S640000, .i32⟩ : BufTy).Contents (Elt Ideal))
  (x4 : (⟨S640000, .f32⟩ : BufTy).Contents (Elt Ideal))
  (x5 : (⟨S100000x128, .f32⟩ : BufTy).Contents (Elt Ideal))
  (x6 : (⟨S2x128x128, .f32⟩ : BufTy).Contents (Elt Ideal))
  (x7 : (⟨S128x128, .f32⟩ : BufTy).Contents (Elt Ideal))
  (x8 x9 x10 : (⟨S128, .f32⟩ : BufTy).Contents (Elt Ideal))
  (x11 : (⟨S2x128x128, .f32⟩ : BufTy).Contents (Elt Ideal))
  (x12 : (⟨S128x128, .f32⟩ : BufTy).Contents (Elt Ideal))
  (x13 : (⟨S128, .f32⟩ : BufTy).Contents (Elt Ideal))
  (x14 : (⟨S256x128, .f32⟩ : BufTy).Contents (Elt Ideal))
  (x15 : (⟨S128, .f32⟩ : BufTy).Contents (Elt Ideal))
  (x16 : (⟨S128x64, .f32⟩ : BufTy).Contents (Elt Ideal))
  (x17 : (⟨S64, .f32⟩ : BufTy).Contents (Elt Ideal))
  (x18 : (⟨S64x32, .f32⟩ : BufTy).Contents (Elt Ideal))
  (x19 : (⟨S32, .f32⟩ : BufTy).Contents (Elt Ideal))
  (x20 : (⟨S160x1, .f32⟩ : BufTy).Contents (Elt Ideal))
  (x21 : (⟨S1, .f32⟩ : BufTy).Contents (Elt Ideal))

/-! ## The constant words

Every constant array of the head holds one word at every index: zero (the start of a sum, the floor of a dense
layer), the norm's floor, or one. -/

theorem zero_23 (j : S_.Idx) : val_main_cst_23 (F := Ideal) j = Spec.zeroW := by
  rw [val_main_cst_23_apply]; exact Ideal.ofBits_def (φ := .f32) _

theorem zero_25 (j : S_.Idx) : val_main_cst_25 (F := Ideal) j = Spec.zeroW := by
  rw [val_main_cst_25_apply]; exact Ideal.ofBits_def (φ := .f32) _

theorem floor_121 (j : S16384x1.Idx) : val_main_v121 (F := Ideal) j = Spec.epsNorm := by
  rw [val_main_v121_apply, val_main_cst_24_apply]; exact Ideal.ofBits_def (φ := .f32) _

theorem floor_129 (j : S16384x1.Idx) : val_main_v129 (F := Ideal) j = Spec.epsNorm := by
  rw [val_main_v129_apply, val_main_cst_26_apply]; exact Ideal.ofBits_def (φ := .f32) _

theorem zero_call5 (j : S16384x128.Idx) : val_main_call5_v0 (F := Ideal) j = Spec.zeroW := by
  rw [val_main_call5_v0_apply, val_main_call5_cst_apply]; exact Ideal.ofBits_def (φ := .f32) _

theorem zero_call6 (j : S16384x64.Idx) : val_main_call6_v0 (F := Ideal) j = Spec.zeroW := by
  rw [val_main_call6_v0_apply, val_main_call6_cst_apply]; exact Ideal.ofBits_def (φ := .f32) _

theorem zero_call7 (j : S16384x32.Idx) : val_main_call7_v0 (F := Ideal) j = Spec.zeroW := by
  rw [val_main_call7_v0_apply, val_main_call7_cst_apply]; exact Ideal.ofBits_def (φ := .f32) _

theorem one_157 (j : S16384x1.Idx) : val_main_v157 (F := Ideal) j = (1 : Ideal .f32) := by
  rw [val_main_v157_apply, val_main_cst_27_apply]
  exact (Ideal.ofBits_def (φ := .f32) _).trans Ideal.ofBits_one_f32

theorem one_159 (j : S16384x1.Idx) : val_main_v159 (F := Ideal) j = (1 : Ideal .f32) := by
  rw [val_main_v159_apply, val_main_cst_28_apply]
  exact (Ideal.ofBits_def (φ := .f32) _).trans Ideal.ofBits_one_f32

/-! ## The normalised rows -/

/-- The element the row sum of the first array reads: row of the index, column the summation variable. -/
theorem row_idx_u (i : S16384x128.Idx) (k : Fin 128) :
    idx_main_v118 (idx_main_v119 (idx_main_v123 i)) k = ix2 (Spec.c0 i) k := by
  funext a; match a with | ⟨0, _⟩ => rfl | ⟨1, _⟩ => rfl

/-- The same for the second array. -/
theorem row_idx_v (i : S16384x128.Idx) (k : Fin 128) :
    idx_main_v126 (idx_main_v127 (idx_main_v131 i)) k = ix2 (Spec.c0 i) k := by
  funext a; match a with | ⟨0, _⟩ => rfl | ⟨1, _⟩ => rfl

/-- The sum of squares along a row of the first array. -/
theorem sumsq_u (i : S16384x128.Idx) :
    (∑ k : Fin 128, val_main_v117 (F := Ideal) x0 x2 x3 x4 x5 x6 x7 x8 x9 x10 x11 x12 x13 (idx_main_v118 (idx_main_v119 (idx_main_v123 i)) k))
      = ∑ k : Fin 128, val_main_v109 (F := Ideal) x0 x2 x3 x4 x5 x6 x7 x8 x9 x10 x11 x12 x13 (ix2 (Spec.c0 i) k) * val_main_v109 (F := Ideal) x0 x2 x3 x4 x5 x6 x7 x8 x9 x10 x11 x12 x13 (ix2 (Spec.c0 i) k) := by
  refine Finset.sum_congr rfl fun k _ => ?_
  rw [val_main_v117_apply, row_idx_u, Ideal.mulf_def]

/-- The sum of squares along a row of the second array. -/
theorem sumsq_v (i : S16384x128.Idx) :
    (∑ k : Fin 128, val_main_v125 (F := Ideal) x1 x2 x3 x4 x5 x6 x7 x8 x9 x10 x11 x12 x13 (idx_main_v126 (idx_main_v127 (idx_main_v131 i)) k))
      = ∑ k : Fin 128, val_main_v116 (F := Ideal) x1 x2 x3 x4 x5 x6 x7 x8 x9 x10 x11 x12 x13 (ix2 (Spec.c0 i) k) * val_main_v116 (F := Ideal) x1 x2 x3 x4 x5 x6 x7 x8 x9 x10 x11 x12 x13 (ix2 (Spec.c0 i) k) := by
  refine Finset.sum_congr rfl fun k _ => ?_
  rw [val_main_v125_apply, row_idx_v, Ideal.mulf_def]

/-- The first array of picked rows, every row divided by the larger of its norm and the floor. -/
theorem ref_l2n_u : val_main_v124 (F := Ideal) x0 x2 x3 x4 x5 x6 x7 x8 x9 x10 x11 x12 x13 = Spec.l2n (val_main_v109 (F := Ideal) x0 x2 x3 x4 x5 x6 x7 x8 x9 x10 x11 x12 x13) := by
  funext i
  rw [val_main_v124_apply, val_main_v123_apply, val_main_v122_apply, val_main_v120_apply, val_main_v119_apply,
    val_main_v118_apply, floor_121, zero_23,
    Ideal.hostDivf_def, Ideal.maximumf_def, Ideal.hostUnary_sqrt_def, sumsq_u]
  rfl

/-- The second array of picked rows, normalised the same way. -/
theorem ref_l2n_v : val_main_v132 (F := Ideal) x1 x2 x3 x4 x5 x6 x7 x8 x9 x10 x11 x12 x13 = Spec.l2n (val_main_v116 (F := Ideal) x1 x2 x3 x4 x5 x6 x7 x8 x9 x10 x11 x12 x13) := by
  funext i
  rw [val_main_v132_apply, val_main_v131_apply, val_main_v130_apply, val_main_v128_apply, val_main_v127_apply,
    val_main_v126_apply, floor_129, zero_25,
    Ideal.hostDivf_def, Ideal.maximumf_def, Ideal.hostUnary_sqrt_def, sumsq_v]
  rfl

/-- The product of the two normalised arrays, entry by entry. -/
theorem ref_prod : val_main_v133 (F := Ideal) x0 x1 x2 x3 x4 x5 x6 x7 x8 x9 x10 x11 x12 x13
    = fun j => Spec.l2n (val_main_v109 (F := Ideal) x0 x2 x3 x4 x5 x6 x7 x8 x9 x10 x11 x12 x13) j * Spec.l2n (val_main_v116 (F := Ideal) x1 x2 x3 x4 x5 x6 x7 x8 x9 x10 x11 x12 x13) j := by
  funext j
  rw [val_main_v133_apply, ref_l2n_u, ref_l2n_v, Ideal.mulf_def]

/-! ## Two arrays side by side -/

/-- Two arrays joined along their columns: at a column below the first array's width the first array, from there on
    the second at the column less that width. -/
theorem concat_cols {a b c n : Nat} (hn : b + c = n) (x : Spec.Mat a b) (y : Spec.Mat a c)
    (h : Shape.Concatenates [(⟨2, ![a, b]⟩ : Shape), (⟨2, ![a, c]⟩ : Shape)] (⟨2, ![a, n]⟩ : Shape) 1) :
    concatenate (⟨2, ![a, n]⟩ : Shape) 1 [⟨(⟨2, ![a, b]⟩ : Shape), x⟩, ⟨(⟨2, ![a, c]⟩ : Shape), y⟩] h
      = Spec.cat hn x y := by
  funext i
  unfold Spec.cat
  by_cases hlt : (i 1).val < b
  · rw [dif_pos hlt]
    exact concatenate_pair_apply_left 1 x y h i rfl _ (fun d => by
      match d with
      | ⟨0, _⟩ => rfl
      | ⟨1, _⟩ => rfl)
  · rw [dif_neg hlt]
    exact concatenate_pair_apply_right 1 x y h i rfl rfl _
      (fun d hd => by
        match d with
        | ⟨0, _⟩ => rfl
        | ⟨1, _⟩ => exact absurd rfl hd)
      (by show (i 1).val - b + b = (i 1).val; omega)

/-- The two arrays of picked rows side by side. -/
theorem ref_cat_uv : val_main_v134 (F := Ideal) x0 x1 x2 x3 x4 x5 x6 x7 x8 x9 x10 x11 x12 x13
    = Spec.cat (n := 256) rfl (val_main_v109 (F := Ideal) x0 x2 x3 x4 x5 x6 x7 x8 x9 x10 x11 x12 x13) (val_main_v116 (F := Ideal) x1 x2 x3 x4 x5 x6 x7 x8 x9 x10 x11 x12 x13) := by
  unfold val_main_v134
  exact concat_cols (a := 16384) (b := 128) (c := 128) (n := 256) rfl _ _ _

/-! ## The dense layers -/

/-- A dense layer at an index: the product plus the bias, or zero if that is larger. -/
theorem dense_apply {a k b : Nat} (x : Spec.Mat a k) (w : Spec.Mat k b) (v : Spec.Row b)
    (i : (⟨2, ![a, b]⟩ : Shape).Idx) :
    Spec.dense x w v i = max (Spec.mm x w i + v (ix1 (Spec.c1 i))) Spec.zeroW := rfl

/-- The left factor's element of the first layer's product: row of the index, column the summation variable. -/
theorem lidx_135 (i : S16384x128.Idx) (k : Fin 256) : lidx_main_v135 i k = ix2 (Spec.c0 i) k := by
  funext a; match a with | ⟨0, _⟩ => rfl | ⟨1, _⟩ => rfl

/-- The right factor's element: row the summation variable, column of the index. -/
theorem ridx_135 (i : S16384x128.Idx) (k : Fin 256) : ridx_main_v135 i k = ix2 k (Spec.c1 i) := by
  funext a; match a with | ⟨0, _⟩ => rfl | ⟨1, _⟩ => rfl

/-- The bias element added at an index: the index's column. -/
theorem bidx_137 (i : S16384x128.Idx) : idx_main_v136 (idx_main_v137 i) = ix1 (Spec.c1 i) := by
  funext a; match a with | ⟨0, _⟩ => rfl

/-- The first layer's product at an index. -/
theorem mm_135 (i : S16384x128.Idx) :
    (∑ k : Fin 256, val_main_v134 (F := Ideal) x0 x1 x2 x3 x4 x5 x6 x7 x8 x9 x10 x11 x12 x13 (lidx_main_v135 i k) * x14 (ridx_main_v135 i k))
      = Spec.mm (val_main_v134 (F := Ideal) x0 x1 x2 x3 x4 x5 x6 x7 x8 x9 x10 x11 x12 x13) x14 i := by
  show _ = ∑ k : Fin 256, val_main_v134 (F := Ideal) x0 x1 x2 x3 x4 x5 x6 x7 x8 x9 x10 x11 x12 x13 (ix2 (Spec.c0 i) k) * x14 (ix2 k (Spec.c1 i))
  refine Finset.sum_congr rfl fun k _ => ?_
  rw [lidx_135, ridx_135]

/-- The first dense layer. -/
theorem ref_dense0 : val_main_v139 (F := Ideal) x0 x1 x2 x3 x4 x5 x6 x7 x8 x9 x10 x11 x12 x13 x14 x15 = Spec.dense (val_main_v134 (F := Ideal) x0 x1 x2 x3 x4 x5 x6 x7 x8 x9 x10 x11 x12 x13) x14 x15 := by
  funext i
  rw [val_main_v139_apply, val_main_v138_apply, val_main_v135_apply, val_main_v137_apply, val_main_v136_apply,
    zero_call5, Ideal.maximumf_def, Ideal.addf_def, mm_135, bidx_137, dense_apply]

/-- The left factor's element of the second layer's product: row of the index, column the summation variable. -/
theorem lidx_140 (i : S16384x64.Idx) (k : Fin 128) : lidx_main_v140 i k = ix2 (Spec.c0 i) k := by
  funext a; match a with | ⟨0, _⟩ => rfl | ⟨1, _⟩ => rfl

/-- The right factor's element: row the summation variable, column of the index. -/
theorem ridx_140 (i : S16384x64.Idx) (k : Fin 128) : ridx_main_v140 i k = ix2 k (Spec.c1 i) := by
  funext a; match a with | ⟨0, _⟩ => rfl | ⟨1, _⟩ => rfl

/-- The bias element added at an index: the index's column. -/
theorem bidx_142 (i : S16384x64.Idx) : idx_main_v141 (idx_main_v142 i) = ix1 (Spec.c1 i) := by
  funext a; match a with | ⟨0, _⟩ => rfl

/-- The second layer's product at an index. -/
theorem mm_140 (i : S16384x64.Idx) :
    (∑ k : Fin 128, val_main_v139 (F := Ideal) x0 x1 x2 x3 x4 x5 x6 x7 x8 x9 x10 x11 x12 x13 x14 x15 (lidx_main_v140 i k) * x16 (ridx_main_v140 i k))
      = Spec.mm (val_main_v139 (F := Ideal) x0 x1 x2 x3 x4 x5 x6 x7 x8 x9 x10 x11 x12 x13 x14 x15) x16 i := by
  show _ = ∑ k : Fin 128, val_main_v139 (F := Ideal) x0 x1 x2 x3 x4 x5 x6 x7 x8 x9 x10 x11 x12 x13 x14 x15 (ix2 (Spec.c0 i) k) * x16 (ix2 k (Spec.c1 i))
  refine Finset.sum_congr rfl fun k _ => ?_
  rw [lidx_140, ridx_140]

/-- The second dense layer. -/
theorem ref_dense1 : val_main_v144 (F := Ideal) x0 x1 x2 x3 x4 x5 x6 x7 x8 x9 x10 x11 x12 x13 x14 x15 x16 x17 = Spec.dense (val_main_v139 (F := Ideal) x0 x1 x2 x3 x4 x5 x6 x7 x8 x9 x10 x11 x12 x13 x14 x15) x16 x17 := by
  funext i
  rw [val_main_v144_apply, val_main_v143_apply, val_main_v140_apply, val_main_v142_apply, val_main_v141_apply,
    zero_call6, Ideal.maximumf_def, Ideal.addf_def, mm_140, bidx_142, dense_apply]

/-- The left factor's element of the third layer's product: row of the index, column the summation variable. -/
theorem lidx_145 (i : S16384x32.Idx) (k : Fin 64) : lidx_main_v145 i k = ix2 (Spec.c0 i) k := by
  funext a; match a with | ⟨0, _⟩ => rfl | ⟨1, _⟩ => rfl

/-- The right factor's element: row the summation variable, column of the index. -/
theorem ridx_145 (i : S16384x32.Idx) (k : Fin 64) : ridx_main_v145 i k = ix2 k (Spec.c1 i) := by
  funext a; match a with | ⟨0, _⟩ => rfl | ⟨1, _⟩ => rfl

/-- The bias element added at an index: the index's column. -/
theorem bidx_147 (i : S16384x32.Idx) : idx_main_v146 (idx_main_v147 i) = ix1 (Spec.c1 i) := by
  funext a; match a with | ⟨0, _⟩ => rfl

/-- The third layer's product at an index. -/
theorem mm_145 (i : S16384x32.Idx) :
    (∑ k : Fin 64, val_main_v144 (F := Ideal) x0 x1 x2 x3 x4 x5 x6 x7 x8 x9 x10 x11 x12 x13 x14 x15 x16 x17 (lidx_main_v145 i k) * x18 (ridx_main_v145 i k))
      = Spec.mm (val_main_v144 (F := Ideal) x0 x1 x2 x3 x4 x5 x6 x7 x8 x9 x10 x11 x12 x13 x14 x15 x16 x17) x18 i := by
  show _ = ∑ k : Fin 64, val_main_v144 (F := Ideal) x0 x1 x2 x3 x4 x5 x6 x7 x8 x9 x10 x11 x12 x13 x14 x15 x16 x17 (ix2 (Spec.c0 i) k) * x18 (ix2 k (Spec.c1 i))
  refine Finset.sum_congr rfl fun k _ => ?_
  rw [lidx_145, ridx_145]

/-- The third dense layer. -/
theorem ref_dense2 : val_main_v149 (F := Ideal) x0 x1 x2 x3 x4 x5 x6 x7 x8 x9 x10 x11 x12 x13 x14 x15 x16 x17 x18 x19 = Spec.dense (val_main_v144 (F := Ideal) x0 x1 x2 x3 x4 x5 x6 x7 x8 x9 x10 x11 x12 x13 x14 x15 x16 x17) x18 x19 := by
  funext i
  rw [val_main_v149_apply, val_main_v148_apply, val_main_v145_apply, val_main_v147_apply, val_main_v146_apply,
    zero_call7, Ideal.maximumf_def, Ideal.addf_def, mm_145, bidx_147, dense_apply]

/-! ## The last layer and the logistic function -/

/-- The product of the normalised rows beside the third dense layer's output. -/
theorem ref_cat_feat : val_main_v150 (F := Ideal) x0 x1 x2 x3 x4 x5 x6 x7 x8 x9 x10 x11 x12 x13 x14 x15 x16 x17 x18 x19
    = Spec.cat (n := 160) rfl (val_main_v133 (F := Ideal) x0 x1 x2 x3 x4 x5 x6 x7 x8 x9 x10 x11 x12 x13) (val_main_v149 (F := Ideal) x0 x1 x2 x3 x4 x5 x6 x7 x8 x9 x10 x11 x12 x13 x14 x15 x16 x17 x18 x19) := by
  unfold val_main_v150
  exact concat_cols (a := 16384) (b := 128) (c := 32) (n := 160) rfl _ _ _

/-- The left factor's element of the last product: row of the index, column the summation variable. -/
theorem lidx_151 (i : S16384x1.Idx) (k : Fin 160) : lidx_main_v151 i k = ix2 (Spec.c0 i) k := by
  funext a; match a with | ⟨0, _⟩ => rfl | ⟨1, _⟩ => rfl

/-- The right factor's element: row the summation variable, column of the index. -/
theorem ridx_151 (i : S16384x1.Idx) (k : Fin 160) : ridx_main_v151 i k = ix2 k (Spec.c1 i) := by
  funext a; match a with | ⟨0, _⟩ => rfl | ⟨1, _⟩ => rfl

/-- The last bias has one element, and the index's column is zero. -/
theorem bidx_153 (i : S16384x1.Idx) : idx_main_v152 (idx_main_v153 i) = ix1 (Spec.c1 i) := by
  funext a
  match a with
  | ⟨0, _⟩ =>
    have h : (i 1).val < 1 := (i 1).isLt
    exact Fin.ext (by show 0 = (i 1).val; omega)

/-- The last product at an index. -/
theorem mm_151 (i : S16384x1.Idx) :
    (∑ k : Fin 160, val_main_v150 (F := Ideal) x0 x1 x2 x3 x4 x5 x6 x7 x8 x9 x10 x11 x12 x13 x14 x15 x16 x17 x18 x19 (lidx_main_v151 i k) * x20 (ridx_main_v151 i k))
      = Spec.mm (val_main_v150 (F := Ideal) x0 x1 x2 x3 x4 x5 x6 x7 x8 x9 x10 x11 x12 x13 x14 x15 x16 x17 x18 x19) x20 i := by
  show _ = ∑ k : Fin 160, val_main_v150 (F := Ideal) x0 x1 x2 x3 x4 x5 x6 x7 x8 x9 x10 x11 x12 x13 x14 x15 x16 x17 x18 x19 (ix2 (Spec.c0 i) k) * x20 (ix2 k (Spec.c1 i))
  refine Finset.sum_congr rfl fun k _ => ?_
  rw [lidx_151, ridx_151]

/-- A row vector added to every row, at an index. -/
theorem addBias_apply {a b : Nat} (x : Spec.Mat a b) (v : Spec.Row b) (i : (⟨2, ![a, b]⟩ : Shape).Idx) :
    Spec.addBias x v i = x i + v (ix1 (Spec.c1 i)) := rfl

/-- The last dense layer, before the logistic function. -/
theorem ref_out : val_main_v154 (F := Ideal) x0 x1 x2 x3 x4 x5 x6 x7 x8 x9 x10 x11 x12 x13 x14 x15 x16 x17 x18 x19 x20 x21
    = Spec.addBias (Spec.mm (val_main_v150 (F := Ideal) x0 x1 x2 x3 x4 x5 x6 x7 x8 x9 x10 x11 x12 x13 x14 x15 x16 x17 x18 x19) x20) x21 := by
  funext i
  rw [val_main_v154_apply, val_main_v151_apply, val_main_v153_apply, val_main_v152_apply,
    Ideal.addf_def, mm_151, bidx_153, addBias_apply]

/-- The scoring head at an index: the logistic function, one over one plus the exponential of the negated score. -/
theorem head_apply {a : Nat} (u v : Spec.Mat a 128) (w0 : Spec.Mat 256 128) (b0 : Spec.Row 128)
    (w1 : Spec.Mat 128 64) (b1 : Spec.Row 64) (w2 : Spec.Mat 64 32) (b2 : Spec.Row 32) (ow : Spec.Mat 160 1)
    (ob : Spec.Row 1) (i : (⟨2, ![a, 1]⟩ : Shape).Idx) :
    Spec.head u v w0 b0 w1 b1 w2 b2 ow ob i
      = Ideal.div (1 : Ideal .f32) ((1 : Ideal .f32) + Ideal.exp (-(Spec.addBias (Spec.mm
          (Spec.cat (n := 160) rfl (fun j => Spec.l2n u j * Spec.l2n v j)
            (Spec.dense (Spec.dense (Spec.dense (Spec.cat (n := 256) rfl u v) w0 b0) w1 b1) w2 b2)) ow) ob i))) := rfl

/-- The reference's scoring head is the scoring head of the two arrays of picked rows. -/
theorem ref_head :
    val_main_v160 (F := Ideal) x0 x1 x2 x3 x4 x5 x6 x7 x8 x9 x10 x11 x12 x13 x14 x15 x16 x17 x18 x19 x20 x21
      = Spec.head (val_main_v109 (F := Ideal) x0 x2 x3 x4 x5 x6 x7 x8 x9 x10 x11 x12 x13)
          (val_main_v116 (F := Ideal) x1 x2 x3 x4 x5 x6 x7 x8 x9 x10 x11 x12 x13)
          x14 x15 x16 x17 x18 x19 x20 x21 := by
  funext i
  rw [val_main_v160_apply, val_main_v158_apply, val_main_v156_apply, val_main_v155_apply, one_159, one_157,
    Ideal.hostDivf_def, Ideal.addf_def, Ideal.hostUnary_exp_def, Ideal.hostNegf_def, Ideal.negf_def,
    ref_out, ref_cat_feat, ref_prod, ref_dense2, ref_dense1, ref_dense0, ref_cat_uv, head_apply]

end Cert.ReferenceIdeal.RefHead

end
-- ==== Proof.PreIdx.lean ====
/-
  The index ranges the precondition states, read out of its printed form.

  The printed precondition is a conjunction, nested to the left, of twenty-two scalar bits; it is stated to be 1.
  The last four bits are, each, "every entry of an index vector lies in a range": an `and`-reduction, from 1, over
  the entrywise conjunction of a signed "at least 0" and a signed "below n" comparison. A conjunction that is 1 has
  both sides 1, so the four bits are peeled off from the outside and the eighteen bits before them are never read;
  an `and`-reduction that is 1 met 1 at every entry; and a signed comparison that is 1 is the inequality of the
  words read as integers.

  * `src_range`   row 0 of the edge index (the sources): 0 ≤ · < 100000;
  * `et_range`    the edge types: 0 ≤ · < 2;
  * `u_range`, `v_range`   the two vectors of scored nodes: 0 ≤ · < 100000.
-/
import proofs.«408798_j72559177499383_1_alg».proof.Pre_finite_inputs
import proofs.«408798_j72559177499383_1_alg».proof.Proof.Gen.Pre_finite_inputs
import Idealize.ShloMosaic.Lib.StableHlo.Predicate
import Idealize.ShloMosaic.Lib.ReduceAll
import Idealize.ShloMosaic.Lib.ValueIdx
import Idealize.ShloMosaic.PureOps.Ideal

noncomputable section

namespace Cert.PreIdx

open Idealize.ShloMosaic Idealize.ShloMosaic.ValueIdx Cert.Pre_finite_inputs

/-- The scalar shape has one index. -/
instance : Subsingleton S_.Idx := ⟨fun _ _ => funext fun d => d.elim0⟩

/-- A conjunction of two scalar bits that is 1 has both bits 1. -/
theorem andi_split {a b : IVec S_ 1} (h : andi a b = fun _ => 1#1) :
    a = (fun _ => 1#1) ∧ b = (fun _ => 1#1) :=
  ⟨funext fun i => (IntOp.andi_eq_one.1 (congrFun h i)).1, funext fun i => (IntOp.andi_eq_one.1 (congrFun h i)).2⟩

/-- "Every entry of `x` is at least `lo` and below `hi`", as it is printed: the `and`-reduction, from 1, over all axes, of
    the entrywise conjunction of the two signed comparisons against the broadcast bounds. If it is 1, every entry of `x`,
    read as an integer, lies between the bounds. -/
theorem range_of_all {t : Shape} (x : IVec t 32) (lo hi : BitVec 32)
    (hb : S_.BroadcastsInDim t (![] : Fin 0 → Fin t.rank)) {axes : List (Fin t.rank)} (hr : t.ReducesTo axes S_)
    (hu : 0 < S_.numel)
    (h : Host.reduce IntOp.andi
          (andi (cmpi .sge x (broadcastInDim t ![] hb (constantI S_ 32 lo)))
            (cmpi .slt x (broadcastInDim t ![] hb (constantI S_ 32 hi))))
          (constantI S_ 1 1#1) hr hu = fun _ => 1#1) (i : t.Idx) :
    lo.toInt ≤ (x i).toInt ∧ (x i).toInt < hi.toInt := by
  have e := Host.reduce_andi_all _ _ hr hu ix0 (congrFun h ix0) i
  obtain ⟨h1, h2⟩ := IntOp.andi_eq_one.1 e
  exact ⟨IntOp.cmpi_sge.1 h1, IntOp.cmpi_slt.1 h2⟩

/-- Row 0 of the 2 × 640000 edge index, sliced out and reshaped to a vector, read at `e`, is the entry (0, e): position `e`
    of the vector and position (0, e) of the 1 × 640000 slice are the same row-major position, 0 · 640000 + e. -/
theorem src_read (a : IVec S2x640000 32) (hs : S2x640000.Slices ![0, 0] S1x640000) (hc : S1x640000.ShapeCasts S640000)
    (e : Fin 640000) :
    shapeCast S640000 (extractStridedSlice S1x640000 ![0, 0] a hs) hc (ix1 e) = a (ix2 (0 : Fin 2) e) := by
  have hk : Shape.reshapeEquiv hc (ix1 e) = ix2 (0 : Fin 1) e :=
    Shape.reshapeEquiv_eq_of_rowMajor hc (by
      rw [Shape.rowMajor_val_two, Shape.rowMajor_val_one]
      show 0 * 640000 + e.val = e.val
      omega)
  unfold shapeCast extractStridedSlice
  rw [hk]
  refine congrArg a (funext fun d => Fin.ext ?_)
  match d with
  | ⟨0, _⟩ => rfl
  | ⟨1, _⟩ => show 0 + e.val = e.val; omega

theorem toInt_zero32 : (0#32 : BitVec 32).toInt = 0 := by decide
theorem toInt_two32 : (2#32 : BitVec 32).toInt = 2 := by decide
theorem toInt_n32 : (100000#32 : BitVec 32).toInt = 100000 := by decide

variable (a0 : IVec S16384 32) (a1 : IVec S16384 32) (a2 : IVec S2x640000 32) (a3 : IVec S640000 32)
  (a4 : FVec Ideal S640000 .f32) (a5 : FVec Ideal S100000x128 .f32) (a6 : FVec Ideal S2x128x128 .f32)
  (a7 : FVec Ideal S128x128 .f32) (a8 : FVec Ideal S128 .f32) (a9 : FVec Ideal S128 .f32) (a10 : FVec Ideal S128 .f32)
  (a11 : FVec Ideal S2x128x128 .f32) (a12 : FVec Ideal S128x128 .f32) (a13 : FVec Ideal S128 .f32)
  (a14 : FVec Ideal S256x128 .f32) (a15 : FVec Ideal S128 .f32) (a16 : FVec Ideal S128x64 .f32) (a17 : FVec Ideal S64 .f32)
  (a18 : FVec Ideal S64x32 .f32) (a19 : FVec Ideal S32 .f32) (a20 : FVec Ideal S160x1 .f32) (a21 : FVec Ideal S1 .f32)

/-- The sources of the edges lie in [0, 100000): the fourth bit from the outside. -/
theorem src_range
    (h : Cert.Pre_finite_inputs.fn (F := Ideal) a0 a1 a2 a3 a4 a5 a6 a7 a8 a9 a10 a11 a12 a13 a14 a15 a16 a17 a18 a19 a20 a21
      = (fun _ => 1#1)) :
    ∀ e : Fin 640000, 0 ≤ (a2 (ix2 (0 : Fin 2) e)).toInt ∧ (a2 (ix2 (0 : Fin 2) e)).toInt < 100000 := by
  intro e
  obtain ⟨h3, -⟩ := andi_split h
  obtain ⟨h2, -⟩ := andi_split h3
  obtain ⟨h1, -⟩ := andi_split h2
  obtain ⟨-, hs⟩ := andi_split h1
  have r := range_of_all _ _ _ _ _ _ hs (ix1 e)
  rw [src_read, toInt_zero32, toInt_n32] at r
  exact r

/-- The edge types lie in [0, 2): the third bit from the outside. -/
theorem et_range
    (h : Cert.Pre_finite_inputs.fn (F := Ideal) a0 a1 a2 a3 a4 a5 a6 a7 a8 a9 a10 a11 a12 a13 a14 a15 a16 a17 a18 a19 a20 a21
      = (fun _ => 1#1)) :
    ∀ e : Fin 640000, 0 ≤ (a3 (ix1 e)).toInt ∧ (a3 (ix1 e)).toInt < 2 := by
  intro e
  obtain ⟨h3, -⟩ := andi_split h
  obtain ⟨h2, -⟩ := andi_split h3
  obtain ⟨-, hs⟩ := andi_split h2
  have r := range_of_all _ _ _ _ _ _ hs (ix1 e)
  rw [toInt_zero32, toInt_two32] at r
  exact r

/-- The first vector of scored nodes lies in [0, 100000): the second bit from the outside. -/
theorem u_range
    (h : Cert.Pre_finite_inputs.fn (F := Ideal) a0 a1 a2 a3 a4 a5 a6 a7 a8 a9 a10 a11 a12 a13 a14 a15 a16 a17 a18 a19 a20 a21
      = (fun _ => 1#1)) :
    ∀ b : Fin 16384, 0 ≤ (a0 (ix1 b)).toInt ∧ (a0 (ix1 b)).toInt < 100000 := by
  intro b
  obtain ⟨h3, -⟩ := andi_split h
  obtain ⟨-, hs⟩ := andi_split h3
  have r := range_of_all _ _ _ _ _ _ hs (ix1 b)
  rw [toInt_zero32, toInt_n32] at r
  exact r

/-- The second vector of scored nodes lies in [0, 100000): the outermost bit. -/
theorem v_range
    (h : Cert.Pre_finite_inputs.fn (F := Ideal) a0 a1 a2 a3 a4 a5 a6 a7 a8 a9 a10 a11 a12 a13 a14 a15 a16 a17 a18 a19 a20 a21
      = (fun _ => 1#1)) :
    ∀ b : Fin 16384, 0 ≤ (a1 (ix1 b)).toInt ∧ (a1 (ix1 b)).toInt < 100000 := by
  intro b
  obtain ⟨-, hs⟩ := andi_split h
  have r := range_of_all _ _ _ _ _ _ hs (ix1 b)
  rw [toInt_zero32, toInt_n32] at r
  exact r

end Cert.PreIdx

end
-- ==== Proof.Final.lean ====
/-
  The two idealized programs end with equal results.

  Under the precondition the four index vectors are in range, so each entry read signed is a node (or a relation)
  number: the decoded vectors below. With those, the kernel program's result buffer is the scores of the network's
  stages over its own aggregation, the reference's is the same stages over the reference's aggregation, the two
  aggregations are one host operation on one destination vector, and the programs' arguments agree by hypothesis:
  so the two results are the same array. The reference's run enters as a parameter: every execution ends with the
  result buffer at the last stage of the stage-by-stage reading, the arguments unchanged.
-/
import proofs.«408798_j72559177499383_1_alg».proof.Defs
import proofs.«408798_j72559177499383_1_alg».proof.Proof.KRun
import proofs.«408798_j72559177499383_1_alg».proof.Proof.KFoldB
import proofs.«408798_j72559177499383_1_alg».proof.Proof.RefTop
import proofs.«408798_j72559177499383_1_alg».proof.Proof.RefHead
import proofs.«408798_j72559177499383_1_alg».proof.Proof.PreIdx
import proofs.«408798_j72559177499383_1_alg».proof.Proof.Gen.Pre_finite_inputs

set_option maxRecDepth 16384

noncomputable section

namespace Cert.Proof.Final

open Idealize.ShloMosaic Idealize.ShloMosaic.TcCoe Idealize.ShloMosaic.ValueIdx Idealize.SL.Sem

/-- A word whose signed reading is a node number. -/
def decN (w : BitVec 32) (h : 0 ≤ w.toInt ∧ w.toInt < 100000) : Fin 100000 :=
  ⟨w.toInt.toNat, by have := h.1; have := h.2; omega⟩
theorem decN_val (w : BitVec 32) (h : 0 ≤ w.toInt ∧ w.toInt < 100000) : w.toInt = ((decN w h).val : ℤ) := by
  show w.toInt = ((w.toInt.toNat : ℕ) : ℤ)
  rw [Int.toNat_of_nonneg h.1]
/-- A word whose signed reading is a relation number. -/
def dec2 (w : BitVec 32) (h : 0 ≤ w.toInt ∧ w.toInt < 2) : Fin 2 :=
  ⟨w.toInt.toNat, by have := h.1; have := h.2; omega⟩
theorem dec2_val (w : BitVec 32) (h : 0 ≤ w.toInt ∧ w.toInt < 2) : w.toInt = ((dec2 w h).val : ℤ) := by
  show w.toInt = ((w.toInt.toNat : ℕ) : ℤ)
  rw [Int.toNat_of_nonneg h.1]

/-- The reference's aggregation and the kernel program's are the same host operation on the same destinations. -/
theorem agg_eq (e : IVec Cert.KernelIdeal.S2x640000 32) :
    Cert.ReferenceIdeal.RefTop.aggR e
      = fun μ : Spec.Mat 640000 128 => Cert.KernelIdeal.KHost.aggr (F := Ideal) (Cert.KernelIdeal.KIdx.dstOf e) μ := by
  funext μ
  rfl

/-- THE VALUE CLAIM, from a run of the reference that ends with its result at the last stage. -/
theorem algebraic
    (href : ∀ (m' : (ℓ : Loc Cert.ReferenceIdeal.nD Cert.ReferenceIdeal.τ Cert.ReferenceIdeal.sig) → Buf (Elt Ideal) ℓ)
        (ρ' : Dev Cert.ReferenceIdeal.nD → PrngReg),
      θ_run (Cert.ReferenceIdeal.defs (F := Ideal)) (onTc (τ := Cert.ReferenceIdeal.τ) (Cert.ReferenceIdeal.main (F := Ideal)))
        ⟨m', fun _ => 0, ρ'⟩ (fun r => ∀ c : Dev Cert.ReferenceIdeal.nD,
        r.2.mem ((c.tc : Thread Cert.ReferenceIdeal.nD Cert.ReferenceIdeal.τ).loc Cert.ReferenceIdeal.main_v161)
          = Cert.ReferenceIdeal.Read.val_main_v161 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))) :
    Cert.algebraic_KernelIdeal_ReferenceIdeal := by
  intro m ρ m' ρ' hpre hagree
  have hsr := fun c => Cert.PreIdx.src_range _ _ _ _ _ _ _ _ _ _ _ _ _ _ _ _ _ _ _ _ _ _ (hpre c)
  have her := fun c => Cert.PreIdx.et_range _ _ _ _ _ _ _ _ _ _ _ _ _ _ _ _ _ _ _ _ _ _ (hpre c)
  have hur := fun c => Cert.PreIdx.u_range _ _ _ _ _ _ _ _ _ _ _ _ _ _ _ _ _ _ _ _ _ _ (hpre c)
  have hvr := fun c => Cert.PreIdx.v_range _ _ _ _ _ _ _ _ _ _ _ _ _ _ _ _ _ _ _ _ _ _ (hpre c)
  refine ⟨fun c => shapeCast Cert.KernelIdeal.S16384
      (Spec.score (fun b => decN _ (hur c b)) (fun b => decN _ (hvr c b))
        (Cert.KernelIdeal.KFoldB.X2 m c (fun e => decN _ (hsr c e)) (fun e => dec2 _ (her c e)))
        (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))
      Cert.KernelIdeal.Gen.shapeCasts_S16384x1_S16384, ?_, ?_⟩
  · exact (θ_run Cert.KernelIdeal.defs _ _).mono
      (fun rr h c => ⟨(h c).1.trans (Cert.KernelIdeal.KFoldB.kernel_value m ρ c
          (fun e => decN _ (hsr c e)) (fun e => dec2 _ (her c e)) (fun b => decN _ (hur c b)) (fun b => decN _ (hvr c b))
          (fun e => decN_val _ _) (fun e => dec2_val _ _) (fun b => decN_val _ _) (fun b => decN_val _ _)), (h c).2⟩)
      (Cert.KernelIdeal.KRun.run_named m ρ)
  · refine (θ_run Cert.ReferenceIdeal.defs _ _).mono (fun rr h c => ⟨(h c).1.trans ?_, (h c).2⟩) (href m' ρ')
    obtain ⟨e0, e1, e2, e3, e4, e5, e6, e7, e8, e9, e10, e11, e12, e13, e14, e15, e16, e17, e18, e19, e20, e21⟩ := hagree c
    rw [e0, e1, e2, e3, e4, e5, e6, e7, e8, e9, e10, e11, e12, e13, e14, e15, e16, e17, e18, e19, e20, e21]
    rw [Cert.ReferenceIdeal.RefTop.ref_value Cert.ReferenceIdeal.RefHead.ref_head (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))
        (fun b => decN _ (hur c b)) (fun b => decN _ (hvr c b)) (fun b => decN_val _ _) (fun b => decN_val _ _),
      Cert.ReferenceIdeal.RefTop.ref_feat2 (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
        (fun e => decN _ (hsr c e)) (fun e => dec2 _ (her c e)) (fun e => decN_val _ _) (fun e => dec2_val _ _),
      Cert.ReferenceIdeal.RefTop.ref_feat1 (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        (fun e => decN _ (hsr c e)) (fun e => dec2 _ (her c e)) (fun e => decN_val _ _) (fun e => dec2_val _ _),
      agg_eq]

end Cert.Proof.Final

end
-- ==== Proof.lean ====
/-
  The certificate's five claims.

  The three frames: the two kernel programs' are the generated launch of their five regions; the reference's is its
  run with the result dropped. The idealization rewrote nothing, so there is nothing to preserve. The value claim:
  under the index ranges both idealized programs compute the scores of one two-layer network — the kernel program
  tile by tile with the per-relation products taken once per node and picked per edge, the reference edge by edge
  with the products masked by the relation — and the two agree array by array (Final.lean).
-/
import proofs.«408798_j72559177499383_1_alg».proof.Defs
import proofs.«408798_j72559177499383_1_alg».proof.Proof.Gen.Kernel
import proofs.«408798_j72559177499383_1_alg».proof.Proof.Gen.Kernel.Frame
import proofs.«408798_j72559177499383_1_alg».proof.Proof.Gen.KernelIdeal
import proofs.«408798_j72559177499383_1_alg».proof.Proof.Gen.KernelIdeal.Frame
import proofs.«408798_j72559177499383_1_alg».proof.Proof.Gen.ReferenceIdeal
import proofs.«408798_j72559177499383_1_alg».proof.Proof.Gen.Pre_finite_inputs
import proofs.«408798_j72559177499383_1_alg».proof.Proof.RefRunH
import proofs.«408798_j72559177499383_1_alg».proof.Proof.Final
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RunH.run_val (F := Ideal) m ρ),
  trivial,
  Final.algebraic (fun m' ρ' => Cert.ReferenceIdeal.RunH.run_val (F := Ideal) m' ρ')⟩

end Cert.Proof

end
